-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x1600000 : Shape := ⟨2, ![2, 1600000]⟩
abbrev S1600000x1 : Shape := ⟨2, ![1600000, 1]⟩
abbrev S5x1x32 : Shape := ⟨3, ![5, 1, 32]⟩
abbrev S1x32 : Shape := ⟨2, ![1, 32]⟩
abbrev S32 : Shape := ⟨1, ![32]⟩
abbrev S5x32x64 : Shape := ⟨3, ![5, 32, 64]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S_ : Shape := ⟨0, ![]⟩
abbrev S1x1600000 : Shape := ⟨2, ![1, 1600000]⟩
abbrev S1600000 : Shape := ⟨1, ![1600000]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S5x1x32 : S_.BroadcastsInDim S5x1x32 (![] : Fin 0 → Fin S5x1x32.rank)
  reducesTo_S5x1x32_S_d0_1_2 : S5x1x32.ReducesTo [0, 1, 2] S_
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S5x32x64 : S_.BroadcastsInDim S5x32x64 (![] : Fin 0 → Fin S5x32x64.rank)
  reducesTo_S5x32x64_S_d0_1_2 : S5x32x64.ReducesTo [0, 1, 2] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x1600000 32) (main_arg12 : FVec F S10 .f32) (main_v48 : IVec S_ 1) (main_v49 : FVec F S128x10 .f32) (main_v50 : FVec F S128x10 .f32) : IVec S_ 1 :=
  let main_v51 : IVec S128x10 1 := cmpf .olt main_v49 main_v50
  let main_c_19 : IVec S_ 1 := constantI S_ 1 1#1
  let main_v52 : IVec S_ 1 := (fun x v => Host.reduce IntOp.andi x v reducesTo_S128x10_S_d0_1 h_S_) main_v51 main_c_19
  let main_v53 : IVec S_ 1 := andi main_v48 main_v52
  let main_v54 : FVec F S10 .f32 := Host.absf main_arg12
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : IVec S1x1600000 32 := (extractStridedSlice S1x1600000 ![0, 0] · slices_S2x1600000_S1x1600000_0_0) main_arg1
  let main_v60 : IVec S1600000 32 := shapeCast S1600000 main_v59 shapeCasts_S1x1600000_S1600000
  let main_c_22 : IVec S_ 32 := constantI S_ 32 0#32
  let main_v61 : IVec S1600000 32 := broadcastInDim S1600000 ![] bcast_S_S1600000 main_c_22
  let main_v62 : IVec S1600000 1 := cmpi .sge main_v60 main_v61
  let main_v63 : IVec S1x1600000 32 := (extractStridedSlice S1x1600000 ![0, 0] · slices_S2x1600000_S1x1600000_0_0) main_arg1
  let main_v64 : IVec S1600000 32 := shapeCast S1600000 main_v63 shapeCasts_S1x1600000_S1600000
  let main_c_23 : IVec S_ 32 := constantI S_ 32 50000#32
  let main_v65 : IVec S1600000 32 := broadcastInDim S1600000 ![] bcast_S_S1600000 main_c_23
  let main_v66 : IVec S1600000 1 := cmpi .slt main_v64 main_v65
  let main_v67 : IVec S1600000 1 := andi main_v62 main_v66
  let main_c_24 : IVec S_ 1 := constantI S_ 1 1#1
  let main_v68 : IVec S_ 1 := (fun x v => Host.reduce IntOp.andi x v reducesTo_S1600000_S_d0 h_S_) main_v67 main_c_24
  fn_part4 (F := F) main_v58 main_v68

def fn_part2 {F : FTy → Type} [FloatOps F] (main_arg1 : IVec S2x1600000 32) (main_arg8 : FVec F S64 .f32) (main_arg9 : FVec F S64x128 .f32) (main_arg10 : FVec F S128 .f32) (main_arg11 : FVec F S128x10 .f32) (main_arg12 : FVec F S10 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x10 .f32 := Host.absf main_arg11
  let main_cst_18 : FVec F S_ .f32 := constant S_ .f32 0x7F800000#32
  let main_v50 : FVec F S128x10 .f32 := broadcastInDim S128x10 ![] bcast_S_S128x10 main_cst_18
  fn_part3 (F := F) main_arg1 main_arg12 main_v48 main_v49 main_v50

def fn_part1 {F : FTy → Type} [FloatOps F] (main_arg1 : IVec S2x1600000 32) (main_arg5 : FVec F S32 .f32) (main_arg6 : FVec F S5x32x64 .f32) (main_arg7 : FVec F S32x64 .f32) (main_arg8 : FVec F S64 .f32) (main_arg9 : FVec F S64x128 .f32) (main_arg10 : FVec F S128 .f32) (main_arg11 : FVec F S128x10 .f32) (main_arg12 : FVec F S10 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S5x32x64 .f32 := Host.absf main_arg6
  let main_cst_8 : FVec F S_ .f32 := constant S_ .f32 0x7F800000#32
  let main_v25 : FVec F S5x32x64 .f32 := broadcastInDim S5x32x64 ![] bcast_S_S5x32x64 main_cst_8
  let main_v26 : IVec S5x32x64 1 := cmpf .olt main_v24 main_v25
  let main_c_9 : IVec S_ 1 := constantI S_ 1 1#1
  let main_v27 : IVec S_ 1 := (fun x v => Host.reduce IntOp.andi x v reducesTo_S5x32x64_S_d0_1_2 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x1 .f32) (main_arg1 : IVec S2x1600000 32) (main_arg2 : FVec F S1600000x1 .f32) (main_arg3 : FVec F S5x1x32 .f32) (main_arg4 : FVec F S1x32 .f32) (main_arg5 : FVec F S32 .f32) (main_arg6 : FVec F S5x32x64 .f32) (main_arg7 : FVec F S32x64 .f32) (main_arg8 : FVec F S64 .f32) (main_arg9 : FVec F S64x128 .f32) (main_arg10 : FVec F S128 .f32) (main_arg11 : FVec F S128x10 .f32) (main_arg12 : FVec F S10 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S5x1x32 .f32 := Host.absf main_arg3
  let main_cst_2 : FVec F S_ .f32 := constant S_ .f32 0x7F800000#32
  let main_v10 : FVec F S5x1x32 .f32 := broadcastInDim S5x1x32 ![] bcast_S_S5x1x32 main_cst_2
  let main_v11 : IVec S5x1x32 1 := cmpf .olt main_v9 main_v10
  let main_c_3 : IVec S_ 1 := constantI S_ 1 1#1
  let main_v12 : IVec S_ 1 := (fun x v => Host.reduce IntOp.andi x v reducesTo_S5x1x32_S_d0_1_2 h_S_) main_v11 main_c_3
  let main_v13 : IVec S_ 1 := andi main_v8 main_v12
  let main_v14 : FVec F S1x32 .f32 := Host.absf main_arg4
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg1 main_arg5 main_arg6 main_arg7 main_arg8 main_arg9 main_arg10 main_arg11 main_arg12 main_v13 main_v16
-- ==== Kernel.lean ====
abbrev S50000x1 : Shape := ⟨2, ![50000, 1]⟩
abbrev S2x1600000 : Shape := ⟨2, ![2, 1600000]⟩
abbrev S1600000x1 : Shape := ⟨2, ![1600000, 1]⟩
abbrev S5x1x32 : Shape := ⟨3, ![5, 1, 32]⟩
abbrev S1x32 : Shape := ⟨2, ![1, 32]⟩
abbrev S32 : Shape := ⟨1, ![32]⟩
abbrev S5x32x64 : Shape := ⟨3, ![5, 32, 64]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1 : Shape := ⟨1, ![1]⟩
abbrev S1x1 : Shape := ⟨2, ![1, 1]⟩
abbrev S5x32 : Shape := ⟨2, ![5, 32]⟩
abbrev S1600000x32 : Shape := ⟨2, ![1600000, 32]⟩
abbrev S4000x1 : Shape := ⟨2, ![4000, 1]⟩
abbrev S4000x32 : Shape := ⟨2, ![4000, 32]⟩
abbrev S50000x32 : Shape := ⟨2, ![50000, 32]⟩
abbrev S2000x1 : Shape := ⟨2, ![2000, 1]⟩
abbrev S2000x32 : Shape := ⟨2, ![2000, 32]⟩
abbrev S1600000x64 : Shape := ⟨2, ![1600000, 64]⟩
abbrev S4000x64 : Shape := ⟨2, ![4000, 64]⟩
abbrev S1x32x64 : Shape := ⟨3, ![1, 32, 64]⟩
abbrev S50000x64 : Shape := ⟨2, ![50000, 64]⟩
abbrev S1x64 : Shape := ⟨2, ![1, 64]⟩
abbrev S1x128 : Shape := ⟨2, ![1, 128]⟩
abbrev S1x10 : Shape := ⟨2, ![1, 10]⟩
abbrev S50000x10 : Shape := ⟨2, ![50000, 10]⟩
abbrev S2000x64 : Shape := ⟨2, ![2000, 64]⟩
abbrev S2000x10 : Shape := ⟨2, ![2000, 10]⟩
abbrev S2000x128 : Shape := ⟨2, ![2000, 128]⟩
abbrev S2000 : Shape := ⟨1, ![2000]⟩

abbrev nBuf : Space → Nat
  | .hbm => 92
  | .vmem => 38
  | .smem => 0
  | _ => 0

abbrev bufTy : (tb : Table) → Fin (tcTables nBuf tb) → BufTy
  | .hbm, ⟨0, _⟩ => ⟨S50000x1, .f32⟩
  | .hbm, ⟨1, _⟩ => ⟨S2x1600000, .i32⟩
  | .hbm, ⟨2, _⟩ => ⟨S1600000x1, .f32⟩
  | .hbm, ⟨3, _⟩ => ⟨S5x1x32, .f32⟩
  | .hbm, ⟨4, _⟩ => ⟨S1x32, .f32⟩
  | .hbm, ⟨5, _⟩ => ⟨S32, .f32⟩
  | .hbm, ⟨6, _⟩ => ⟨S5x32x64, .f32⟩
  | .hbm, ⟨7, _⟩ => ⟨S32x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x10, .f32⟩
  | .hbm, ⟨12, _⟩ => ⟨S10, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1, .i32⟩
  | .hbm, ⟨36, _⟩ => ⟨S_, .i32⟩
  | .hbm, ⟨37, _⟩ => ⟨S1600000x1, .i32⟩
  | .hbm, ⟨38, _⟩ => ⟨S1600000x1, .i1⟩
  | .hbm, ⟨39, _⟩ => ⟨S1x1, .i32⟩
  | .hbm, ⟨40, _⟩ => ⟨S1600000x1, .i32⟩
  | .hbm, ⟨41, _⟩ => ⟨S1600000x1, .i1⟩
  | .hbm, ⟨42, _⟩ => ⟨S1600000x1, .i1⟩
  | .hbm, ⟨43, _⟩ => ⟨S_, .i1⟩
  | .hbm, ⟨44, _⟩ => ⟨S1600000, .i1⟩
  | .hbm, ⟨45, _⟩ => ⟨S1600000x1, .f32⟩
  | .hbm, ⟨46, _⟩ => ⟨S1600000x1, .i1⟩
  | .hbm, ⟨47, _⟩ => ⟨S_, .f32⟩
  | .hbm, ⟨48, _⟩ => ⟨S1600000x1, .f32⟩
  | .hbm, ⟨49, _⟩ => ⟨S1600000x1, .f32⟩
  | .hbm, ⟨50, _⟩ => ⟨S5x32, .f32⟩
  | .hbm, ⟨51, _⟩ => ⟨S1600000x32, .f32⟩
  | .hbm, ⟨52, _⟩ => ⟨S_, .f32⟩
  | .hbm, ⟨53, _⟩ => ⟨S50000x32, .f32⟩
  | .hbm, ⟨54, _⟩ => ⟨S1600000x1, .i32⟩
  | .hbm, ⟨55, _⟩ => ⟨S50000x32, .f32⟩
  | .hbm, ⟨56, _⟩ => ⟨S1x32, .f32⟩
  | .hbm, ⟨57, _⟩ => ⟨S50000x32, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1, .i32⟩
  | .hbm, ⟨67, _⟩ => ⟨S_, .i32⟩
  | .hbm, ⟨68, _⟩ => ⟨S1600000x1, .i32⟩
  | .hbm, ⟨69, _⟩ => ⟨S1600000x1, .i1⟩
  | .hbm, ⟨70, _⟩ => ⟨S1x1, .i32⟩
  | .hbm, ⟨71, _⟩ => ⟨S1600000x1, .i32⟩
  | .hbm, ⟨72, _⟩ => ⟨S1600000x1, .i1⟩
  | .hbm, ⟨73, _⟩ => ⟨S1600000x1, .i1⟩
  | .hbm, ⟨74, _⟩ => ⟨S_, .i1⟩
  | .hbm, ⟨75, _⟩ => ⟨S1600000, .i1⟩
  | .hbm, ⟨76, _⟩ => ⟨S1600000x32, .f32⟩
  | .hbm, ⟨77, _⟩ => ⟨S1600000x32, .i1⟩
  | .hbm, ⟨78, _⟩ => ⟨S_, .f32⟩
  | .hbm, ⟨79, _⟩ => ⟨S1600000x32, .f32⟩
  | .hbm, ⟨80, _⟩ => ⟨S1600000x32, .f32⟩
  | .hbm, ⟨81, _⟩ => ⟨S5x32x64, .bf16⟩
  | .hbm, ⟨82, _⟩ => ⟨S1600000x64, .bf16⟩
  | .hbm, ⟨83, _⟩ => ⟨S1600000x64, .f32⟩
  | .hbm, ⟨84, _⟩ => ⟨S_, .f32⟩
  | .hbm, ⟨85, _⟩ => ⟨S50000x64, .f32⟩
  | .hbm, ⟨86, _⟩ => ⟨S1600000x1, .i32⟩
  | .hbm, ⟨87, _⟩ => ⟨S50000x64, .f32⟩
  | .hbm, ⟨88, _⟩ => ⟨S1x64, .f32⟩
  | .hbm, ⟨89, _⟩ => ⟨S1x128, .f32⟩
  | .hbm, ⟨90, _⟩ => ⟨S1x10, .f32⟩
  | .hbm, ⟨91, _⟩ => ⟨S50000x10, .f32⟩
  | .local _ .vmem, ⟨0, _⟩ => ⟨S4000x1, .f32⟩
  | .local _ .vmem, ⟨1, _⟩ => ⟨S4000x1, .f32⟩
  | .local _ .vmem, ⟨2, _⟩ => ⟨S4000x1, .f32⟩
  | .local _ .vmem, ⟨3, _⟩ => ⟨S4000x1, .f32⟩
  | .local _ .vmem, ⟨4, _⟩ => ⟨S5x32, .f32⟩
  | .local _ .vmem, ⟨5, _⟩ => ⟨S4000x32, .f32⟩
  | .local _ .vmem, ⟨6, _⟩ => ⟨S4000x32, .f32⟩
  | .local _ .vmem, ⟨7, _⟩ => ⟨S2000x1, .f32⟩
  | .local _ .vmem, ⟨8, _⟩ => ⟨S2000x1, .f32⟩
  | .local _ .vmem, ⟨9, _⟩ => ⟨S1x32, .f32⟩
  | .local _ .vmem, ⟨10, _⟩ => ⟨S1x32, .f32⟩
  | .local _ .vmem, ⟨11, _⟩ => ⟨S2000x32, .f32⟩
  | .local _ .vmem, ⟨12, _⟩ => ⟨S2000x32, .f32⟩
  | .local _ .vmem, ⟨13, _⟩ => ⟨S2000x1, .f32⟩
  | .local _ .vmem, ⟨14, _⟩ => ⟨S2000x1, .f32⟩
  | .local _ .vmem, ⟨15, _⟩ => ⟨S2000x32, .f32⟩
  | .local _ .vmem, ⟨16, _⟩ => ⟨S2000x32, .f32⟩
  | .local _ .vmem, ⟨17, _⟩ => ⟨S4000x32, .f32⟩
  | .local _ .vmem, ⟨18, _⟩ => ⟨S4000x32, .f32⟩
  | .local _ .vmem, ⟨19, _⟩ => ⟨S4000x1, .f32⟩
  | .local _ .vmem, ⟨20, _⟩ => ⟨S4000x1, .f32⟩
  | .local _ .vmem, ⟨21, _⟩ => ⟨S5x32x64, .bf16⟩
  | .local _ .vmem, ⟨22, _⟩ => ⟨S4000x64, .bf16⟩
  | .local _ .vmem, ⟨23, _⟩ => ⟨S4000x64, .bf16⟩
  | .local _ .vmem, ⟨24, _⟩ => ⟨S2000x32, .f32⟩
  | .local _ .vmem, ⟨25, _⟩ => ⟨S2000x32, .f32⟩
  | .local _ .vmem, ⟨26, _⟩ => ⟨S32x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S2000x1, .f32⟩
  | .local _ .vmem, ⟨31, _⟩ => ⟨S2000x1, .f32⟩
  | .local _ .vmem, ⟨32, _⟩ => ⟨S64x128, .f32⟩
  | .local _ .vmem, ⟨33, _⟩ => ⟨S1x128, .f32⟩
  | .local _ .vmem, ⟨34, _⟩ => ⟨S128x10, .f32⟩
  | .local _ .vmem, ⟨35, _⟩ => ⟨S1x10, .f32⟩
  | .local _ .vmem, ⟨36, _⟩ => ⟨S2000x10, .f32⟩
  | .local _ .vmem, ⟨37, _⟩ => ⟨S2000x10, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst_2 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_cst_3 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg8_0 : Ref sig .tc := ⟨.vmem, 35, rfl⟩
abbrev cc3_stg9_0 : Ref sig .tc := ⟨.vmem, 36, rfl⟩
abbrev cc3_stg9_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem4_1 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem9_1 : DmaSem sig := 37

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S5x32x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S64x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x10 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x10 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  shapeCasts_S5x1x32_S5x32 : S5x1x32.ShapeCasts S5x32
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S5x32_S1x32_0_0 : ∀ a, (![0, 0] : Fin 2 → Nat) a + S1x32.size a ≤ S5x32.size a
  h_S1x32 : 0 < S1x32.numel
  shapeCasts_S1x32_S32 : S1x32.ShapeCasts S32
  shapeCasts_S32_S1x32 : S32.ShapeCasts S1x32
  broadcasts_S4000x1_S4000x32 : S4000x1.Broadcasts S4000x32
  broadcasts_S1x32_S4000x32 : S1x32.Broadcasts S4000x32
  inb_S5x32_S1x32_1_0 : ∀ a, (![1, 0] : Fin 2 → Nat) a + S1x32.size a ≤ S5x32.size a
  inb_S5x32_S1x32_2_0 : ∀ a, (![2, 0] : Fin 2 → Nat) a + S1x32.size a ≤ S5x32.size a
  inb_S5x32_S1x32_3_0 : ∀ a, (![3, 0] : Fin 2 → Nat) a + S1x32.size a ≤ S5x32.size a
  inb_S5x32_S1x32_4_0 : ∀ a, (![4, 0] : Fin 2 → Nat) a + S1x32.size a ≤ S5x32.size a
  inb_S4000x32_S4000x32_0_0 : ∀ a, (![0, 0] : Fin 2 → Nat) a + S4000x32.size a ≤ S4000x32.size a
  h_S4000x32 : 0 < S4000x32.numel
  bcast_S_S50000x32 : S_.BroadcastsInDim S50000x32 (![] : Fin 0 → Fin S50000x32.rank)
  inb_S2000x1_S2000x1_0_0 : ∀ a, (![0, 0] : Fin 2 → Nat) a + S2000x1.size a ≤ S2000x1.size a
  h_S2000x1 : 0 < S2000x1.numel
  inb_S1x32_S1x32_0_0 : ∀ a, (![0, 0] : Fin 2 → Nat) a + S1x32.size a ≤ S1x32.size a
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  shapeCasts_S2000x1_S2000x1 : S2000x1.ShapeCasts S2000x1
  broadcasts_S2000x1_S2000x32 : S2000x1.Broadcasts S2000x32
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  bitsLt_bf16_f32 : FTy.bits .bf16 < FTy.bits .f32
  shapeCasts_S4000x32_S4000x32 : S4000x32.ShapeCasts S4000x32
  inb_S5x32x64_S1x32x64_0_0_0 : ∀ a, (![0, 0, 0] : Fin 3 → Nat) a + S1x32x64.size a ≤ S5x32x64.size a
  h_S1x32x64 : 0 < S1x32x64.numel
  shapeCasts_S1x32x64_S32x64 : S1x32x64.ShapeCasts S32x64
  inb_S5x32x64_S1x32x64_1_0_0 : ∀ a, (![1, 0, 0] : Fin 3 → Nat) a + S1x32x64.size a ≤ S5x32x64.size a
  inb_S5x32x64_S1x32x64_2_0_0 : ∀ a, (![2, 0, 0] : Fin 3 → Nat) a + S1x32x64.size a ≤ S5x32x64.size a
  inb_S5x32x64_S1x32x64_3_0_0 : ∀ a, (![3, 0, 0] : Fin 3 → Nat) a + S1x32x64.size a ≤ S5x32x64.size a
  inb_S5x32x64_S1x32x64_4_0_0 : ∀ a, (![4, 0, 0] : Fin 3 → Nat) a + S1x32x64.size a ≤ S5x32x64.size a
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S50000x64 : S_.BroadcastsInDim S50000x64 (![] : Fin 0 → Fin S50000x64.rank)
  shapeCasts_S64_S1x64 : S64.ShapeCasts S1x64
  shapeCasts_S128_S1x128 : S128.ShapeCasts S1x128
  shapeCasts_S10_S1x10 : S10.ShapeCasts S1x10
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  reduces_S2000x10_S2000 : S2000x10.Reduces [1] S2000
  shapeCasts_S2000_S2000x1 : S2000.ShapeCasts S2000x1
  broadcasts_S2000x1_S2000x10 : S2000x1.Broadcasts S2000x10
  inb_S2000x10_S2000x10_0_0 : ∀ a, (![0, 0] : Fin 2 → Nat) a + S2000x10.size a ≤ S2000x10.size a
  h_S2000x10 : 0 < S2000x10.numel
  scatter_S50000_S1600000x1_S1600000_n_0_0_1_wf : ScatterDims.WF S50000 S1600000x1 S1600000 [] [0] [0] 1
  gather_S50000x1_S1600000x1_S1600000x1_1_0_n_n_0_1_11_wf : GatherDims.WF S50000x1 S1600000x1 S1600000x1 [1] [0] [] [0] [] 1 ![1, 1]
  scatter_S50000x32_S1600000x1_S1600000x32_1_0_0_1_wf : ScatterDims.WF S50000x32 S1600000x1 S1600000x32 [1] [0] [0] 1
  dot_S2000x1_S1x32_S2000x32_1_0_0_1_n_n_wf : DotDims.WF S2000x1 S1x32 S2000x32 [1] [0] [0] [1] [] []
  gather_S50000x32_S1600000x1_S1600000x32_1_0_n_n_0_1_132_wf : GatherDims.WF S50000x32 S1600000x1 S1600000x32 [1] [0] [] [0] [] 1 ![1, 32]
  dot_S4000x32_S32x64_S4000x64_1_0_0_1_n_n_wf : DotDims.WF S4000x32 S32x64 S4000x64 [1] [0] [0] [1] [] []
  scatter_S50000x64_S1600000x1_S1600000x64_1_0_0_1_wf : ScatterDims.WF S50000x64 S1600000x1 S1600000x64 [1] [0] [0] 1
  dot_S2000x32_S32x64_S2000x64_1_0_0_1_n_n_wf : DotDims.WF S2000x32 S32x64 S2000x64 [1] [0] [0] [1] [] []
  dot_S2000x64_S64x128_S2000x128_1_0_0_1_n_n_wf : DotDims.WF S2000x64 S64x128 S2000x128 [1] [0] [0] [1] [] []
  dot_S2000x128_S128x10_S2000x10_1_0_0_1_n_n_wf : DotDims.WF S2000x128 S128x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S1600000x1.size a
  hwx0_0 : ∀ i : grid0.Coords, EltTy.bits .f32 = 32 ∨ (Rect.block (s := S1600000x1) S4000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1600000x1.size a
  hwx0_1 : ∀ i : grid0.Coords, EltTy.bits .f32 = 32 ∨ (Rect.block (s := S1600000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x32.size a ≤ S5x32.size a
  hwx0_2 : ∀ i : grid0.Coords, EltTy.bits .f32 = 32 ∨ (Rect.block (s := S5x32) S5x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x32.size a ≤ S1600000x32.size a
  hwx0_3 : ∀ i : grid0.Coords, EltTy.bits .f32 = 32 ∨ (Rect.block (s := S1600000x32) S4000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S50000x1.size a
  hwx1_0 : ∀ i : grid1.Coords, EltTy.bits .f32 = 32 ∨ (Rect.block (s := S50000x1) S2000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S50000x32.size a
  hwx1_3 : ∀ i : grid1.Coords, EltTy.bits .f32 = 32 ∨ (Rect.block (s := S50000x32) S2000x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S50000x32.size a
  hwx1_5 : ∀ i : grid1.Coords, EltTy.bits .f32 = 32 ∨ (Rect.block (s := S50000x32) S2000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S1600000x32.size a
  hwx2_0 : ∀ i : grid2.Coords, EltTy.bits .f32 = 32 ∨ (Rect.block (s := S1600000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S1600000x1.size a
  hwx2_1 : ∀ i : grid2.Coords, EltTy.bits .f32 = 32 ∨ (Rect.block (s := S1600000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S5x32x64.size a ≤ S5x32x64.size a
  hwx2_2 : ∀ i : grid2.Coords, EltTy.bits .bf16 = 32 ∨ (Rect.block (s := S5x32x64) S5x32x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S1600000x64.size a
  hwx2_3 : ∀ i : grid2.Coords, EltTy.bits .bf16 = 32 ∨ (Rect.block (s := S1600000x64) S4000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S50000x32.size a
  hwx3_0 : ∀ i : grid3.Coords, EltTy.bits .f32 = 32 ∨ (Rect.block (s := S50000x32) S2000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x64.size a ≤ S32x64.size a
  hwx3_1 : ∀ i : grid3.Coords, EltTy.bits .f32 = 32 ∨ (Rect.block (s := S32x64) S32x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x1.size a ≤ S50000x1.size a
  hwx3_4 : ∀ i : grid3.Coords, EltTy.bits .f32 = 32 ∨ (Rect.block (s := S50000x1) S2000x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x128.size a ≤ S64x128.size a
  hwx3_5 : ∀ i : grid3.Coords, EltTy.bits .f32 = 32 ∨ (Rect.block (s := S64x128) S64x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x10.size a ≤ S128x10.size a
  hwx3_7 : ∀ i : grid3.Coords, EltTy.bits .f32 = 32 ∨ (Rect.block (s := S128x10) S128x10.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x10.size a ≤ S1x10.size a
  hwx3_8 : ∀ i : grid3.Coords, EltTy.bits .f32 = 32 ∨ (Rect.block (s := S1x10) S1x10.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x10.size a ≤ S50000x10.size a
  hwx3_9 : ∀ i : grid3.Coords, EltTy.bits .f32 = 32 ∨ (Rect.block (s := S50000x10) S2000x10.size (cc3_transform_9 i) (hinb3_9 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S2000x1_S1x32_S2000x32_1_0_0_1_n_n : DotDims S2000x1 S1x32 S2000x32 where
  lhsContracting := [1]
  rhsContracting := [0]
  lhsNonContracting := [0]
  rhsNonContracting := [1]
  lhsBatch := []
  rhsBatch := []
  wf := dot_S2000x1_S1x32_S2000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x10_S2000x10_1_0_0_1_n_n : DotDims S2000x128 S128x10 S2000x10 where
  lhsContracting := [1]
  rhsContracting := [0]
  lhsNonContracting := [0]
  rhsNonContracting := [1]
  lhsBatch := []
  rhsBatch := []
  wf := dot_S2000x128_S128x10_S2000x10_1_0_0_1_n_n_wf

abbrev win0_0 : Pipeline.Window sig grid0 :=
  Pipeline.Window.ofSpec (Memref.whole main_v11) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S2000x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v18) S2000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v19) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S5x32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v18) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S32x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S2000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v10) S2000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg9) S64x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v27) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg11) S128x10.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v28) S1x10.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v29) S2000x10.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000x1 : Shape := ⟨2, ![50000, 1]⟩
abbrev S2x1600000 : Shape := ⟨2, ![2, 1600000]⟩
abbrev S1600000x1 : Shape := ⟨2, ![1600000, 1]⟩
abbrev S5x1x32 : Shape := ⟨3, ![5, 1, 32]⟩
abbrev S1x32 : Shape := ⟨2, ![1, 32]⟩
abbrev S32 : Shape := ⟨1, ![32]⟩
abbrev S5x32x64 : Shape := ⟨3, ![5, 32, 64]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x32 : Shape := ⟨2, ![1600000, 32]⟩
abbrev S1x1x32 : Shape := ⟨3, ![1, 1, 32]⟩
abbrev S50000x32 : Shape := ⟨2, ![50000, 32]⟩
abbrev S50000 : Shape := ⟨1, ![50000]⟩
abbrev S1600000x64 : Shape := ⟨2, ![1600000, 64]⟩
abbrev S1x32x64 : Shape := ⟨3, ![1, 32, 64]⟩
abbrev S50000x64 : Shape := ⟨2, ![50000, 64]⟩
abbrev S1x64 : Shape := ⟨2, ![1, 64]⟩
abbrev S50000x128 : Shape := ⟨2, ![50000, 128]⟩
abbrev S1x128 : Shape := ⟨2, ![1, 128]⟩
abbrev S50000x10 : Shape := ⟨2, ![50000, 10]⟩
abbrev S1x10 : Shape := ⟨2, ![1, 10]⟩

abbrev nBuf : Space → Nat
  | .hbm => 477
  | .vmem => 0
  | .smem => 0
  | _ => 0

abbrev hbmTy0_0 (i : Nat) : BufTy := match i % 128 with
  | 0 => ⟨S50000x1, .f32⟩
  | 1 => ⟨S2x1600000, .i32⟩
  | 2 => ⟨S1600000x1, .f32⟩
  | 3 => ⟨S5x1x32, .f32⟩
  | 4 => ⟨S1x32, .f32⟩
  | 5 => ⟨S32, .f32⟩
  | 6 => ⟨S5x32x64, .f32⟩
  | 7 => ⟨S32x64, .f32⟩
  | 8 => ⟨S64, .f32⟩
  | 9 => ⟨S64x128, .f32⟩
  | 10 => ⟨S128, .f32⟩
  | 11 => ⟨S128x10, .f32⟩
  | 12 => ⟨S10, .f32⟩
  | 13 => ⟨S1x1600000, .i32⟩
  | 14 => ⟨S1600000, .i32⟩
  | 15 => ⟨S1x1600000, .i32⟩
  | 16 => ⟨S1600000, .i32⟩
  | 17 => ⟨S1600000, .f32⟩
  | 18 => ⟨S_, .f32⟩
  | 19 => ⟨S_, .f32⟩
  | 20 => ⟨S_, .f32⟩
  | 21 => ⟨S1600000, .f32⟩
  | 22 => ⟨S1600000, .f32⟩
  | 23 => ⟨S_, .f32⟩
  | 24 => ⟨S1600000, .f32⟩
  | 25 => ⟨S1600000, .f32⟩
  | 26 => ⟨S_, .f32⟩
  | 27 => ⟨S1600000, .f32⟩
  | 28 => ⟨S1600000, .f32⟩
  | 29 => ⟨S1600000, .f32⟩
  | 30 => ⟨S_, .i32⟩
  | 31 => ⟨S_, .i32⟩
  | 32 => ⟨S_, .f32⟩
  | 33 => ⟨S1600000, .f32⟩
  | 34 => ⟨S1600000, .f32⟩
  | 35 => ⟨S_, .f32⟩
  | 36 => ⟨S1600000, .f32⟩
  | 37 => ⟨S1600000, .f32⟩
  | 38 => ⟨S1600000, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x1, .f32⟩
  | 50 => ⟨S_, .f32⟩
  | 51 => ⟨S1600000x32, .f32⟩
  | 52 => ⟨S_, .i32⟩
  | 53 => ⟨S1600000, .i32⟩
  | 54 => ⟨S1600000, .i1⟩
  | 55 => ⟨S_, .f32⟩
  | 56 => ⟨S1600000, .f32⟩
  | 57 => ⟨S1600000, .f32⟩
  | 58 => ⟨S_, .f32⟩
  | 59 => ⟨S_, .f32⟩
  | 60 => ⟨S1600000, .f32⟩
  | 61 => ⟨S1600000, .f32⟩
  | 62 => ⟨S_, .i32⟩
  | 63 => ⟨S1600000, .i32⟩
  | 64 => ⟨S1600000, .i32⟩
  | 65 => ⟨S_, .i32⟩
  | 66 => ⟨S1600000, .i32⟩
  | 67 => ⟨S1600000, .i1⟩
  | 68 => ⟨S_, .f32⟩
  | 69 => ⟨S_, .f32⟩
  | 70 => ⟨S1600000, .f32⟩
  | 71 => ⟨S1600000, .f32⟩
  | 72 => ⟨S1600000, .f32⟩
  | 73 => ⟨S1600000x1, .f32⟩
  | 74 => ⟨S1x1x32, .f32⟩
  | 75 => ⟨S1x32, .f32⟩
  | 76 => ⟨S1600000x32, .f32⟩
  | 77 => ⟨S1600000x32, .f32⟩
  | 78 => ⟨S1600000x32, .f32⟩
  | 79 => ⟨S1600000x32, .f32⟩
  | 80 => ⟨S_, .i32⟩
  | 81 => ⟨S1600000, .i32⟩
  | 82 => ⟨S1600000, .i1⟩
  | 83 => ⟨S_, .f32⟩
  | 84 => ⟨S1600000, .f32⟩
  | 85 => ⟨S1600000, .f32⟩
  | 86 => ⟨S_, .f32⟩
  | 87 => ⟨S_, .f32⟩
  | 88 => ⟨S1600000, .f32⟩
  | 89 => ⟨S1600000, .f32⟩
  | 90 => ⟨S_, .i32⟩
  | 91 => ⟨S1600000, .i32⟩
  | 92 => ⟨S1600000, .i32⟩
  | 93 => ⟨S_, .i32⟩
  | 94 => ⟨S1600000, .i32⟩
  | 95 => ⟨S1600000, .i1⟩
  | 96 => ⟨S_, .f32⟩
  | 97 => ⟨S_, .f32⟩
  | 98 => ⟨S1600000, .f32⟩
  | 99 => ⟨S1600000, .f32⟩
  | 100 => ⟨S1600000, .f32⟩
  | 101 => ⟨S1600000x1, .f32⟩
  | 102 => ⟨S1x1x32, .f32⟩
  | 103 => ⟨S1x32, .f32⟩
  | 104 => ⟨S1600000x32, .f32⟩
  | 105 => ⟨S1600000x32, .f32⟩
  | 106 => ⟨S1600000x32, .f32⟩
  | 107 => ⟨S1600000x32, .f32⟩
  | 108 => ⟨S_, .i32⟩
  | 109 => ⟨S1600000, .i32⟩
  | 110 => ⟨S1600000, .i1⟩
  | 111 => ⟨S_, .f32⟩
  | 112 => ⟨S1600000, .f32⟩
  | 113 => ⟨S1600000, .f32⟩
  | 114 => ⟨S_, .f32⟩
  | 115 => ⟨S_, .f32⟩
  | 116 => ⟨S1600000, .f32⟩
  | 117 => ⟨S1600000, .f32⟩
  | 118 => ⟨S_, .i32⟩
  | 119 => ⟨S1600000, .i32⟩
  | 120 => ⟨S1600000, .i32⟩
  | 121 => ⟨S_, .i32⟩
  | 122 => ⟨S1600000, .i32⟩
  | 123 => ⟨S1600000, .i1⟩
  | 124 => ⟨S_, .f32⟩
  | 125 => ⟨S_, .f32⟩
  | 126 => ⟨S1600000, .f32⟩
  | 127 => ⟨S1600000, .f32⟩
  | _ => ⟨S50000x1, .f32⟩

abbrev hbmTy0_1 (i : Nat) : BufTy := match i % 128 with
  | 0 => ⟨S1600000, .f32⟩
  | 1 => ⟨S1600000x1, .f32⟩
  | 2 => ⟨S1x1x32, .f32⟩
  | 3 => ⟨S1x32, .f32⟩
  | 4 => ⟨S1600000x32, .f32⟩
  | 5 => ⟨S1600000x32, .f32⟩
  | 6 => ⟨S1600000x32, .f32⟩
  | 7 => ⟨S1600000x32, .f32⟩
  | 8 => ⟨S_, .i32⟩
  | 9 => ⟨S1600000, .i32⟩
  | 10 => ⟨S1600000, .i1⟩
  | 11 => ⟨S_, .f32⟩
  | 12 => ⟨S1600000, .f32⟩
  | 13 => ⟨S1600000, .f32⟩
  | 14 => ⟨S_, .f32⟩
  | 15 => ⟨S_, .f32⟩
  | 16 => ⟨S1600000, .f32⟩
  | 17 => ⟨S1600000, .f32⟩
  | 18 => ⟨S_, .i32⟩
  | 19 => ⟨S1600000, .i32⟩
  | 20 => ⟨S1600000, .i32⟩
  | 21 => ⟨S_, .i32⟩
  | 22 => ⟨S1600000, .i32⟩
  | 23 => ⟨S1600000, .i1⟩
  | 24 => ⟨S_, .f32⟩
  | 25 => ⟨S_, .f32⟩
  | 26 => ⟨S1600000, .f32⟩
  | 27 => ⟨S1600000, .f32⟩
  | 28 => ⟨S1600000, .f32⟩
  | 29 => ⟨S1600000x1, .f32⟩
  | 30 => ⟨S1x1x32, .f32⟩
  | 31 => ⟨S1x32, .f32⟩
  | 32 => ⟨S1600000x32, .f32⟩
  | 33 => ⟨S1600000x32, .f32⟩
  | 34 => ⟨S1600000x32, .f32⟩
  | 35 => ⟨S1600000x32, .f32⟩
  | 36 => ⟨S_, .i32⟩
  | 37 => ⟨S1600000, .i32⟩
  | 38 => ⟨S1600000, .i1⟩
  | 39 => ⟨S_, .f32⟩
  | 40 => ⟨S1600000, .f32⟩
  | 41 => ⟨S1600000, .f32⟩
  | 42 => ⟨S_, .f32⟩
  | 43 => ⟨S_, .f32⟩
  | 44 => ⟨S1600000, .f32⟩
  | 45 => ⟨S1600000, .f32⟩
  | 46 => ⟨S_, .i32⟩
  | 47 => ⟨S1600000, .i32⟩
  | 48 => ⟨S1600000, .i32⟩
  | 49 => ⟨S_, .i32⟩
  | 50 => ⟨S1600000, .i32⟩
  | 51 => ⟨S1600000, .i1⟩
  | 52 => ⟨S_, .f32⟩
  | 53 => ⟨S_, .f32⟩
  | 54 => ⟨S1600000, .f32⟩
  | 55 => ⟨S1600000, .f32⟩
  | 56 => ⟨S1600000, .f32⟩
  | 57 => ⟨S1600000x1, .f32⟩
  | 58 => ⟨S1x1x32, .f32⟩
  | 59 => ⟨S1x32, .f32⟩
  | 60 => ⟨S1600000x32, .f32⟩
  | 61 => ⟨S1600000x32, .f32⟩
  | 62 => ⟨S1600000x32, .f32⟩
  | 63 => ⟨S1600000x32, .f32⟩
  | 64 => ⟨S_, .f32⟩
  | 65 => ⟨S50000x32, .f32⟩
  | 66 => ⟨S1600000x1, .i32⟩
  | 67 => ⟨S50000x32, .f32⟩
  | 68 => ⟨S_, .f32⟩
  | 69 => ⟨S1600000, .f32⟩
  | 70 => ⟨S_, .f32⟩
  | 71 => ⟨S50000, .f32⟩
  | 72 => ⟨S1600000x1, .i32⟩
  | 73 => ⟨S50000, .f32⟩
  | 74 => ⟨S_, .f32⟩
  | 75 => ⟨S50000, .f32⟩
  | 76 => ⟨S50000, .f32⟩
  | 77 => ⟨S50000x1, .f32⟩
  | 78 => ⟨S50000x32, .f32⟩
  | 79 => ⟨S50000x32, .f32⟩
  | 80 => ⟨S50000x32, .f32⟩
  | 81 => ⟨S50000x32, .f32⟩
  | 82 => ⟨S1x32, .f32⟩
  | 83 => ⟨S50000x32, .f32⟩
  | 84 => ⟨S50000x32, .f32⟩
  | 85 => ⟨S_, .f32⟩
  | 86 => ⟨S50000x32, .f32⟩
  | 87 => ⟨S50000x32, .i1⟩
  | 88 => ⟨S_, .f32⟩
  | 89 => ⟨S50000x32, .f32⟩
  | 90 => ⟨S50000x32, .i1⟩
  | 91 => ⟨S_, .f32⟩
  | 92 => ⟨S_, .f32⟩
  | 93 => ⟨S50000x32, .f32⟩
  | 94 => ⟨S50000x32, .f32⟩
  | 95 => ⟨S50000x32, .f32⟩
  | 96 => ⟨S_, .f32⟩
  | 97 => ⟨S50000x32, .f32⟩
  | 98 => ⟨S50000x32, .f32⟩
  | 99 => ⟨S50000x32, .f32⟩
  | 100 => ⟨S1600000, .f32⟩
  | 101 => ⟨S_, .f32⟩
  | 102 => ⟨S_, .f32⟩
  | 103 => ⟨S_, .f32⟩
  | 104 => ⟨S1600000, .f32⟩
  | 105 => ⟨S1600000, .f32⟩
  | 106 => ⟨S_, .f32⟩
  | 107 => ⟨S1600000, .f32⟩
  | 108 => ⟨S1600000, .f32⟩
  | 109 => ⟨S_, .f32⟩
  | 110 => ⟨S1600000, .f32⟩
  | 111 => ⟨S1600000, .f32⟩
  | 112 => ⟨S1600000, .f32⟩
  | 113 => ⟨S_, .i32⟩
  | 114 => ⟨S_, .i32⟩
  | 115 => ⟨S_, .f32⟩
  | 116 => ⟨S1600000, .f32⟩
  | 117 => ⟨S1600000, .f32⟩
  | 118 => ⟨S_, .f32⟩
  | 119 => ⟨S1600000, .f32⟩
  | 120 => ⟨S1600000, .f32⟩
  | 121 => ⟨S1600000, .i32⟩
  | 122 => ⟨S1600000, .f32⟩
  | 123 => ⟨S1600000, .f32⟩
  | 124 => ⟨S_, .i32⟩
  | 125 => ⟨S1600000, .i32⟩
  | 126 => ⟨S1600000, .i1⟩
  | 127 => ⟨S_, .i32⟩
  | _ => ⟨S50000x1, .f32⟩

abbrev hbmTy0_2 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x32, .f32⟩
  | 5 => ⟨S_, .f32⟩
  | 6 => ⟨S1600000x64, .f32⟩
  | 7 => ⟨S_, .i32⟩
  | 8 => ⟨S1600000, .i32⟩
  | 9 => ⟨S1600000, .i1⟩
  | 10 => ⟨S_, .f32⟩
  | 11 => ⟨S1600000, .f32⟩
  | 12 => ⟨S1600000, .f32⟩
  | 13 => ⟨S_, .f32⟩
  | 14 => ⟨S_, .f32⟩
  | 15 => ⟨S1600000, .f32⟩
  | 16 => ⟨S1600000, .f32⟩
  | 17 => ⟨S_, .i32⟩
  | 18 => ⟨S1600000, .i32⟩
  | 19 => ⟨S1600000, .i32⟩
  | 20 => ⟨S_, .i32⟩
  | 21 => ⟨S1600000, .i32⟩
  | 22 => ⟨S1600000, .i1⟩
  | 23 => ⟨S_, .f32⟩
  | 24 => ⟨S_, .f32⟩
  | 25 => ⟨S1600000, .f32⟩
  | 26 => ⟨S1600000, .f32⟩
  | 27 => ⟨S1600000, .f32⟩
  | 28 => ⟨S1600000x1, .f32⟩
  | 29 => ⟨S1x32x64, .f32⟩
  | 30 => ⟨S32x64, .f32⟩
  | 31 => ⟨S1600000x64, .f32⟩
  | 32 => ⟨S1600000x64, .f32⟩
  | 33 => ⟨S1600000x64, .f32⟩
  | 34 => ⟨S1600000x64, .f32⟩
  | 35 => ⟨S_, .i32⟩
  | 36 => ⟨S1600000, .i32⟩
  | 37 => ⟨S1600000, .i1⟩
  | 38 => ⟨S_, .f32⟩
  | 39 => ⟨S1600000, .f32⟩
  | 40 => ⟨S1600000, .f32⟩
  | 41 => ⟨S_, .f32⟩
  | 42 => ⟨S_, .f32⟩
  | 43 => ⟨S1600000, .f32⟩
  | 44 => ⟨S1600000, .f32⟩
  | 45 => ⟨S_, .i32⟩
  | 46 => ⟨S1600000, .i32⟩
  | 47 => ⟨S1600000, .i32⟩
  | 48 => ⟨S_, .i32⟩
  | 49 => ⟨S1600000, .i32⟩
  | 50 => ⟨S1600000, .i1⟩
  | 51 => ⟨S_, .f32⟩
  | 52 => ⟨S_, .f32⟩
  | 53 => ⟨S1600000, .f32⟩
  | 54 => ⟨S1600000, .f32⟩
  | 55 => ⟨S1600000, .f32⟩
  | 56 => ⟨S1600000x1, .f32⟩
  | 57 => ⟨S1x32x64, .f32⟩
  | 58 => ⟨S32x64, .f32⟩
  | 59 => ⟨S1600000x64, .f32⟩
  | 60 => ⟨S1600000x64, .f32⟩
  | 61 => ⟨S1600000x64, .f32⟩
  | 62 => ⟨S1600000x64, .f32⟩
  | 63 => ⟨S_, .i32⟩
  | 64 => ⟨S1600000, .i32⟩
  | 65 => ⟨S1600000, .i1⟩
  | 66 => ⟨S_, .f32⟩
  | 67 => ⟨S1600000, .f32⟩
  | 68 => ⟨S1600000, .f32⟩
  | 69 => ⟨S_, .f32⟩
  | 70 => ⟨S_, .f32⟩
  | 71 => ⟨S1600000, .f32⟩
  | 72 => ⟨S1600000, .f32⟩
  | 73 => ⟨S_, .i32⟩
  | 74 => ⟨S1600000, .i32⟩
  | 75 => ⟨S1600000, .i32⟩
  | 76 => ⟨S_, .i32⟩
  | 77 => ⟨S1600000, .i32⟩
  | 78 => ⟨S1600000, .i1⟩
  | 79 => ⟨S_, .f32⟩
  | 80 => ⟨S_, .f32⟩
  | 81 => ⟨S1600000, .f32⟩
  | 82 => ⟨S1600000, .f32⟩
  | 83 => ⟨S1600000, .f32⟩
  | 84 => ⟨S1600000x1, .f32⟩
  | 85 => ⟨S1x32x64, .f32⟩
  | 86 => ⟨S32x64, .f32⟩
  | 87 => ⟨S1600000x64, .f32⟩
  | 88 => ⟨S1600000x64, .f32⟩
  | 89 => ⟨S1600000x64, .f32⟩
  | 90 => ⟨S1600000x64, .f32⟩
  | 91 => ⟨S_, .i32⟩
  | 92 => ⟨S1600000, .i32⟩
  | 93 => ⟨S1600000, .i1⟩
  | 94 => ⟨S_, .f32⟩
  | 95 => ⟨S1600000, .f32⟩
  | 96 => ⟨S1600000, .f32⟩
  | 97 => ⟨S_, .f32⟩
  | 98 => ⟨S_, .f32⟩
  | 99 => ⟨S1600000, .f32⟩
  | 100 => ⟨S1600000, .f32⟩
  | 101 => ⟨S_, .i32⟩
  | 102 => ⟨S1600000, .i32⟩
  | 103 => ⟨S1600000, .i32⟩
  | 104 => ⟨S_, .i32⟩
  | 105 => ⟨S1600000, .i32⟩
  | 106 => ⟨S1600000, .i1⟩
  | 107 => ⟨S_, .f32⟩
  | 108 => ⟨S_, .f32⟩
  | 109 => ⟨S1600000, .f32⟩
  | 110 => ⟨S1600000, .f32⟩
  | 111 => ⟨S1600000, .f32⟩
  | 112 => ⟨S1600000x1, .f32⟩
  | 113 => ⟨S1x32x64, .f32⟩
  | 114 => ⟨S32x64, .f32⟩
  | 115 => ⟨S1600000x64, .f32⟩
  | 116 => ⟨S1600000x64, .f32⟩
  | 117 => ⟨S1600000x64, .f32⟩
  | 118 => ⟨S1600000x64, .f32⟩
  | 119 => ⟨S_, .i32⟩
  | 120 => ⟨S1600000, .i32⟩
  | 121 => ⟨S1600000, .i1⟩
  | 122 => ⟨S_, .f32⟩
  | 123 => ⟨S1600000, .f32⟩
  | 124 => ⟨S1600000, .f32⟩
  | 125 => ⟨S_, .f32⟩
  | 126 => ⟨S_, .f32⟩
  | 127 => ⟨S1600000, .f32⟩
  | _ => ⟨S50000x1, .f32⟩

abbrev hbmTy0_3 (i : Nat) : BufTy := match i % 128 with
  | 0 => ⟨S1600000, .f32⟩
  | 1 => ⟨S_, .i32⟩
  | 2 => ⟨S1600000, .i32⟩
  | 3 => ⟨S1600000, .i32⟩
  | 4 => ⟨S_, .i32⟩
  | 5 => ⟨S1600000, .i32⟩
  | 6 => ⟨S1600000, .i1⟩
  | 7 => ⟨S_, .f32⟩
  | 8 => ⟨S_, .f32⟩
  | 9 => ⟨S1600000, .f32⟩
  | 10 => ⟨S1600000, .f32⟩
  | 11 => ⟨S1600000, .f32⟩
  | 12 => ⟨S1600000x1, .f32⟩
  | 13 => ⟨S1x32x64, .f32⟩
  | 14 => ⟨S32x64, .f32⟩
  | 15 => ⟨S1600000x64, .f32⟩
  | 16 => ⟨S1600000x64, .f32⟩
  | 17 => ⟨S1600000x64, .f32⟩
  | 18 => ⟨S1600000x64, .f32⟩
  | 19 => ⟨S_, .f32⟩
  | 20 => ⟨S50000x64, .f32⟩
  | 21 => ⟨S1600000x1, .i32⟩
  | 22 => ⟨S50000x64, .f32⟩
  | 23 => ⟨S_, .f32⟩
  | 24 => ⟨S1600000, .f32⟩
  | 25 => ⟨S_, .f32⟩
  | 26 => ⟨S50000, .f32⟩
  | 27 => ⟨S1600000x1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x64, .f32⟩
  | 34 => ⟨S50000x64, .f32⟩
  | 35 => ⟨S50000x64, .f32⟩
  | 36 => ⟨S50000x64, .f32⟩
  | 37 => ⟨S1x64, .f32⟩
  | 38 => ⟨S50000x64, .f32⟩
  | 39 => ⟨S50000x64, .f32⟩
  | 40 => ⟨S_, .f32⟩
  | 41 => ⟨S50000x64, .f32⟩
  | 42 => ⟨S50000x64, .i1⟩
  | 43 => ⟨S_, .f32⟩
  | 44 => ⟨S50000x64, .f32⟩
  | 45 => ⟨S50000x64, .i1⟩
  | 46 => ⟨S_, .f32⟩
  | 47 => ⟨S_, .f32⟩
  | 48 => ⟨S50000x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .i1⟩
  | 62 => ⟨S_, .f32⟩
  | 63 => ⟨S50000x128, .f32⟩
  | 64 => ⟨S50000x128, .i1⟩
  | 65 => ⟨S_, .f32⟩
  | 66 => ⟨S_, .f32⟩
  | 67 => ⟨S50000x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S50000x10, .f32⟩
  | 75 => ⟨S1x10, .f32⟩
  | 76 => ⟨S50000x10, .f32⟩
  | 77 => ⟨S50000x10, .f32⟩
  | 78 => ⟨S_, .f32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x10, .f32⟩
  | 85 => ⟨S50000x10, .f32⟩
  | 86 => ⟨S50000x10, .f32⟩
  | 87 => ⟨S_, .f32⟩
  | 88 => ⟨S50000, .f32⟩
  | 89 => ⟨S50000x1, .f32⟩
  | 90 => ⟨S50000x1, .f32⟩
  | 91 => ⟨S50000x10, .f32⟩
  | 92 => ⟨S50000x10, .f32⟩
  | _ => ⟨S50000x1, .f32⟩

abbrev hbmTy (i : Nat) : BufTy := match i / 128 with
  | 0 => hbmTy0_0 i
  | 1 => hbmTy0_1 i
  | 2 => hbmTy0_2 i
  | 3 => hbmTy0_3 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_c : Ref sig .tc := ⟨.hbm, 30, rfl⟩
abbrev main_c_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_3 : Ref sig .tc := ⟨.hbm, 41, rfl⟩
abbrev main_v13 : Ref sig .tc := ⟨.hbm, 42, rfl⟩
abbrev main_v14 : Ref sig .tc := ⟨.hbm, 43, rfl⟩
abbrev main_c_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_5 : Ref sig .tc := ⟨.hbm, 50, rfl⟩
abbrev main_v20 : Ref sig .tc := ⟨.hbm, 51, rfl⟩
abbrev main_c_6 : Ref sig .tc := ⟨.hbm, 52, rfl⟩
abbrev main_v21 : Ref sig .tc := ⟨.hbm, 53, rfl⟩
abbrev main_v22 : Ref sig .tc := ⟨.hbm, 54, rfl⟩
abbrev main_cst_7 : Ref sig .tc := ⟨.hbm, 55, rfl⟩
abbrev main_v23 : Ref sig .tc := ⟨.hbm, 56, rfl⟩
abbrev main_v24 : Ref sig .tc := ⟨.hbm, 57, rfl⟩
abbrev main_cst_8 : Ref sig .tc := ⟨.hbm, 58, rfl⟩
abbrev main_call2_v0 : Ref sig .tc := ⟨.hbm, 59, rfl⟩
abbrev main_call2_v1 : Ref sig .tc := ⟨.hbm, 60, rfl⟩
abbrev main_v25 : Ref sig .tc := ⟨.hbm, 61, rfl⟩
abbrev main_c_9 : Ref sig .tc := ⟨.hbm, 62, rfl⟩
abbrev main_v26 : Ref sig .tc := ⟨.hbm, 63, rfl⟩
abbrev main_v27 : Ref sig .tc := ⟨.hbm, 64, rfl⟩
abbrev main_c_10 : Ref sig .tc := ⟨.hbm, 65, rfl⟩
abbrev main_v28 : Ref sig .tc := ⟨.hbm, 66, rfl⟩
abbrev main_v29 : Ref sig .tc := ⟨.hbm, 67, rfl⟩
abbrev main_cst_11 : Ref sig .tc := ⟨.hbm, 68, rfl⟩
abbrev main_call3_v0 : Ref sig .tc := ⟨.hbm, 69, rfl⟩
abbrev main_call3_v1 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_c_12 : Ref sig .tc := ⟨.hbm, 80, rfl⟩
abbrev main_v39 : Ref sig .tc := ⟨.hbm, 81, rfl⟩
abbrev main_v40 : Ref sig .tc := ⟨.hbm, 82, rfl⟩
abbrev main_cst_13 : Ref sig .tc := ⟨.hbm, 83, rfl⟩
abbrev main_v41 : Ref sig .tc := ⟨.hbm, 84, rfl⟩
abbrev main_v42 : Ref sig .tc := ⟨.hbm, 85, rfl⟩
abbrev main_cst_14 : Ref sig .tc := ⟨.hbm, 86, rfl⟩
abbrev main_call4_v0 : Ref sig .tc := ⟨.hbm, 87, rfl⟩
abbrev main_call4_v1 : Ref sig .tc := ⟨.hbm, 88, rfl⟩
abbrev main_v43 : Ref sig .tc := ⟨.hbm, 89, rfl⟩
abbrev main_c_15 : Ref sig .tc := ⟨.hbm, 90, rfl⟩
abbrev main_v44 : Ref sig .tc := ⟨.hbm, 91, rfl⟩
abbrev main_v45 : Ref sig .tc := ⟨.hbm, 92, rfl⟩
abbrev main_c_16 : Ref sig .tc := ⟨.hbm, 93, rfl⟩
abbrev main_v46 : Ref sig .tc := ⟨.hbm, 94, rfl⟩
abbrev main_v47 : Ref sig .tc := ⟨.hbm, 95, rfl⟩
abbrev main_cst_17 : Ref sig .tc := ⟨.hbm, 96, rfl⟩
abbrev main_call5_v0 : Ref sig .tc := ⟨.hbm, 97, rfl⟩
abbrev main_call5_v1 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c_18 : Ref sig .tc := ⟨.hbm, 108, rfl⟩
abbrev main_v57 : Ref sig .tc := ⟨.hbm, 109, rfl⟩
abbrev main_v58 : Ref sig .tc := ⟨.hbm, 110, rfl⟩
abbrev main_cst_19 : Ref sig .tc := ⟨.hbm, 111, rfl⟩
abbrev main_v59 : Ref sig .tc := ⟨.hbm, 112, rfl⟩
abbrev main_v60 : Ref sig .tc := ⟨.hbm, 113, rfl⟩
abbrev main_cst_20 : Ref sig .tc := ⟨.hbm, 114, rfl⟩
abbrev main_call6_v0 : Ref sig .tc := ⟨.hbm, 115, rfl⟩
abbrev main_call6_v1 : Ref sig .tc := ⟨.hbm, 116, rfl⟩
abbrev main_v61 : Ref sig .tc := ⟨.hbm, 117, rfl⟩
abbrev main_c_21 : Ref sig .tc := ⟨.hbm, 118, rfl⟩
abbrev main_v62 : Ref sig .tc := ⟨.hbm, 119, rfl⟩
abbrev main_v63 : Ref sig .tc := ⟨.hbm, 120, rfl⟩
abbrev main_c_22 : Ref sig .tc := ⟨.hbm, 121, rfl⟩
abbrev main_v64 : Ref sig .tc := ⟨.hbm, 122, rfl⟩
abbrev main_v65 : Ref sig .tc := ⟨.hbm, 123, rfl⟩
abbrev main_cst_23 : Ref sig .tc := ⟨.hbm, 124, rfl⟩
abbrev main_call7_v0 : Ref sig .tc := ⟨.hbm, 125, rfl⟩
abbrev main_call7_v1 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_c_24 : Ref sig .tc := ⟨.hbm, 136, rfl⟩
abbrev main_v75 : Ref sig .tc := ⟨.hbm, 137, rfl⟩
abbrev main_v76 : Ref sig .tc := ⟨.hbm, 138, rfl⟩
abbrev main_cst_25 : Ref sig .tc := ⟨.hbm, 139, rfl⟩
abbrev main_v77 : Ref sig .tc := ⟨.hbm, 140, rfl⟩
abbrev main_v78 : Ref sig .tc := ⟨.hbm, 141, rfl⟩
abbrev main_cst_26 : Ref sig .tc := ⟨.hbm, 142, rfl⟩
abbrev main_call8_v0 : Ref sig .tc := ⟨.hbm, 143, rfl⟩
abbrev main_call8_v1 : Ref sig .tc := ⟨.hbm, 144, rfl⟩
abbrev main_v79 : Ref sig .tc := ⟨.hbm, 145, rfl⟩
abbrev main_c_27 : Ref sig .tc := ⟨.hbm, 146, rfl⟩
abbrev main_v80 : Ref sig .tc := ⟨.hbm, 147, rfl⟩
abbrev main_v81 : Ref sig .tc := ⟨.hbm, 148, rfl⟩
abbrev main_c_28 : Ref sig .tc := ⟨.hbm, 149, rfl⟩
abbrev main_v82 : Ref sig .tc := ⟨.hbm, 150, rfl⟩
abbrev main_v83 : Ref sig .tc := ⟨.hbm, 151, rfl⟩
abbrev main_cst_29 : Ref sig .tc := ⟨.hbm, 152, rfl⟩
abbrev main_call9_v0 : Ref sig .tc := ⟨.hbm, 153, rfl⟩
abbrev main_call9_v1 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_c_30 : Ref sig .tc := ⟨.hbm, 164, rfl⟩
abbrev main_v93 : Ref sig .tc := ⟨.hbm, 165, rfl⟩
abbrev main_v94 : Ref sig .tc := ⟨.hbm, 166, rfl⟩
abbrev main_cst_31 : Ref sig .tc := ⟨.hbm, 167, rfl⟩
abbrev main_v95 : Ref sig .tc := ⟨.hbm, 168, rfl⟩
abbrev main_v96 : Ref sig .tc := ⟨.hbm, 169, rfl⟩
abbrev main_cst_32 : Ref sig .tc := ⟨.hbm, 170, rfl⟩
abbrev main_call10_v0 : Ref sig .tc := ⟨.hbm, 171, rfl⟩
abbrev main_call10_v1 : Ref sig .tc := ⟨.hbm, 172, rfl⟩
abbrev main_v97 : Ref sig .tc := ⟨.hbm, 173, rfl⟩
abbrev main_c_33 : Ref sig .tc := ⟨.hbm, 174, rfl⟩
abbrev main_v98 : Ref sig .tc := ⟨.hbm, 175, rfl⟩
abbrev main_v99 : Ref sig .tc := ⟨.hbm, 176, rfl⟩
abbrev main_c_34 : Ref sig .tc := ⟨.hbm, 177, rfl⟩
abbrev main_v100 : Ref sig .tc := ⟨.hbm, 178, rfl⟩
abbrev main_v101 : Ref sig .tc := ⟨.hbm, 179, rfl⟩
abbrev main_cst_35 : Ref sig .tc := ⟨.hbm, 180, rfl⟩
abbrev main_call11_v0 : Ref sig .tc := ⟨.hbm, 181, rfl⟩
abbrev main_call11_v1 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_cst_36 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_cst_37 : Ref sig .tc := ⟨.hbm, 196, rfl⟩
abbrev main_v114 : Ref sig .tc := ⟨.hbm, 197, rfl⟩
abbrev main_cst_38 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_39 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_call12_cst : Ref sig .tc := ⟨.hbm, 213, rfl⟩
abbrev main_call12_v0 : Ref sig .tc := ⟨.hbm, 214, rfl⟩
abbrev main_call12_v1 : Ref sig .tc := ⟨.hbm, 215, rfl⟩
abbrev main_call12_cst_0 : Ref sig .tc := ⟨.hbm, 216, rfl⟩
abbrev main_call12_v2 : Ref sig .tc := ⟨.hbm, 217, rfl⟩
abbrev main_call12_v3 : Ref sig .tc := ⟨.hbm, 218, rfl⟩
abbrev main_call12_cst_1 : Ref sig .tc := ⟨.hbm, 219, rfl⟩
abbrev main_call12_call0_v0 : Ref sig .tc := ⟨.hbm, 220, rfl⟩
abbrev main_call12_call0_v1 : Ref sig .tc := ⟨.hbm, 221, rfl⟩
abbrev main_call12_v4 : Ref sig .tc := ⟨.hbm, 222, rfl⟩
abbrev main_call12_v5 : Ref sig .tc := ⟨.hbm, 223, rfl⟩
abbrev main_call12_cst_2 : Ref sig .tc := ⟨.hbm, 224, rfl⟩
abbrev main_call12_v6 : Ref sig .tc := ⟨.hbm, 225, rfl⟩
abbrev main_call12_v7 : Ref sig .tc := ⟨.hbm, 226, rfl⟩
abbrev main_v128 : Ref sig .tc := ⟨.hbm, 227, rfl⟩
abbrev main_v129 : Ref sig .tc := ⟨.hbm, 228, rfl⟩
abbrev main_cst_40 : Ref sig .tc := ⟨.hbm, 229, rfl⟩
abbrev main_cst_41 : Ref sig .tc := ⟨.hbm, 230, rfl⟩
abbrev main_call13_v0 : Ref sig .tc := ⟨.hbm, 231, rfl⟩
abbrev main_call13_v1 : Ref sig .tc := ⟨.hbm, 232, rfl⟩
abbrev main_call13_v2 : Ref sig .tc := ⟨.hbm, 233, rfl⟩
abbrev main_call13_v3 : Ref sig .tc := ⟨.hbm, 234, rfl⟩
abbrev main_call13_v4 : Ref sig .tc := ⟨.hbm, 235, rfl⟩
abbrev main_v130 : Ref sig .tc := ⟨.hbm, 236, rfl⟩
abbrev main_cst_42 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_c_43 : Ref sig .tc := ⟨.hbm, 241, rfl⟩
abbrev main_c_44 : Ref sig .tc := ⟨.hbm, 242, rfl⟩
abbrev main_call14_v0 : Ref sig .tc := ⟨.hbm, 243, rfl⟩
abbrev main_call14_v1 : Ref sig .tc := ⟨.hbm, 244, rfl⟩
abbrev main_call14_v2 : Ref sig .tc := ⟨.hbm, 245, rfl⟩
abbrev main_call14_v3 : Ref sig .tc := ⟨.hbm, 246, rfl⟩
abbrev main_call14_v4 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_c_45 : Ref sig .tc := ⟨.hbm, 252, rfl⟩
abbrev main_v138 : Ref sig .tc := ⟨.hbm, 253, rfl⟩
abbrev main_v139 : Ref sig .tc := ⟨.hbm, 254, rfl⟩
abbrev main_c_46 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_v143 : Ref sig .tc := ⟨.hbm, 259, rfl⟩
abbrev main_v144 : Ref sig .tc := ⟨.hbm, 260, rfl⟩
abbrev main_cst_47 : Ref sig .tc := ⟨.hbm, 261, rfl⟩
abbrev main_v145 : Ref sig .tc := ⟨.hbm, 262, rfl⟩
abbrev main_c_48 : Ref sig .tc := ⟨.hbm, 263, rfl⟩
abbrev main_v146 : Ref sig .tc := ⟨.hbm, 264, rfl⟩
abbrev main_v147 : Ref sig .tc := ⟨.hbm, 265, rfl⟩
abbrev main_cst_49 : Ref sig .tc := ⟨.hbm, 266, rfl⟩
abbrev main_v148 : Ref sig .tc := ⟨.hbm, 267, rfl⟩
abbrev main_v149 : Ref sig .tc := ⟨.hbm, 268, rfl⟩
abbrev main_cst_50 : Ref sig .tc := ⟨.hbm, 269, rfl⟩
abbrev main_call15_v0 : Ref sig .tc := ⟨.hbm, 270, rfl⟩
abbrev main_call15_v1 : Ref sig .tc := ⟨.hbm, 271, rfl⟩
abbrev main_v150 : Ref sig .tc := ⟨.hbm, 272, rfl⟩
abbrev main_c_51 : Ref sig .tc := ⟨.hbm, 273, rfl⟩
abbrev main_v151 : Ref sig .tc := ⟨.hbm, 274, rfl⟩
abbrev main_v152 : Ref sig .tc := ⟨.hbm, 275, rfl⟩
abbrev main_c_52 : Ref sig .tc := ⟨.hbm, 276, rfl⟩
abbrev main_v153 : Ref sig .tc := ⟨.hbm, 277, rfl⟩
abbrev main_v154 : Ref sig .tc := ⟨.hbm, 278, rfl⟩
abbrev main_cst_53 : Ref sig .tc := ⟨.hbm, 279, rfl⟩
abbrev main_call16_v0 : Ref sig .tc := ⟨.hbm, 280, rfl⟩
abbrev main_call16_v1 : Ref sig .tc := ⟨.hbm, 281, rfl⟩
abbrev main_v155 : Ref sig .tc := ⟨.hbm, 282, rfl⟩
abbrev main_v156 : Ref sig .tc := ⟨.hbm, 283, rfl⟩
abbrev main_v157 : Ref sig .tc := ⟨.hbm, 284, rfl⟩
abbrev main_v158 : Ref sig .tc := ⟨.hbm, 285, rfl⟩
abbrev main_v159 : Ref sig .tc := ⟨.hbm, 286, rfl⟩
abbrev main_v160 : Ref sig .tc := ⟨.hbm, 287, rfl⟩
abbrev main_v161 : Ref sig .tc := ⟨.hbm, 288, rfl⟩
abbrev main_v162 : Ref sig .tc := ⟨.hbm, 289, rfl⟩
abbrev main_v163 : Ref sig .tc := ⟨.hbm, 290, rfl⟩
abbrev main_c_54 : Ref sig .tc := ⟨.hbm, 291, rfl⟩
abbrev main_v164 : Ref sig .tc := ⟨.hbm, 292, rfl⟩
abbrev main_v165 : Ref sig .tc := ⟨.hbm, 293, rfl⟩
abbrev main_cst_55 : Ref sig .tc := ⟨.hbm, 294, rfl⟩
abbrev main_v166 : Ref sig .tc := ⟨.hbm, 295, rfl⟩
abbrev main_v167 : Ref sig .tc := ⟨.hbm, 296, rfl⟩
abbrev main_cst_56 : Ref sig .tc := ⟨.hbm, 297, rfl⟩
abbrev main_call17_v0 : Ref sig .tc := ⟨.hbm, 298, rfl⟩
abbrev main_call17_v1 : Ref sig .tc := ⟨.hbm, 299, rfl⟩
abbrev main_v168 : Ref sig .tc := ⟨.hbm, 300, rfl⟩
abbrev main_c_57 : Ref sig .tc := ⟨.hbm, 301, rfl⟩
abbrev main_v169 : Ref sig .tc := ⟨.hbm, 302, rfl⟩
abbrev main_v170 : Ref sig .tc := ⟨.hbm, 303, rfl⟩
abbrev main_c_58 : Ref sig .tc := ⟨.hbm, 304, rfl⟩
abbrev main_v171 : Ref sig .tc := ⟨.hbm, 305, rfl⟩
abbrev main_v172 : Ref sig .tc := ⟨.hbm, 306, rfl⟩
abbrev main_cst_59 : Ref sig .tc := ⟨.hbm, 307, rfl⟩
abbrev main_call18_v0 : Ref sig .tc := ⟨.hbm, 308, rfl⟩
abbrev main_call18_v1 : Ref sig .tc := ⟨.hbm, 309, rfl⟩
abbrev main_v173 : Ref sig .tc := ⟨.hbm, 310, rfl⟩
abbrev main_v174 : Ref sig .tc := ⟨.hbm, 311, rfl⟩
abbrev main_v175 : Ref sig .tc := ⟨.hbm, 312, rfl⟩
abbrev main_v176 : Ref sig .tc := ⟨.hbm, 313, rfl⟩
abbrev main_v177 : Ref sig .tc := ⟨.hbm, 314, rfl⟩
abbrev main_v178 : Ref sig .tc := ⟨.hbm, 315, rfl⟩
abbrev main_v179 : Ref sig .tc := ⟨.hbm, 316, rfl⟩
abbrev main_v180 : Ref sig .tc := ⟨.hbm, 317, rfl⟩
abbrev main_v181 : Ref sig .tc := ⟨.hbm, 318, rfl⟩
abbrev main_c_60 : Ref sig .tc := ⟨.hbm, 319, rfl⟩
abbrev main_v182 : Ref sig .tc := ⟨.hbm, 320, rfl⟩
abbrev main_v183 : Ref sig .tc := ⟨.hbm, 321, rfl⟩
abbrev main_cst_61 : Ref sig .tc := ⟨.hbm, 322, rfl⟩
abbrev main_v184 : Ref sig .tc := ⟨.hbm, 323, rfl⟩
abbrev main_v185 : Ref sig .tc := ⟨.hbm, 324, rfl⟩
abbrev main_cst_62 : Ref sig .tc := ⟨.hbm, 325, rfl⟩
abbrev main_call19_v0 : Ref sig .tc := ⟨.hbm, 326, rfl⟩
abbrev main_call19_v1 : Ref sig .tc := ⟨.hbm, 327, rfl⟩
abbrev main_v186 : Ref sig .tc := ⟨.hbm, 328, rfl⟩
abbrev main_c_63 : Ref sig .tc := ⟨.hbm, 329, rfl⟩
abbrev main_v187 : Ref sig .tc := ⟨.hbm, 330, rfl⟩
abbrev main_v188 : Ref sig .tc := ⟨.hbm, 331, rfl⟩
abbrev main_c_64 : Ref sig .tc := ⟨.hbm, 332, rfl⟩
abbrev main_v189 : Ref sig .tc := ⟨.hbm, 333, rfl⟩
abbrev main_v190 : Ref sig .tc := ⟨.hbm, 334, rfl⟩
abbrev main_cst_65 : Ref sig .tc := ⟨.hbm, 335, rfl⟩
abbrev main_call20_v0 : Ref sig .tc := ⟨.hbm, 336, rfl⟩
abbrev main_call20_v1 : Ref sig .tc := ⟨.hbm, 337, rfl⟩
abbrev main_v191 : Ref sig .tc := ⟨.hbm, 338, rfl⟩
abbrev main_v192 : Ref sig .tc := ⟨.hbm, 339, rfl⟩
abbrev main_v193 : Ref sig .tc := ⟨.hbm, 340, rfl⟩
abbrev main_v194 : Ref sig .tc := ⟨.hbm, 341, rfl⟩
abbrev main_v195 : Ref sig .tc := ⟨.hbm, 342, rfl⟩
abbrev main_v196 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_c_66 : Ref sig .tc := ⟨.hbm, 347, rfl⟩
abbrev main_v200 : Ref sig .tc := ⟨.hbm, 348, rfl⟩
abbrev main_v201 : Ref sig .tc := ⟨.hbm, 349, rfl⟩
abbrev main_cst_67 : Ref sig .tc := ⟨.hbm, 350, rfl⟩
abbrev main_v202 : Ref sig .tc := ⟨.hbm, 351, rfl⟩
abbrev main_v203 : Ref sig .tc := ⟨.hbm, 352, rfl⟩
abbrev main_cst_68 : Ref sig .tc := ⟨.hbm, 353, rfl⟩
abbrev main_call21_v0 : Ref sig .tc := ⟨.hbm, 354, rfl⟩
abbrev main_call21_v1 : Ref sig .tc := ⟨.hbm, 355, rfl⟩
abbrev main_v204 : Ref sig .tc := ⟨.hbm, 356, rfl⟩
abbrev main_c_69 : Ref sig .tc := ⟨.hbm, 357, rfl⟩
abbrev main_v205 : Ref sig .tc := ⟨.hbm, 358, rfl⟩
abbrev main_v206 : Ref sig .tc := ⟨.hbm, 359, rfl⟩
abbrev main_c_70 : Ref sig .tc := ⟨.hbm, 360, rfl⟩
abbrev main_v207 : Ref sig .tc := ⟨.hbm, 361, rfl⟩
abbrev main_v208 : Ref sig .tc := ⟨.hbm, 362, rfl⟩
abbrev main_cst_71 : Ref sig .tc := ⟨.hbm, 363, rfl⟩
abbrev main_call22_v0 : Ref sig .tc := ⟨.hbm, 364, rfl⟩
abbrev main_call22_v1 : Ref sig .tc := ⟨.hbm, 365, rfl⟩
abbrev main_v209 : Ref sig .tc := ⟨.hbm, 366, rfl⟩
abbrev main_v210 : Ref sig .tc := ⟨.hbm, 367, rfl⟩
abbrev main_v211 : Ref sig .tc := ⟨.hbm, 368, rfl⟩
abbrev main_v212 : Ref sig .tc := ⟨.hbm, 369, rfl⟩
abbrev main_v213 : Ref sig .tc := ⟨.hbm, 370, rfl⟩
abbrev main_v214 : Ref sig .tc := ⟨.hbm, 371, rfl⟩
abbrev main_v215 : Ref sig .tc := ⟨.hbm, 372, rfl⟩
abbrev main_v216 : Ref sig .tc := ⟨.hbm, 373, rfl⟩
abbrev main_v217 : Ref sig .tc := ⟨.hbm, 374, rfl⟩
abbrev main_c_72 : Ref sig .tc := ⟨.hbm, 375, rfl⟩
abbrev main_v218 : Ref sig .tc := ⟨.hbm, 376, rfl⟩
abbrev main_v219 : Ref sig .tc := ⟨.hbm, 377, rfl⟩
abbrev main_cst_73 : Ref sig .tc := ⟨.hbm, 378, rfl⟩
abbrev main_v220 : Ref sig .tc := ⟨.hbm, 379, rfl⟩
abbrev main_v221 : Ref sig .tc := ⟨.hbm, 380, rfl⟩
abbrev main_cst_74 : Ref sig .tc := ⟨.hbm, 381, rfl⟩
abbrev main_call23_v0 : Ref sig .tc := ⟨.hbm, 382, rfl⟩
abbrev main_call23_v1 : Ref sig .tc := ⟨.hbm, 383, rfl⟩
abbrev main_v222 : Ref sig .tc := ⟨.hbm, 384, rfl⟩
abbrev main_c_75 : Ref sig .tc := ⟨.hbm, 385, rfl⟩
abbrev main_v223 : Ref sig .tc := ⟨.hbm, 386, rfl⟩
abbrev main_v224 : Ref sig .tc := ⟨.hbm, 387, rfl⟩
abbrev main_c_76 : Ref sig .tc := ⟨.hbm, 388, rfl⟩
abbrev main_v225 : Ref sig .tc := ⟨.hbm, 389, rfl⟩
abbrev main_v226 : Ref sig .tc := ⟨.hbm, 390, rfl⟩
abbrev main_cst_77 : Ref sig .tc := ⟨.hbm, 391, rfl⟩
abbrev main_call24_v0 : Ref sig .tc := ⟨.hbm, 392, rfl⟩
abbrev main_call24_v1 : Ref sig .tc := ⟨.hbm, 393, rfl⟩
abbrev main_v227 : Ref sig .tc := ⟨.hbm, 394, rfl⟩
abbrev main_v228 : Ref sig .tc := ⟨.hbm, 395, rfl⟩
abbrev main_v229 : Ref sig .tc := ⟨.hbm, 396, rfl⟩
abbrev main_v230 : Ref sig .tc := ⟨.hbm, 397, rfl⟩
abbrev main_v231 : Ref sig .tc := ⟨.hbm, 398, rfl⟩
abbrev main_v232 : Ref sig .tc := ⟨.hbm, 399, rfl⟩
abbrev main_v233 : Ref sig .tc := ⟨.hbm, 400, rfl⟩
abbrev main_v234 : Ref sig .tc := ⟨.hbm, 401, rfl⟩
abbrev main_v235 : Ref sig .tc := ⟨.hbm, 402, rfl⟩
abbrev main_cst_78 : Ref sig .tc := ⟨.hbm, 403, rfl⟩
abbrev main_v236 : Ref sig .tc := ⟨.hbm, 404, rfl⟩
abbrev main_v237 : Ref sig .tc := ⟨.hbm, 405, rfl⟩
abbrev main_v238 : Ref sig .tc := ⟨.hbm, 406, rfl⟩
abbrev main_cst_79 : Ref sig .tc := ⟨.hbm, 407, rfl⟩
abbrev main_v239 : Ref sig .tc := ⟨.hbm, 408, rfl⟩
abbrev main_cst_80 : Ref sig .tc := ⟨.hbm, 409, rfl⟩
abbrev main_v240 : Ref sig .tc := ⟨.hbm, 410, rfl⟩
abbrev main_v241 : Ref sig .tc := ⟨.hbm, 411, rfl⟩
abbrev main_v242 : Ref sig .tc := ⟨.hbm, 412, rfl⟩
abbrev main_cst_81 : Ref sig .tc := ⟨.hbm, 413, rfl⟩
abbrev main_v243 : Ref sig .tc := ⟨.hbm, 414, rfl⟩
abbrev main_v244 : Ref sig .tc := ⟨.hbm, 415, rfl⟩
abbrev main_v245 : Ref sig .tc := ⟨.hbm, 416, rfl⟩
abbrev main_v246 : Ref sig .tc := ⟨.hbm, 417, rfl⟩
abbrev main_v247 : Ref sig .tc := ⟨.hbm, 418, rfl⟩
abbrev main_v248 : Ref sig .tc := ⟨.hbm, 419, rfl⟩
abbrev main_v249 : Ref sig .tc := ⟨.hbm, 420, rfl⟩
abbrev main_v250 : Ref sig .tc := ⟨.hbm, 421, rfl⟩
abbrev main_v251 : Ref sig .tc := ⟨.hbm, 422, rfl⟩
abbrev main_v252 : Ref sig .tc := ⟨.hbm, 423, rfl⟩
abbrev main_call25_cst : Ref sig .tc := ⟨.hbm, 424, rfl⟩
abbrev main_call25_v0 : Ref sig .tc := ⟨.hbm, 425, rfl⟩
abbrev main_call25_v1 : Ref sig .tc := ⟨.hbm, 426, rfl⟩
abbrev main_call25_cst_0 : Ref sig .tc := ⟨.hbm, 427, rfl⟩
abbrev main_call25_v2 : Ref sig .tc := ⟨.hbm, 428, rfl⟩
abbrev main_call25_v3 : Ref sig .tc := ⟨.hbm, 429, rfl⟩
abbrev main_call25_cst_1 : Ref sig .tc := ⟨.hbm, 430, rfl⟩
abbrev main_call25_call0_v0 : Ref sig .tc := ⟨.hbm, 431, rfl⟩
abbrev main_call25_call0_v1 : Ref sig .tc := ⟨.hbm, 432, rfl⟩
abbrev main_call25_v4 : Ref sig .tc := ⟨.hbm, 433, rfl⟩
abbrev main_call25_v5 : Ref sig .tc := ⟨.hbm, 434, rfl⟩
abbrev main_call25_cst_2 : Ref sig .tc := ⟨.hbm, 435, rfl⟩
abbrev main_call25_v6 : Ref sig .tc := ⟨.hbm, 436, rfl⟩
abbrev main_call25_v7 : Ref sig .tc := ⟨.hbm, 437, rfl⟩
abbrev main_v253 : Ref sig .tc := ⟨.hbm, 438, rfl⟩
abbrev main_v254 : Ref sig .tc := ⟨.hbm, 439, rfl⟩
abbrev main_v255 : Ref sig .tc := ⟨.hbm, 440, rfl⟩
abbrev main_v256 : Ref sig .tc := ⟨.hbm, 441, rfl⟩
abbrev main_v257 : Ref sig .tc := ⟨.hbm, 442, rfl⟩
abbrev main_call26_cst : Ref sig .tc := ⟨.hbm, 443, rfl⟩
abbrev main_call26_v0 : Ref sig .tc := ⟨.hbm, 444, rfl⟩
abbrev main_call26_v1 : Ref sig .tc := ⟨.hbm, 445, rfl⟩
abbrev main_call26_cst_0 : Ref sig .tc := ⟨.hbm, 446, rfl⟩
abbrev main_call26_v2 : Ref sig .tc := ⟨.hbm, 447, rfl⟩
abbrev main_call26_v3 : Ref sig .tc := ⟨.hbm, 448, rfl⟩
abbrev main_call26_cst_1 : Ref sig .tc := ⟨.hbm, 449, rfl⟩
abbrev main_call26_call0_v0 : Ref sig .tc := ⟨.hbm, 450, rfl⟩
abbrev main_call26_call0_v1 : Ref sig .tc := ⟨.hbm, 451, rfl⟩
abbrev main_call26_v4 : Ref sig .tc := ⟨.hbm, 452, rfl⟩
abbrev main_call26_v5 : Ref sig .tc := ⟨.hbm, 453, rfl⟩
abbrev main_call26_cst_2 : Ref sig .tc := ⟨.hbm, 454, rfl⟩
abbrev main_call26_v6 : Ref sig .tc := ⟨.hbm, 455, rfl⟩
abbrev main_call26_v7 : Ref sig .tc := ⟨.hbm, 456, rfl⟩
abbrev main_v258 : Ref sig .tc := ⟨.hbm, 457, rfl⟩
abbrev main_v259 : Ref sig .tc := ⟨.hbm, 458, rfl⟩
abbrev main_v260 : Ref sig .tc := ⟨.hbm, 459, rfl⟩
abbrev main_v261 : Ref sig .tc := ⟨.hbm, 460, rfl⟩
abbrev main_v262 : Ref sig .tc := ⟨.hbm, 461, rfl⟩
abbrev main_call27_cst : Ref sig .tc := ⟨.hbm, 462, rfl⟩
abbrev main_call27_v0 : Ref sig .tc := ⟨.hbm, 463, rfl⟩
abbrev main_call27_cst_0 : Ref sig .tc := ⟨.hbm, 464, rfl⟩
abbrev main_call27_v1 : Ref sig .tc := ⟨.hbm, 465, rfl⟩
abbrev main_call27_v2 : Ref sig .tc := ⟨.hbm, 466, rfl⟩
abbrev main_call27_v3 : Ref sig .tc := ⟨.hbm, 467, rfl⟩
abbrev main_call27_v4 : Ref sig .tc := ⟨.hbm, 468, rfl⟩
abbrev main_call27_v5 : Ref sig .tc := ⟨.hbm, 469, rfl⟩
abbrev main_call27_v6 : Ref sig .tc := ⟨.hbm, 470, rfl⟩
abbrev main_call27_cst_1 : Ref sig .tc := ⟨.hbm, 471, rfl⟩
abbrev main_call27_v7 : Ref sig .tc := ⟨.hbm, 472, rfl⟩
abbrev main_call27_v8 : Ref sig .tc := ⟨.hbm, 473, rfl⟩
abbrev main_call27_v9 : Ref sig .tc := ⟨.hbm, 474, rfl⟩
abbrev main_call27_v10 : Ref sig .tc := ⟨.hbm, 475, rfl⟩
abbrev main_v263 : Ref sig .tc := ⟨.hbm, 476, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000x1_S1600000 : S1600000x1.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x32 : S_.BroadcastsInDim S1600000x32 (![] : Fin 0 → Fin S1600000x32.rank)
  slices_S5x1x32_S1x1x32_0_0_0 : S5x1x32.Slices ![0, 0, 0] S1x1x32
  shapeCasts_S1x1x32_S1x32 : S1x1x32.ShapeCasts S1x32
  bcast_S1600000x1_S1600000x32_0_1 : S1600000x1.BroadcastsInDim S1600000x32 (![0, 1] : Fin 2 → Fin S1600000x32.rank)
  slices_S5x1x32_S1x1x32_1_0_0 : S5x1x32.Slices ![1, 0, 0] S1x1x32
  slices_S5x1x32_S1x1x32_2_0_0 : S5x1x32.Slices ![2, 0, 0] S1x1x32
  slices_S5x1x32_S1x1x32_3_0_0 : S5x1x32.Slices ![3, 0, 0] S1x1x32
  slices_S5x1x32_S1x1x32_4_0_0 : S5x1x32.Slices ![4, 0, 0] S1x1x32
  bcast_S_S50000x32 : S_.BroadcastsInDim S50000x32 (![] : Fin 0 → Fin S50000x32.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S1600000x64 : S_.BroadcastsInDim S1600000x64 (![] : Fin 0 → Fin S1600000x64.rank)
  slices_S5x32x64_S1x32x64_0_0_0 : S5x32x64.Slices ![0, 0, 0] S1x32x64
  shapeCasts_S1x32x64_S32x64 : S1x32x64.ShapeCasts S32x64
  bcast_S1600000x1_S1600000x64_0_1 : S1600000x1.BroadcastsInDim S1600000x64 (![0, 1] : Fin 2 → Fin S1600000x64.rank)
  slices_S5x32x64_S1x32x64_1_0_0 : S5x32x64.Slices ![1, 0, 0] S1x32x64
  slices_S5x32x64_S1x32x64_2_0_0 : S5x32x64.Slices ![2, 0, 0] S1x32x64
  slices_S5x32x64_S1x32x64_3_0_0 : S5x32x64.Slices ![3, 0, 0] S1x32x64
  slices_S5x32x64_S1x32x64_4_0_0 : S5x32x64.Slices ![4, 0, 0] S1x32x64
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  h_S_ : 0 < S_.numel
  bcast_S50000x1_S50000x10_0_1 : S50000x1.BroadcastsInDim S50000x10 (![0, 1] : Fin 2 → Fin S50000x10.rank)
  gather_S50000x1_S1600000x1_S1600000x1_1_0_n_n_0_1_11_wf : GatherDims.WF S50000x1 S1600000x1 S1600000x1 [1] [0] [] [0] [] 1 ![1, 1]
  dot_S1600000x1_S1x32_S1600000x32_1_0_0_1_n_n_wf : DotDims.WF S1600000x1 S1x32 S1600000x32 [1] [0] [0] [1] [] []
  scatter_S50000x32_S1600000x1_S1600000x32_1_0_0_1_wf : ScatterDims.WF S50000x32 S1600000x1 S1600000x32 [1] [0] [0] 1
  scatter_S50000_S1600000x1_S1600000_n_0_0_1_wf : ScatterDims.WF S50000 S1600000x1 S1600000 [] [0] [0] 1
  dot_S50000x1_S1x32_S50000x32_1_0_0_1_n_n_wf : DotDims.WF S50000x1 S1x32 S50000x32 [1] [0] [0] [1] [] []
  gather_S50000x32_S1600000x1_S1600000x32_1_0_n_n_0_1_132_wf : GatherDims.WF S50000x32 S1600000x1 S1600000x32 [1] [0] [] [0] [] 1 ![1, 32]
  dot_S1600000x32_S32x64_S1600000x64_1_0_0_1_n_n_wf : DotDims.WF S1600000x32 S32x64 S1600000x64 [1] [0] [0] [1] [] []
  scatter_S50000x64_S1600000x1_S1600000x64_1_0_0_1_wf : ScatterDims.WF S50000x64 S1600000x1 S1600000x64 [1] [0] [0] 1
  dot_S50000x32_S32x64_S50000x64_1_0_0_1_n_n_wf : DotDims.WF S50000x32 S32x64 S50000x64 [1] [0] [0] [1] [] []
  dot_S50000x64_S64x128_S50000x128_1_0_0_1_n_n_wf : DotDims.WF S50000x64 S64x128 S50000x128 [1] [0] [0] [1] [] []
  dot_S50000x128_S128x10_S50000x10_1_0_0_1_n_n_wf : DotDims.WF S50000x128 S128x10 S50000x10 [1] [0] [0] [1] [] []

variable [Facts₀]

def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def dot_S1600000x1_S1x32_S1600000x32_1_0_0_1_n_n : DotDims S1600000x1 S1x32 S1600000x32 where
  lhsContracting := [1]
  rhsContracting := [0]
  lhsNonContracting := [0]
  rhsNonContracting := [1]
  lhsBatch := []
  rhsBatch := []
  wf := dot_S1600000x1_S1x32_S1600000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x1_S1x32_S50000x32_1_0_0_1_n_n : DotDims S50000x1 S1x32 S50000x32 where
  lhsContracting := [1]
  rhsContracting := [0]
  lhsNonContracting := [0]
  rhsNonContracting := [1]
  lhsBatch := []
  rhsBatch := []
  wf := dot_S50000x1_S1x32_S50000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.Spec.lean ====
/-
  The network both programs compute, written once as whole-array functions of the argument arrays.

  Two spline-convolution layers, two dense layers and a log-softmax over N = 50000 nodes and E = 1600000 edges.
  For an edge e with pseudo-coordinate a in [0,1]: p = 4·clip(a), the knot k(e) = min(3, floor p) and the fraction
  f = p - k(e); tap j of the five has the coefficient (1 - f if k = j else 0) + (f if k + 1 = j else 0), so at most
  two taps are active and their coefficients lie in [0,1] and sum to 1. A layer's message on e is the sum over the
  taps of coefficient · (features of the source node · W_j); messages are summed over the edges that end in a node and
  divided by max(degree, 1); the root projection and the bias are added and an ELU applied. The second layer's
  result passes two dense layers (the first with an ELU) and a row-wise log-softmax.

  Every function below is spelt with the same array operations, in the same order, as the host reference, so that the
  reference's result IS 'out' of its arguments by unfolding; each kernel stage is proved equal to the stage function
  here index by index.
-/
import proofs.«402775_j5308579578323_4_alg».proof.Proof.Gen.ReferenceIdeal

noncomputable section

namespace Cert.Spec

open Idealize.ShloMosaic Cert.ReferenceIdeal Cert.ReferenceIdeal.Facts₀ Cert.ReferenceIdeal.Facts

variable {F : FTy → Type} [FloatOps F]

/-! ## Edge indices -/

/-- Row 0 of the edge list: each edge's source node. -/
def src (ei : IVec S2x1600000 32) : IVec S1600000 32 :=
  shapeCast S1600000 (extractStridedSlice S1x1600000 ![0, 0] ei slices_S2x1600000_S1x1600000_0_0) shapeCasts_S1x1600000_S1600000
/-- Row 1 of the edge list: each edge's target node. -/
def dst (ei : IVec S2x1600000 32) : IVec S1600000 32 :=
  shapeCast S1600000 (extractStridedSlice S1x1600000 ![1, 0] ei slices_S2x1600000_S1x1600000_1_0) shapeCasts_S1x1600000_S1600000
/-- An index vector as a one-column matrix of start indices. -/
def col (v : IVec S1600000 32) : IVec S1600000x1 32 := broadcastInDim S1600000x1 ![0] bcast_S1600000_S1600000x1_0 v
/-- Python's negative indexing: a negative index counts from the end, N = 50000. -/
def wrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 50000#32))) s

/-! ## The B-spline coefficients of an edge -/

/-- The pseudo-coordinates as a vector over the edges. -/
def pseudo (ea : FVec F S1600000x1 .f32) : FVec F S1600000 .f32 := shapeCast S1600000 ea shapeCasts_S1600000x1_S1600000
/-- p = 4 · min(1, max(0, a)). -/
def pos (a : FVec F S1600000 .f32) : FVec F S1600000 .f32 :=
  mulf (minimumf (broadcastInDim S1600000 ![] bcast_S_S1600000 (constant S_ .f32 0x3F800000#32))
      (maximumf (broadcastInDim S1600000 ![] bcast_S_S1600000 (constant S_ .f32 0x00000000#32)) a))
    (broadcastInDim S1600000 ![] bcast_S_S1600000 (constant S_ .f32 0x40800000#32))
/-- The knot min(3, max(0, floor p)) as an integer. -/
def knot (a : FVec F S1600000 .f32) : IVec S1600000 32 :=
  fptosi 32 (minimumf (broadcastInDim S1600000 ![] bcast_S_S1600000 (sitofp .f32 (constantI S_ 32 3#32)))
    (maximumf (broadcastInDim S1600000 ![] bcast_S_S1600000 (sitofp .f32 (constantI S_ 32 0#32))) (Host.floor (pos a))))
/-- f = p - knot. -/
def frac (a : FVec F S1600000 .f32) : FVec F S1600000 .f32 := subf (pos a) (sitofp .f32 (knot a))
/-- Tap k's coefficient: (1 - f where knot = k, else 0) + (f where knot + 1 = k, else 0). -/
def coef (a : FVec F S1600000 .f32) (k : BitVec 32) : FVec F S1600000 .f32 :=
  addf
    (select (cmpi .eq (knot a) (broadcastInDim S1600000 ![] bcast_S_S1600000 (constantI S_ 32 k)))
      (subf (broadcastInDim S1600000 ![] bcast_S_S1600000 (constant S_ .f32 0x3F800000#32)) (frac a))
      (broadcastInDim S1600000 ![] bcast_S_S1600000 (constant S_ .f32 0x00000000#32)))
    (select (cmpi .eq (addi (knot a) (broadcastInDim S1600000 ![] bcast_S_S1600000 (constantI S_ 32 1#32)))
        (broadcastInDim S1600000 ![] bcast_S_S1600000 (constantI S_ 32 k)))
      (frac a)
      (broadcastInDim S1600000 ![] bcast_S_S1600000 (constant S_ .f32 0x00000000#32)))

/-! ## Layer 1's messages: E × 32 -/

/-- A coefficient vector times a per-edge product, row by row. -/
def tap32 (c : FVec F S1600000 .f32) (d : FVec F S1600000x32 .f32) : FVec F S1600000x32 .f32 :=
  mulf (broadcastInDim S1600000x32 ![0, 1] bcast_S1600000x1_S1600000x32_0_1
    (broadcastInDim S1600000x1 ![0] bcast_S1600000_S1600000x1_0 c)) d
def w1_0 (W1 : FVec F S5x1x32 .f32) : FVec F S1x32 .f32 :=
  shapeCast S1x32 (extractStridedSlice S1x1x32 ![0, 0, 0] W1 slices_S5x1x32_S1x1x32_0_0_0) shapeCasts_S1x1x32_S1x32
def w1_1 (W1 : FVec F S5x1x32 .f32) : FVec F S1x32 .f32 :=
  shapeCast S1x32 (extractStridedSlice S1x1x32 ![1, 0, 0] W1 slices_S5x1x32_S1x1x32_1_0_0) shapeCasts_S1x1x32_S1x32
def w1_2 (W1 : FVec F S5x1x32 .f32) : FVec F S1x32 .f32 :=
  shapeCast S1x32 (extractStridedSlice S1x1x32 ![2, 0, 0] W1 slices_S5x1x32_S1x1x32_2_0_0) shapeCasts_S1x1x32_S1x32
def w1_3 (W1 : FVec F S5x1x32 .f32) : FVec F S1x32 .f32 :=
  shapeCast S1x32 (extractStridedSlice S1x1x32 ![3, 0, 0] W1 slices_S5x1x32_S1x1x32_3_0_0) shapeCasts_S1x1x32_S1x32
def w1_4 (W1 : FVec F S5x1x32 .f32) : FVec F S1x32 .f32 :=
  shapeCast S1x32 (extractStridedSlice S1x1x32 ![4, 0, 0] W1 slices_S5x1x32_S1x1x32_4_0_0) shapeCasts_S1x1x32_S1x32
/-- Edge e, channel o: the sum over the five taps of coef_k(e) · (xs(e) · W1[k, 0, o]), added up from zero in tap order. -/
def msg1 (xs : FVec F S1600000x1 .f32) (a : FVec F S1600000 .f32) (W1 : FVec F S5x1x32 .f32) : FVec F S1600000x32 .f32 :=
  addf (addf (addf (addf (addf
    (broadcastInDim S1600000x32 ![] bcast_S_S1600000x32 (constant S_ .f32 0x00000000#32))
    (tap32 (coef a 0#32) (Host.dotGeneral dot_S1600000x1_S1x32_S1600000x32_1_0_0_1_n_n none xs (w1_0 W1))))
    (tap32 (coef a 1#32) (Host.dotGeneral dot_S1600000x1_S1x32_S1600000x32_1_0_0_1_n_n none xs (w1_1 W1))))
    (tap32 (coef a 2#32) (Host.dotGeneral dot_S1600000x1_S1x32_S1600000x32_1_0_0_1_n_n none xs (w1_2 W1))))
    (tap32 (coef a 3#32) (Host.dotGeneral dot_S1600000x1_S1x32_S1600000x32_1_0_0_1_n_n none xs (w1_3 W1))))
    (tap32 (coef a 4#32) (Host.dotGeneral dot_S1600000x1_S1x32_S1600000x32_1_0_0_1_n_n none xs (w1_4 W1)))

/-! ## Layer 2's messages: E × 64 -/

def tap64 (c : FVec F S1600000 .f32) (d : FVec F S1600000x64 .f32) : FVec F S1600000x64 .f32 :=
  mulf (broadcastInDim S1600000x64 ![0, 1] bcast_S1600000x1_S1600000x64_0_1
    (broadcastInDim S1600000x1 ![0] bcast_S1600000_S1600000x1_0 c)) d
def w2_0 (W2 : FVec F S5x32x64 .f32) : FVec F S32x64 .f32 :=
  shapeCast S32x64 (extractStridedSlice S1x32x64 ![0, 0, 0] W2 slices_S5x32x64_S1x32x64_0_0_0) shapeCasts_S1x32x64_S32x64
def w2_1 (W2 : FVec F S5x32x64 .f32) : FVec F S32x64 .f32 :=
  shapeCast S32x64 (extractStridedSlice S1x32x64 ![1, 0, 0] W2 slices_S5x32x64_S1x32x64_1_0_0) shapeCasts_S1x32x64_S32x64
def w2_2 (W2 : FVec F S5x32x64 .f32) : FVec F S32x64 .f32 :=
  shapeCast S32x64 (extractStridedSlice S1x32x64 ![2, 0, 0] W2 slices_S5x32x64_S1x32x64_2_0_0) shapeCasts_S1x32x64_S32x64
def w2_3 (W2 : FVec F S5x32x64 .f32) : FVec F S32x64 .f32 :=
  shapeCast S32x64 (extractStridedSlice S1x32x64 ![3, 0, 0] W2 slices_S5x32x64_S1x32x64_3_0_0) shapeCasts_S1x32x64_S32x64
def w2_4 (W2 : FVec F S5x32x64 .f32) : FVec F S32x64 .f32 :=
  shapeCast S32x64 (extractStridedSlice S1x32x64 ![4, 0, 0] W2 slices_S5x32x64_S1x32x64_4_0_0) shapeCasts_S1x32x64_S32x64
/-- Edge e, channel o: the sum over the five taps of coef_k(e) · Σ_j xs(e, j) · W2[k, j, o]. -/
def msg2 (xs : FVec F S1600000x32 .f32) (a : FVec F S1600000 .f32) (W2 : FVec F S5x32x64 .f32) : FVec F S1600000x64 .f32 :=
  addf (addf (addf (addf (addf
    (broadcastInDim S1600000x64 ![] bcast_S_S1600000x64 (constant S_ .f32 0x00000000#32))
    (tap64 (coef a 0#32) (Host.dotGeneral dot_S1600000x32_S32x64_S1600000x64_1_0_0_1_n_n none xs (w2_0 W2))))
    (tap64 (coef a 1#32) (Host.dotGeneral dot_S1600000x32_S32x64_S1600000x64_1_0_0_1_n_n none xs (w2_1 W2))))
    (tap64 (coef a 2#32) (Host.dotGeneral dot_S1600000x32_S32x64_S1600000x64_1_0_0_1_n_n none xs (w2_2 W2))))
    (tap64 (coef a 3#32) (Host.dotGeneral dot_S1600000x32_S32x64_S1600000x64_1_0_0_1_n_n none xs (w2_3 W2))))
    (tap64 (coef a 4#32) (Host.dotGeneral dot_S1600000x32_S32x64_S1600000x64_1_0_0_1_n_n none xs (w2_4 W2)))

/-! ## Aggregation over the edges that end in a node -/

/-- max(in-degree, 1) as an N × 1 column. An edge whose target is out of range is dropped by the sum. -/
def deg (d : IVec S1600000 32) : FVec F S50000x1 .f32 :=
  broadcastInDim S50000x1 ![0] bcast_S50000_S50000x1_0
    (maximumf
      (Host.scatterAdd scatter_S50000_S1600000x1_S1600000_n_0_0_1
        (broadcastInDim S50000 ![] bcast_S_S50000 (constant S_ .f32 0x00000000#32)) (col d)
        (broadcastInDim S1600000 ![] bcast_S_S1600000 (constant S_ .f32 0x3F800000#32)))
      (broadcastInDim S50000 ![] bcast_S_S50000 (constant S_ .f32 0x3F800000#32)))
/-- The messages summed into their target nodes, 32 channels. -/
def agg32 (d : IVec S1600000 32) (msg : FVec F S1600000x32 .f32) : FVec F S50000x32 .f32 :=
  Host.scatterAdd scatter_S50000x32_S1600000x1_S1600000x32_1_0_0_1
    (broadcastInDim S50000x32 ![] bcast_S_S50000x32 (constant S_ .f32 0x00000000#32)) (col d) msg
/-- The messages summed into their target nodes, 64 channels. -/
def agg64 (d : IVec S1600000 32) (msg : FVec F S1600000x64 .f32) : FVec F S50000x64 .f32 :=
  Host.scatterAdd scatter_S50000x64_S1600000x1_S1600000x64_1_0_0_1
    (broadcastInDim S50000x64 ![] bcast_S_S50000x64 (constant S_ .f32 0x00000000#32)) (col d) msg

/-! ## ELU: y where y > 0, else 1 · (exp(y) - 1), the exponential taken of min(y, 0) -/

def elu32 (y : FVec F S50000x32 .f32) : FVec F S50000x32 .f32 :=
  select (cmpf .ogt y (broadcastInDim S50000x32 ![] bcast_S_S50000x32 (constant S_ .f32 0x00000000#32))) y
    (mulf (broadcastInDim S50000x32 ![] bcast_S_S50000x32 (constant S_ .f32 0x3F800000#32))
      (Host.expm1 (select (cmpf .ogt y (broadcastInDim S50000x32 ![] bcast_S_S50000x32 (constant S_ .f32 0x00000000#32)))
        (broadcastInDim S50000x32 ![] bcast_S_S50000x32 (constant S_ .f32 0x00000000#32)) y)))
def elu64 (y : FVec F S50000x64 .f32) : FVec F S50000x64 .f32 :=
  select (cmpf .ogt y (broadcastInDim S50000x64 ![] bcast_S_S50000x64 (constant S_ .f32 0x00000000#32))) y
    (mulf (broadcastInDim S50000x64 ![] bcast_S_S50000x64 (constant S_ .f32 0x3F800000#32))
      (Host.expm1 (select (cmpf .ogt y (broadcastInDim S50000x64 ![] bcast_S_S50000x64 (constant S_ .f32 0x00000000#32)))
        (broadcastInDim S50000x64 ![] bcast_S_S50000x64 (constant S_ .f32 0x00000000#32)) y)))
def elu128 (y : FVec F S50000x128 .f32) : FVec F S50000x128 .f32 :=
  select (cmpf .ogt y (broadcastInDim S50000x128 ![] bcast_S_S50000x128 (constant S_ .f32 0x00000000#32))) y
    (mulf (broadcastInDim S50000x128 ![] bcast_S_S50000x128 (constant S_ .f32 0x3F800000#32))
      (Host.expm1 (select (cmpf .ogt y (broadcastInDim S50000x128 ![] bcast_S_S50000x128 (constant S_ .f32 0x00000000#32)))
        (broadcastInDim S50000x128 ![] bcast_S_S50000x128 (constant S_ .f32 0x00000000#32)) y)))

/-! ## The node-side stages -/

/-- Layer 1 on the nodes: ELU(agg / deg + x · root1 + b1), the bias given as a 1 × 32 row. -/
def layer1 (x : FVec F S50000x1 .f32) (root1 : FVec F S1x32 .f32) (b1r : FVec F S1x32 .f32)
    (agg : FVec F S50000x32 .f32) (degc : FVec F S50000x1 .f32) : FVec F S50000x32 .f32 :=
  elu32 (addf (addf
    (Host.divf agg (broadcastInDim S50000x32 ![0, 1] bcast_S50000x1_S50000x32_0_1 degc))
    (Host.dotGeneral dot_S50000x1_S1x32_S50000x32_1_0_0_1_n_n none x root1))
    (broadcastInDim S50000x32 ![0, 1] bcast_S1x32_S50000x32_0_1 b1r))

/-- Row-wise log-softmax over the 10 classes: shifted by the row maximum, minus the log of the sum of exponentials. -/
def logSoftmax (z : FVec F S50000x10 .f32) : FVec F S50000x10 .f32 :=
  subf
    (subf z (broadcastInDim S50000x10 ![0, 1] bcast_S50000x1_S50000x10_0_1 (broadcastInDim S50000x1 ![0] bcast_S50000_S50000x1_0
      (maximumf (broadcastInDim S50000 ![] bcast_S_S50000 (constant S_ .f32 0xFF800000#32))
        (Host.reduce FloatOps.maximumf z (constant S_ .f32 0xFF800000#32) reducesTo_S50000x10_S50000_d1 h_S_)))))
    (broadcastInDim S50000x10 ![0, 1] bcast_S50000x1_S50000x10_0_1 (Host.log (broadcastInDim S50000x1 ![0] bcast_S50000_S50000x1_0
      (Host.reduceAdd
        (Host.exp (subf z (broadcastInDim S50000x10 ![0, 1] bcast_S50000x1_S50000x10_0_1 (broadcastInDim S50000x1 ![0] bcast_S50000_S50000x1_0
          (maximumf (broadcastInDim S50000 ![] bcast_S_S50000 (constant S_ .f32 0xFF800000#32))
            (Host.reduce FloatOps.maximumf z (constant S_ .f32 0xFF800000#32) reducesTo_S50000x10_S50000_d1 h_S_))))))
        (constant S_ .f32 0x00000000#32) reducesTo_S50000x10_S50000_d1 h_S_))))

/-- Layer 2 on the nodes and the dense tail: log-softmax(ELU(ELU(agg2 / deg + h1 · root2 + b2) · lw1 + lb1) · lw2 + lb2),
    the three biases given as rows. -/
def tail (h1 : FVec F S50000x32 .f32) (root2 : FVec F S32x64 .f32) (b2r : FVec F S1x64 .f32)
    (agg2 : FVec F S50000x64 .f32) (degc : FVec F S50000x1 .f32) (lw1 : FVec F S64x128 .f32) (lb1r : FVec F S1x128 .f32)
    (lw2 : FVec F S128x10 .f32) (lb2r : FVec F S1x10 .f32) : FVec F S50000x10 .f32 :=
  logSoftmax (addf
    (Host.dotGeneral dot_S50000x128_S128x10_S50000x10_1_0_0_1_n_n none
      (elu128 (addf
        (Host.dotGeneral dot_S50000x64_S64x128_S50000x128_1_0_0_1_n_n none
          (elu64 (addf (addf
            (Host.divf agg2 (broadcastInDim S50000x64 ![0, 1] bcast_S50000x1_S50000x64_0_1 degc))
            (Host.dotGeneral dot_S50000x32_S32x64_S50000x64_1_0_0_1_n_n none h1 root2))
            (broadcastInDim S50000x64 ![0, 1] bcast_S1x64_S50000x64_0_1 b2r)))
          lw1)
        (broadcastInDim S50000x128 ![0, 1] bcast_S1x128_S50000x128_0_1 lb1r)))
      lw2)
    (broadcastInDim S50000x10 ![0, 1] bcast_S1x10_S50000x10_0_1 lb2r))

/-! ## The whole network -/

/-- The first layer's node features, N × 32. -/
def hidden (x : FVec F S50000x1 .f32) (ei : IVec S2x1600000 32) (ea : FVec F S1600000x1 .f32) (W1 : FVec F S5x1x32 .f32)
    (root1 : FVec F S1x32 .f32) (b1 : FVec F S32 .f32) : FVec F S50000x32 .f32 :=
  layer1 x root1 (broadcastInDim S1x32 ![1] bcast_S32_S1x32_1 b1)
    (agg32 (dst ei) (msg1 (Host.gather gather_S50000x1_S1600000x1_S1600000x1_1_0_n_n_0_1_11 x (col (wrap (src ei)))) (pseudo ea) W1))
    (deg (dst ei))

/-- The network's result, N × 10. -/
def out (x : FVec F S50000x1 .f32) (ei : IVec S2x1600000 32) (ea : FVec F S1600000x1 .f32) (W1 : FVec F S5x1x32 .f32)
    (root1 : FVec F S1x32 .f32) (b1 : FVec F S32 .f32) (W2 : FVec F S5x32x64 .f32) (root2 : FVec F S32x64 .f32) (b2 : FVec F S64 .f32)
    (lw1 : FVec F S64x128 .f32) (lb1 : FVec F S128 .f32) (lw2 : FVec F S128x10 .f32) (lb2 : FVec F S10 .f32) : FVec F S50000x10 .f32 :=
  tail (hidden x ei ea W1 root1 b1) root2 (broadcastInDim S1x64 ![1] bcast_S64_S1x64_1 b2)
    (agg64 (dst ei) (msg2 (Host.gather gather_S50000x32_S1600000x1_S1600000x32_1_0_n_n_0_1_132 (hidden x ei ea W1 root1 b1) (col (wrap (src ei)))) (pseudo ea) W2))
    (deg (dst ei)) lw1 (broadcastInDim S1x128 ![1] bcast_S128_S1x128_1 lb1) lw2 (broadcastInDim S1x10 ![1] bcast_S10_S1x10_1 lb2)

end Cert.Spec

end
-- ==== Proof.PreFacts.lean ====
/-
  What the precondition gives, and what it is used for.

  The added conjunct says every source index (row 0 of the edge list) lies in [0, 50000). The kernel program reads
  node features at the sources through a take that first wraps a negative index, then tests the wrapped index against
  [0, 49999] and answers a fill value where the test fails; the reference reads them through the bare gather of the
  wrapped index. With every source in range nothing is wrapped, the test passes on every edge, and the two reads are
  the same gather.
-/
import proofs.«402775_j5308579578323_4_alg».proof.Defs
import proofs.«402775_j5308579578323_4_alg».proof.Proof.Gen.KernelIdeal
import proofs.«402775_j5308579578323_4_alg».proof.Proof.Gen.Pre_finite_inputs
import proofs.«402775_j5308579578323_4_alg».proof.Proof.Spec
import Idealize.ShloMosaic.PureOps.Ideal
import Idealize.ShloMosaic.Lib.ReduceAll
import Idealize.ShloMosaic.Lib.ValueIdx

noncomputable section

/-! ## The kernel program's take, operation by operation -/

namespace Cert.KSpec

open Idealize.ShloMosaic Cert.KernelIdeal Cert.KernelIdeal.Facts₀ Cert.KernelIdeal.Facts

variable {F : FTy → Type} [FloatOps F]

/-- The wrapped source index as a one-column matrix of start indices. -/
def idx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 50000#32))) s)
/-- Per edge: is the wrapped index in [0, 49999]? -/
def inb (s : IVec S1600000 32) : IVec S1600000 1 :=
  Host.reduce IntOp.andi
    (andi (cmpi .sge (idx s) (broadcastInDim S1600000x1 ![] bcast_S_S1600000x1 (constantI S_ 32 0#32)))
      (cmpi .sle (idx s) (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_
/-- The take of a one-column table: the gathered row where the index is in range, the fill value elsewhere. -/
def take1 (x : FVec F S50000x1 .f32) (s : IVec S1600000 32) : FVec F S1600000x1 .f32 :=
  select (broadcastInDim S1600000x1 ![0] bcast_S1600000_S1600000x1_0 (inb s))
    (Host.gather gather_S50000x1_S1600000x1_S1600000x1_1_0_n_n_0_1_11 x (idx s))
    (broadcastInDim S1600000x1 ![] bcast_S_S1600000x1 (constant S_ .f32 0x7FC00000#32))
/-- The take of a 32-column table. -/
def take32 (h : FVec F S50000x32 .f32) (s : IVec S1600000 32) : FVec F S1600000x32 .f32 :=
  select (broadcastInDim S1600000x32 ![0] bcast_S1600000_S1600000x32_0 (inb s))
    (Host.gather gather_S50000x32_S1600000x1_S1600000x32_1_0_n_n_0_1_132 h (idx s))
    (broadcastInDim S1600000x32 ![] bcast_S_S1600000x32 (constant S_ .f32 0x7FC00000#32))

end Cert.KSpec

namespace Cert.PreFacts

open Idealize.ShloMosaic Idealize.SL.Sem

/-- The scalar shape has one index. -/
instance : Subsingleton Cert.Pre_finite_inputs.S_.Idx := ⟨fun a b => funext fun d => d.elim0⟩

/-- Under the precondition every source index is in range: the predicate is a conjunction of one-bit words, its last
    conjunct the conjunction over all edges e of (0 ≤ src e) and (src e < 50000), both compared signed. -/
theorem src_inrange (m : (ℓ : Loc Cert.KernelIdeal.nD Cert.KernelIdeal.τ Cert.KernelIdeal.sig) → Buf (Elt Ideal) ℓ)
    (h : Cert.Pre_KernelIdeal m) (c : Dev Cert.KernelIdeal.nD) (e : Cert.ReferenceIdeal.S1600000.Idx) :
    0 ≤ (Cert.Spec.src (m ((c.tc : Thread Cert.KernelIdeal.nD Cert.KernelIdeal.τ).loc Cert.KernelIdeal.main_arg1)) e).toInt
      ∧ (Cert.Spec.src (m ((c.tc : Thread Cert.KernelIdeal.nD Cert.KernelIdeal.τ).loc Cert.KernelIdeal.main_arg1)) e).toInt < 50000 := by
  have hp := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at hp
  -- the last conjunct, then its element at edge e, then the two compares
  have hall := (IntOp.andi_eq_one.1 hp).2
  have hedge := Host.reduce_andi_all _ _ _ _ _ hall e
  obtain ⟨hge, hlt⟩ := IntOp.andi_eq_one.1 hedge
  have z0 : (0#32 : BitVec 32).toInt = 0 := by decide
  have z5 : (50000#32 : BitVec 32).toInt = 50000 := by decide
  have h1 : (0#32 : BitVec 32).toInt ≤ _ := IntOp.cmpi_sge.1 hge
  have h2 : _ < (50000#32 : BitVec 32).toInt := IntOp.cmpi_slt.1 hlt
  rw [z0] at h1
  rw [z5] at h2
  exact ⟨h1, h2⟩

/-- A nonnegative index is not wrapped. -/
theorem wrap_eq (s : IVec Cert.ReferenceIdeal.S1600000 32) (hs : ∀ e, 0 ≤ (s e).toInt ∧ (s e).toInt < 50000) :
    Cert.Spec.wrap s = s := by
  funext e
  have z0 : (0#32 : BitVec 32).toInt = 0 := by decide
  have hn : ¬ IntOp.cmpi .slt (s e) 0#32 = 1#1 := by
    rw [IntOp.cmpi_slt, z0]; have := (hs e).1; omega
  exact if_neg hn

/-- The kernel program's start indices are the reference's: the same operations on the same vector. -/
theorem idx_eq (s : IVec Cert.ReferenceIdeal.S1600000 32) : Cert.KSpec.idx s = Cert.Spec.col (Cert.Spec.wrap s) := rfl

/-- A conjunction of ones, started at one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- With every source in range the range test passes on every edge. -/
theorem inb_eq (s : IVec Cert.ReferenceIdeal.S1600000 32) (hs : ∀ e, 0 ≤ (s e).toInt ∧ (s e).toInt < 50000) :
    Cert.KSpec.inb s = fun _ => 1#1 := by
  funext j
  have z0 : (0#32 : BitVec 32).toInt = 0 := by decide
  have z9 : (49999#32 : BitVec 32).toInt = 49999 := by decide
  unfold Cert.KSpec.inb
  rw [idx_eq, wrap_eq s hs, Host.reduce_eq_foldl]
  refine foldl_andi_ones _ (fun i => ?_) _
  refine IntOp.andi_eq_one.2 ⟨IntOp.cmpi_sge.2 ?_, IntOp.cmpi_sle.2 ?_⟩
  · show (0#32 : BitVec 32).toInt ≤ (s _).toInt
    rw [z0]; exact (hs _).1
  · have hi : ∀ k, (s k).toInt ≤ 49999 := fun k => by have := (hs k).2; omega
    show (s _).toInt ≤ (49999#32 : BitVec 32).toInt
    rw [z9]; exact hi _

/-- With every source in range the take of the one-column table is the bare gather at the wrapped index. -/
theorem take1_eq (x : FVec Ideal Cert.ReferenceIdeal.S50000x1 .f32) (s : IVec Cert.ReferenceIdeal.S1600000 32)
    (hs : ∀ e, 0 ≤ (s e).toInt ∧ (s e).toInt < 50000) :
    Cert.KSpec.take1 (F := Ideal) x s
      = Host.gather Cert.ReferenceIdeal.gather_S50000x1_S1600000x1_S1600000x1_1_0_n_n_0_1_11 x (Cert.Spec.col (Cert.Spec.wrap s)) := by
  unfold Cert.KSpec.take1
  rw [inb_eq s hs, idx_eq]
  funext j
  show Scalar.select 1#1 (Host.gather Cert.ReferenceIdeal.gather_S50000x1_S1600000x1_S1600000x1_1_0_n_n_0_1_11 x
    (Cert.Spec.col (Cert.Spec.wrap s)) j) _ = _
  exact ValueIdx.select_one _ _

/-- The same for the 32-column table. -/
theorem take32_eq (h : FVec Ideal Cert.ReferenceIdeal.S50000x32 .f32) (s : IVec Cert.ReferenceIdeal.S1600000 32)
    (hs : ∀ e, 0 ≤ (s e).toInt ∧ (s e).toInt < 50000) :
    Cert.KSpec.take32 (F := Ideal) h s
      = Host.gather Cert.ReferenceIdeal.gather_S50000x32_S1600000x1_S1600000x32_1_0_n_n_0_1_132 h (Cert.Spec.col (Cert.Spec.wrap s)) := by
  unfold Cert.KSpec.take32
  rw [inb_eq s hs, idx_eq]
  funext j
  show Scalar.select 1#1 (Host.gather Cert.ReferenceIdeal.gather_S50000x32_S1600000x1_S1600000x32_1_0_n_n_0_1_132 h
    (Cert.Spec.col (Cert.Spec.wrap s)) j) _ = _
  exact ValueIdx.select_one _ _

end Cert.PreFacts

end
-- ==== Proof.CoefFacts.lean ====
/-
  The B-spline coefficients are weights: for every edge and every tap, the coefficient is a real number in [0, 1].

  p = 4 · min(1, max(0, a)) lies in [0, 4] whatever the extended real a is; the knot min(3, max(0, floor p)) is one of
  0, 1, 2, 3 and survives the round trip through a 32-bit integer; so the fraction f = p - knot lies in [0, 1], and a
  coefficient is a sum of two terms each of which is 0, f or 1 - f, of which at most one is not 0.

  A factor that is nonnegative and not +∞ distributes over every finite sum of extended reals (a negative factor does
  not: it turns +∞ + -∞ = -∞ into -∞ + +∞).
-/
import proofs.«402775_j5308579578323_4_alg».proof.Proof.Spec
import Idealize.ShloMosaic.PureOps.Ideal

noncomputable section

namespace Cert.CoefFacts

open Idealize.ShloMosaic Cert.ReferenceIdeal

/-! ## The constants of the coefficient formula as extended reals -/

theorem zero_f32 : FloatOps.ofBits (F := Ideal) .f32 0x00000000#32 = ((0 : ℝ) : EReal) := by
  simp [Ideal.ofBits, Ideal.ieee]
theorem one_f32 : FloatOps.ofBits (F := Ideal) .f32 0x3F800000#32 = ((1 : ℝ) : EReal) := by
  simp [Ideal.ofBits, Ideal.ieee, -EReal.coe_mul]; norm_num
theorem four_f32 : FloatOps.ofBits (F := Ideal) .f32 0x40800000#32 = ((4 : ℝ) : EReal) := by
  simp [Ideal.ofBits, Ideal.ieee, -EReal.coe_mul]; norm_num
theorem sitofp_zero : FloatOps.sitofp (F := Ideal) .f32 (0#32 : BitVec 32) = ((0 : ℝ) : EReal) := by
  show (((0#32 : BitVec 32).toInt : ℝ) : EReal) = _
  have h : (0#32 : BitVec 32).toInt = 0 := by decide
  rw [h, Int.cast_zero]
theorem sitofp_three : FloatOps.sitofp (F := Ideal) .f32 (3#32 : BitVec 32) = ((3 : ℝ) : EReal) := by
  show (((3#32 : BitVec 32).toInt : ℝ) : EReal) = _
  have h : (3#32 : BitVec 32).toInt = 3 := by decide
  rw [h]; norm_num

/-- The inclusion of the reals is monotone, so it commutes with max and min. -/
theorem real_coe_max (r s : ℝ) : ((max r s : ℝ) : EReal) = max (r : EReal) (s : EReal) :=
  EReal.coe_strictMono.monotone.map_max
theorem real_coe_min (r s : ℝ) : ((min r s : ℝ) : EReal) = min (r : EReal) (s : EReal) :=
  EReal.coe_strictMono.monotone.map_min

/-! ## The formula at one extended real -/

/-- p = 4 · min(1, max(0, x)). -/
def posAt (x : EReal) : EReal := min ((1 : ℝ) : EReal) (max ((0 : ℝ) : EReal) x) * ((4 : ℝ) : EReal)
/-- The knot min(3, max(0, floor p)) as a 32-bit integer. -/
def knotAt (x : EReal) : BitVec 32 :=
  Ideal.fptosi 32 (min ((3 : ℝ) : EReal) (max ((0 : ℝ) : EReal) (Ideal.liftRound Int.floor (posAt x))))
/-- f = p - knot. -/
def fracAt (x : EReal) : EReal := posAt x - (((knotAt x).toInt : ℝ) : EReal)

/-- The coefficient array read at an edge is the scalar formula at that edge's pseudo-coordinate. -/
theorem coef_at (a : FVec Ideal S1600000 .f32) (k : BitVec 32) (e : S1600000.Idx) :
    Cert.Spec.coef (F := Ideal) a k e =
      Scalar.select (IntOp.cmpi .eq (knotAt (a e)) k) (((1 : ℝ) : EReal) - fracAt (a e)) ((0 : ℝ) : EReal)
        + Scalar.select (IntOp.cmpi .eq (IntOp.addi (knotAt (a e)) 1#32) k) (fracAt (a e)) ((0 : ℝ) : EReal) := by
  simp only [Cert.Spec.coef, Cert.Spec.knot, Cert.Spec.frac, Cert.Spec.pos, addf, select, cmpi, subf, mulf, minimumf,
    maximumf, fptosi, sitofp, Host.floor, addi, broadcastInDim, constant, constantI]
  simp only [zero_f32, one_f32, four_f32, sitofp_zero, sitofp_three]
  rfl

/-- p is a real number in [0, 4]. -/
theorem posAt_real (x : EReal) : ∃ t : ℝ, 0 ≤ t ∧ t ≤ 4 ∧ posAt x = (t : EReal) := by
  have hm : ∃ r : ℝ, 0 ≤ r ∧ r ≤ 1 ∧ min ((1 : ℝ) : EReal) (max ((0 : ℝ) : EReal) x) = (r : EReal) := by
    induction x using EReal.rec with
    | bot => exact ⟨0, le_rfl, zero_le_one, by simp⟩
    | coe r =>
      refine ⟨min 1 (max 0 r), le_min zero_le_one (le_max_left _ _), min_le_left _ _, ?_⟩
      rw [real_coe_min, real_coe_max]
    | top => exact ⟨1, zero_le_one, le_rfl, by simp⟩
  obtain ⟨r, h0, h1, hr⟩ := hm
  refine ⟨r * 4, by linarith, by linarith, ?_⟩
  rw [posAt, hr, EReal.coe_mul]

/-- A real integer between 0 and 3 survives the conversion to a 32-bit integer. -/
theorem fptosi_toInt (q : ℤ) (h0 : 0 ≤ q) (h3 : q ≤ 3) : (Ideal.fptosi 32 (((q : ℤ) : ℝ) : EReal)).toInt = q := by
  have hr : (0 : ℝ) ≤ ((q : ℤ) : ℝ) := by exact_mod_cast h0
  rw [Ideal.fptosi, Ideal.toIntClamped_coe, if_pos hr, Int.floor_intCast, BitVec.toInt_ofInt]
  have hq : q = 0 ∨ q = 1 ∨ q = 2 ∨ q = 3 := by omega
  rcases hq with rfl | rfl | rfl | rfl <;> decide

/-- The fraction is a real number in [0, 1]. -/
theorem fracAt_real (x : EReal) : ∃ g : ℝ, 0 ≤ g ∧ g ≤ 1 ∧ fracAt x = (g : EReal) := by
  obtain ⟨t, h0, h4, ht⟩ := posAt_real x
  have hn0 : 0 ≤ ⌊t⌋ := Int.floor_nonneg.mpr h0
  have hq : min ((3 : ℝ) : EReal) (max ((0 : ℝ) : EReal) (Ideal.liftRound Int.floor (posAt x)))
      = (((min 3 (max 0 ⌊t⌋) : ℤ) : ℝ) : EReal) := by
    rw [ht, Ideal.liftRound_coe, ← real_coe_max, ← real_coe_min]
    congr 1
    push_cast
    rfl
  have hk : ((knotAt x).toInt : ℤ) = min 3 (max 0 ⌊t⌋) := by
    rw [knotAt, hq]
    exact fptosi_toInt _ (le_min (by norm_num) (le_max_left _ _)) (min_le_left _ _)
  refine ⟨t - ((min 3 (max 0 ⌊t⌋) : ℤ) : ℝ), ?_, ?_, ?_⟩
  · have h1 : ((min 3 (max 0 ⌊t⌋) : ℤ) : ℝ) ≤ ((⌊t⌋ : ℤ) : ℝ) := by
      exact_mod_cast (min_le_right _ _).trans (le_of_eq (max_eq_right hn0))
    have h2 := Int.floor_le t
    linarith
  · by_cases h : ⌊t⌋ ≤ 3
    · have h1 : min 3 (max 0 ⌊t⌋) = ⌊t⌋ := by rw [max_eq_right hn0, min_eq_right h]
      rw [h1]
      have h2 := Int.lt_floor_add_one t
      linarith
    · have h1 : min 3 (max 0 ⌊t⌋) = 3 := by rw [max_eq_right hn0, min_eq_left (by omega)]
      rw [h1]
      push_cast
      linarith
  · rw [fracAt, ht, hk, EReal.coe_sub]

/-- One term of a coefficient: a real number that is not negative. -/
theorem term_real (c : BitVec 1) (s : ℝ) (hs : 0 ≤ s) :
    ∃ u : ℝ, 0 ≤ u ∧ Scalar.select c (s : EReal) ((0 : ℝ) : EReal) = (u : EReal) := by
  unfold Scalar.select
  split_ifs
  · exact ⟨s, hs, rfl⟩
  · exact ⟨0, le_rfl, rfl⟩

/-- Every coefficient is nonnegative and not +∞. -/
theorem coef_weight (a : FVec Ideal S1600000 .f32) (k : BitVec 32) (e : S1600000.Idx) :
    (0 : EReal) ≤ Cert.Spec.coef (F := Ideal) a k e ∧ Cert.Spec.coef (F := Ideal) a k e ≠ ⊤ := by
  obtain ⟨g, h0, h1, hg⟩ := fracAt_real (a e)
  rw [coef_at, hg, ← EReal.coe_sub]
  obtain ⟨u, hu, hu'⟩ := term_real (IntOp.cmpi .eq (knotAt (a e)) k) (1 - g) (by linarith)
  obtain ⟨v, hv, hv'⟩ := term_real (IntOp.cmpi .eq (IntOp.addi (knotAt (a e)) 1#32) k) g h0
  rw [hu', hv', ← EReal.coe_add]
  exact ⟨EReal.coe_nonneg.mpr (by linarith), EReal.coe_ne_top _⟩

/-- A nonnegative factor other than +∞ distributes over a finite sum of extended reals. -/
theorem mul_sum {ι : Type} (s : Finset ι) (c : EReal) (hc : 0 ≤ c) (hc' : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

end Cert.CoefFacts

end
-- ==== Proof.CoefKernel.lean ====
/-
  The two message kernels and the reference compute one coefficient: a function of the edge's pseudo-coordinate alone.

  Both kernels hold a block of 4000 pseudo-coordinates as a 4000 × 1 column and run the same chain on it: p = 4 · min(1,
  max(0, a)), the knot min(3, max(0, floor p)) as an integer, the fraction f = p - knot, and for tap k the coefficient
  (1 - f where knot = k, else 0) + (f where knot + 1 = k, else 0). The reference runs the chain on the whole vector of
  1600000 pseudo-coordinates. Read at a row, each is the scalar formula at that row's pseudo-coordinate.
-/
import proofs.«402775_j5308579578323_4_alg».proof.Proof.Gen.KernelIdeal.Skeleton
import proofs.«402775_j5308579578323_4_alg».proof.Proof.CoefFacts
import Idealize.ShloMosaic.Lib.ValueIdx
import Idealize.ShloMosaic.Lib.Pipeline.Value

noncomputable section

namespace Cert.CoefKernel

open Idealize.ShloMosaic Idealize.ShloMosaic.ValueIdx
open Cert.CoefFacts (knotAt fracAt posAt)

/-- Tap k's coefficient of one pseudo-coordinate: (1 - f if knot = k, else 0) + (f if knot + 1 = k, else 0). -/
def coefAt (x : EReal) (k : BitVec 32) : EReal :=
  Scalar.select (IntOp.cmpi .eq (knotAt x) k) (((1 : ℝ) : EReal) - fracAt x) ((0 : ℝ) : EReal)
    + Scalar.select (IntOp.cmpi .eq (IntOp.addi (knotAt x) 1#32) k) (fracAt x) ((0 : ℝ) : EReal)

/-- A kernel's tap-k coefficient column over its knot column and its fraction column, in the kernel's own operations. -/
def tapVec (v14 : IVec Cert.KernelIdeal.S4000x1 32) (v16 : FVec Ideal Cert.KernelIdeal.S4000x1 .f32) (k : BitVec 32) :
    FVec Ideal Cert.KernelIdeal.S4000x1 .f32 :=
  addf
    (select (cmpi .eq v14 (broadcast Cert.KernelIdeal.S4000x1 k))
      (subf (broadcast Cert.KernelIdeal.S4000x1 (Scalar.ofBits .f32 0x3F800000#32)) v16)
      (broadcast Cert.KernelIdeal.S4000x1 (Scalar.ofBits .f32 0x00000000#32)))
    (select (cmpi .eq (addi v14 (broadcast Cert.KernelIdeal.S4000x1 1#32)) (broadcast Cert.KernelIdeal.S4000x1 k))
      v16
      (broadcast Cert.KernelIdeal.S4000x1 (Scalar.ofBits .f32 0x00000000#32)))

/-! ## The constants on the kernels' scalar unit -/

theorem scalar_sitofp_zero : Scalar.sitofp (F := Ideal) .f32 (0#32 : BitVec 32) = ((0 : ℝ) : EReal) := Cert.CoefFacts.sitofp_zero
theorem scalar_sitofp_three : Scalar.sitofp (F := Ideal) .f32 (3#32 : BitVec 32) = ((3 : ℝ) : EReal) := Cert.CoefFacts.sitofp_three

/-! ## The kernels' columns at a row -/

/-- Layer 1's kernel: the knot column at a row is the knot of that row's pseudo-coordinate. -/
theorem knot0_apply (v0 : Vec Ideal Cert.KernelIdeal.S4000x1 .f32) (j : Cert.KernelIdeal.S4000x1.Idx) :
    Cert.KernelIdeal.Gen.k0_pay2 (F := Ideal) v0 j = knotAt (v0 j) := by
  simp only [Cert.KernelIdeal.Gen.k0_pay2, Cert.KernelIdeal.Gen.k0_pay1, fptosi, minimumf, maximumf, floor, mulf, broadcast]
  simp only [scalar_sitofp_zero, scalar_sitofp_three, Cert.CoefFacts.zero_f32, Cert.CoefFacts.one_f32, Cert.CoefFacts.four_f32]
  rfl
/-- Layer 1's kernel: the fraction column at a row is the fraction of that row's pseudo-coordinate. -/
theorem frac0_apply (v0 : Vec Ideal Cert.KernelIdeal.S4000x1 .f32) (j : Cert.KernelIdeal.S4000x1.Idx) :
    Cert.KernelIdeal.Gen.k0_pay3 (F := Ideal) v0 j = fracAt (v0 j) := by
  have hk := knot0_apply v0 j
  simp only [Cert.KernelIdeal.Gen.k0_pay3, subf, sitofp]
  rw [hk]
  simp only [Cert.KernelIdeal.Gen.k0_pay1, minimumf, maximumf, mulf, broadcast]
  simp only [Cert.CoefFacts.zero_f32, Cert.CoefFacts.one_f32, Cert.CoefFacts.four_f32]
  rfl
/-- Layer 2's kernel: the knot column at a row. -/
theorem knot2_apply (v0 : Vec Ideal Cert.KernelIdeal.S4000x1 .f32) (j : Cert.KernelIdeal.S4000x1.Idx) :
    Cert.KernelIdeal.Gen.k2_pay3 (F := Ideal) v0 j = knotAt (v0 j) := by
  simp only [Cert.KernelIdeal.Gen.k2_pay3, Cert.KernelIdeal.Gen.k2_pay2, fptosi, minimumf, maximumf, floor, mulf, broadcast]
  simp only [scalar_sitofp_zero, scalar_sitofp_three, Cert.CoefFacts.zero_f32, Cert.CoefFacts.one_f32, Cert.CoefFacts.four_f32]
  rfl
/-- Layer 2's kernel: the fraction column at a row. -/
theorem frac2_apply (v0 : Vec Ideal Cert.KernelIdeal.S4000x1 .f32) (j : Cert.KernelIdeal.S4000x1.Idx) :
    Cert.KernelIdeal.Gen.k2_pay4 (F := Ideal) v0 j = fracAt (v0 j) := by
  have hk := knot2_apply v0 j
  simp only [Cert.KernelIdeal.Gen.k2_pay4, subf, sitofp]
  rw [hk]
  simp only [Cert.KernelIdeal.Gen.k2_pay2, minimumf, maximumf, mulf, broadcast]
  simp only [Cert.CoefFacts.zero_f32, Cert.CoefFacts.one_f32, Cert.CoefFacts.four_f32]
  rfl

/-- A tap's coefficient column at a row, over any knot and fraction columns that hold x's knot and fraction there. -/
theorem tapVec_apply (v14 : IVec Cert.KernelIdeal.S4000x1 32) (v16 : FVec Ideal Cert.KernelIdeal.S4000x1 .f32) (k : BitVec 32)
    (j : Cert.KernelIdeal.S4000x1.Idx) (x : EReal) (h14 : v14 j = knotAt x) (h16 : v16 j = fracAt x) :
    tapVec v14 v16 k j = coefAt x k := by
  simp only [tapVec, addf, select, cmpi, subf, addi, broadcast]
  rw [h14, h16]
  simp only [Cert.CoefFacts.zero_f32, Cert.CoefFacts.one_f32]
  rfl

/-- Layer 1's kernel: tap k's coefficient at row p is the coefficient of the block's pseudo-coordinate at row p. -/
theorem tap0_apply (v0 : Vec Ideal Cert.KernelIdeal.S4000x1 .f32) (k : BitVec 32) (p : Fin 4000) :
    tapVec (Cert.KernelIdeal.Gen.k0_pay2 (F := Ideal) v0) (Cert.KernelIdeal.Gen.k0_pay3 (F := Ideal) v0) k (ix2 p (0 : Fin 1))
      = coefAt (v0 (ix2 p (0 : Fin 1))) k :=
  tapVec_apply _ _ k _ _ (knot0_apply v0 _) (frac0_apply v0 _)
/-- Layer 2's kernel: the same. -/
theorem tap2_apply (v0 : Vec Ideal Cert.KernelIdeal.S4000x1 .f32) (k : BitVec 32) (p : Fin 4000) :
    tapVec (Cert.KernelIdeal.Gen.k2_pay3 (F := Ideal) v0) (Cert.KernelIdeal.Gen.k2_pay4 (F := Ideal) v0) k (ix2 p (0 : Fin 1))
      = coefAt (v0 (ix2 p (0 : Fin 1))) k :=
  tapVec_apply _ _ k _ _ (knot2_apply v0 _) (frac2_apply v0 _)

/-! ## The reference's coefficient vector at an edge -/

/-- The E × 1 column of pseudo-coordinates read as a vector: entry e is row e. -/
theorem pseudo_apply (ea : FVec Ideal Cert.ReferenceIdeal.S1600000x1 .f32) (e : Fin 1600000) :
    Cert.Spec.pseudo ea (ix1 e) = ea (ix2 e (0 : Fin 1)) := by
  unfold Cert.Spec.pseudo
  refine shapeCast_apply ea _ (ix1 e) (ix2 e (0 : Fin 1)) ?_
  rw [Shape.rowMajor_val_two, Shape.rowMajor_val_one]
  show e.val * 1 + 0 = e.val
  omega

/-- The reference: tap k's coefficient of edge e is the coefficient of the pseudo-coordinate in row e of the E × 1 column. -/
theorem spec_coef_apply (ea : FVec Ideal Cert.ReferenceIdeal.S1600000x1 .f32) (k : BitVec 32) (e : Fin 1600000) :
    Cert.Spec.coef (F := Ideal) (Cert.Spec.pseudo ea) k (ix1 e) = coefAt (ea (ix2 e (0 : Fin 1))) k := by
  rw [Cert.CoefFacts.coef_at, pseudo_apply]
  rfl

/-- The scalar coefficient is a weight: nonnegative and not +∞. -/
theorem coefAt_weight (x : EReal) (k : BitVec 32) : (0 : EReal) ≤ coefAt x k ∧ coefAt x k ≠ ⊤ := by
  obtain ⟨g, h0, h1, hg⟩ := Cert.CoefFacts.fracAt_real x
  unfold coefAt
  rw [hg, ← EReal.coe_sub]
  obtain ⟨u, hu, hu'⟩ := Cert.CoefFacts.term_real (IntOp.cmpi .eq (knotAt x) k) (1 - g) (by linarith)
  obtain ⟨v, hv, hv'⟩ := Cert.CoefFacts.term_real (IntOp.cmpi .eq (IntOp.addi (knotAt x) 1#32) k) g h0
  rw [hu', hv', ← EReal.coe_add]
  exact ⟨EReal.coe_nonneg.mpr (by linarith), EReal.coe_ne_top _⟩

end Cert.CoefKernel

end
-- ==== Proof.Region2.lean ====
/-
  Region 2 of the kernel program computes layer 2's messages: for every edge e and output channel o,

      0 + Σ over the five taps k of  Σ_j (coef_k(e) · xs(e, j)) · W2[k, j, o],

  the coefficient of the edge multiplied INTO its row of the 32 gathered hidden features before the row meets the
  tap's 32 × 64 weights, the five products added up from zero in tap order. The stage function Spec.msg2 is

      0 + Σ over the five taps k of  coef_k(e) · Σ_j xs(e, j) · W2[k, j, o].

  The two agree term by term: (c · x) · w = c · (x · w), and a factor c that is nonnegative and not +∞ distributes
  over a finite sum of extended reals; every coefficient is such a factor (a negative one would not distribute where
  the summands hold +∞ and -∞, and the gathered features are not known to be finite). The coefficient chain itself is
  the same scalar function of the edge's pseudo-coordinate on both sides.

  The edges are cut into 400 row blocks of 4000; point t of the grid reads rows 4000 t … 4000 t + 3999 of the features
  and of the pseudo-coordinates and the whole array of weights, and writes rows 4000 t … 4000 t + 3999 of the result.
  What it writes is the stage function on those rows, the 400 blocks cover the array, so the array ends holding the
  stage function. Storage formats play no part: at the extended reals a change of format is the identity.
-/
import proofs.«402775_j5308579578323_4_alg».proof.Proof.Gen.KernelIdeal.Frame
import proofs.«402775_j5308579578323_4_alg».proof.Proof.Spec
import proofs.«402775_j5308579578323_4_alg».proof.Proof.CoefFacts
import proofs.«402775_j5308579578323_4_alg».proof.Proof.CoefKernel
import Idealize.ShloMosaic.PureOps.Ideal
import Idealize.ShloMosaic.PureOps.Ideal.Laws
import Idealize.ShloMosaic.Lib.ValueIdx
import Idealize.ShloMosaic.Lib.Pipeline.Value
import Idealize.ShloMosaic.Lib.StackMember
import Idealize.ShloMosaic.Lib.KernelVsHost

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## Two plain products -/

/-- The block product's dimension record is the plain rows-by-columns product. -/
theorem dotK_eq : dot_S4000x32_S32x64_S4000x64_1_0_0_1_n_n = DotDims.plain 4000 32 64 := rfl

/-- So is the whole-array product's. -/
theorem dotR_eq : Cert.ReferenceIdeal.dot_S1600000x32_S32x64_S1600000x64_1_0_0_1_n_n = DotDims.plain 1600000 32 64 := rfl

/-- A plain product accumulated into zero, read at row a and column b: the sum over the contracted coordinate. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-! ## The body's arithmetic, tap by tap -/

/-- Tap k's product on a block: the 4000 rows of features, each scaled by its row's coefficient, times the tap's
    32 × 64 weights, accumulated into zero. -/
def ktap (k : BitVec 32) (v14 : IVec S4000x1 32) (v16 : FVec Ideal S4000x1 .f32) (v18 : FVec Ideal S4000x32 .f32)
    (w : Vec Ideal S1x32x64 .bf16) : FVec Ideal S4000x64 .f32 :=
  matmul dot_S4000x32_S32x64_S4000x64_1_0_0_1_n_n none
    (truncf .bf16 (mulf (broadcastTo S4000x32 (Cert.CoefKernel.tapVec v14 v16 k) broadcasts_S4000x1_S4000x32) v18) bitsLt_bf16_f32)
    (shapeCast S32x64 w shapeCasts_S1x32x64_S32x64 : FVec Ideal S32x64 .bf16) (constant S4000x64 .f32 0x00000000#32)

/-- The body's five accumulation steps are the five taps' products, added in tap order. -/
theorem pay7_eq (v0 : Vec Ideal S4000x1 .f32) (v17 : Vec Ideal S4000x32 .f32) (v36 : Vec Ideal S1x32x64 .bf16) :
    k2_pay7 v0 v17 v36 = ktap 0#32 (k2_pay3 v0) (k2_pay4 v0) (k2_pay5 v17) v36 := rfl
theorem pay8_eq (v14 : IVec S4000x1 32) (v16 : FVec Ideal S4000x1 .f32) (v18 : FVec Ideal S4000x32 .f32)
    (v19 v38 : FVec Ideal S4000x64 .f32) (v56 : Vec Ideal S1x32x64 .bf16) :
    k2_pay8 v14 v16 v18 v19 v38 v56 = addf (addf v19 v38) (ktap 1#32 v14 v16 v18 v56) := rfl
theorem pay9_eq (v14 : IVec S4000x1 32) (v16 : FVec Ideal S4000x1 .f32) (v18 : FVec Ideal S4000x32 .f32)
    (v76 : Vec Ideal S1x32x64 .bf16) : k2_pay9 v14 v16 v18 v76 = ktap 2#32 v14 v16 v18 v76 := rfl
theorem pay10_eq (v14 : IVec S4000x1 32) (v16 : FVec Ideal S4000x1 .f32) (v18 : FVec Ideal S4000x32 .f32)
    (v59 v78 : FVec Ideal S4000x64 .f32) (v96 : Vec Ideal S1x32x64 .bf16) :
    k2_pay10 v14 v16 v18 v59 v78 v96 = addf (addf v59 v78) (ktap 3#32 v14 v16 v18 v96) := rfl
theorem pay11_eq (v14 : IVec S4000x1 32) (v16 : FVec Ideal S4000x1 .f32) (v18 : FVec Ideal S4000x32 .f32)
    (v116 : Vec Ideal S1x32x64 .bf16) : k2_pay11 v14 v16 v18 v116 = ktap 4#32 v14 v16 v18 v116 := rfl

/-- A tap's product at row p and channel q: the sum over the 32 input channels of
    (the row's coefficient · the feature) · the weight. -/
theorem ktap_apply (k : BitVec 32) (v14 : IVec S4000x1 32) (v16 : FVec Ideal S4000x1 .f32) (v18 : FVec Ideal S4000x32 .f32)
    (w : Vec Ideal S1x32x64 .bf16) (p : Fin 4000) (q : Fin 64) :
    ktap k v14 v16 v18 w (ix2 p q)
      = ∑ j : Fin 32, (Cert.CoefKernel.tapVec v14 v16 k (ix2 p (0 : Fin 1)) * v18 (ix2 p j)) * w (ix3 (0 : Fin 1) j q) := by
  unfold ktap
  rw [dotK_eq]
  refine (matmul_plain_zero_apply none _ _ p q).trans ?_
  refine Finset.sum_congr rfl fun j _ => ?_
  congr 1
  · show broadcastTo S4000x32 (Cert.CoefKernel.tapVec v14 v16 k) broadcasts_S4000x1_S4000x32 (ix2 p j) * v18 (ix2 p j) = _
    rw [broadcastTo_apply _ _ (ix2 p j) (ix2 p (0 : Fin 1)) (by
      intro a
      match a with
      | ⟨0, _⟩ => rfl
      | ⟨1, _⟩ => rfl)]
  · exact shapeCast_apply w _ (ix2 j q) (ix3 (0 : Fin 1) j q) (by
      rw [Shape.rowMajor_val_three, Shape.rowMajor_val_two]
      show (0 * 32 + j.val) * 64 + q.val = j.val * 64 + q.val
      omega)

/-! ## The stage function at an edge and a channel -/

/-- A constant laid over an array reads the constant everywhere. -/
theorem bcast_const {t : Shape} (dims : Fin S_.rank → Fin t.rank) (h : S_.BroadcastsInDim t dims) (b : BitVec FTy.f32.bits)
    (i : t.Idx) : broadcastInDim t dims h (constant (F := Ideal) S_ .f32 b) i = Ideal.ofBits .f32 b := rfl

/-- A coefficient vector times a per-edge array, at edge e and channel o. -/
theorem tap64_apply (c : FVec Ideal S1600000 .f32) (d : FVec Ideal S1600000x64 .f32) (e : Fin 1600000) (o : Fin 64) :
    Cert.Spec.tap64 c d (ix2 e o) = c (ix1 e) * d (ix2 e o) := by
  unfold Cert.Spec.tap64
  rw [mulf_apply]
  congr 1
  refine (broadcastInDim_apply _ _ _ (ix2 e o) (ix2 e (0 : Fin 1)) ?_).trans ?_
  · intro a
    match a with
    | ⟨0, _⟩ => rfl
    | ⟨1, _⟩ => rfl
  · exact broadcastInDim_apply _ _ _ (ix2 e (0 : Fin 1)) (ix1 e) (by
      intro a
      match a with
      | ⟨0, _⟩ => rfl)

/-- One tap of the stage function: the coefficient times the product of the edge's feature row with the tap's weights. -/
theorem spec_tap (c : FVec Ideal S1600000 .f32) (xs : FVec Ideal S1600000x32 .f32) (W : FVec Ideal S32x64 .f32)
    (e : Fin 1600000) (o : Fin 64) :
    Cert.Spec.tap64 c (Host.dotGeneral Cert.ReferenceIdeal.dot_S1600000x32_S32x64_S1600000x64_1_0_0_1_n_n none xs W) (ix2 e o)
      = c (ix1 e) * ∑ j : Fin 32, xs (ix2 e j) * W (ix2 j o) := by
  rw [tap64_apply, dotR_eq, StackMember.dotGeneral_plain_apply]

/-- Tap k's 32 × 64 weights are slab k of the 5 × 32 × 64 array. -/
theorem w2_0_apply (W2 : FVec Ideal S5x32x64 .f32) (j : Fin 32) (o : Fin 64) :
    Cert.Spec.w2_0 W2 (ix2 j o) = W2 (ix3 (0 : Fin 5) j o) := by
  unfold Cert.Spec.w2_0
  refine (shapeCast_apply _ _ (ix2 j o) (ix3 (0 : Fin 1) j o) ?_).trans ?_
  · rw [Shape.rowMajor_val_three, Shape.rowMajor_val_two]
    show (0 * 32 + j.val) * 64 + o.val = j.val * 64 + o.val
    omega
  · exact extractStridedSlice_apply _ _ _ (ix3 (0 : Fin 1) j o) (ix3 (0 : Fin 5) j o) (by
      intro a
      match a with
      | ⟨0, _⟩ => rfl
      | ⟨1, _⟩ => show j.val = 0 + j.val; omega
      | ⟨2, _⟩ => show o.val = 0 + o.val; omega)
theorem w2_1_apply (W2 : FVec Ideal S5x32x64 .f32) (j : Fin 32) (o : Fin 64) :
    Cert.Spec.w2_1 W2 (ix2 j o) = W2 (ix3 (1 : Fin 5) j o) := by
  unfold Cert.Spec.w2_1
  refine (shapeCast_apply _ _ (ix2 j o) (ix3 (0 : Fin 1) j o) ?_).trans ?_
  · rw [Shape.rowMajor_val_three, Shape.rowMajor_val_two]
    show (0 * 32 + j.val) * 64 + o.val = j.val * 64 + o.val
    omega
  · exact extractStridedSlice_apply _ _ _ (ix3 (0 : Fin 1) j o) (ix3 (1 : Fin 5) j o) (by
      intro a
      match a with
      | ⟨0, _⟩ => rfl
      | ⟨1, _⟩ => show j.val = 0 + j.val; omega
      | ⟨2, _⟩ => show o.val = 0 + o.val; omega)
theorem w2_2_apply (W2 : FVec Ideal S5x32x64 .f32) (j : Fin 32) (o : Fin 64) :
    Cert.Spec.w2_2 W2 (ix2 j o) = W2 (ix3 (2 : Fin 5) j o) := by
  unfold Cert.Spec.w2_2
  refine (shapeCast_apply _ _ (ix2 j o) (ix3 (0 : Fin 1) j o) ?_).trans ?_
  · rw [Shape.rowMajor_val_three, Shape.rowMajor_val_two]
    show (0 * 32 + j.val) * 64 + o.val = j.val * 64 + o.val
    omega
  · exact extractStridedSlice_apply _ _ _ (ix3 (0 : Fin 1) j o) (ix3 (2 : Fin 5) j o) (by
      intro a
      match a with
      | ⟨0, _⟩ => rfl
      | ⟨1, _⟩ => show j.val = 0 + j.val; omega
      | ⟨2, _⟩ => show o.val = 0 + o.val; omega)
theorem w2_3_apply (W2 : FVec Ideal S5x32x64 .f32) (j : Fin 32) (o : Fin 64) :
    Cert.Spec.w2_3 W2 (ix2 j o) = W2 (ix3 (3 : Fin 5) j o) := by
  unfold Cert.Spec.w2_3
  refine (shapeCast_apply _ _ (ix2 j o) (ix3 (0 : Fin 1) j o) ?_).trans ?_
  · rw [Shape.rowMajor_val_three, Shape.rowMajor_val_two]
    show (0 * 32 + j.val) * 64 + o.val = j.val * 64 + o.val
    omega
  · exact extractStridedSlice_apply _ _ _ (ix3 (0 : Fin 1) j o) (ix3 (3 : Fin 5) j o) (by
      intro a
      match a with
      | ⟨0, _⟩ => rfl
      | ⟨1, _⟩ => show j.val = 0 + j.val; omega
      | ⟨2, _⟩ => show o.val = 0 + o.val; omega)
theorem w2_4_apply (W2 : FVec Ideal S5x32x64 .f32) (j : Fin 32) (o : Fin 64) :
    Cert.Spec.w2_4 W2 (ix2 j o) = W2 (ix3 (4 : Fin 5) j o) := by
  unfold Cert.Spec.w2_4
  refine (shapeCast_apply _ _ (ix2 j o) (ix3 (0 : Fin 1) j o) ?_).trans ?_
  · rw [Shape.rowMajor_val_three, Shape.rowMajor_val_two]
    show (0 * 32 + j.val) * 64 + o.val = j.val * 64 + o.val
    omega
  · exact extractStridedSlice_apply _ _ _ (ix3 (0 : Fin 1) j o) (ix3 (4 : Fin 5) j o) (by
      intro a
      match a with
      | ⟨0, _⟩ => rfl
      | ⟨1, _⟩ => show j.val = 0 + j.val; omega
      | ⟨2, _⟩ => show o.val = 0 + o.val; omega)

/-- Layer 2's message at edge e and channel o: the five taps added up from zero in tap order. -/
theorem msg2_apply (xs : FVec Ideal S1600000x32 .f32) (a : FVec Ideal S1600000 .f32) (W2 : FVec Ideal S5x32x64 .f32)
    (e : Fin 1600000) (o : Fin 64) :
    Cert.Spec.msg2 xs a W2 (ix2 e o)
      = ((((Ideal.ofBits .f32 0x00000000#32
        + Cert.Spec.coef a 0#32 (ix1 e) * ∑ j : Fin 32, xs (ix2 e j) * W2 (ix3 (0 : Fin 5) j o))
        + Cert.Spec.coef a 1#32 (ix1 e) * ∑ j : Fin 32, xs (ix2 e j) * W2 (ix3 (1 : Fin 5) j o))
        + Cert.Spec.coef a 2#32 (ix1 e) * ∑ j : Fin 32, xs (ix2 e j) * W2 (ix3 (2 : Fin 5) j o))
        + Cert.Spec.coef a 3#32 (ix1 e) * ∑ j : Fin 32, xs (ix2 e j) * W2 (ix3 (3 : Fin 5) j o))
        + Cert.Spec.coef a 4#32 (ix1 e) * ∑ j : Fin 32, xs (ix2 e j) * W2 (ix3 (4 : Fin 5) j o) := by
  unfold Cert.Spec.msg2
  simp only [addf_apply, spec_tap, bcast_const, w2_0_apply, w2_1_apply, w2_2_apply, w2_3_apply, w2_4_apply]

/-! ## The join: the coefficient multiplied into the row against the coefficient times the product -/

/-- A factor that is nonnegative and not +∞, multiplied into every term of a row-times-column sum, comes out of it. -/
theorem tap_join (c c' : EReal) (hc : c = c') (h0 : 0 ≤ c') (ht : c' ≠ ⊤) (x x' w w' : Fin 32 → EReal)
    (hx : ∀ j, x j = x' j) (hw : ∀ j, w j = w' j) :
    ∑ j : Fin 32, (c * x j) * w j = c' * ∑ j : Fin 32, x' j * w' j := by
  subst hc
  rw [Cert.CoefFacts.mul_sum _ c h0 ht]
  exact Finset.sum_congr rfl fun j _ => by rw [hx j, hw j, mul_assoc]

/-- Five terms added up from a start in order, term by term. -/
theorem five_add (z z' a0 a1 a2 a3 a4 b0 b1 b2 b3 b4 : EReal) (hz : z = z') (h0 : a0 = b0) (h1 : a1 = b1) (h2 : a2 = b2)
    (h3 : a3 = b3) (h4 : a4 = b4) : ((((z + a0) + a1) + a2) + a3) + a4 = ((((z' + b0) + b1) + b2) + b3) + b4 := by
  rw [hz, h0, h1, h2, h3, h4]

theorem hz2 : (![0, 0] : Fin 2 → Nat) = fun _ => 0 := funext fun a => by fin_cases a <;> rfl

/-- Slab k of the block of weights, read through its unit rectangle. -/
theorem ld_slab (x2 : Vec Ideal S5x32x64 .bf16) (k : Nat) (hk : k < 5)
    (inb : ∀ a, (![k, 0, 0] : Fin 3 → Nat) a + S1x32x64.size a ≤ S5x32x64.size a) (j : Fin 32) (q : Fin 64) :
    View.ld x2 (Rect.unit (s := S5x32x64) ![k, 0, 0] S1x32x64.size inb) (ix3 (0 : Fin 1) j q)
      = x2 (ix3 (⟨k, hk⟩ : Fin 5) j q) := by
  show x2 _ = x2 _
  congr 1
  funext a
  apply Fin.ext
  match a with
  | ⟨0, _⟩ => show k + 1 * 0 = k; omega
  | ⟨1, _⟩ => show 0 + 1 * j.val = j.val; omega
  | ⟨2, _⟩ => show 0 + 1 * q.val = q.val; omega

/-- WHAT THE BODY LEAVES at row p and channel q of its output block is the stage function at edge e and channel q,
    whenever the block's rows are the arrays' rows at e: the feature row, the pseudo-coordinate, and the weights. -/
theorem block_eq (x0 : Vec Ideal S4000x32 .f32) (x1 : Vec Ideal S4000x1 .f32) (x2 : Vec Ideal S5x32x64 .bf16)
    (xs : FVec Ideal S1600000x32 .f32) (ea : FVec Ideal S1600000x1 .f32) (W2 : FVec Ideal S5x32x64 .f32)
    (p : Fin 4000) (e : Fin 1600000) (q : Fin 64)
    (h0 : ∀ j : Fin 32, x0 (ix2 p j) = xs (ix2 e j)) (h1 : x1 (ix2 p (0 : Fin 1)) = ea (ix2 e (0 : Fin 1)))
    (h2 : ∀ (k : Fin 5) (j : Fin 32) (o : Fin 64), (x2 (ix3 k j o) : EReal) = W2 (ix3 k j o)) :
    (out2_3 x0 x1 x2 (ix2 p q) : EReal) = Cert.Spec.msg2 xs (Cert.Spec.pseudo ea) W2 (ix2 e q) := by
  rw [msg2_apply]
  unfold out2_3
  rw [View.canon_unit_zero hz2]
  simp only [View.ld_unit_zero (S := S4000x1) hz2, View.ld_unit_zero (S := S4000x32) hz2]
  rw [pay7_eq, pay8_eq, pay9_eq, pay10_eq, pay11_eq]
  unfold k2_pay1 k2_pay6
  simp only [truncf_apply, addf_apply, broadcast_apply, ktap_apply]
  have hw := fun k => Cert.CoefKernel.coefAt_weight (ea (ix2 e (0 : Fin 1))) k
  have hc : ∀ k, Cert.CoefKernel.tapVec (k2_pay3 x1) (k2_pay4 x1) k (ix2 p (0 : Fin 1))
      = Cert.Spec.coef (Cert.Spec.pseudo ea) k (ix1 e) := fun k => by
    rw [Cert.CoefKernel.tap2_apply, Cert.CoefKernel.spec_coef_apply, h1]
  have hp : ∀ j : Fin 32, k2_pay5 x0 (ix2 p j) = xs (ix2 e j) := fun j => by
    unfold k2_pay5; rw [shapeCast_self]; exact h0 j
  refine five_add _ _ _ _ _ _ _ _ _ _ _ _ rfl ?_ ?_ ?_ ?_ ?_
  · exact tap_join _ _ (hc _) (by rw [Cert.CoefKernel.spec_coef_apply]; exact (hw _).1) (by rw [Cert.CoefKernel.spec_coef_apply]; exact (hw _).2) _ _ _ _ hp
      fun j => (ld_slab x2 0 (by omega) _ j q).trans (h2 _ j q)
  · exact tap_join _ _ (hc _) (by rw [Cert.CoefKernel.spec_coef_apply]; exact (hw _).1) (by rw [Cert.CoefKernel.spec_coef_apply]; exact (hw _).2) _ _ _ _ hp
      fun j => (ld_slab x2 1 (by omega) _ j q).trans (h2 _ j q)
  · exact tap_join _ _ (hc _) (by rw [Cert.CoefKernel.spec_coef_apply]; exact (hw _).1) (by rw [Cert.CoefKernel.spec_coef_apply]; exact (hw _).2) _ _ _ _ hp
      fun j => (ld_slab x2 2 (by omega) _ j q).trans (h2 _ j q)
  · exact tap_join _ _ (hc _) (by rw [Cert.CoefKernel.spec_coef_apply]; exact (hw _).1) (by rw [Cert.CoefKernel.spec_coef_apply]; exact (hw _).2) _ _ _ _ hp
      fun j => (ld_slab x2 3 (by omega) _ j q).trans (h2 _ j q)
  · exact tap_join _ _ (hc _) (by rw [Cert.CoefKernel.spec_coef_apply]; exact (hw _).1) (by rw [Cert.CoefKernel.spec_coef_apply]; exact (hw _).2) _ _ _ _ hp
      fun j => (ld_slab x2 4 (by omega) _ j q).trans (h2 _ j q)

/-! ## From the blocks to the array -/

variable (V : (c : Dev nD) → (b : Ref sig .tc) → Buf (Elt Ideal) ((c : Thread nD τ).loc b))

/-- The index maps, decided over the grid: at point t the three row-block windows sit at block row t, the weights at
    their one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 3) = 0 ∧ win2_2.index t (1 : Fin 3) = 0 ∧ win2_2.index t (2 : Fin 3) = 0
    ∧ win2_3.index t (0 : Fin 2) = t.val ∧ win2_3.index t (1 : Fin 2) = 0 :=
  (by decide +kernel : ∀ t : Fin grid2.N, _)

/-- Row p of block t is an edge. -/
theorem row_lt (t : Fin cfg2.N) (p : Fin 4000) : t.val * 4000 + p.val < 1600000 := by
  have h : t.val < 400 := lt_of_lt_of_eq t.isLt N_2
  have := p.isLt
  omega

/-- Row p of the feature block at point t is row 4000 t + p of the gathered features. -/
theorem xs_blk (c : Dev nD) (t : Fin cfg2.N) (p : Fin 4000) (j : Fin 32) :
    (iblk2 V c 0 t : Vec Ideal S4000x32 .f32) (ix2 p j)
      = (V c main_v19 : FVec Ideal S1600000x32 .f32) (ix2 (⟨t.val * 4000 + p.val, row_lt t p⟩ : Fin 1600000) j) := by
  obtain ⟨e0, e1, -⟩ := idx_facts t
  unfold iblk2
  rw [View.read_apply]
  show V c main_v19 _ = V c main_v19 _
  congr 1
  funext a
  apply Fin.ext
  match a with
  | ⟨0, _⟩ => show win2_0.index t (0 : Fin 2) * 4000 + 1 * p.val = t.val * 4000 + p.val; rw [e0]; omega
  | ⟨1, _⟩ => show win2_0.index t (1 : Fin 2) * 32 + 1 * j.val = j.val; rw [e1]; omega

/-- Row p of the pseudo-coordinate block at point t is row 4000 t + p of the pseudo-coordinates. -/
theorem ea_blk (c : Dev nD) (t : Fin cfg2.N) (p : Fin 4000) :
    (iblk2 V c 1 t : Vec Ideal S4000x1 .f32) (ix2 p (0 : Fin 1))
      = (V c main_arg2 : FVec Ideal S1600000x1 .f32) (ix2 (⟨t.val * 4000 + p.val, row_lt t p⟩ : Fin 1600000) (0 : Fin 1)) := by
  obtain ⟨-, -, e0, e1, -⟩ := idx_facts t
  unfold iblk2
  rw [View.read_apply]
  show V c main_arg2 _ = V c main_arg2 _
  congr 1
  funext a
  apply Fin.ext
  match a with
  | ⟨0, _⟩ => show win2_1.index t (0 : Fin 2) * 4000 + 1 * p.val = t.val * 4000 + p.val; rw [e0]; omega
  | ⟨1, _⟩ => show win2_1.index t (1 : Fin 2) * 1 + 1 * 0 = 0; rw [e1]

/-- The block of weights at every point is the whole array of weights. -/
theorem w_blk (c : Dev nD) (t : Fin cfg2.N) (k : Fin 5) (j : Fin 32) (o : Fin 64) :
    ((iblk2 V c 2 t : Vec Ideal S5x32x64 .bf16) (ix3 k j o) : EReal) = (V c main_v20 : FVec Ideal S5x32x64 .f32) (ix3 k j o) := by
  obtain ⟨-, -, -, -, e0, e1, e2, -⟩ := idx_facts t
  unfold iblk2
  rw [View.read_apply]
  show V c main_v20 _ = V c main_v20 _
  congr 1
  funext a
  apply Fin.ext
  match a with
  | ⟨0, _⟩ => show win2_2.index t (0 : Fin 3) * 5 + 1 * k.val = k.val; rw [e0]; omega
  | ⟨1, _⟩ => show win2_2.index t (1 : Fin 3) * 32 + 1 * j.val = j.val; rw [e1]; omega
  | ⟨2, _⟩ => show win2_2.index t (2 : Fin 3) * 64 + 1 * o.val = o.val; rw [e2]; omega

/-- The stage function of the arrays as the region finds them. -/
abbrev G2 (c : Dev nD) : FVec Ideal S1600000x64 .f32 :=
  Cert.Spec.msg2 (F := Ideal) (V c main_v19) (Cert.Spec.pseudo (V c main_arg2)) (V c main_v20)

/-- WHAT POINT t WRITES BACK is block t of the stage function. -/
theorem flushed_eq (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  funext j
  obtain ⟨p, q, rfl⟩ : ∃ (p : Fin 4000) (q : Fin 64), j = ix2 p q := ⟨j 0, j 1, eq_ix2 j⟩
  obtain ⟨-, -, -, -, -, -, -, e0, e1⟩ := idx_facts t
  refine (block_eq (iblk2 V c 0 t) (iblk2 V c 1 t) (iblk2 V c 2 t) (V c main_v19) (V c main_arg2) (V c main_v20) p
    ⟨t.val * 4000 + p.val, row_lt t p⟩ q (fun j => xs_blk V c t p j) (ea_blk V c t p) (fun k j o => w_blk V c t k j o)).trans ?_
  rw [View.read_apply]
  show G2 V c _ = G2 V c _
  congr 1
  funext a
  apply Fin.ext
  match a with
  | ⟨0, _⟩ => show t.val * 4000 + p.val = win2_3.index t (0 : Fin 2) * 4000 + 1 * p.val; rw [e0]; omega
  | ⟨1, _⟩ => show q.val = win2_3.index t (1 : Fin 2) * 64 + 1 * q.val; rw [e1]; omega

/-- An index of the array is in point t's block iff each coordinate is in the block's range on its axis. -/
theorem mem_blk (t : Fin cfg2.N) (i : S1600000x64.Idx) :
    i ∈ ((cfg2.win 3).blk t).view.set ↔ ∀ a : Fin 2, win2_3.index t a * S4000x64.size a ≤ (i a).val
      ∧ (i a).val < win2_3.index t a * S4000x64.size a + S4000x64.size a := by
  show i ∈ ((View.whole main_v21).slice (win2_3.rect t)).set ↔ _
  rw [View.set_slice_whole, Rect.mem_set_unit]
  exact Iff.rfl

/-- Every edge row is in the block of the point numbered row / 4000. -/
theorem cover (i : S1600000x64.Idx) :
    ∃ t : Fin cfg2.N, (cfg2.win 3).flush t = true ∧ i ∈ ((cfg2.win 3).blk t).view.set := by
  have hi0 : (i 0).val < 1600000 := (i 0).isLt
  have hi1 : (i 1).val < 64 := (i 1).isLt
  have hN : cfg2.N = 400 := N_2
  have ht : (i 0).val / 4000 < cfg2.N := by rw [hN]; omega
  obtain ⟨-, -, -, -, -, -, -, e0, e1⟩ := idx_facts ⟨(i 0).val / 4000, ht⟩
  refine ⟨⟨(i 0).val / 4000, ht⟩, flush2_3 _, ?_⟩
  rw [mem_blk]
  intro a
  match a with
  | ⟨0, _⟩ =>
    show win2_3.index ⟨(i 0).val / 4000, ht⟩ (0 : Fin 2) * 4000 ≤ (i 0).val
      ∧ (i 0).val < win2_3.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win2_3.index ⟨(i 0).val / 4000, ht⟩ (1 : Fin 2) * 64 ≤ (i 1).val
      ∧ (i 1).val < win2_3.index ⟨(i 0).val / 4000, ht⟩ (1 : Fin 2) * 64 + 64
    rw [e1]
    omega

theorem value (c : Dev nD) :
    (dat2 (F := Ideal) V c).arrAt 3 cfg2.N
      = Cert.Spec.msg2 (F := Ideal) (V c main_v19) (Cert.Spec.pseudo (V c main_arg2)) (V c main_v20) :=
  (dat2 V c).arrAt_eq_of_cover 3 (G2 V c) (fun t _ => flushed_eq V c t) cover

end Cert.KernelIdeal.Region2

end
-- ==== Proof.EluFacts.lean ====
/-
  The ELU on one extended real and the log-softmax of one row of ten, and how each program's array text reads them.

  ELU: y where 0 < y, else exp(y) - 1. The kernel bodies spell the negative branch 1 · (exp(min(y, 0)) - 1), the
  reference 1 · expm1(y where not 0 < y, else 0); where the branch is taken y ≤ 0, so min(y, 0) = y and the inner
  select is y, and both are exp(y) - 1.

  Log-softmax of a row z: z_q - M - log(Σ_q' exp(z_q' - M)), M the maximum of the row taken from -∞. The kernel takes the
  row maximum and the row sum by lane reductions; the reference by reductions over axis 1, the maximum once more
  against -∞ and the sum from 0: max(-∞, M) = M and 0 + S = S.
-/
import proofs.«402775_j5308579578323_4_alg».proof.Proof.Gen.KernelIdeal
import proofs.«402775_j5308579578323_4_alg».proof.Proof.Spec
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.EluFacts

open Idealize.ShloMosaic Idealize.ShloMosaic.ValueIdx

/-! ## ELU -/

/-- The ELU on one extended real. -/
def elu (y : EReal) : EReal := if 0 < y then y else Ideal.exp y - 1

/-- A comparison "greater than zero" that holds. -/
theorem cmp_ogt_pos {y : EReal} (h : 0 < y) : Ideal.cmp .ogt y 0 = 1#1 := by
  simp [Ideal.cmp, h]
/-- A comparison "greater than zero" that fails. -/
theorem cmp_ogt_npos {y : EReal} (h : ¬ 0 < y) : Ideal.cmp .ogt y 0 = 0#1 := by
  simp [Ideal.cmp, h]

/-- The kernel bodies' spelling on one extended real. -/
theorem elu_k (y : EReal) : Scalar.select (Ideal.cmp .ogt y 0) y (1 * (Ideal.exp (min y 0) - 1)) = elu y := by
  unfold elu
  by_cases h : 0 < y
  · rw [cmp_ogt_pos h, select_one, if_pos h]
  · rw [cmp_ogt_npos h, select_zero, if_neg h, min_eq_left (not_lt.1 h), one_mul]

/-- The reference's spelling on one extended real. -/
theorem elu_r (y : EReal) :
    Scalar.select (Ideal.cmp .ogt y 0) y (1 * (Ideal.exp (Scalar.select (Ideal.cmp .ogt y 0) 0 y) - 1)) = elu y := by
  unfold elu
  by_cases h : 0 < y
  · rw [cmp_ogt_pos h, select_one, if_pos h]
  · rw [cmp_ogt_npos h, select_zero, select_zero, if_neg h, one_mul]

/-- The reference's ELU text at any shape, read at an index. -/
theorem relu_apply {t : Shape} (hb : Cert.ReferenceIdeal.S_.BroadcastsInDim t ![]) (y : FVec Ideal t .f32) (i : t.Idx) :
    select (cmpf .ogt y (broadcastInDim t ![] hb (constant Cert.ReferenceIdeal.S_ .f32 0x00000000#32))) y
      (mulf (broadcastInDim t ![] hb (constant Cert.ReferenceIdeal.S_ .f32 0x3F800000#32))
        (Host.expm1 (select (cmpf .ogt y (broadcastInDim t ![] hb (constant Cert.ReferenceIdeal.S_ .f32 0x00000000#32)))
          (broadcastInDim t ![] hb (constant Cert.ReferenceIdeal.S_ .f32 0x00000000#32)) y))) i = elu (y i) := by
  show Scalar.select (Ideal.cmp .ogt (y i) (Ideal.ofBits .f32 0x00000000#32)) (y i)
    (Ideal.ofBits .f32 0x3F800000#32 * (Ideal.exp (Scalar.select (Ideal.cmp .ogt (y i) (Ideal.ofBits .f32 0x00000000#32))
      (Ideal.ofBits .f32 0x00000000#32) (y i)) - 1)) = elu (y i)
  rw [Ideal.ofBits_zero_f32, Ideal.ofBits_one_f32]
  exact elu_r (y i)

/-- The kernel bodies' ELU text, at any shape, read at an index. -/
theorem kelu_apply {s : Shape} (v : FVec Ideal s .f32) (i : s.Idx) :
    select (cmpf .ogt v (broadcast s (Scalar.ofBits .f32 0x00000000#32))) v
      (mulf (broadcast s (Scalar.ofBits .f32 0x3F800000#32))
        (subf (exp (minimumf v (broadcast s (Scalar.ofBits .f32 0x00000000#32))))
          (broadcast s (Scalar.ofBits .f32 0x3F800000#32)))) i = elu (v i) := by
  show Scalar.select (Ideal.cmp .ogt (v i) (Ideal.ofBits .f32 0x00000000#32)) (v i)
    (Ideal.ofBits .f32 0x3F800000#32 * (Ideal.exp (min (v i) (Ideal.ofBits .f32 0x00000000#32)) - Ideal.ofBits .f32 0x3F800000#32)) = elu (v i)
  rw [Ideal.ofBits_zero_f32, Ideal.ofBits_one_f32]
  exact elu_k (v i)

/-- The reference's ELU on N × 32 read at an index. -/
theorem elu32_apply (y : FVec Ideal Cert.ReferenceIdeal.S50000x32 .f32) (i : Cert.ReferenceIdeal.S50000x32.Idx) :
    Cert.Spec.elu32 y i = elu (y i) := by
  exact relu_apply _ y i

/-- The reference's ELU on N × 64 read at an index. -/
theorem elu64_apply (y : FVec Ideal Cert.ReferenceIdeal.S50000x64 .f32) (i : Cert.ReferenceIdeal.S50000x64.Idx) :
    Cert.Spec.elu64 y i = elu (y i) := by
  exact relu_apply _ y i

/-- The reference's ELU on N × 128 read at an index. -/
theorem elu128_apply (y : FVec Ideal Cert.ReferenceIdeal.S50000x128 .f32) (i : Cert.ReferenceIdeal.S50000x128.Idx) :
    Cert.Spec.elu128 y i = elu (y i) := by
  exact relu_apply _ y i

/-! ## Log-softmax of a row of ten -/

/-- A row's maximum, taken from -∞. -/
def rowMax (z : Fin 10 → EReal) : EReal := (Finset.univ : Finset (Fin 10)).fold max ⊥ z

/-- Entry q of the log-softmax of the row z. -/
def lsmRow (z : Fin 10 → EReal) (q : Fin 10) : EReal :=
  (z q - rowMax z) - Ideal.log (∑ q' : Fin 10, Ideal.exp (z q' - rowMax z))

/-! ## Rows of an n × 10 array -/

/-- The f32 pattern of -∞ is the bottom of the extended reals. -/
theorem ofBits_ninf : Ideal.ofBits .f32 0xFF800000#32 = ⊥ := by simp [Ideal.ofBits, Ideal.ieee]

/-- Row r with the reduced coordinate k put back is (r, k). -/
theorem lift_eq {n : Nat} (h : (⟨2, ![n, 10]⟩ : Shape).Reduces [1] ⟨1, ![n]⟩) (r : Fin n)
    (k : Fin ((⟨2, ![n, 10]⟩ : Shape).size 1)) : h.lift (ix1 r) k = ix2 r (k : Fin 10) := by
  funext c
  apply Fin.ext
  show h.liftVal (ix1 r) k.val c = _
  match c with
  | ⟨0, _⟩ => rfl
  | ⟨1, _⟩ => rfl

section Reference
open Cert.ReferenceIdeal Cert.ReferenceIdeal.Facts₀ Cert.ReferenceIdeal.Facts

/-- A column laid along the rows of the N × 10 array reads its row's entry. -/
theorem bc2R {α : Type} (u : S50000x1.Idx → α) (r : Fin 50000) (q : Fin 10) :
    broadcastInDim S50000x10 ![0, 1] bcast_S50000x1_S50000x10_0_1 u (ix2 r q) = u (ix2 r 0) :=
  broadcastInDim_apply _ _ u _ _ (fun a => match a with | ⟨0, _⟩ => rfl | ⟨1, _⟩ => rfl)

/-- A vector stood up as a column reads its entry. -/
theorem bc1R {α : Type} (w : S50000.Idx → α) (r : Fin 50000) (c : Fin 1) :
    broadcastInDim S50000x1 ![0] bcast_S50000_S50000x1_0 w (ix2 r c) = w (ix1 r) :=
  broadcastInDim_apply _ _ w _ _ (fun a => match a with | ⟨0, _⟩ => rfl)

/-- The reference's row maximum, once more against -∞, is the row's maximum. -/
theorem specMax_apply (Z : FVec Ideal S50000x10 .f32) (r : Fin 50000) :
    maximumf (broadcastInDim S50000 ![] bcast_S_S50000 (constant S_ .f32 0xFF800000#32))
      (Host.reduce FloatOps.maximumf Z (constant S_ .f32 0xFF800000#32) reducesTo_S50000x10_S50000_d1 h_S_) (ix1 r)
      = rowMax (fun q' => Z (ix2 r q')) := by
  have hR : S50000x10.Reduces [1] S50000 := by decide
  show max (Ideal.ofBits .f32 0xFF800000#32) (Host.reduce FloatOps.maximumf Z _ _ _ (ix1 r)) = _
  rw [Host.reduce_eq_fold_single FloatOps.maximumf Z _ reducesTo_S50000x10_S50000_d1 hR h_S_ (ix1 r)]
  show max (Ideal.ofBits .f32 0xFF800000#32)
    (Finset.fold max (Ideal.ofBits .f32 0xFF800000#32) (Z ∘ hR.lift (ix1 r)) (Finset.univ : Finset (Fin 10))) = _
  rw [ofBits_ninf, max_eq_right bot_le]
  unfold rowMax
  congr 1
  funext k
  exact congrArg Z (lift_eq hR r k)

/-- The reference's row sum from zero is the row's sum. -/
theorem specSum_apply (X : FVec Ideal S50000x10 .f32) (r : Fin 50000) :
    Host.reduceAdd X (constant S_ .f32 0x00000000#32) reducesTo_S50000x10_S50000_d1 h_S_ (ix1 r)
      = ∑ q' : Fin 10, X (ix2 r q') := by
  have hR : S50000x10.Reduces [1] S50000 := by decide
  rw [hostReduceAdd_apply, Ideal.hostReduceAdd_single _ hR]
  show Ideal.ofBits .f32 0x00000000#32 + (∑ k : Fin 10, X (hR.lift (ix1 r) k)) = _
  rw [Ideal.ofBits_zero_f32, zero_add]
  exact Finset.sum_congr rfl (fun k _ => congrArg X (lift_eq hR r k))

/-- The reference's log-softmax read at row r, class q. -/
theorem logSoftmax_apply (Z : FVec Ideal Cert.ReferenceIdeal.S50000x10 .f32) (r : Fin 50000) (q : Fin 10) :
    Cert.Spec.logSoftmax Z (ix2 r q) = lsmRow (fun q' => Z (ix2 r q')) q := by
  unfold Cert.Spec.logSoftmax
  -- the logits less their row maximum occur twice: name them
  generalize hD : subf Z (broadcastInDim S50000x10 ![0, 1] bcast_S50000x1_S50000x10_0_1
      (broadcastInDim S50000x1 ![0] bcast_S50000_S50000x1_0
        (maximumf (broadcastInDim S50000 ![] bcast_S_S50000 (constant S_ .f32 0xFF800000#32))
          (Host.reduce FloatOps.maximumf Z (constant S_ .f32 0xFF800000#32) reducesTo_S50000x10_S50000_d1 h_S_)))) = D
  have hsub : ∀ q' : Fin 10, D (ix2 r q') = Z (ix2 r q') - rowMax (fun q'' => Z (ix2 r q'')) := fun q' => by
    rw [← hD, subf_apply, bc2R, bc1R, specMax_apply]
  have hlog : ∀ S : FVec Ideal S50000 .f32,
      broadcastInDim S50000x10 ![0, 1] bcast_S50000x1_S50000x10_0_1
        (Host.log (broadcastInDim S50000x1 ![0] bcast_S50000_S50000x1_0 S)) (ix2 r q) = Ideal.log (S (ix1 r)) := fun S => by
    rw [bc2R]
    show Ideal.log (broadcastInDim S50000x1 ![0] bcast_S50000_S50000x1_0 S (ix2 r 0)) = _
    rw [bc1R]
  have hS : (∑ q' : Fin 10, Host.exp D (ix2 r q'))
      = ∑ q' : Fin 10, Ideal.exp (Z (ix2 r q') - rowMax (fun q'' => Z (ix2 r q''))) :=
    Finset.sum_congr rfl (fun q' _ => by
      show Ideal.exp (D (ix2 r q')) = _
      rw [hsub])
  rw [subf_apply, hlog, specSum_apply, hsub, hS]
  rfl

end Reference

section Kernel
open Cert.KernelIdeal Cert.KernelIdeal.Facts₀ Cert.KernelIdeal.Facts

/-- The last region's log-softmax of a 2000 × 10 block of logits, operation by operation. -/
def lsmK {F : FTy → Type} [FloatOps F] (v46 : FVec F S2000x10 .f32) : FVec F S2000x10 .f32 :=
  have v47 : FVec F S2000 .f32 := multiReduction .maximumf [1] S2000 v46 0xFF800000#32 reduces_S2000x10_S2000 (.inl rfl) rfl
  have v48 : FVec F S2000x1 .f32 := shapeCast S2000x1 v47 shapeCasts_S2000_S2000x1
  have v49 : FVec F S2000x10 .f32 := broadcastTo S2000x10 v48 broadcasts_S2000x1_S2000x10
  have v50 : FVec F S2000x10 .f32 := subf v46 v49
  have v51 : FVec F S2000x10 .f32 := exp v50
  have v52 : FVec F S2000 .f32 := multiReduction .add [1] S2000 v51 0x00000000#32 reduces_S2000x10_S2000 (.inl rfl) rfl
  have v53 : FVec F S2000x1 .f32 := shapeCast S2000x1 v52 shapeCasts_S2000_S2000x1
  have v54 : FVec F S2000x1 .f32 := log v53
  have v55 : FVec F S2000x10 .f32 := broadcastTo S2000x10 v54 broadcasts_S2000x1_S2000x10
  have v56 : FVec F S2000x10 .f32 := subf v50 v55
  v56

/-- A column broadcast along the rows of the block reads its row's entry. -/
theorem btK {α : Type} (u : S2000x1.Idx → α) (p : Fin 2000) (q : Fin 10) :
    broadcastTo S2000x10 u broadcasts_S2000x1_S2000x10 (ix2 p q) = u (ix2 p 0) :=
  broadcastTo_apply u _ _ _ (fun a => match a with | ⟨0, _⟩ => rfl | ⟨1, _⟩ => rfl)

/-- A vector recast as a column reads its entry. -/
theorem scK {α : Type} (w : S2000.Idx → α) (p : Fin 2000) (c : Fin 1) :
    shapeCast S2000x1 w shapeCasts_S2000_S2000x1 (ix2 p c) = w (ix1 p) := by
  refine shapeCast_apply w _ _ _ ?_
  rw [Shape.rowMajor_val_one, Shape.rowMajor_val_two]
  show p.val = p.val * 1 + c.val
  have := c.isLt
  omega

/-- The kernel's lane maximum from -∞ is the row's maximum. -/
theorem kMax_apply (v : FVec Ideal S2000x10 .f32) (p : Fin 2000) :
    multiReduction .maximumf [1] S2000 v 0xFF800000#32 reduces_S2000x10_S2000 (.inl rfl) rfl (ix1 p)
      = rowMax (fun q' => v (ix2 p q')) := by
  refine (Ideal.multiReduction_maximumf_single v 0xFF800000#32 reduces_S2000x10_S2000 (.inl rfl) rfl (ix1 p)).trans ?_
  show Finset.fold max (Ideal.ofBits .f32 0xFF800000#32) (v ∘ reduces_S2000x10_S2000.lift (ix1 p)) (Finset.univ : Finset (Fin 10)) = _
  rw [ofBits_ninf]
  unfold rowMax
  congr 1
  funext k
  exact congrArg v (lift_eq reduces_S2000x10_S2000 p k)

/-- The kernel's lane sum is the row's sum. -/
theorem kSum_apply (X : FVec Ideal S2000x10 .f32) (p : Fin 2000) :
    multiReduction .add [1] S2000 X 0x00000000#32 reduces_S2000x10_S2000 (.inl rfl) rfl (ix1 p)
      = ∑ q' : Fin 10, X (ix2 p q') := by
  refine (Ideal.multiReduction_add_single X 0x00000000#32 reduces_S2000x10_S2000 (.inl rfl) rfl (ix1 p)).trans ?_
  exact Finset.sum_congr rfl (fun k _ => congrArg X (lift_eq reduces_S2000x10_S2000 p k))

/-- The block's log-softmax read at row p, class q. -/
theorem lsmK_apply (v46 : FVec Ideal S2000x10 .f32) (p : Fin 2000) (q : Fin 10) :
    lsmK v46 (ix2 p q) = lsmRow (fun q' => v46 (ix2 p q')) q := by
  show subf (subf v46 _) (broadcastTo S2000x10 (log (shapeCast S2000x1
      (multiReduction .add [1] S2000 (exp (subf v46 _)) 0x00000000#32 reduces_S2000x10_S2000 (.inl rfl) rfl) shapeCasts_S2000_S2000x1))
      broadcasts_S2000x1_S2000x10) (ix2 p q) = _
  -- the logits less their row maximum occur twice: name them
  generalize hD : subf v46 (broadcastTo S2000x10 (shapeCast S2000x1
      (multiReduction .maximumf [1] S2000 v46 0xFF800000#32 reduces_S2000x10_S2000 (.inl rfl) rfl) shapeCasts_S2000_S2000x1)
      broadcasts_S2000x1_S2000x10) = D
  have hsub : ∀ q' : Fin 10, D (ix2 p q') = v46 (ix2 p q') - rowMax (fun q'' => v46 (ix2 p q'')) := fun q' => by
    rw [← hD, subf_apply, btK, scK, kMax_apply]
  have hlog : ∀ S : FVec Ideal S2000 .f32,
      broadcastTo S2000x10 (log (shapeCast S2000x1 S shapeCasts_S2000_S2000x1)) broadcasts_S2000x1_S2000x10 (ix2 p q)
        = Ideal.log (S (ix1 p)) := fun S => by
    rw [btK]
    show Ideal.log (shapeCast S2000x1 S shapeCasts_S2000_S2000x1 (ix2 p 0)) = _
    rw [scK]
  have hS : (∑ q' : Fin 10, exp D (ix2 p q'))
      = ∑ q' : Fin 10, Ideal.exp (v46 (ix2 p q') - rowMax (fun q'' => v46 (ix2 p q''))) :=
    Finset.sum_congr rfl (fun q' _ => by
      show Ideal.exp (D (ix2 p q')) = _
      rw [hsub])
  rw [subf_apply, hlog, kSum_apply, hsub, hS]
  rfl

end Kernel

end Cert.EluFacts

end
-- ==== Proof.Region3Lin.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

/-!
  Matrix products, row broadcasts and column broadcasts read at an index, at the extended reals, for matrices of any
  extents: the plain product of an m × k by a k × n matrix, with the dimension numbers a program prints for it (left
  axis 1 against right axis 0, no batch axis), is at (a, b) the sum over c of A(a, c) · B(c, b) — for the chip's product
  into a zero accumulator and for the host's alike.
-/

namespace Cert.KernelIdeal.Region3

open Idealize.ShloMosaic Idealize.ShloMosaic.ValueIdx

variable {m k n : Nat}

/-- The printed dimension numbers of a plain product, over any well-formedness witness. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem plain_lhsIdx (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

theorem plain_rhsIdx (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- The chip's product into a zero accumulator, at (a, b): the sum over the contracted coordinate. -/
theorem matmul_zero_ix2 (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (a : Fin m) (b : Fin n) :
    matmul (plainDims w) prec A B (constant (F := Ideal) ⟨2, ![m, n]⟩ .f32 0x00000000#32) (ix2 a b)
      = ∑ c : Fin k, A (ix2 a c) * B (ix2 c b) := by
  show FloatOps.matmul (plainDims w) prec A B _ (ix2 a b) = _
  rw [Ideal.matmul_constant_zero_apply, ← Equiv.sum_comp (contrEquiv1 (plainDims w) k rfl rfl).symm]
  refine Finset.sum_congr rfl fun c _ => ?_
  rw [plain_lhsIdx, plain_rhsIdx]

/-- The host's product, at (a, b): the same sum. -/
theorem dotGeneral_ix2 (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (a : Fin m) (b : Fin n) :
    Host.dotGeneral (plainDims w) prec A B (ix2 a b) = ∑ c : Fin k, A (ix2 a c) * B (ix2 c b) := by
  show FloatOps.dotGeneral _ prec _ A B (ix2 a b) = _
  rw [Ideal.dotGeneral_apply, ← Equiv.sum_comp (contrEquiv1 (plainDims w) k rfl rfl).symm]
  refine Finset.sum_congr rfl fun c _ => ?_
  rw [plain_lhsIdx, plain_rhsIdx]

/-! ## Rows and columns broadcast over a matrix -/

variable {α : Type} {a b : Nat}

/-- The host's broadcast of a one-row matrix down the rows reads, at (p, c), the row at c. -/
theorem broadcastInDim_row_ix2 (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a one-column matrix along the columns reads, at (p, c), the column at p. -/
theorem broadcastInDim_col_ix2 (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The chip's broadcast of a one-column matrix along the columns likewise. -/
theorem broadcastTo_col_ix2 (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Region3
-- ==== Proof.Region3Blk.lean ====
import proofs.«402775_j5308579578323_4_alg».proof.Proof.Gen.KernelIdeal.Frame
import Idealize.ShloMosaic.PureOps.Ideal
import Idealize.ShloMosaic.Lib.ValueIdx

/-!
  The blocks of the last stage's windows, read off the arrays: the grid has 25 points; point t's block of a row-blocked
  window (the hidden features, the aggregated messages, the degree column, the output) is rows 2000·t … 2000·t + 1999 of its
  array, and every other window's block is its whole array.
-/

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The printed index maps over the grid: the row-blocked windows sit at block row t, column 0; the others at (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

theorem t_lt (t : Fin cfg3.N) : t.val < 25 := by have h1 := t.isLt; have h2 : cfg3.N = 25 := N_3; omega

/-- Row p of point t's block is row 2000·t + p of the array. -/
abbrev row (t : Fin cfg3.N) (p : Fin 2000) : Fin 50000 := ⟨t.val * 2000 + p.val, by have := t_lt t; have := p.isLt; omega⟩

theorem blk0 (c : Dev nD) (t : Fin cfg3.N) (p : Fin 2000) (k : Fin 32) :
    (iblk3 V c 0 t : Vec Ideal S2000x32 .f32) (ix2 p k) = (V c main_v18 : S50000x32.Idx → Elt Ideal .f32) (ix2 (row t p) k) := by
  obtain ⟨e0, e1, e2, e3, e4, e5, e6, e7, e8, e9, -⟩ := idx_facts t
  unfold iblk3
  rw [View.read_apply]
  show V c main_v18 _ = V c main_v18 _
  congr 1
  funext a
  apply Fin.ext
  match a with
  | ⟨0, _⟩ => show win3_0.index t 0 * 2000 + 1 * p.val = t.val * 2000 + p.val; rw [e0]; omega
  | ⟨1, _⟩ => show win3_0.index t 1 * 32 + 1 * k.val = k.val; rw [e1]; omega

theorem blk1 (c : Dev nD) (t : Fin cfg3.N) :
    (iblk3 V c 1 t : Vec Ideal S32x64 .f32) = (V c main_arg7 : S32x64.Idx → Elt Ideal .f32) := by
  obtain ⟨e0, e1, e2, e3, e4, e5, e6, e7, e8, e9, e10, e11, e12, e13, e14, e15, e16, e17, -⟩ := idx_facts t
  funext j
  unfold iblk3
  rw [View.read_apply]
  show V c main_arg7 _ = V c main_arg7 _
  congr 1
  funext a
  apply Fin.ext
  match a with
  | ⟨0, _⟩ => show win3_1.index t 0 * 32 + 1 * (j 0).val = (j 0).val; rw [e2]; omega
  | ⟨1, _⟩ => show win3_1.index t 1 * 64 + 1 * (j 1).val = (j 1).val; rw [e3]; omega

theorem blk2 (c : Dev nD) (t : Fin cfg3.N) :
    (iblk3 V c 2 t : Vec Ideal S1x64 .f32) = (V c main_v26 : S1x64.Idx → Elt Ideal .f32) := by
  obtain ⟨e0, e1, e2, e3, e4, e5, e6, e7, e8, e9, e10, e11, e12, e13, e14, e15, e16, e17, -⟩ := idx_facts t
  funext j
  unfold iblk3
  rw [View.read_apply]
  show V c main_v26 _ = V c main_v26 _
  congr 1
  funext a
  apply Fin.ext
  match a with
  | ⟨0, _⟩ => show win3_2.index t 0 * 1 + 1 * (j 0).val = (j 0).val; rw [e4]; omega
  | ⟨1, _⟩ => show win3_2.index t 1 * 64 + 1 * (j 1).val = (j 1).val; rw [e5]; omega

theorem blk3 (c : Dev nD) (t : Fin cfg3.N) (p : Fin 2000) (k : Fin 64) :
    (iblk3 V c 3 t : Vec Ideal S2000x64 .f32) (ix2 p k) = (V c main_v25 : S50000x64.Idx → Elt Ideal .f32) (ix2 (row t p) k) := by
  obtain ⟨e0, e1, e2, e3, e4, e5, e6, e7, e8, e9, -⟩ := idx_facts t
  unfold iblk3
  rw [View.read_apply]
  show V c main_v25 _ = V c main_v25 _
  congr 1
  funext a
  apply Fin.ext
  match a with
  | ⟨0, _⟩ => show win3_3.index t 0 * 2000 + 1 * p.val = t.val * 2000 + p.val; rw [e6]; omega
  | ⟨1, _⟩ => show win3_3.index t 1 * 64 + 1 * k.val = k.val; rw [e7]; omega

theorem blk4 (c : Dev nD) (t : Fin cfg3.N) (p : Fin 2000) (k : Fin 1) :
    (iblk3 V c 4 t : Vec Ideal S2000x1 .f32) (ix2 p k) = (V c main_v10 : S50000x1.Idx → Elt Ideal .f32) (ix2 (row t p) k) := by
  obtain ⟨e0, e1, e2, e3, e4, e5, e6, e7, e8, e9, -⟩ := idx_facts t
  unfold iblk3
  rw [View.read_apply]
  show V c main_v10 _ = V c main_v10 _
  congr 1
  funext a
  apply Fin.ext
  match a with
  | ⟨0, _⟩ => show win3_4.index t 0 * 2000 + 1 * p.val = t.val * 2000 + p.val; rw [e8]; omega
  | ⟨1, _⟩ => show win3_4.index t 1 * 1 + 1 * k.val = k.val; rw [e9]; omega

theorem blk5 (c : Dev nD) (t : Fin cfg3.N) :
    (iblk3 V c 5 t : Vec Ideal S64x128 .f32) = (V c main_arg9 : S64x128.Idx → Elt Ideal .f32) := by
  obtain ⟨e0, e1, e2, e3, e4, e5, e6, e7, e8, e9, e10, e11, e12, e13, e14, e15, e16, e17, -⟩ := idx_facts t
  funext j
  unfold iblk3
  rw [View.read_apply]
  show V c main_arg9 _ = V c main_arg9 _
  congr 1
  funext a
  apply Fin.ext
  match a with
  | ⟨0, _⟩ => show win3_5.index t 0 * 64 + 1 * (j 0).val = (j 0).val; rw [e10]; omega
  | ⟨1, _⟩ => show win3_5.index t 1 * 128 + 1 * (j 1).val = (j 1).val; rw [e11]; omega

theorem blk6 (c : Dev nD) (t : Fin cfg3.N) :
    (iblk3 V c 6 t : Vec Ideal S1x128 .f32) = (V c main_v27 : S1x128.Idx → Elt Ideal .f32) := by
  obtain ⟨e0, e1, e2, e3, e4, e5, e6, e7, e8, e9, e10, e11, e12, e13, e14, e15, e16, e17, -⟩ := idx_facts t
  funext j
  unfold iblk3
  rw [View.read_apply]
  show V c main_v27 _ = V c main_v27 _
  congr 1
  funext a
  apply Fin.ext
  match a with
  | ⟨0, _⟩ => show win3_6.index t 0 * 1 + 1 * (j 0).val = (j 0).val; rw [e12]; omega
  | ⟨1, _⟩ => show win3_6.index t 1 * 128 + 1 * (j 1).val = (j 1).val; rw [e13]; omega

theorem blk7 (c : Dev nD) (t : Fin cfg3.N) :
    (iblk3 V c 7 t : Vec Ideal S128x10 .f32) = (V c main_arg11 : S128x10.Idx → Elt Ideal .f32) := by
  obtain ⟨e0, e1, e2, e3, e4, e5, e6, e7, e8, e9, e10, e11, e12, e13, e14, e15, e16, e17, -⟩ := idx_facts t
  funext j
  unfold iblk3
  rw [View.read_apply]
  show V c main_arg11 _ = V c main_arg11 _
  congr 1
  funext a
  apply Fin.ext
  match a with
  | ⟨0, _⟩ => show win3_7.index t 0 * 128 + 1 * (j 0).val = (j 0).val; rw [e14]; omega
  | ⟨1, _⟩ => show win3_7.index t 1 * 10 + 1 * (j 1).val = (j 1).val; rw [e15]; omega

theorem blk8 (c : Dev nD) (t : Fin cfg3.N) :
    (iblk3 V c 8 t : Vec Ideal S1x10 .f32) = (V c main_v28 : S1x10.Idx → Elt Ideal .f32) := by
  obtain ⟨e0, e1, e2, e3, e4, e5, e6, e7, e8, e9, e10, e11, e12, e13, e14, e15, e16, e17, -⟩ := idx_facts t
  funext j
  unfold iblk3
  rw [View.read_apply]
  show V c main_v28 _ = V c main_v28 _
  congr 1
  funext a
  apply Fin.ext
  match a with
  | ⟨0, _⟩ => show win3_8.index t 0 * 1 + 1 * (j 0).val = (j 0).val; rw [e16]; omega
  | ⟨1, _⟩ => show win3_8.index t 1 * 10 + 1 * (j 1).val = (j 1).val; rw [e17]; omega

/-- An element (p, q) of the output block at point t sits at (2000·t + p, q) of the output array. -/
theorem emb9 (t : Fin cfg3.N) (p : Fin 2000) (q : Fin 10) :
    ((cfg3.win 9).blk t).view.emb (ix2 p q : S2000x10.Idx) = (ix2 (row t p) q : S50000x10.Idx) := by
  obtain ⟨e0, e1, e2, e3, e4, e5, e6, e7, e8, e9, e10, e11, e12, e13, e14, e15, e16, e17, e18, e19⟩ := idx_facts t
  funext a
  apply Fin.ext
  match a with
  | ⟨0, _⟩ => show win3_9.index t 0 * 2000 + 1 * p.val = t.val * 2000 + p.val; rw [e18]; omega
  | ⟨1, _⟩ => show win3_9.index t 1 * 10 + 1 * q.val = q.val; rw [e19]; omega

/-- An index of the output array is in point t's block iff each coordinate is in the block's range on its axis. -/
theorem mem_blk9 (t : Fin cfg3.N) (i : S50000x10.Idx) :
    i ∈ ((cfg3.win 9).blk t).view.set ↔ ∀ a : Fin 2, win3_9.index t a * S2000x10.size a ≤ (i a).val ∧ (i a).val < win3_9.index t a * S2000x10.size a + S2000x10.size a := by
  show i ∈ ((View.whole main_v29).slice (win3_9.rect t)).set ↔ _
  rw [View.set_slice_whole, Rect.mem_set_unit]
  exact Iff.rfl

/-- Every index of the output array is in the block of the point that holds its row: row r is in block r / 2000. -/
theorem cover9 (i : S50000x10.Idx) : ∃ t : Fin cfg3.N, (cfg3.win 9).flush t = true ∧ i ∈ ((cfg3.win 9).blk t).view.set := by
  have hi0 : (i 0).val < 50000 := (i 0).isLt
  have hi1 : (i 1).val < 10 := (i 1).isLt
  have hN : cfg3.N = 25 := N_3
  let t : Fin cfg3.N := ⟨(i 0).val / 2000, by omega⟩
  have ht : t.val = (i 0).val / 2000 := rfl
  obtain ⟨e0, e1, e2, e3, e4, e5, e6, e7, e8, e9, e10, e11, e12, e13, e14, e15, e16, e17, e18, e19⟩ := idx_facts t
  refine ⟨t, flush3_9 t, ?_⟩
  rw [mem_blk9]
  intro a
  match a with
  | ⟨0, _⟩ => show win3_9.index t (0 : Fin 2) * 2000 ≤ (i 0).val ∧ (i 0).val < win3_9.index t (0 : Fin 2) * 2000 + 2000; rw [e18]; omega
  | ⟨1, _⟩ => show win3_9.index t (1 : Fin 2) * 10 ≤ (i 1).val ∧ (i 1).val < win3_9.index t (1 : Fin 2) * 10 + 10; rw [e19]; omega

end Cert.KernelIdeal.Region3

end
-- ==== Proof.Region3Spec.lean ====
import proofs.«402775_j5308579578323_4_alg».proof.Proof.Spec
import proofs.«402775_j5308579578323_4_alg».proof.Proof.EluFacts
import proofs.«402775_j5308579578323_4_alg».proof.Proof.Region3Lin

/-!
  One row of the last stage, on extended reals: layer 2's pre-activation (h · root2 + b2) + agg / deg, the first dense
  layer on its ELU, the second dense layer on that one's ELU, and the log-softmax of the ten results — and the stage
  function of the specification read at a row as exactly this, from the rows of its arrays. The specification adds
  agg / deg first and the bias last; sums of extended reals commute and associate, so the two orders agree.
-/

noncomputable section

open scoped BigOperators

namespace Cert.KernelIdeal.Region3

open Idealize.ShloMosaic Idealize.ShloMosaic.ValueIdx Cert.EluFacts
open Cert.ReferenceIdeal Cert.ReferenceIdeal.Facts₀ Cert.ReferenceIdeal.Facts

/-! ## The row functions -/

/-- Layer 2's pre-activation of one node: (Σ_k h_k · root2(k, o) + b2(o)) + agg(o) / deg. -/
def y2Row (h : Fin 32 → EReal) (R : Fin 32 → Fin 64 → EReal) (b a : Fin 64 → EReal) (d : EReal) (o : Fin 64) : EReal :=
  ((∑ k : Fin 32, h k * R k o) + b o) + Ideal.div (a o) d

/-- The first dense layer's pre-activation: Σ_k ELU(y_k) · lw1(k, o) + lb1(o). -/
def h3Row (y : Fin 64 → EReal) (W : Fin 64 → Fin 128 → EReal) (b : Fin 128 → EReal) (o : Fin 128) : EReal :=
  (∑ k : Fin 64, elu (y k) * W k o) + b o

/-- The second dense layer: Σ_k ELU(h_k) · lw2(k, q) + lb2(q). -/
def zRow (h : Fin 128 → EReal) (W : Fin 128 → Fin 10 → EReal) (b : Fin 10 → EReal) (q : Fin 10) : EReal :=
  (∑ k : Fin 128, elu (h k) * W k q) + b q

/-- The stage on one node. -/
def tailRow (h : Fin 32 → EReal) (R : Fin 32 → Fin 64 → EReal) (b2 a : Fin 64 → EReal) (d : EReal)
    (W1 : Fin 64 → Fin 128 → EReal) (b1 : Fin 128 → EReal) (W2 : Fin 128 → Fin 10 → EReal) (bb : Fin 10 → EReal) (q : Fin 10) : EReal :=
  lsmRow (zRow (h3Row (y2Row h R b2 a d) W1 b1) W2 bb) q

/-! ## The specification's stage function, array by array -/

/-- Layer 2's pre-activation as the specification spells it: (agg2 / deg + h1 · root2) + b2. -/
def sY2 (h1 : FVec Ideal S50000x32 .f32) (root2 : FVec Ideal S32x64 .f32) (b2r : FVec Ideal S1x64 .f32)
    (agg2 : FVec Ideal S50000x64 .f32) (degc : FVec Ideal S50000x1 .f32) : FVec Ideal S50000x64 .f32 :=
  addf (addf
    (Host.divf agg2 (broadcastInDim S50000x64 ![0, 1] bcast_S50000x1_S50000x64_0_1 degc))
    (Host.dotGeneral dot_S50000x32_S32x64_S50000x64_1_0_0_1_n_n none h1 root2))
    (broadcastInDim S50000x64 ![0, 1] bcast_S1x64_S50000x64_0_1 b2r)

def sH3 (y : FVec Ideal S50000x64 .f32) (lw1 : FVec Ideal S64x128 .f32) (lb1r : FVec Ideal S1x128 .f32) : FVec Ideal S50000x128 .f32 :=
  addf (Host.dotGeneral dot_S50000x64_S64x128_S50000x128_1_0_0_1_n_n none (Cert.Spec.elu64 y) lw1)
    (broadcastInDim S50000x128 ![0, 1] bcast_S1x128_S50000x128_0_1 lb1r)

def sZ (h : FVec Ideal S50000x128 .f32) (lw2 : FVec Ideal S128x10 .f32) (lb2r : FVec Ideal S1x10 .f32) : FVec Ideal S50000x10 .f32 :=
  addf (Host.dotGeneral dot_S50000x128_S128x10_S50000x10_1_0_0_1_n_n none (Cert.Spec.elu128 h) lw2)
    (broadcastInDim S50000x10 ![0, 1] bcast_S1x10_S50000x10_0_1 lb2r)

theorem tail_eq (h1 : FVec Ideal S50000x32 .f32) (root2 : FVec Ideal S32x64 .f32) (b2r : FVec Ideal S1x64 .f32)
    (agg2 : FVec Ideal S50000x64 .f32) (degc : FVec Ideal S50000x1 .f32) (lw1 : FVec Ideal S64x128 .f32) (lb1r : FVec Ideal S1x128 .f32)
    (lw2 : FVec Ideal S128x10 .f32) (lb2r : FVec Ideal S1x10 .f32) :
    Cert.Spec.tail h1 root2 b2r agg2 degc lw1 lb1r lw2 lb2r
      = Cert.Spec.logSoftmax (sZ (sH3 (sY2 h1 root2 b2r agg2 degc) lw1 lb1r) lw2 lb2r) := rfl

theorem sY2_apply (h1 : FVec Ideal S50000x32 .f32) (root2 : FVec Ideal S32x64 .f32) (b2r : FVec Ideal S1x64 .f32)
    (agg2 : FVec Ideal S50000x64 .f32) (degc : FVec Ideal S50000x1 .f32) (r : Fin 50000) (o : Fin 64) :
    sY2 h1 root2 b2r agg2 degc (ix2 r o)
      = y2Row (fun k => h1 (ix2 r k)) (fun k o => root2 (ix2 k o)) (fun o => b2r (ix2 (0 : Fin 1) o)) (fun o => agg2 (ix2 r o))
          (degc (ix2 r (0 : Fin 1))) o := by
  unfold sY2 y2Row
  rw [addf_apply, addf_apply, hostDivf_apply, broadcastInDim_col_ix2, broadcastInDim_row_ix2]
  rw [show Host.dotGeneral dot_S50000x32_S32x64_S50000x64_1_0_0_1_n_n none h1 root2 (ix2 r o) = _ from
    dotGeneral_ix2 Gen.dot_S50000x32_S32x64_S50000x64_1_0_0_1_n_n_wf none h1 root2 r o]
  rw [add_comm (Ideal.div _ _), add_assoc, add_comm (Ideal.div _ _), ← add_assoc]

theorem sH3_apply (y : FVec Ideal S50000x64 .f32) (lw1 : FVec Ideal S64x128 .f32) (lb1r : FVec Ideal S1x128 .f32) (r : Fin 50000) (o : Fin 128) :
    sH3 y lw1 lb1r (ix2 r o) = h3Row (fun k => y (ix2 r k)) (fun k o => lw1 (ix2 k o)) (fun o => lb1r (ix2 (0 : Fin 1) o)) o := by
  unfold sH3 h3Row
  rw [addf_apply, broadcastInDim_row_ix2]
  rw [show Host.dotGeneral dot_S50000x64_S64x128_S50000x128_1_0_0_1_n_n none (Cert.Spec.elu64 y) lw1 (ix2 r o) = _ from
    dotGeneral_ix2 Gen.dot_S50000x64_S64x128_S50000x128_1_0_0_1_n_n_wf none (Cert.Spec.elu64 y) lw1 r o]
  simp only [elu64_apply]

theorem sZ_apply (h : FVec Ideal S50000x128 .f32) (lw2 : FVec Ideal S128x10 .f32) (lb2r : FVec Ideal S1x10 .f32) (r : Fin 50000) (q : Fin 10) :
    sZ h lw2 lb2r (ix2 r q) = zRow (fun k => h (ix2 r k)) (fun k q => lw2 (ix2 k q)) (fun q => lb2r (ix2 (0 : Fin 1) q)) q := by
  unfold sZ zRow
  rw [addf_apply, broadcastInDim_row_ix2]
  rw [show Host.dotGeneral dot_S50000x128_S128x10_S50000x10_1_0_0_1_n_n none (Cert.Spec.elu128 h) lw2 (ix2 r q) = _ from
    dotGeneral_ix2 Gen.dot_S50000x128_S128x10_S50000x10_1_0_0_1_n_n_wf none (Cert.Spec.elu128 h) lw2 r q]
  simp only [elu128_apply]

/-- The specification's stage function at (r, q): the row function of row r of its arrays. -/
theorem tail_apply (h1 : FVec Ideal S50000x32 .f32) (root2 : FVec Ideal S32x64 .f32) (b2r : FVec Ideal S1x64 .f32)
    (agg2 : FVec Ideal S50000x64 .f32) (degc : FVec Ideal S50000x1 .f32) (lw1 : FVec Ideal S64x128 .f32) (lb1r : FVec Ideal S1x128 .f32)
    (lw2 : FVec Ideal S128x10 .f32) (lb2r : FVec Ideal S1x10 .f32) (r : Fin 50000) (q : Fin 10) :
    Cert.Spec.tail h1 root2 b2r agg2 degc lw1 lb1r lw2 lb2r (ix2 r q)
      = tailRow (fun k => h1 (ix2 r k)) (fun k o => root2 (ix2 k o)) (fun o => b2r (ix2 (0 : Fin 1) o)) (fun o => agg2 (ix2 r o))
          (degc (ix2 r (0 : Fin 1))) (fun k o => lw1 (ix2 k o)) (fun o => lb1r (ix2 (0 : Fin 1) o)) (fun k q => lw2 (ix2 k q))
          (fun q => lb2r (ix2 (0 : Fin 1) q)) q := by
  rw [tail_eq, logSoftmax_apply]
  unfold tailRow
  congr 1
  funext q'
  rw [sZ_apply]
  congr 1
  funext k
  rw [sH3_apply]
  congr 1
  funext o
  rw [sY2_apply]

end Cert.KernelIdeal.Region3

end
-- ==== Proof.Region3.lean ====
import proofs.«402775_j5308579578323_4_alg».proof.Proof.Gen.KernelIdeal.Frame
import proofs.«402775_j5308579578323_4_alg».proof.Proof.Spec
import proofs.«402775_j5308579578323_4_alg».proof.Proof.EluFacts
import proofs.«402775_j5308579578323_4_alg».proof.Proof.Region3Lin
import proofs.«402775_j5308579578323_4_alg».proof.Proof.Region3Blk
import proofs.«402775_j5308579578323_4_alg».proof.Proof.Region3Spec
import Idealize.ShloMosaic.PureOps.Ideal

/-!
  The last stage of the kernel program: layer 2 on the nodes, the two dense layers and the log-softmax, on row blocks of
  2000 nodes. The body's payload at element (p, q) of a block is the row function of row p of the body's loaded blocks
  (three products into zero accumulators, the bias rows broadcast down the block, the division by the degree column, two
  ELUs, the log-softmax of the ten results); each loaded block is its array's rows 2000·t … 2000·t + 1999, or the whole
  array for the weights and biases; the specification's stage function at (2000·t + p, q) is the same row function of
  the arrays' row; the 25 blocks tile the output array.
-/

set_option maxRecDepth 16384

noncomputable section

open scoped BigOperators

namespace Cert.KernelIdeal.Region3

open Cert.KernelIdeal Cert.KernelIdeal.Gen Idealize.ShloMosaic Idealize.ShloMosaic.TcCoe Idealize.SL.Sem
open Idealize.ShloMosaic.Pipeline (Dat Cfg Window)
open Idealize.ShloMosaic.ValueIdx Cert.EluFacts

/-! ## The body's payload, stage by stage -/

/-- Layer 2's pre-activation on a block: (h1 · root2 + b2) + agg2 / deg. -/
def kY2 (x0 : FVec Ideal S2000x32 .f32) (x1 : FVec Ideal S32x64 .f32) (x2 : FVec Ideal S1x64 .f32) (x3 : FVec Ideal S2000x64 .f32)
    (x4 : FVec Ideal S2000x1 .f32) : FVec Ideal S2000x64 .f32 :=
  addf
    (addf (matmul dot_S2000x32_S32x64_S2000x64_1_0_0_1_n_n none (shapeCast S2000x32 x0 shapeCasts_S2000x32_S2000x32) x1
        (constant S2000x64 .f32 0x00000000#32))
      (broadcastTo S2000x64 (shapeCast S1x64 x2 shapeCasts_S1x64_S1x64) broadcasts_S1x64_S2000x64))
    (divf (shapeCast S2000x64 x3 shapeCasts_S2000x64_S2000x64)
      (broadcastTo S2000x64 (shapeCast S2000x1 x4 shapeCasts_S2000x1_S2000x1) broadcasts_S2000x1_S2000x64))

theorem kY2_apply (x0 : FVec Ideal S2000x32 .f32) (x1 : FVec Ideal S32x64 .f32) (x2 : FVec Ideal S1x64 .f32) (x3 : FVec Ideal S2000x64 .f32)
    (x4 : FVec Ideal S2000x1 .f32) (p : Fin 2000) (o : Fin 64) :
    kY2 x0 x1 x2 x3 x4 (ix2 p o)
      = y2Row (fun k => x0 (ix2 p k)) (fun k o => x1 (ix2 k o)) (fun o => x2 (ix2 (0 : Fin 1) o)) (fun o => x3 (ix2 p o))
          (x4 (ix2 p (0 : Fin 1))) o := by
  unfold kY2 y2Row
  rw [addf_apply, addf_apply, divf_apply, shapeCast_self, shapeCast_self, shapeCast_self, shapeCast_self]
  rw [broadcastTo_1b_ab_apply, broadcastTo_col_ix2]
  rw [show matmul dot_S2000x32_S32x64_S2000x64_1_0_0_1_n_n none x0 x1 (constant S2000x64 .f32 0x00000000#32) (ix2 p o) = _ from
    matmul_zero_ix2 dot_S2000x32_S32x64_S2000x64_1_0_0_1_n_n_wf none x0 x1 p o]

/-- The first dense layer's pre-activation on a block: ELU(y) · lw1 + lb1. -/
def kH3 (y : FVec Ideal S2000x64 .f32) (x5 : FVec Ideal S64x128 .f32) (x6 : FVec Ideal S1x128 .f32) : FVec Ideal S2000x128 .f32 :=
  addf (matmul dot_S2000x64_S64x128_S2000x128_1_0_0_1_n_n none
      (select (cmpf .ogt y (broadcast S2000x64 (Scalar.ofBits .f32 0x00000000#32))) y
        (mulf (broadcast S2000x64 (Scalar.ofBits .f32 0x3F800000#32))
          (subf (exp (minimumf y (broadcast S2000x64 (Scalar.ofBits .f32 0x00000000#32)))) (broadcast S2000x64 (Scalar.ofBits .f32 0x3F800000#32)))))
      x5 (constant S2000x128 .f32 0x00000000#32))
    (broadcastTo S2000x128 (shapeCast S1x128 x6 shapeCasts_S1x128_S1x128) broadcasts_S1x128_S2000x128)

theorem kH3_apply (y : FVec Ideal S2000x64 .f32) (x5 : FVec Ideal S64x128 .f32) (x6 : FVec Ideal S1x128 .f32) (p : Fin 2000) (o : Fin 128) :
    kH3 y x5 x6 (ix2 p o) = h3Row (fun k => y (ix2 p k)) (fun k o => x5 (ix2 k o)) (fun o => x6 (ix2 (0 : Fin 1) o)) o := by
  unfold kH3 h3Row
  rw [addf_apply, shapeCast_self, broadcastTo_1b_ab_apply]
  refine (congrArg (· + x6 (ix2 (0 : Fin 1) o)) (matmul_zero_ix2 dot_S2000x64_S64x128_S2000x128_1_0_0_1_n_n_wf none _ x5 p o)).trans ?_
  simp only [kelu_apply]

/-- The second dense layer on a block: ELU(h) · lw2 + lb2. -/
def kZ (h : FVec Ideal S2000x128 .f32) (x7 : FVec Ideal S128x10 .f32) (x8 : FVec Ideal S1x10 .f32) : FVec Ideal S2000x10 .f32 :=
  addf (matmul dot_S2000x128_S128x10_S2000x10_1_0_0_1_n_n none
      (select (cmpf .ogt h (broadcast S2000x128 (Scalar.ofBits .f32 0x00000000#32))) h
        (mulf (broadcast S2000x128 (Scalar.ofBits .f32 0x3F800000#32))
          (subf (exp (minimumf h (broadcast S2000x128 (Scalar.ofBits .f32 0x00000000#32)))) (broadcast S2000x128 (Scalar.ofBits .f32 0x3F800000#32)))))
      x7 (constant S2000x10 .f32 0x00000000#32))
    (broadcastTo S2000x10 (shapeCast S1x10 x8 shapeCasts_S1x10_S1x10) broadcasts_S1x10_S2000x10)

theorem kZ_apply (h : FVec Ideal S2000x128 .f32) (x7 : FVec Ideal S128x10 .f32) (x8 : FVec Ideal S1x10 .f32) (p : Fin 2000) (q : Fin 10) :
    kZ h x7 x8 (ix2 p q) = zRow (fun k => h (ix2 p k)) (fun k q => x7 (ix2 k q)) (fun q => x8 (ix2 (0 : Fin 1) q)) q := by
  unfold kZ zRow
  rw [addf_apply, shapeCast_self, broadcastTo_1b_ab_apply]
  refine (congrArg (· + x8 (ix2 (0 : Fin 1) q)) (matmul_zero_ix2 dot_S2000x128_S128x10_S2000x10_1_0_0_1_n_n_wf none _ x7 p q)).trans ?_
  simp only [kelu_apply]

/-- The payload the body stores is the log-softmax of the three stages composed. -/
theorem pay_eq (x0 : FVec Ideal S2000x32 .f32) (x1 : FVec Ideal S32x64 .f32) (x2 : FVec Ideal S1x64 .f32) (x3 : FVec Ideal S2000x64 .f32)
    (x4 : FVec Ideal S2000x1 .f32) (x5 : FVec Ideal S64x128 .f32) (x6 : FVec Ideal S1x128 .f32)
    (x7 : FVec Ideal S128x10 .f32) (x8 : FVec Ideal S1x10 .f32) :
    k3_pay1 (F := Ideal) (k3_pay2 (F := Ideal) x0 x1 x2 x3 x4 x5 x6) (k3_pay3 (F := Ideal) x0 x1 x2 x3 x4 x5 x6) (k3_pay4 (F := Ideal) x0 x1 x2 x3 x4 x5 x6)
        (Scalar.ofBits .f32 0x3F800000#32) x7 x8
      = lsmK (kZ (kH3 (kY2 x0 x1 x2 x3 x4) x5 x6) x7 x8) := rfl

/-- The payload at element (p, q) of a block: the row function of row p of the loaded blocks. -/
theorem pay_apply (x0 : FVec Ideal S2000x32 .f32) (x1 : FVec Ideal S32x64 .f32) (x2 : FVec Ideal S1x64 .f32) (x3 : FVec Ideal S2000x64 .f32)
    (x4 : FVec Ideal S2000x1 .f32) (x5 : FVec Ideal S64x128 .f32) (x6 : FVec Ideal S1x128 .f32)
    (x7 : FVec Ideal S128x10 .f32) (x8 : FVec Ideal S1x10 .f32) (p : Fin 2000) (q : Fin 10) :
    k3_pay1 (F := Ideal) (k3_pay2 (F := Ideal) x0 x1 x2 x3 x4 x5 x6) (k3_pay3 (F := Ideal) x0 x1 x2 x3 x4 x5 x6) (k3_pay4 (F := Ideal) x0 x1 x2 x3 x4 x5 x6)
        (Scalar.ofBits .f32 0x3F800000#32) x7 x8 (ix2 p q)
      = tailRow (fun k => x0 (ix2 p k)) (fun k o => x1 (ix2 k o)) (fun o => x2 (ix2 (0 : Fin 1) o)) (fun o => x3 (ix2 p o))
          (x4 (ix2 p (0 : Fin 1))) (fun k o => x5 (ix2 k o)) (fun o => x6 (ix2 (0 : Fin 1) o)) (fun k q => x7 (ix2 k q))
          (fun q => x8 (ix2 (0 : Fin 1) q)) q := by
  rw [pay_eq, lsmK_apply]
  unfold tailRow
  congr 1
  funext q'
  rw [kZ_apply]
  congr 1
  funext k
  rw [kH3_apply]
  congr 1
  funext o
  rw [kY2_apply]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- What point t writes back is block t of the specification's stage function of the arrays as the region finds them. -/
theorem flushed9 (c : Dev nD) (t : Fin cfg3.N) :
    (dat3 (F := Ideal) V c).flushed 9 t = ((cfg3.win 9).blk t).view.read (Elt Ideal)
      (Cert.Spec.tail (F := Ideal) (V c main_v18) (V c main_arg7) (V c main_v26) (V c main_v25) (V c main_v10)
          (V c main_arg9) (V c main_v27) (V c main_arg11) (V c main_v28)) := by
  show (cfg3.win 9).cut (grid3.coords t) ((dat3 V c).after 9 t) = _
  rw [after3_9]
  unfold out3_9
  rw [View.canon_unit_zero hz]
  simp only [View.ld_unit_zero (S := S2000x32) hz, View.ld_unit_zero (S := S32x64) hz, View.ld_unit_zero (S := S1x64) hz,
    View.ld_unit_zero (S := S2000x64) hz, View.ld_unit_zero (S := S2000x1) hz, View.ld_unit_zero (S := S64x128) hz,
    View.ld_unit_zero (S := S1x128) hz, View.ld_unit_zero (S := S128x10) hz, View.ld_unit_zero (S := S1x10) hz]
  funext j
  obtain ⟨p, q, rfl⟩ : ∃ (p : Fin 2000) (q : Fin 10), j = ix2 p q := ⟨j 0, j 1, eq_ix2 j⟩
  refine (pay_apply _ _ _ _ _ _ _ _ _ p q).trans ?_
  rw [View.read_apply, emb9, tail_apply]
  simp only [blk0 V c t, blk3 V c t, blk4 V c t]
  rw [blk1 V c t, blk2 V c t, blk5 V c t, blk6 V c t, blk7 V c t, blk8 V c t]
  rfl

theorem value (c : Dev nD) :
    (dat3 (F := Ideal) V c).arrAt 9 cfg3.N
      = Cert.Spec.tail (F := Ideal) (V c main_v18) (V c main_arg7) (V c main_v26) (V c main_v25) (V c main_v10)
          (V c main_arg9) (V c main_v27) (V c main_arg11) (V c main_v28) :=
  (dat3 V c).arrAt_eq_of_cover 9 _ (fun t _ => flushed9 V c t) cover9

end Cert.KernelIdeal.Region3

end
-- ==== Proof.Region0.lean ====
/-
  Layer 1's messages: the first region's output array is the stage function 'Spec.msg1' of the region's input arrays.

  For an edge e with pseudo-coordinate a and source feature x, and a channel o, both sides compute
  0 + Σ over the five taps k, in order, of coef_k(a) · x · W1[k, 0, o]: the region as (coef_k(a) · x) · w[k, o] with w the
  5 × 32 view of the weights, the stage function as coef_k(a) · (Σ over the ONE contracted index of x · W1[k, 0, o]).
  The coefficient chain (clip, times 4, floor, clip, to an integer and back, the two selects) is operation for operation
  the same on both sides, so it is ONE scalar function 'cf k' of the pseudo-coordinate; the two sides then differ by the
  association of a product of three extended reals. No finiteness is needed.

  The region works on row blocks of 4000 edges: point t of the 400 reads rows [4000 t, 4000 t + 4000) of the source
  features and of the pseudo-coordinates, the whole weight block, and writes rows [4000 t, 4000 t + 4000) of the output;
  the blocks cover the array (row r is in block r / 4000).
-/
import proofs.«402775_j5308579578323_4_alg».proof.Proof.Gen.KernelIdeal.Frame
import proofs.«402775_j5308579578323_4_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The coefficient of a tap as a function of the edge's pseudo-coordinate -/

/-- p = 4 · min(1, max(0, a)). -/
def posS (a : Ideal .f32) : Ideal .f32 :=
  FloatOps.mulf (FloatOps.minimumf (FloatOps.ofBits .f32 0x3F800000#32) (FloatOps.maximumf (FloatOps.ofBits .f32 0x00000000#32) a))
    (FloatOps.ofBits .f32 0x40800000#32)
/-- The knot min(3, max(0, floor p)) as an integer. -/
def knotS (a : Ideal .f32) : BitVec 32 :=
  FloatOps.fptosi 32 (FloatOps.minimumf (FloatOps.sitofp (F := Ideal) .f32 (3#32 : BitVec 32))
    (FloatOps.maximumf (FloatOps.sitofp (F := Ideal) .f32 (0#32 : BitVec 32)) (FloatOps.floor (posS a))))
/-- f = p - knot. -/
def fracS (a : Ideal .f32) : Ideal .f32 := FloatOps.subf (posS a) (FloatOps.sitofp .f32 (knotS a))
/-- Tap k's coefficient: (1 - f if knot = k, else 0) + (f if knot + 1 = k, else 0). -/
def cf (k : BitVec 32) (a : Ideal .f32) : Ideal .f32 :=
  FloatOps.addf
    (Scalar.select (IntOp.cmpi .eq (knotS a) k) (FloatOps.subf (FloatOps.ofBits .f32 0x3F800000#32) (fracS a)) (FloatOps.ofBits .f32 0x00000000#32))
    (Scalar.select (IntOp.cmpi .eq (IntOp.addi (knotS a) 1#32) k) (fracS a) (FloatOps.ofBits .f32 0x00000000#32))

/-- The reference's coefficient vector reads the scalar function of the edge's pseudo-coordinate. -/
theorem coef_apply (a : FVec Ideal Cert.ReferenceIdeal.S1600000 .f32) (k : BitVec 32) (e : Cert.ReferenceIdeal.S1600000.Idx) :
    Cert.Spec.coef (F := Ideal) a k e = cf k (a e) := rfl

/-! ## One tap of the kernel: a coefficient column times the source column, spread over the channels, times a weight row -/

theorem hz : (![0, 0] : Fin 2 → Nat) = fun _ => 0 := funext fun a => by fin_cases a <;> rfl

/-- acc + (c · xs spread over the 32 channels) · (the weight row spread over the 4000 edges). -/
def tapK (c xs : FVec Ideal S4000x1 .f32) (w : Vec Ideal S1x32 .f32) (acc : FVec Ideal S4000x32 .f32) : FVec Ideal S4000x32 .f32 :=
  addf acc (mulf (broadcastTo S4000x32 (mulf c xs) broadcasts_S4000x1_S4000x32)
    (broadcastTo S4000x32 (shapeCast S1x32 (shapeCast S32 w shapeCasts_S1x32_S32) shapeCasts_S32_S1x32) broadcasts_S1x32_S4000x32))

theorem tapK_apply (c xs : FVec Ideal S4000x1 .f32) (w : Vec Ideal S1x32 .f32) (acc : FVec Ideal S4000x32 .f32) (p : Fin 4000) (q : Fin 32) :
    tapK c xs w acc (ix2 p q) = acc (ix2 p q) + c (ix2 p (0 : Fin 1)) * xs (ix2 p (0 : Fin 1)) * w (ix2 (0 : Fin 1) q) := by
  unfold tapK
  rw [shapeCast_shapeCast]
  show acc (ix2 p q) + broadcastTo S4000x32 (mulf c xs) broadcasts_S4000x1_S4000x32 (ix2 p q) * broadcastTo S4000x32 w broadcasts_S1x32_S4000x32 (ix2 p q) = _
  rw [broadcastTo_1b_ab_apply, broadcastTo_apply (mulf c xs) broadcasts_S4000x1_S4000x32 (ix2 p q) (ix2 p (0 : Fin 1))
    (fun a => by match a with | ⟨0, _⟩ => rfl | ⟨1, _⟩ => rfl)]
  rfl

/-- The body's stored value is the five taps added onto zero in order. -/
theorem pay_eq (v0 v17 : Vec Ideal S4000x1 .f32) (w0 w1 w2 w3 w4 : Vec Ideal S1x32 .f32) :
    k0_pay8 (k0_pay2 v0) (k0_pay3 v0) (k0_pay4 v17) (k0_pay6 (k0_pay2 v0) (k0_pay3 v0) (k0_pay4 v17) (k0_pay5 v0 v17 w0) w1 w2) k0_pay7 w3 w4
    = tapK (fun i => cf 4#32 (v0 i)) (k0_pay4 v17) w4 (tapK (fun i => cf 3#32 (v0 i)) (k0_pay4 v17) w3 (tapK (fun i => cf 2#32 (v0 i)) (k0_pay4 v17) w2
        (tapK (fun i => cf 1#32 (v0 i)) (k0_pay4 v17) w1 (tapK (fun i => cf 0#32 (v0 i)) (k0_pay4 v17) w0 (broadcast S4000x32 (Scalar.ofBits .f32 0x00000000#32)))))) := rfl

/-- Row k of the weight block, loaded as a 1 × 32 row. -/
theorem row0 (x2 : Vec Ideal S5x32 .f32) (q : Fin 32) : View.ld x2 r0_1 (ix2 (0 : Fin 1) q) = x2 (ix2 (0 : Fin 5) q) :=
  congrArg x2 (Shape.idx_ext₂ rfl (by show 0 + 1 * q.val = q.val; omega))
theorem row1 (x2 : Vec Ideal S5x32 .f32) (q : Fin 32) : View.ld x2 r0_2 (ix2 (0 : Fin 1) q) = x2 (ix2 (1 : Fin 5) q) :=
  congrArg x2 (Shape.idx_ext₂ rfl (by show 0 + 1 * q.val = q.val; omega))
theorem row2 (x2 : Vec Ideal S5x32 .f32) (q : Fin 32) : View.ld x2 r0_3 (ix2 (0 : Fin 1) q) = x2 (ix2 (2 : Fin 5) q) :=
  congrArg x2 (Shape.idx_ext₂ rfl (by show 0 + 1 * q.val = q.val; omega))
theorem row3 (x2 : Vec Ideal S5x32 .f32) (q : Fin 32) : View.ld x2 r0_4 (ix2 (0 : Fin 1) q) = x2 (ix2 (3 : Fin 5) q) :=
  congrArg x2 (Shape.idx_ext₂ rfl (by show 0 + 1 * q.val = q.val; omega))
theorem row4 (x2 : Vec Ideal S5x32 .f32) (q : Fin 32) : View.ld x2 r0_5 (ix2 (0 : Fin 1) q) = x2 (ix2 (4 : Fin 5) q) :=
  congrArg x2 (Shape.idx_ext₂ rfl (by show 0 + 1 * q.val = q.val; omega))

/-- What the body leaves in the output block, at edge p of the block and channel q. -/
theorem out_apply (x0 x1 : Vec Ideal S4000x1 .f32) (x2 : Vec Ideal S5x32 .f32) (p : Fin 4000) (q : Fin 32) :
    out0_3 x0 x1 x2 (ix2 p q)
      = ((((Ideal.ofBits .f32 0x00000000#32
        + cf 0#32 (x1 (ix2 p (0 : Fin 1))) * x0 (ix2 p (0 : Fin 1)) * x2 (ix2 (0 : Fin 5) q))
        + cf 1#32 (x1 (ix2 p (0 : Fin 1))) * x0 (ix2 p (0 : Fin 1)) * x2 (ix2 (1 : Fin 5) q))
        + cf 2#32 (x1 (ix2 p (0 : Fin 1))) * x0 (ix2 p (0 : Fin 1)) * x2 (ix2 (2 : Fin 5) q))
        + cf 3#32 (x1 (ix2 p (0 : Fin 1))) * x0 (ix2 p (0 : Fin 1)) * x2 (ix2 (3 : Fin 5) q))
        + cf 4#32 (x1 (ix2 p (0 : Fin 1))) * x0 (ix2 p (0 : Fin 1)) * x2 (ix2 (4 : Fin 5) q) := by
  unfold out0_3
  rw [View.canon_unit_zero hz]
  simp only [View.ld_unit_zero (S := S4000x1) hz]
  rw [pay_eq]
  simp only [tapK_apply]
  rw [row0 x2 q, row1 x2 q, row2 x2 q, row3 x2 q, row4 x2 q]
  unfold k0_pay4
  rw [shapeCast_self]
  rfl

/-! ## The reference's stage function at an edge and a channel -/

/-- A coefficient vector times a per-edge product, row by row, at an entry. -/
theorem tap32_apply (c : FVec Ideal Cert.ReferenceIdeal.S1600000 .f32) (d : FVec Ideal Cert.ReferenceIdeal.S1600000x32 .f32) (e : Fin 1600000) (o : Fin 32) :
    Cert.Spec.tap32 c d (ix2 e o) = c (ix1 e) * d (ix2 e o) := by
  unfold Cert.Spec.tap32
  rw [mulf_apply, broadcastInDim_apply _ _ _ (ix2 e o) (ix2 e (0 : Fin 1)) (fun a => by match a with | ⟨0, _⟩ => rfl | ⟨1, _⟩ => rfl),
    broadcastInDim_apply _ _ _ (ix2 e (0 : Fin 1)) (ix1 e) (fun a => by match a with | ⟨0, _⟩ => rfl)]

/-- The product of the source column with a weight row contracts ONE index: a single product. -/
theorem dot_apply (xs : FVec Ideal Cert.ReferenceIdeal.S1600000x1 .f32) (w : FVec Ideal Cert.ReferenceIdeal.S1x32 .f32) (e : Fin 1600000) (o : Fin 32) :
    Host.dotGeneral (F := Ideal) Cert.ReferenceIdeal.dot_S1600000x1_S1x32_S1600000x32_1_0_0_1_n_n none xs w (ix2 e o)
      = xs (ix2 e (0 : Fin 1)) * w (ix2 (0 : Fin 1) o) := by
  simp only [Host.dotGeneral]
  rw [Ideal.dotGeneral_apply, ← Equiv.sum_comp (contrEquiv1 Cert.ReferenceIdeal.dot_S1600000x1_S1x32_S1600000x32_1_0_0_1_n_n 1 rfl rfl).symm,
    Fin.sum_univ_one]
  congr 1
  · exact congrArg xs (Shape.idx_ext₂ rfl (Nat.lt_one_iff.mp (Fin.isLt _)))
  · exact congrArg w (Shape.idx_ext₂ (Nat.lt_one_iff.mp (Fin.isLt _)) rfl)

/-- Tap k's weight row is row k of the 5 × 1 × 32 weights. -/
theorem w1_0_apply (W1 : FVec Ideal Cert.ReferenceIdeal.S5x1x32 .f32) (o : Fin 32) :
    Cert.Spec.w1_0 W1 (ix2 (0 : Fin 1) o) = W1 (ix3 (0 : Fin 5) (0 : Fin 1) o) := by
  unfold Cert.Spec.w1_0
  rw [shapeCast_apply _ _ (ix2 (0 : Fin 1) o) (ix3 (0 : Fin 1) (0 : Fin 1) o) (by rw [Shape.rowMajor_val_three, Shape.rowMajor_val_two]; rfl)]
  exact extractStridedSlice_apply _ _ _ _ (ix3 (0 : Fin 5) (0 : Fin 1) o)
    (fun a => by match a with | ⟨0, _⟩ => rfl | ⟨1, _⟩ => rfl | ⟨2, _⟩ => exact (Nat.zero_add _).symm)
theorem w1_1_apply (W1 : FVec Ideal Cert.ReferenceIdeal.S5x1x32 .f32) (o : Fin 32) :
    Cert.Spec.w1_1 W1 (ix2 (0 : Fin 1) o) = W1 (ix3 (1 : Fin 5) (0 : Fin 1) o) := by
  unfold Cert.Spec.w1_1
  rw [shapeCast_apply _ _ (ix2 (0 : Fin 1) o) (ix3 (0 : Fin 1) (0 : Fin 1) o) (by rw [Shape.rowMajor_val_three, Shape.rowMajor_val_two]; rfl)]
  exact extractStridedSlice_apply _ _ _ _ (ix3 (1 : Fin 5) (0 : Fin 1) o)
    (fun a => by match a with | ⟨0, _⟩ => rfl | ⟨1, _⟩ => rfl | ⟨2, _⟩ => exact (Nat.zero_add _).symm)
theorem w1_2_apply (W1 : FVec Ideal Cert.ReferenceIdeal.S5x1x32 .f32) (o : Fin 32) :
    Cert.Spec.w1_2 W1 (ix2 (0 : Fin 1) o) = W1 (ix3 (2 : Fin 5) (0 : Fin 1) o) := by
  unfold Cert.Spec.w1_2
  rw [shapeCast_apply _ _ (ix2 (0 : Fin 1) o) (ix3 (0 : Fin 1) (0 : Fin 1) o) (by rw [Shape.rowMajor_val_three, Shape.rowMajor_val_two]; rfl)]
  exact extractStridedSlice_apply _ _ _ _ (ix3 (2 : Fin 5) (0 : Fin 1) o)
    (fun a => by match a with | ⟨0, _⟩ => rfl | ⟨1, _⟩ => rfl | ⟨2, _⟩ => exact (Nat.zero_add _).symm)
theorem w1_3_apply (W1 : FVec Ideal Cert.ReferenceIdeal.S5x1x32 .f32) (o : Fin 32) :
    Cert.Spec.w1_3 W1 (ix2 (0 : Fin 1) o) = W1 (ix3 (3 : Fin 5) (0 : Fin 1) o) := by
  unfold Cert.Spec.w1_3
  rw [shapeCast_apply _ _ (ix2 (0 : Fin 1) o) (ix3 (0 : Fin 1) (0 : Fin 1) o) (by rw [Shape.rowMajor_val_three, Shape.rowMajor_val_two]; rfl)]
  exact extractStridedSlice_apply _ _ _ _ (ix3 (3 : Fin 5) (0 : Fin 1) o)
    (fun a => by match a with | ⟨0, _⟩ => rfl | ⟨1, _⟩ => rfl | ⟨2, _⟩ => exact (Nat.zero_add _).symm)
theorem w1_4_apply (W1 : FVec Ideal Cert.ReferenceIdeal.S5x1x32 .f32) (o : Fin 32) :
    Cert.Spec.w1_4 W1 (ix2 (0 : Fin 1) o) = W1 (ix3 (4 : Fin 5) (0 : Fin 1) o) := by
  unfold Cert.Spec.w1_4
  rw [shapeCast_apply _ _ (ix2 (0 : Fin 1) o) (ix3 (0 : Fin 1) (0 : Fin 1) o) (by rw [Shape.rowMajor_val_three, Shape.rowMajor_val_two]; rfl)]
  exact extractStridedSlice_apply _ _ _ _ (ix3 (4 : Fin 5) (0 : Fin 1) o)
    (fun a => by match a with | ⟨0, _⟩ => rfl | ⟨1, _⟩ => rfl | ⟨2, _⟩ => exact (Nat.zero_add _).symm)

/-- The stage function at edge e and channel o: the five taps added onto zero in order, each a coefficient times ONE product. -/
theorem msg1_apply (xs : FVec Ideal Cert.ReferenceIdeal.S1600000x1 .f32) (a : FVec Ideal Cert.ReferenceIdeal.S1600000 .f32)
    (W1 : FVec Ideal Cert.ReferenceIdeal.S5x1x32 .f32) (e : Fin 1600000) (o : Fin 32) :
    Cert.Spec.msg1 (F := Ideal) xs a W1 (ix2 e o)
      = ((((Ideal.ofBits .f32 0x00000000#32
        + cf 0#32 (a (ix1 e)) * (xs (ix2 e (0 : Fin 1)) * W1 (ix3 (0 : Fin 5) (0 : Fin 1) o)))
        + cf 1#32 (a (ix1 e)) * (xs (ix2 e (0 : Fin 1)) * W1 (ix3 (1 : Fin 5) (0 : Fin 1) o)))
        + cf 2#32 (a (ix1 e)) * (xs (ix2 e (0 : Fin 1)) * W1 (ix3 (2 : Fin 5) (0 : Fin 1) o)))
        + cf 3#32 (a (ix1 e)) * (xs (ix2 e (0 : Fin 1)) * W1 (ix3 (3 : Fin 5) (0 : Fin 1) o)))
        + cf 4#32 (a (ix1 e)) * (xs (ix2 e (0 : Fin 1)) * W1 (ix3 (4 : Fin 5) (0 : Fin 1) o)) := by
  unfold Cert.Spec.msg1
  simp only [addf_apply, tap32_apply, dot_apply, w1_0_apply, w1_1_apply, w1_2_apply, w1_3_apply, w1_4_apply, coef_apply]
  rfl

/-! ## From blocks to the array -/

/-- The pseudo-coordinate vector reads the one column of the edge-attribute array. -/
theorem pseudo_apply (ea : FVec Ideal Cert.ReferenceIdeal.S1600000x1 .f32) (e : Fin 1600000) :
    Cert.Spec.pseudo ea (ix1 e) = ea (ix2 e (0 : Fin 1)) := by
  unfold Cert.Spec.pseudo
  exact shapeCast_apply _ _ _ _ (by rw [Shape.rowMajor_val_two, Shape.rowMajor_val_one]; show e.val * 1 + 0 = e.val; omega)

variable (V : (c : Dev nD) → (b : Ref sig .tc) → Buf (Elt Ideal) ((c : Thread nD τ).loc b))

/-- The index maps over the grid: point t's blocks of the three edge arrays are row block t, the weight block is whole. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The source-feature block of point t at row p is row 4000 t + p of the array. -/
theorem iblk0_0_apply (c : Dev nD) (t : Fin cfg0.N) (p : Fin 4000) (e : Fin 1600000) (he : e.val = t.val * 4000 + p.val) :
    (iblk0 V c 0 t : Vec Ideal S4000x1 .f32) (ix2 p (0 : Fin 1)) = (V c main_v11 : S1600000x1.Idx → Ideal .f32) (ix2 e (0 : Fin 1)) := by
  obtain ⟨e0, e1, -⟩ := idx_facts t
  unfold iblk0
  rw [View.read_apply]
  show V c main_v11 _ = V c main_v11 _
  congr 1
  funext a
  apply Fin.ext
  match a with
  | ⟨0, _⟩ => show win0_0.index t 0 * 4000 + 1 * p.val = e.val; rw [e0, he]; omega
  | ⟨1, _⟩ => show win0_0.index t 1 * 1 + 1 * 0 = 0; rw [e1]

/-- The pseudo-coordinate block of point t at row p is row 4000 t + p of the array. -/
theorem iblk0_1_apply (c : Dev nD) (t : Fin cfg0.N) (p : Fin 4000) (e : Fin 1600000) (he : e.val = t.val * 4000 + p.val) :
    (iblk0 V c 1 t : Vec Ideal S4000x1 .f32) (ix2 p (0 : Fin 1)) = (V c main_arg2 : S1600000x1.Idx → Ideal .f32) (ix2 e (0 : Fin 1)) := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t 0 * 4000 + 1 * p.val = e.val; rw [e2, he]; omega
  | ⟨1, _⟩ => show win0_1.index t 1 * 1 + 1 * 0 = 0; rw [e3]

/-- The weight block of every point is the whole 5 × 32 array, which is the 5 × 1 × 32 weights with the unit axis dropped. -/
theorem iblk0_2_apply (c : Dev nD) (W1 : FVec Ideal S5x1x32 .f32) (hw : V c main_v12 = shapeCast S5x32 W1 shapeCasts_S5x1x32_S5x32)
    (t : Fin cfg0.N) (k : Fin 5) (q : Fin 32) :
    (iblk0 V c 2 t : Vec Ideal S5x32 .f32) (ix2 k q) = W1 (ix3 k (0 : Fin 1) q) := by
  obtain ⟨-, -, -, -, e4, e5, -⟩ := idx_facts t
  unfold iblk0
  rw [View.read_apply]
  show V c main_v12 _ = _
  rw [hw]
  refine shapeCast_apply _ _ _ _ ?_
  rw [Shape.rowMajor_val_three, Shape.rowMajor_val_two]
  show (k.val * 1 + 0) * 32 + q.val = (win0_2.index t 0 * 5 + 1 * k.val) * 32 + (win0_2.index t 1 * 32 + 1 * q.val)
  rw [e4, e5]; omega

/-- What point t leaves in its output block is the stage function at the block's place in the array. -/
theorem block_eq (c : Dev nD) (W1 : FVec Ideal S5x1x32 .f32) (hw : V c main_v12 = shapeCast S5x32 W1 shapeCasts_S5x1x32_S5x32)
    (t : Fin cfg0.N) (j : S4000x32.Idx) (i : S1600000x32.Idx) (hi0 : (i 0).val = t.val * 4000 + (j 0).val) (hi1 : (i 1).val = (j 1).val) :
    out0_3 (iblk0 V c 0 t) (iblk0 V c 1 t) (iblk0 V c 2 t) j
      = Cert.Spec.msg1 (F := Ideal) (V c main_v11) (Cert.Spec.pseudo (V c main_arg2)) W1 i := by
  obtain ⟨p, q, rfl⟩ : ∃ (p : Fin 4000) (q : Fin 32), j = ix2 p q := ⟨j 0, j 1, eq_ix2 j⟩
  obtain ⟨e, o, rfl⟩ : ∃ (e : Fin 1600000) (o : Fin 32), i = ix2 e o := ⟨i 0, i 1, eq_ix2 i⟩
  have he : e.val = t.val * 4000 + p.val := hi0
  obtain rfl : o = q := Fin.ext hi1
  refine (out_apply (iblk0 V c 0 t) (iblk0 V c 1 t) (iblk0 V c 2 t) p o).trans ?_
  rw [msg1_apply, pseudo_apply, iblk0_0_apply V c t p e he, iblk0_1_apply V c t p e he,
    iblk0_2_apply V c W1 hw t 0 o, iblk0_2_apply V c W1 hw t 1 o, iblk0_2_apply V c W1 hw t 2 o,
    iblk0_2_apply V c W1 hw t 3 o, iblk0_2_apply V c W1 hw t 4 o]
  simp only [mul_assoc]

/-- WHAT POINT t WRITES BACK is block t of the stage function of the region's input arrays. -/
theorem flushed_eq (c : Dev nD) (W1 : FVec Ideal S5x1x32 .f32) (hw : V c main_v12 = shapeCast S5x32 W1 shapeCasts_S5x1x32_S5x32)
    (t : Fin cfg0.N) :
    (dat0 (F := Ideal) V c).flushed 3 t
      = ((cfg0.win 3).blk t).view.read (Elt Ideal) (Cert.Spec.msg1 (F := Ideal) (V c main_v11) (Cert.Spec.pseudo (V c main_arg2)) W1) := by
  show (cfg0.win 3).cut (grid0.coords t) ((dat0 V c).after 3 t) = _
  rw [after0_3]
  obtain ⟨-, -, -, -, -, -, e6, e7⟩ := idx_facts t
  funext j
  refine block_eq V c W1 hw t j (((cfg0.win 3).blk t).view.emb j) ?_ ?_
  · show win0_3.index t 0 * 4000 + 1 * (j 0).val = t.val * 4000 + (j 0).val; rw [e6]; omega
  · show win0_3.index t 1 * 32 + 1 * (j 1).val = (j 1).val; rw [e7]; omega

/-- An index of the array is in point t's block iff each coordinate is in the block's range on its axis. -/
theorem mem_blk (t : Fin cfg0.N) (i : S1600000x32.Idx) :
    i ∈ ((cfg0.win 3).blk t).view.set ↔ ∀ a : Fin 2, win0_3.index t a * S4000x32.size a ≤ (i a).val ∧ (i a).val < win0_3.index t a * S4000x32.size a + S4000x32.size a := by
  show i ∈ ((View.whole main_v13).slice (win0_3.rect t)).set ↔ _
  rw [View.set_slice_whole, Rect.mem_set_unit]
  exact Iff.rfl

/-- The 400 row blocks of 4000 edges cover the array: row r is in block r / 4000. -/
theorem cover (i : S1600000x32.Idx) : ∃ t : Fin cfg0.N, (cfg0.win 3).flush t = true ∧ i ∈ ((cfg0.win 3).blk t).view.set := by
  have hN : cfg0.N = 400 := N_0
  have h0 : (i 0).val < 1600000 := (i 0).isLt
  have h1 : (i 1).val < 32 := (i 1).isLt
  obtain ⟨t, ht⟩ : ∃ t : Fin cfg0.N, t.val = (i 0).val / 4000 := ⟨⟨(i 0).val / 4000, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t 0 * 4000 ≤ (i 0).val ∧ (i 0).val < win0_3.index t 0 * 4000 + 4000; rw [e6, ht]; omega
  | ⟨1, _⟩ => show win0_3.index t 1 * 32 ≤ (i 1).val ∧ (i 1).val < win0_3.index t 1 * 32 + 32; rw [e7]; omega

theorem value (c : Dev nD) (W1 : FVec Ideal S5x1x32 .f32)
    (hw : V c main_v12 = shapeCast S5x32 W1 shapeCasts_S5x1x32_S5x32) :
    (dat0 (F := Ideal) V c).arrAt 3 cfg0.N = Cert.Spec.msg1 (F := Ideal) (V c main_v11) (Cert.Spec.pseudo (V c main_arg2)) W1 :=
  (dat0 (F := Ideal) V c).arrAt_eq_of_cover 3 _ (fun t _ => flushed_eq V c W1 hw t) cover

end Cert.KernelIdeal.Region0

end
-- ==== Proof.Region1.lean ====
/-
  Region 1 of the kernel program: layer 1 on the nodes.

  The region's grid has 25 points; point t handles the nodes t·2000 … t·2000 + 1999 (row blocks of 2000 of the
  N = 50000 nodes, all 32 channels). On its block the body computes y = (x · root + b) + agg / deg, where x · root is
  the block's node column times the root row contracted over their one shared index of extent one (a single product),
  b is the bias row broadcast down the rows and deg the degree column broadcast along the channels; then the
  activation: y where y > 0, else 1 · (exp(min(y, 0)) - 1). The stage function of the specification computes, on the
  whole arrays, y' = (agg / deg + x · root) + b and the same activation spelt with a select in place of the minimum.

  Entry (p, q) of block t and entry (t·2000 + p, q) of the arrays give the same three summands, and addition on the
  extended reals is commutative and associative, so y = y'; the two activations agree at equal arguments (each is y
  where y > 0 and exp y - 1 elsewhere). Every node r lies in the block r / 2000, so after the 25 write-backs the output
  array is the stage function of the input arrays as the region found them.
-/
import proofs.«402775_j5308579578323_4_alg».proof.Proof.Gen.KernelIdeal.Frame
import proofs.«402775_j5308579578323_4_alg».proof.Proof.Spec
import proofs.«402775_j5308579578323_4_alg».proof.Proof.EluFacts
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators

/-- A sum over a contraction index of one axis of extent one is its single term. -/
theorem sum_contr_one {sl sr so : Shape} (D : DotDims sl sr so) (hr : D.contr.rank = 1)
    (hs : D.contr.size ⟨0, by omega⟩ = 1) (f : D.contr.Idx → EReal) :
    ∑ k : D.contr.Idx, f k = f ((contrEquiv1 D 1 hr hs).symm 0) :=
  (Equiv.sum_comp (contrEquiv1 D 1 hr hs).symm f).symm.trans (Fin.sum_univ_one _)

/-! ## The kernel body at an entry of its block -/

/-- The product of a column by a row, contracted over their one shared index of extent one: entry (p, q) is
    the column's p-th entry times the row's q-th. -/
theorem kmatmul_apply (x0 : Vec Ideal S2000x1 .f32) (x1 : Vec Ideal S1x32 .f32) (p : Fin 2000) (q : Fin 32) :
    matmul (F := Ideal) (φ₁ := .f32) (φ₂ := .f32) dot_S2000x1_S1x32_S2000x32_1_0_0_1_n_n none x0 x1 (constant S2000x32 .f32 0x00000000#32) (ix2 p q)
      = x0 (ix2 p 0) * x1 (ix2 0 q) := by
  refine (Ideal.matmul_constant_zero_apply _ _ _ _ _).trans ?_
  refine (sum_contr_one dot_S2000x1_S1x32_S2000x32_1_0_0_1_n_n rfl rfl _).trans ?_
  have hl : dot_S2000x1_S1x32_S2000x32_1_0_0_1_n_n.lhsIdx (ix2 p q) ((contrEquiv1 dot_S2000x1_S1x32_S2000x32_1_0_0_1_n_n 1 rfl rfl).symm 0) = ix2 p 0 := by
    funext a; apply Fin.ext
    match a with
    | ⟨0, _⟩ => rfl
    | ⟨1, _⟩ => rfl
  have hr : dot_S2000x1_S1x32_S2000x32_1_0_0_1_n_n.rhsIdx (ix2 p q) ((contrEquiv1 dot_S2000x1_S1x32_S2000x32_1_0_0_1_n_n 1 rfl rfl).symm 0) = ix2 0 q := by
    funext a; apply Fin.ext
    match a with
    | ⟨0, _⟩ => rfl
    | ⟨1, _⟩ => rfl
  rw [hl, hr]

/-- A row broadcast down the rows of the block reads its q-th entry. -/
theorem rowBcast_apply (x : Vec Ideal S1x32 .f32) (p : Fin 2000) (q : Fin 32) :
    broadcastTo S2000x32 x broadcasts_S1x32_S2000x32 (ix2 p q) = x (ix2 0 q) :=
  broadcastTo_apply x _ (ix2 p q) (ix2 0 q) (fun a => by match a with | ⟨0, _⟩ => rfl | ⟨1, _⟩ => rfl)

/-- A column broadcast along the channels reads its p-th entry. -/
theorem colBcast_apply (x : Vec Ideal S2000x1 .f32) (p : Fin 2000) (q : Fin 32) :
    broadcastTo S2000x32 x broadcasts_S2000x1_S2000x32 (ix2 p q) = x (ix2 p 0) :=
  broadcastTo_apply x _ (ix2 p q) (ix2 p 0) (fun a => by match a with | ⟨0, _⟩ => rfl | ⟨1, _⟩ => rfl)

/-- The kernel's value before the activation: (x · root + bias) + agg / deg, as the body spells it. -/
def preK (x0 : Vec Ideal S2000x1 .f32) (x1 x2 : Vec Ideal S1x32 .f32) (x3 : Vec Ideal S2000x32 .f32)
    (x4 : Vec Ideal S2000x1 .f32) : FVec Ideal S2000x32 .f32 :=
  addf
    (addf (matmul (φ₁ := .f32) (φ₂ := .f32) dot_S2000x1_S1x32_S2000x32_1_0_0_1_n_n none x0 x1 (constant S2000x32 .f32 0x00000000#32))
      (broadcastTo S2000x32 (shapeCast S1x32 x2 shapeCasts_S1x32_S1x32) broadcasts_S1x32_S2000x32))
    (divf (shapeCast S2000x32 x3 shapeCasts_S2000x32_S2000x32)
      (broadcastTo S2000x32 (shapeCast S2000x1 x4 shapeCasts_S2000x1_S2000x1) broadcasts_S2000x1_S2000x32))

/-- The kernel's activation: y where y > 0, else 1 · (exp(min(y, 0)) - 1). -/
def eluK (y : FVec Ideal S2000x32 .f32) : FVec Ideal S2000x32 .f32 :=
  select (cmpf .ogt y (broadcast S2000x32 (Scalar.ofBits .f32 0x00000000#32))) y
    (mulf (broadcast S2000x32 (Scalar.ofBits .f32 0x3F800000#32))
      (subf (exp (minimumf y (broadcast S2000x32 (Scalar.ofBits .f32 0x00000000#32))))
        (broadcast S2000x32 (Scalar.ofBits .f32 0x3F800000#32))))

/-- The body's payload is the activation of that value. -/
theorem pay_eq (x0 : Vec Ideal S2000x1 .f32) (x1 x2 : Vec Ideal S1x32 .f32) (x3 : Vec Ideal S2000x32 .f32)
    (x4 : Vec Ideal S2000x1 .f32) : k1_pay1 x0 x1 x2 x3 x4 = eluK (preK x0 x1 x2 x3 x4) := rfl

/-- The value before the activation at entry (p, q) of the block. -/
theorem preK_apply (x0 : Vec Ideal S2000x1 .f32) (x1 x2 : Vec Ideal S1x32 .f32) (x3 : Vec Ideal S2000x32 .f32)
    (x4 : Vec Ideal S2000x1 .f32) (p : Fin 2000) (q : Fin 32) :
    preK x0 x1 x2 x3 x4 (ix2 p q)
      = (x0 (ix2 p 0) * x1 (ix2 0 q) + x2 (ix2 0 q)) + Ideal.div (x3 (ix2 p q)) (x4 (ix2 p 0)) := by
  unfold preK
  rw [shapeCast_self, shapeCast_self, shapeCast_self]
  show (matmul (F := Ideal) (φ₁ := .f32) (φ₂ := .f32) dot_S2000x1_S1x32_S2000x32_1_0_0_1_n_n none x0 x1 (constant S2000x32 .f32 0x00000000#32) (ix2 p q)
      + broadcastTo S2000x32 x2 broadcasts_S1x32_S2000x32 (ix2 p q))
    + Ideal.div (x3 (ix2 p q)) (broadcastTo S2000x32 x4 broadcasts_S2000x1_S2000x32 (ix2 p q)) = _
  rw [kmatmul_apply, rowBcast_apply, colBcast_apply]

namespace Ref

open Cert.ReferenceIdeal Cert.ReferenceIdeal.Facts₀ Cert.ReferenceIdeal.Facts Cert.Spec

/-! ## The stage function at an entry of the whole array -/

/-- The host's product of the node column by the root row: entry (r, q) is x r · root q. -/
theorem dot_apply (x : FVec Ideal Cert.ReferenceIdeal.S50000x1 .f32) (w : FVec Ideal Cert.ReferenceIdeal.S1x32 .f32) (r : Fin 50000) (q : Fin 32) :
    Host.dotGeneral (F := Ideal) (φ₁ := .f32) (φ₂ := .f32) Cert.ReferenceIdeal.dot_S50000x1_S1x32_S50000x32_1_0_0_1_n_n none x w (ix2 r q)
      = x (ix2 r 0) * w (ix2 0 q) := by
  refine (Ideal.dotGeneral_apply _ _ _ _ _ _).trans ?_
  refine (sum_contr_one Cert.ReferenceIdeal.dot_S50000x1_S1x32_S50000x32_1_0_0_1_n_n rfl rfl _).trans ?_
  have hl : Cert.ReferenceIdeal.dot_S50000x1_S1x32_S50000x32_1_0_0_1_n_n.lhsIdx (ix2 r q) ((contrEquiv1 Cert.ReferenceIdeal.dot_S50000x1_S1x32_S50000x32_1_0_0_1_n_n 1 rfl rfl).symm 0) = ix2 r 0 := by
    funext a; apply Fin.ext
    match a with
    | ⟨0, _⟩ => rfl
    | ⟨1, _⟩ => rfl
  have hr : Cert.ReferenceIdeal.dot_S50000x1_S1x32_S50000x32_1_0_0_1_n_n.rhsIdx (ix2 r q) ((contrEquiv1 Cert.ReferenceIdeal.dot_S50000x1_S1x32_S50000x32_1_0_0_1_n_n 1 rfl rfl).symm 0) = ix2 0 q := by
    funext a; apply Fin.ext
    match a with
    | ⟨0, _⟩ => rfl
    | ⟨1, _⟩ => rfl
  rw [hl, hr]

/-- The degree column broadcast along the channels reads its r-th entry. -/
theorem colBcast_apply (x : FVec Ideal Cert.ReferenceIdeal.S50000x1 .f32) (r : Fin 50000) (q : Fin 32) :
    broadcastInDim Cert.ReferenceIdeal.S50000x32 ![0, 1] bcast_S50000x1_S50000x32_0_1 x (ix2 r q) = x (ix2 r 0) :=
  broadcastInDim_apply _ _ x (ix2 r q) (ix2 r 0) (fun a => by match a with | ⟨0, _⟩ => rfl | ⟨1, _⟩ => rfl)

/-- The bias row broadcast down the nodes reads its q-th entry. -/
theorem rowBcast_apply (x : FVec Ideal Cert.ReferenceIdeal.S1x32 .f32) (r : Fin 50000) (q : Fin 32) :
    broadcastInDim Cert.ReferenceIdeal.S50000x32 ![0, 1] bcast_S1x32_S50000x32_0_1 x (ix2 r q) = x (ix2 0 q) :=
  broadcastInDim_apply _ _ x (ix2 r q) (ix2 0 q) (fun a => by match a with | ⟨0, _⟩ => rfl | ⟨1, _⟩ => rfl)

/-- The stage function's value before the activation: (agg / deg + x · root) + bias, as the reference spells it. -/
def preS (x : FVec Ideal Cert.ReferenceIdeal.S50000x1 .f32) (root1 b1r : FVec Ideal Cert.ReferenceIdeal.S1x32 .f32)
    (agg : FVec Ideal Cert.ReferenceIdeal.S50000x32 .f32) (degc : FVec Ideal Cert.ReferenceIdeal.S50000x1 .f32) :
    FVec Ideal Cert.ReferenceIdeal.S50000x32 .f32 :=
  addf (addf
    (Host.divf agg (broadcastInDim Cert.ReferenceIdeal.S50000x32 ![0, 1] bcast_S50000x1_S50000x32_0_1 degc))
    (Host.dotGeneral (φ₁ := .f32) (φ₂ := .f32) Cert.ReferenceIdeal.dot_S50000x1_S1x32_S50000x32_1_0_0_1_n_n none x root1))
    (broadcastInDim Cert.ReferenceIdeal.S50000x32 ![0, 1] bcast_S1x32_S50000x32_0_1 b1r)

/-- The stage function is the reference's activation of that value. -/
theorem layer1_eq (x : FVec Ideal Cert.ReferenceIdeal.S50000x1 .f32) (root1 b1r : FVec Ideal Cert.ReferenceIdeal.S1x32 .f32)
    (agg : FVec Ideal Cert.ReferenceIdeal.S50000x32 .f32) (degc : FVec Ideal Cert.ReferenceIdeal.S50000x1 .f32) :
    layer1 (F := Ideal) x root1 b1r agg degc = elu32 (preS x root1 b1r agg degc) := rfl

/-- The value before the activation at entry (r, q) of the array. -/
theorem preS_apply (x : FVec Ideal Cert.ReferenceIdeal.S50000x1 .f32) (root1 b1r : FVec Ideal Cert.ReferenceIdeal.S1x32 .f32)
    (agg : FVec Ideal Cert.ReferenceIdeal.S50000x32 .f32) (degc : FVec Ideal Cert.ReferenceIdeal.S50000x1 .f32) (r : Fin 50000) (q : Fin 32) :
    preS x root1 b1r agg degc (ix2 r q)
      = (Ideal.div (agg (ix2 r q)) (degc (ix2 r 0)) + x (ix2 r 0) * root1 (ix2 0 q)) + b1r (ix2 0 q) := by
  unfold preS
  show (Ideal.div (agg (ix2 r q)) (broadcastInDim Cert.ReferenceIdeal.S50000x32 ![0, 1] bcast_S50000x1_S50000x32_0_1 degc (ix2 r q))
      + Host.dotGeneral (F := Ideal) (φ₁ := .f32) (φ₂ := .f32) Cert.ReferenceIdeal.dot_S50000x1_S1x32_S50000x32_1_0_0_1_n_n none x root1 (ix2 r q))
    + broadcastInDim Cert.ReferenceIdeal.S50000x32 ![0, 1] bcast_S1x32_S50000x32_0_1 b1r (ix2 r q) = _
  rw [colBcast_apply, dot_apply, rowBcast_apply]

end Ref

/-! ## Each window's block at a grid point, read off the arrays -/

section Blocks
variable (V : (c : Dev nD) → (b : Ref sig .tc) → Buf (Elt Ideal) ((c : Thread nD τ).loc b))

/-- The region's input arrays as it finds them: the node features, the root row, the bias row, the aggregated
    messages and the degree column. -/
abbrev xA (c : Dev nD) : FVec Ideal S50000x1 .f32 := V c main_arg0
abbrev rA (c : Dev nD) : FVec Ideal S1x32 .f32 := V c main_arg4
abbrev bA (c : Dev nD) : FVec Ideal S1x32 .f32 := V c main_v17
abbrev gA (c : Dev nD) : FVec Ideal S50000x32 .f32 := V c main_v16
abbrev dA (c : Dev nD) : FVec Ideal S50000x1 .f32 := V c main_v10

/-- Their blocks at grid point t. -/
abbrev xB (c : Dev nD) (t : Fin cfg1.N) : Vec Ideal S2000x1 .f32 := iblk1 V c 0 t
abbrev rB (c : Dev nD) (t : Fin cfg1.N) : Vec Ideal S1x32 .f32 := iblk1 V c 1 t
abbrev bB (c : Dev nD) (t : Fin cfg1.N) : Vec Ideal S1x32 .f32 := iblk1 V c 2 t
abbrev gB (c : Dev nD) (t : Fin cfg1.N) : Vec Ideal S2000x32 .f32 := iblk1 V c 3 t
abbrev dB (c : Dev nD) (t : Fin cfg1.N) : Vec Ideal S2000x1 .f32 := iblk1 V c 4 t

theorem zero_off : (![0, 0] : Fin 2 → Nat) = fun _ => 0 := funext fun a => by fin_cases a <;> rfl

/-- The index maps over the grid: the node-indexed windows sit at row block t, the two rows at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row p of block t is node t · 2000 + p. -/
def row (t : Fin cfg1.N) (p : Fin 2000) : Fin 50000 :=
  ⟨t.val * 2000 + p.val, by have h : t.val < 25 := lt_of_lt_of_eq t.isLt N_1; have := p.isLt; omega⟩

theorem emb0 (t : Fin cfg1.N) (p : Fin 2000) :
    ((cfg1.win 0).blk t).view.emb (ix2 p 0) = (ix2 (row t p) 0 : S50000x1.Idx) := by
  obtain ⟨e00, e01, e10, e11, e20, e21, e30, e31, e40, e41, e50, e51⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 1 + 1 * 0 = 0; omega

end Blocks

section Blocks2
variable (V : (c : Dev nD) → (b : Ref sig .tc) → Buf (Elt Ideal) ((c : Thread nD τ).loc b))

theorem emb1 (t : Fin cfg1.N) (q : Fin 32) :
    ((cfg1.win 1).blk t).view.emb (ix2 0 q) = (ix2 0 q : S1x32.Idx) := by
  obtain ⟨e00, e01, e10, e11, e20, e21, e30, e31, e40, e41, e50, e51⟩ := idx_facts t
  funext a; apply Fin.ext
  match a with
  | ⟨0, _⟩ => show win1_1.index t (0 : Fin 2) * 1 + 1 * 0 = 0; omega
  | ⟨1, _⟩ => show win1_1.index t (1 : Fin 2) * 32 + 1 * q.val = q.val; omega

theorem emb2 (t : Fin cfg1.N) (q : Fin 32) :
    ((cfg1.win 2).blk t).view.emb (ix2 0 q) = (ix2 0 q : S1x32.Idx) := by
  obtain ⟨e00, e01, e10, e11, e20, e21, e30, e31, e40, e41, e50, e51⟩ := idx_facts t
  funext a; apply Fin.ext
  match a with
  | ⟨0, _⟩ => show win1_2.index t (0 : Fin 2) * 1 + 1 * 0 = 0; omega
  | ⟨1, _⟩ => show win1_2.index t (1 : Fin 2) * 32 + 1 * q.val = q.val; omega

theorem emb3 (t : Fin cfg1.N) (p : Fin 2000) (q : Fin 32) :
    ((cfg1.win 3).blk t).view.emb (ix2 p q) = (ix2 (row t p) q : S50000x32.Idx) := by
  obtain ⟨e00, e01, e10, e11, e20, e21, e30, e31, e40, e41, e50, e51⟩ := idx_facts t
  funext a; apply Fin.ext
  match a with
  | ⟨0, _⟩ => show win1_3.index t (0 : Fin 2) * 2000 + 1 * p.val = t.val * 2000 + p.val; omega
  | ⟨1, _⟩ => show win1_3.index t (1 : Fin 2) * 32 + 1 * q.val = q.val; omega

theorem emb4 (t : Fin cfg1.N) (p : Fin 2000) :
    ((cfg1.win 4).blk t).view.emb (ix2 p 0) = (ix2 (row t p) 0 : S50000x1.Idx) := by
  obtain ⟨e00, e01, e10, e11, e20, e21, e30, e31, e40, e41, e50, e51⟩ := idx_facts t
  funext a; apply Fin.ext
  match a with
  | ⟨0, _⟩ => show win1_4.index t (0 : Fin 2) * 2000 + 1 * p.val = t.val * 2000 + p.val; omega
  | ⟨1, _⟩ => show win1_4.index t (1 : Fin 2) * 1 + 1 * 0 = 0; omega

theorem emb5 (t : Fin cfg1.N) (p : Fin 2000) (q : Fin 32) :
    ((cfg1.win 5).blk t).view.emb (ix2 p q) = (ix2 (row t p) q : S50000x32.Idx) := by
  obtain ⟨e00, e01, e10, e11, e20, e21, e30, e31, e40, e41, e50, e51⟩ := idx_facts t
  funext a; apply Fin.ext
  match a with
  | ⟨0, _⟩ => show win1_5.index t (0 : Fin 2) * 2000 + 1 * p.val = t.val * 2000 + p.val; omega
  | ⟨1, _⟩ => show win1_5.index t (1 : Fin 2) * 32 + 1 * q.val = q.val; omega

/-- Each block's entry is the array's entry at the block's place: rows t · 2000 + p for the node-indexed
    arrays, the whole row for the root and the bias. -/
theorem xB_apply (c : Dev nD) (t : Fin cfg1.N) (p : Fin 2000) : xB V c t (ix2 p 0) = xA V c (ix2 (row t p) 0) := by
  show xA V c (((cfg1.win 0).blk t).view.emb (ix2 p 0)) = xA V c (ix2 (row t p) 0)
  rw [emb0]
theorem rB_apply (c : Dev nD) (t : Fin cfg1.N) (q : Fin 32) : rB V c t (ix2 0 q) = rA V c (ix2 0 q) := by
  show rA V c (((cfg1.win 1).blk t).view.emb (ix2 0 q)) = rA V c (ix2 0 q)
  rw [emb1]
theorem bB_apply (c : Dev nD) (t : Fin cfg1.N) (q : Fin 32) : bB V c t (ix2 0 q) = bA V c (ix2 0 q) := by
  show bA V c (((cfg1.win 2).blk t).view.emb (ix2 0 q)) = bA V c (ix2 0 q)
  rw [emb2]
theorem gB_apply (c : Dev nD) (t : Fin cfg1.N) (p : Fin 2000) (q : Fin 32) : gB V c t (ix2 p q) = gA V c (ix2 (row t p) q) := by
  show gA V c (((cfg1.win 3).blk t).view.emb (ix2 p q)) = gA V c (ix2 (row t p) q)
  rw [emb3]
theorem dB_apply (c : Dev nD) (t : Fin cfg1.N) (p : Fin 2000) : dB V c t (ix2 p 0) = dA V c (ix2 (row t p) 0) := by
  show dA V c (((cfg1.win 4).blk t).view.emb (ix2 p 0)) = dA V c (ix2 (row t p) 0)
  rw [emb4]

/-- The two values before the activation agree: the block's entry (p, q) against the array's entry
    (t · 2000 + p, q); the three summands are the same and addition on the extended reals is commutative and associative. -/
theorem pre_agree (c : Dev nD) (t : Fin cfg1.N) (p : Fin 2000) (q : Fin 32) :
    preK (xB V c t) (rB V c t) (bB V c t) (gB V c t) (dB V c t) (ix2 p q)
      = Ref.preS (xA V c) (rA V c) (bA V c) (gA V c) (dA V c) (ix2 (row t p) q) := by
  rw [preK_apply, Ref.preS_apply, xB_apply, rB_apply, bB_apply, gB_apply, dB_apply]
  rw [add_comm (_ + _) (Ideal.div _ _), ← add_assoc]

end Blocks2

section Array
variable (V : (c : Dev nD) → (b : Ref sig .tc) → Buf (Elt Ideal) ((c : Thread nD τ).loc b))

/-- The two activations agree wherever their arguments do: each is y where y > 0 and exp y - 1 elsewhere. -/
theorem elu_agree (y : FVec Ideal S2000x32 .f32) (y' : FVec Ideal Cert.ReferenceIdeal.S50000x32 .f32)
    (i : S2000x32.Idx) (i' : Cert.ReferenceIdeal.S50000x32.Idx) (h : y i = y' i') :
    eluK y i = Cert.Spec.elu32 (F := Ideal) y' i' :=
  (Cert.EluFacts.kelu_apply y i).trans ((congrArg Cert.EluFacts.elu h).trans (Cert.EluFacts.elu32_apply y' i').symm)

/-- What point t writes back is block t of the stage function of the region's input arrays. -/
theorem flushed_eq (c : Dev nD) (t : Fin cfg1.N) :
    (dat1 (F := Ideal) V c).flushed 5 t
      = ((cfg1.win 5).blk t).view.read (Elt Ideal)
          (Cert.Spec.layer1 (F := Ideal) (xA V c) (rA V c) (bA V c) (gA V c) (dA V c)) := by
  show (cfg1.win 5).cut (grid1.coords t) ((dat1 (F := Ideal) V c).after 5 t) = _
  rw [after1_5]
  unfold out1_5
  rw [View.canon_unit_zero zero_off]
  simp only [View.ld_unit_zero (S := S2000x1) zero_off, View.ld_unit_zero (S := S1x32) zero_off,
    View.ld_unit_zero (S := S2000x32) zero_off]
  funext j
  obtain ⟨p, q, rfl⟩ : ∃ (p : Fin 2000) (q : Fin 32), j = ix2 p q := ⟨j 0, j 1, eq_ix2 j⟩
  show k1_pay1 (xB V c t) (rB V c t) (bB V c t) (gB V c t) (dB V c t) (ix2 p q)
    = Cert.Spec.layer1 (F := Ideal) (xA V c) (rA V c) (bA V c) (gA V c) (dA V c) (((cfg1.win 5).blk t).view.emb (ix2 p q))
  rw [emb5, pay_eq, Ref.layer1_eq]
  exact elu_agree _ _ _ _ (pre_agree V c t p q)

/-- An entry of the array is in point t's block iff each coordinate is in the block's range on its axis. -/
theorem mem_blk (t : Fin cfg1.N) (i : S50000x32.Idx) :
    i ∈ ((cfg1.win 5).blk t).view.set ↔ ∀ a : Fin 2, win1_5.index t a * S2000x32.size a ≤ (i a).val
      ∧ (i a).val < win1_5.index t a * S2000x32.size a + S2000x32.size a := by
  show i ∈ ((View.whole main_v18).slice (win1_5.rect t)).set ↔ _
  rw [View.set_slice_whole, Rect.mem_set_unit]
  exact Iff.rfl

/-- The 25 row blocks of 2000 nodes tile the 50000 nodes: node r is in block r / 2000. -/
theorem cover (i : S50000x32.Idx) :
    ∃ t : Fin cfg1.N, (cfg1.win 5).flush t = true ∧ i ∈ ((cfg1.win 5).blk t).view.set := by
  have hi0 : (i 0).val < 50000 := (i 0).isLt
  have hi1 : (i 1).val < 32 := (i 1).isLt
  have hN : cfg1.N = 25 := N_1
  have ht : (i 0).val / 2000 < cfg1.N := by rw [hN]; omega
  obtain ⟨e00, e01, e10, e11, e20, e21, e30, e31, e40, e41, e50, e51⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, ht⟩ (1 : Fin 2) * 32 ≤ (i 1).val
      ∧ (i 1).val < win1_5.index ⟨(i 0).val / 2000, ht⟩ (1 : Fin 2) * 32 + 32
    omega

end Array

variable (V : (c : Dev nD) → (b : Ref sig .tc) → Buf (Elt Ideal) ((c : Thread nD τ).loc b))

/-- The region's output array after all its grid points is the stage function of its input arrays. -/
theorem value (c : Dev nD) :
    (dat1 (F := Ideal) V c).arrAt 5 cfg1.N
      = Cert.Spec.layer1 (F := Ideal) (V c main_arg0) (V c main_arg4) (V c main_v17) (V c main_v16) (V c main_v10) :=
  (dat1 (F := Ideal) V c).arrAt_eq_of_cover 5
    (Cert.Spec.layer1 (F := Ideal) (xA V c) (rA V c) (bA V c) (gA V c) (dA V c))
    (fun t _ => flushed_eq V c t) cover

end Cert.KernelIdeal.Region1

end
-- ==== Proof.KernelValue1.lean ====
/-
  The kernel program's buffers along its run, first half: the host operations before the first region name the
  sources, the targets and the degree column; region 0 leaves layer 1's messages, a scatter-add sums them into
  their target nodes, and region 1 leaves the first layer's node features: 'Spec.hidden' of the arguments,
  given that every source index is in range (the take is then the bare gather).
-/
import proofs.«402775_j5308579578323_4_alg».proof.Proof.Gen.KernelIdeal.Frame
import proofs.«402775_j5308579578323_4_alg».proof.Proof.Spec
import proofs.«402775_j5308579578323_4_alg».proof.Proof.PreFacts
import proofs.«402775_j5308579578323_4_alg».proof.Proof.Region0
import proofs.«402775_j5308579578323_4_alg».proof.Proof.Region1
import Idealize.ShloMosaic.PureOps.Ideal
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx

/-- A host stretch leaves every buffer it does not write as it was. -/
local macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- A vector of 32 entries as a one-row matrix: the reshape and the broadcast along the columns read the same entry. -/
theorem row32 (b : FVec Ideal S32 .f32) (hc : S32.ShapeCasts S1x32) (hb : S32.BroadcastsInDim S1x32 ![1]) :
    shapeCast S1x32 b hc = broadcastInDim S1x32 ![1] hb b := by
  funext j
  obtain ⟨u, i, rfl⟩ : ∃ (u : Fin 1) (i : Fin 32), j = ix2 u i := ⟨j 0, j 1, eq_ix2 j⟩
  rw [shapeCast_a_1a_apply b hc u i]
  exact (broadcastInDim_apply _ hb b (ix2 u i) (ix1 i) (fun a => by fin_cases a; rfl)).symm

variable (m : (ℓ : Loc nD τ sig) → Buf (Elt Ideal) ℓ) (ρ : Dev nD → PrngReg)

/-- After the first host stretch the source vector is row 0 of the edge list. -/
theorem src_value (c : Dev nD) :
    W1 (F := Ideal) m ρ c (Proc.devRef .tc main_v1) = Cert.Spec.src (m ((c.tc : Thread nD τ).loc main_arg1)) := by
  dsimp only [W1, hostOps0]
  after_results
  rfl

/-- After the first host stretch the target vector is row 1 of the edge list. -/
theorem dst_value (c : Dev nD) :
    W1 (F := Ideal) m ρ c (Proc.devRef .tc main_v3) = Cert.Spec.dst (m ((c.tc : Thread nD τ).loc main_arg1)) := by
  dsimp only [W1, hostOps0]
  after_results
  rfl

/-- After the first host stretch the degree column is max(in-degree, 1). -/
theorem deg_value (c : Dev nD) :
    W1 (F := Ideal) m ρ c (Proc.devRef .tc main_v10)
      = Cert.Spec.deg (F := Ideal) (Cert.Spec.dst (m ((c.tc : Thread nD τ).loc main_arg1))) := by
  dsimp only [W1, hostOps0]
  after_results
  rfl

/-! ## The arguments and the first stretch's results, walked forward to where they are read -/

theorem arg0_W1 (c : Dev nD) : W1 (F := Ideal) m ρ c (Proc.devRef .tc main_arg0) = m ((c.tc : Thread nD τ).loc main_arg0) :=
  calc W1 (F := Ideal) m ρ c (Proc.devRef .tc main_arg0)
    _ = W0 m ρ c (Proc.devRef .tc main_arg0) := by host_keeps hostOps0
    _ = m ((c.tc : Thread nD τ).loc main_arg0) := rfl

theorem arg0_W5 (c : Dev nD) : W5 (F := Ideal) m ρ c (Proc.devRef .tc main_arg0) = m ((c.tc : Thread nD τ).loc main_arg0) :=
  calc W5 (F := Ideal) m ρ c (Proc.devRef .tc main_arg0)
    _ = W4 m ρ c (Proc.devRef .tc main_arg0) := by host_keeps hostOps1
    _ = W3 m ρ c (Proc.devRef .tc main_arg0) := W4_of_ne m ρ c main_arg0 (by decide)
    _ = W2 m ρ c (Proc.devRef .tc main_arg0) := by host_keeps hostOps0_2
    _ = W1 m ρ c (Proc.devRef .tc main_arg0) := by host_keeps hostOps0_1
    _ = m ((c.tc : Thread nD τ).loc main_arg0) := arg0_W1 m ρ c

theorem arg4_W5 (c : Dev nD) : W5 (F := Ideal) m ρ c (Proc.devRef .tc main_arg4) = m ((c.tc : Thread nD τ).loc main_arg4) :=
  calc W5 (F := Ideal) m ρ c (Proc.devRef .tc main_arg4)
    _ = W4 m ρ c (Proc.devRef .tc main_arg4) := by host_keeps hostOps1
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c.tc : Thread nD τ).loc main_arg4) := rfl

theorem arg5_W4 (c : Dev nD) : W4 (F := Ideal) m ρ c (Proc.devRef .tc main_arg5) = m ((c.tc : Thread nD τ).loc main_arg5) :=
  calc W4 (F := Ideal) m ρ c (Proc.devRef .tc main_arg5)
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c.tc : Thread nD τ).loc main_arg5) := rfl

theorem arg3_W2 (c : Dev nD) : W2 (F := Ideal) m ρ c (Proc.devRef .tc main_arg3) = m ((c.tc : Thread nD τ).loc main_arg3) :=
  calc W2 (F := Ideal) m ρ c (Proc.devRef .tc main_arg3)
    _ = W1 m ρ c (Proc.devRef .tc main_arg3) := by host_keeps hostOps0_1
    _ = W0 m ρ c (Proc.devRef .tc main_arg3) := by host_keeps hostOps0
    _ = m ((c.tc : Thread nD τ).loc main_arg3) := rfl

theorem arg2_W3 (c : Dev nD) : W3 (F := Ideal) m ρ c (Proc.devRef .tc main_arg2) = m ((c.tc : Thread nD τ).loc main_arg2) :=
  calc W3 (F := Ideal) m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c.tc : Thread nD τ).loc main_arg2) := rfl

/-- The target vector is still row 1 of the edge list where the first scatter-add reads it. -/
theorem v3_W4 (c : Dev nD) :
    W4 (F := Ideal) m ρ c (Proc.devRef .tc main_v3) = Cert.Spec.dst (m ((c.tc : Thread nD τ).loc main_arg1)) :=
  calc W4 (F := Ideal) m ρ c (Proc.devRef .tc main_v3)
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = Cert.Spec.dst (m ((c.tc : Thread nD τ).loc main_arg1)) := dst_value m ρ c

/-- The degree column is unchanged at region 1's entry. -/
theorem v10_W5 (c : Dev nD) :
    W5 (F := Ideal) m ρ c (Proc.devRef .tc main_v10)
      = Cert.Spec.deg (F := Ideal) (Cert.Spec.dst (m ((c.tc : Thread nD τ).loc main_arg1))) :=
  calc W5 (F := Ideal) m ρ c (Proc.devRef .tc main_v10)
    _ = W4 m ρ c (Proc.devRef .tc main_v10) := by host_keeps hostOps1
    _ = W3 m ρ c (Proc.devRef .tc main_v10) := W4_of_ne m ρ c main_v10 (by decide)
    _ = W2 m ρ c (Proc.devRef .tc main_v10) := by host_keeps hostOps0_2
    _ = W1 m ρ c (Proc.devRef .tc main_v10) := by host_keeps hostOps0_1
    _ = _ := deg_value m ρ c

/-! ## Region 0's inputs -/

/-- A value carried to a buffer's own type and back is the value. -/
theorem ofBuf_toBuf {T : BufTy} (x : StableHlo.TRef sig T) (v : T.Contents (Elt Ideal)) : x.ofBuf (x.toBuf v) = v := by
  obtain ⟨r, h, a, b⟩ := x
  subst h
  rfl

/-- The source vector's buffer has the vector's own type: carrying its contents over changes nothing. -/
theorem ofBuf_v1 (h a b) (u : main_v1.ty.Contents (Elt Ideal)) :
    (StableHlo.TRef.of (T := ⟨S1600000, .i32⟩) main_v1 h a b).ofBuf u = u := rfl

/-- The same for the node features. -/
theorem ofBuf_arg0 (h a b) (u : main_arg0.ty.Contents (Elt Ideal)) :
    (StableHlo.TRef.of (T := ⟨S50000x1, .f32⟩) main_arg0 h a b).ofBuf u = u := rfl

/-- The same for the take's result. -/
theorem toBuf_v11 (h a b) (u : (⟨S1600000x1, .f32⟩ : BufTy).Contents (Elt Ideal)) :
    (StableHlo.TRef.of (T := ⟨S1600000x1, .f32⟩) main_v11 h a b).toBuf u = u := rfl

/-- The take of the node features at the sources, operation by operation. -/
theorem v11_W2 (c : Dev nD) :
    W2 (F := Ideal) m ρ c (Proc.devRef .tc main_v11)
      = Cert.KSpec.take1 (F := Ideal) (W1 m ρ c (Proc.devRef .tc main_arg0)) (W1 m ρ c (Proc.devRef .tc main_v1)) := by
  show StableHlo.after hostOps0_1 (W1 (F := Ideal) m ρ c) (Proc.devRef .tc main_v11)
    = Cert.KSpec.take1 (F := Ideal) (W1 (F := Ideal) m ρ c (Proc.devRef .tc main_arg0)) (W1 (F := Ideal) m ρ c (Proc.devRef .tc main_v1))
  generalize W1 (F := Ideal) m ρ c = V
  dsimp only [hostOps0_1]
  after_results_simp
  simp only [ofBuf_toBuf]
  rw [toBuf_v11]
  simp only [ofBuf_v1, ofBuf_arg0]
  rfl

/-- With every source in range it is the bare gather of the reference. -/
theorem v11_W3 (c : Dev nD) (hsrc : ∀ e : Cert.ReferenceIdeal.S1600000.Idx, 0 ≤ (Cert.Spec.src (m ((c.tc : Thread nD τ).loc main_arg1)) e).toInt ∧ (Cert.Spec.src (m ((c.tc : Thread nD τ).loc main_arg1)) e).toInt < 50000) :
    W3 (F := Ideal) m ρ c (Proc.devRef .tc main_v11)
      = Host.gather Cert.ReferenceIdeal.gather_S50000x1_S1600000x1_S1600000x1_1_0_n_n_0_1_11 (m ((c.tc : Thread nD τ).loc main_arg0))
          (Cert.Spec.col (Cert.Spec.wrap (Cert.Spec.src (m ((c.tc : Thread nD τ).loc main_arg1))))) :=
  calc W3 (F := Ideal) m ρ c (Proc.devRef .tc main_v11)
    _ = W2 m ρ c (Proc.devRef .tc main_v11) := by host_keeps hostOps0_2
    _ = _ := v11_W2 m ρ c
    _ = Cert.KSpec.take1 (F := Ideal) (m ((c.tc : Thread nD τ).loc main_arg0)) (Cert.Spec.src (m ((c.tc : Thread nD τ).loc main_arg1))) := by
        rw [arg0_W1 m ρ c, src_value m ρ c]
    _ = _ := Cert.PreFacts.take1_eq _ _ hsrc

/-- The first layer's weights as a 5 × 32 matrix. -/
theorem v12_W3 (c : Dev nD) :
    W3 (F := Ideal) m ρ c (Proc.devRef .tc main_v12)
      = shapeCast S5x32 (m ((c.tc : Thread nD τ).loc main_arg3)) shapeCasts_S5x1x32_S5x32 := by
  have e : W3 (F := Ideal) m ρ c (Proc.devRef .tc main_v12)
      = shapeCast S5x32 (W2 (F := Ideal) m ρ c (Proc.devRef .tc main_arg3) : FVec Ideal S5x1x32 .f32) shapeCasts_S5x1x32_S5x32 := by
    show StableHlo.after hostOps0_2 (W2 (F := Ideal) m ρ c) (Proc.devRef .tc main_v12)
      = shapeCast S5x32 (W2 (F := Ideal) m ρ c (Proc.devRef .tc main_arg3) : FVec Ideal S5x1x32 .f32) shapeCasts_S5x1x32_S5x32
    generalize W2 (F := Ideal) m ρ c = V
    dsimp only [hostOps0_2]
    after_results
    rfl
  rw [e, arg3_W2 m ρ c]

/-! ## Region 0's output, the scatter-add and the bias row -/

/-- Layer 1's messages. -/
theorem v13_W4 (c : Dev nD) (hsrc : ∀ e : Cert.ReferenceIdeal.S1600000.Idx, 0 ≤ (Cert.Spec.src (m ((c.tc : Thread nD τ).loc main_arg1)) e).toInt ∧ (Cert.Spec.src (m ((c.tc : Thread nD τ).loc main_arg1)) e).toInt < 50000) :
    W4 (F := Ideal) m ρ c (Proc.devRef .tc main_v13)
      = Cert.Spec.msg1 (F := Ideal)
          (Host.gather Cert.ReferenceIdeal.gather_S50000x1_S1600000x1_S1600000x1_1_0_n_n_0_1_11 (m ((c.tc : Thread nD τ).loc main_arg0))
            (Cert.Spec.col (Cert.Spec.wrap (Cert.Spec.src (m ((c.tc : Thread nD τ).loc main_arg1))))))
          (Cert.Spec.pseudo (m ((c.tc : Thread nD τ).loc main_arg2))) (m ((c.tc : Thread nD τ).loc main_arg3)) := by
  have h3 : W4 (F := Ideal) m ρ c (Proc.devRef .tc main_v13) = (dat0 (V3 m ρ) c).arrAt 3 cfg0.N := W4_arr m ρ c 3
  have e11 : V3 (F := Ideal) m ρ c main_v11 = _ := v11_W3 m ρ c hsrc
  have e2 : V3 (F := Ideal) m ρ c main_arg2 = _ := arg2_W3 m ρ c
  rw [h3, Cert.KernelIdeal.Region0.value (V3 m ρ) c (m ((c.tc : Thread nD τ).loc main_arg3)) (v12_W3 m ρ c), e11, e2]

/-- The messages summed into their target nodes. -/
theorem v16_W5 (c : Dev nD) :
    W5 (F := Ideal) m ρ c (Proc.devRef .tc main_v16)
      = Cert.Spec.agg32 (F := Ideal) (W4 m ρ c (Proc.devRef .tc main_v3)) (W4 m ρ c (Proc.devRef .tc main_v13)) := by
  show StableHlo.after hostOps1 (W4 (F := Ideal) m ρ c) (Proc.devRef .tc main_v16)
    = Cert.Spec.agg32 (F := Ideal) (W4 (F := Ideal) m ρ c (Proc.devRef .tc main_v3)) (W4 (F := Ideal) m ρ c (Proc.devRef .tc main_v13))
  generalize W4 (F := Ideal) m ρ c = V
  dsimp only [hostOps1]
  after_results
  rfl

/-- The first bias as a row. -/
theorem v17_W5 (c : Dev nD) :
    W5 (F := Ideal) m ρ c (Proc.devRef .tc main_v17)
      = broadcastInDim Cert.ReferenceIdeal.S1x32 ![1] Cert.ReferenceIdeal.Gen.bcast_S32_S1x32_1 (m ((c.tc : Thread nD τ).loc main_arg5)) := by
  have e : W5 (F := Ideal) m ρ c (Proc.devRef .tc main_v17)
      = shapeCast S1x32 (W4 (F := Ideal) m ρ c (Proc.devRef .tc main_arg5) : FVec Ideal S32 .f32) shapeCasts_S32_S1x32 := by
    show StableHlo.after hostOps1 (W4 (F := Ideal) m ρ c) (Proc.devRef .tc main_v17)
      = shapeCast S1x32 (W4 (F := Ideal) m ρ c (Proc.devRef .tc main_arg5) : FVec Ideal S32 .f32) shapeCasts_S32_S1x32
    generalize W4 (F := Ideal) m ρ c = V
    dsimp only [hostOps1]
    after_results
    rfl
  rw [e, arg5_W4 m ρ c]
  exact row32 _ _ _

/-- At region 1's exit its output array holds the first layer's node features. -/
theorem hidden_value (c : Dev nD) (hsrc : ∀ e : Cert.ReferenceIdeal.S1600000.Idx, 0 ≤ (Cert.Spec.src (m ((c.tc : Thread nD τ).loc main_arg1)) e).toInt ∧ (Cert.Spec.src (m ((c.tc : Thread nD τ).loc main_arg1)) e).toInt < 50000) :
    W6 (F := Ideal) m ρ c (Proc.devRef .tc main_v18) = Cert.Spec.hidden (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h5 : W6 (F := Ideal) m ρ c (Proc.devRef .tc main_v18) = (dat1 (V5 m ρ) c).arrAt 5 cfg1.N := W6_arr m ρ c 5
  have e0 : V5 (F := Ideal) m ρ c main_arg0 = _ := arg0_W5 m ρ c
  have e4 : V5 (F := Ideal) m ρ c main_arg4 = _ := arg4_W5 m ρ c
  have e17 : V5 (F := Ideal) m ρ c main_v17 = _ := v17_W5 m ρ c
  have e16 : V5 (F := Ideal) m ρ c main_v16 = _ := v16_W5 m ρ c
  have e10 : V5 (F := Ideal) m ρ c main_v10 = _ := v10_W5 m ρ c
  rw [h5, Cert.KernelIdeal.Region1.value (V5 m ρ) c, e0, e4, e17, e16, e10, v3_W4 m ρ c, v13_W4 m ρ c hsrc]
  rfl

end Cert.KernelIdeal.KValue

end
-- ==== Proof.KernelValue.lean ====
/-
  The kernel program's buffers along its run, second half: the take of the first layer's features at the sources,
  region 2's messages, their scatter-add into the target nodes, and region 3's result: 'Spec.out' of the arguments.
-/
import proofs.«402775_j5308579578323_4_alg».proof.Proof.Gen.KernelIdeal.Frame
import proofs.«402775_j5308579578323_4_alg».proof.Proof.Spec
import proofs.«402775_j5308579578323_4_alg».proof.Proof.PreFacts
import proofs.«402775_j5308579578323_4_alg».proof.Proof.Region2
import proofs.«402775_j5308579578323_4_alg».proof.Proof.Region3
import proofs.«402775_j5308579578323_4_alg».proof.Proof.KernelValue1
import Idealize.ShloMosaic.PureOps.Ideal
import Idealize.ShloMosaic.Lib.StableHlo.Run
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- A host stretch none of whose operations writes the buffer leaves the buffer as it was. -/
local macro "host_keeps " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## A bias as a row

The kernel program reshapes a bias of n entries to 1 × n; the network's statement broadcasts it along the new leading
axis. Both read the bias at the last coordinate. -/

theorem row_eq (n : Nat) (hn : n ≠ 1) (b : (⟨1, ![n]⟩ : Shape).Idx → EReal)
    (hs : (⟨1, ![n]⟩ : Shape).ShapeCasts ⟨2, ![1, n]⟩)
    (hb : (⟨1, ![n]⟩ : Shape).BroadcastsInDim ⟨2, ![1, n]⟩ (![1] : Fin 1 → Fin 2)) :
    (fun i => shapeCast ⟨2, ![1, n]⟩ b hs i) = broadcastInDim ⟨2, ![1, n]⟩ ![1] hb b := by
  funext j
  rw [shapeCast_addUnit_apply ![n] b hs j]
  refine (broadcastInDim_apply ![1] hb b j (fun a => j a.succ) (fun a => ?_)).symm
  match a with
  | ⟨0, _⟩ =>
    show (j 1).val = if n = 1 then 0 else (j 1).val
    rw [if_neg hn]

/-! ## What the host stretches after region 1 leave, for any contents before them -/

section Host
variable (V : Valuation τ sig (Elt Ideal))

/-- The feature table's buffer has the table's own type: carrying its contents over changes nothing. -/
theorem ofBuf_v18 (h a b) (u : main_v18.ty.Contents (Elt Ideal)) :
    (StableHlo.TRef.of (T := ⟨S50000x32, .f32⟩) main_v18 h a b).ofBuf u = u := rfl
/-- The same for the take's result. -/
theorem toBuf_v19 (h a b) (u : (⟨S1600000x32, .f32⟩ : BufTy).Contents (Elt Ideal)) :
    (StableHlo.TRef.of (T := ⟨S1600000x32, .f32⟩) main_v19 h a b).toBuf u = u := rfl

/-- The take of the feature table at the sources, operation by operation. -/
theorem take32_run :
    StableHlo.after hostOps2 V (Proc.devRef .tc main_v19)
      = Cert.KSpec.take32 (F := Ideal) (V (Proc.devRef .tc main_v18)) (V (Proc.devRef .tc main_v1)) := by
  dsimp only [hostOps2]
  after_results_simp
  simp only [ofBuf_toBuf]
  rw [toBuf_v19]
  simp only [ofBuf_v1, ofBuf_v18]
  rfl

/-- The second layer's weights pass a format change, the identity on exact values. -/
theorem w2_run : (StableHlo.after hostOps2_1 V (Proc.devRef .tc main_v20) : S5x32x64.Idx → EReal)
    = V (Proc.devRef .tc main_arg6) := by
  dsimp only [hostOps2_1]; after_results; rfl

/-- The second layer's messages are widened through a format change, the identity on exact values, and summed into
    their target nodes from zero: the aggregation the network's statement names. -/
theorem agg_run : (StableHlo.after hostOps3 V (Proc.devRef .tc main_v25) : S50000x64.Idx → EReal)
    = Cert.Spec.agg64 (F := Ideal) (V (Proc.devRef .tc main_v3)) (V (Proc.devRef .tc main_v21)) := by
  dsimp only [hostOps3]; after_results; rfl

/-- The three biases, each reshaped to a row. -/
theorem b2_run : (StableHlo.after hostOps3 V (Proc.devRef .tc main_v26) : S1x64.Idx → EReal)
    = broadcastInDim Cert.ReferenceIdeal.S1x64 ![1] Cert.ReferenceIdeal.Facts₀.bcast_S64_S1x64_1 (V (Proc.devRef .tc main_arg8)) := by
  have e : (StableHlo.after hostOps3 V (Proc.devRef .tc main_v26) : S1x64.Idx → EReal)
      = fun i => shapeCast S1x64 (V (Proc.devRef .tc main_arg8)) Facts₀.shapeCasts_S64_S1x64 i := by
    dsimp only [hostOps3]; after_results; rfl
  exact e.trans (row_eq 64 (by decide) _ _ _)
theorem lb1_run : (StableHlo.after hostOps3 V (Proc.devRef .tc main_v27) : S1x128.Idx → EReal)
    = broadcastInDim Cert.ReferenceIdeal.S1x128 ![1] Cert.ReferenceIdeal.Facts₀.bcast_S128_S1x128_1 (V (Proc.devRef .tc main_arg10)) := by
  have e : (StableHlo.after hostOps3 V (Proc.devRef .tc main_v27) : S1x128.Idx → EReal)
      = fun i => shapeCast S1x128 (V (Proc.devRef .tc main_arg10)) Facts₀.shapeCasts_S128_S1x128 i := by
    dsimp only [hostOps3]; after_results; rfl
  exact e.trans (row_eq 128 (by decide) _ _ _)
theorem lb2_run : (StableHlo.after hostOps3 V (Proc.devRef .tc main_v28) : S1x10.Idx → EReal)
    = broadcastInDim Cert.ReferenceIdeal.S1x10 ![1] Cert.ReferenceIdeal.Facts₀.bcast_S10_S1x10_1 (V (Proc.devRef .tc main_arg12)) := by
  have e : (StableHlo.after hostOps3 V (Proc.devRef .tc main_v28) : S1x10.Idx → EReal)
      = fun i => shapeCast S1x10 (V (Proc.devRef .tc main_arg12)) Facts₀.shapeCasts_S10_S1x10 i := by
    dsimp only [hostOps3]; after_results; rfl
  exact e.trans (row_eq 10 (by decide) _ _ _)

end Host

section
variable (c : Dev nD)

set_option quotPrecheck false in
local notation "𝐚[" k "]" => m ((c.tc : Thread nD τ).loc k)

/-! ## The arguments at the boundaries where they are read

No host operation and no region writes an argument, so at any boundary it holds what it holds at the last one: the
launch memory's. -/

theorem W10_arg7 : W10 m ρ c (Proc.devRef .tc main_arg7) = 𝐚[main_arg7] :=
  ((W11_arr m ρ c 1).trans (((dat3 (V10 m ρ) c).arrAt_in 1 rfl _).trans (A_eq3 (V10 m ρ) c 1))).symm.trans (W11_main_arg7 m ρ c)
theorem W10_arg9 : W10 m ρ c (Proc.devRef .tc main_arg9) = 𝐚[main_arg9] :=
  ((W11_arr m ρ c 5).trans (((dat3 (V10 m ρ) c).arrAt_in 5 rfl _).trans (A_eq3 (V10 m ρ) c 5))).symm.trans (W11_main_arg9 m ρ c)
theorem W10_arg11 : W10 m ρ c (Proc.devRef .tc main_arg11) = 𝐚[main_arg11] :=
  ((W11_arr m ρ c 7).trans (((dat3 (V10 m ρ) c).arrAt_in 7 rfl _).trans (A_eq3 (V10 m ρ) c 7))).symm.trans (W11_main_arg11 m ρ c)

theorem W9_arg8 : W9 m ρ c (Proc.devRef .tc main_arg8) = 𝐚[main_arg8] :=
  calc W9 m ρ c (Proc.devRef .tc main_arg8)
    _ = W10 m ρ c (Proc.devRef .tc main_arg8) := Eq.symm (by host_keeps hostOps3)
    _ = W11 m ρ c (Proc.devRef .tc main_arg8) := (W11_of_ne m ρ c main_arg8 (by decide)).symm
    _ = _ := W11_main_arg8 m ρ c
theorem W9_arg10 : W9 m ρ c (Proc.devRef .tc main_arg10) = 𝐚[main_arg10] :=
  calc W9 m ρ c (Proc.devRef .tc main_arg10)
    _ = W10 m ρ c (Proc.devRef .tc main_arg10) := Eq.symm (by host_keeps hostOps3)
    _ = W11 m ρ c (Proc.devRef .tc main_arg10) := (W11_of_ne m ρ c main_arg10 (by decide)).symm
    _ = _ := W11_main_arg10 m ρ c
theorem W9_arg12 : W9 m ρ c (Proc.devRef .tc main_arg12) = 𝐚[main_arg12] :=
  calc W9 m ρ c (Proc.devRef .tc main_arg12)
    _ = W10 m ρ c (Proc.devRef .tc main_arg12) := Eq.symm (by host_keeps hostOps3)
    _ = W11 m ρ c (Proc.devRef .tc main_arg12) := (W11_of_ne m ρ c main_arg12 (by decide)).symm
    _ = _ := W11_main_arg12 m ρ c
theorem W8_arg2 : W8 m ρ c (Proc.devRef .tc main_arg2) = 𝐚[main_arg2] :=
  calc W8 m ρ c (Proc.devRef .tc main_arg2)
    _ = W9 m ρ c (Proc.devRef .tc main_arg2) :=
      ((W9_arr m ρ c 1).trans (((dat2 (V8 m ρ) c).arrAt_in 1 rfl _).trans (A_eq2 (V8 m ρ) c 1))).symm
    _ = W10 m ρ c (Proc.devRef .tc main_arg2) := Eq.symm (by host_keeps hostOps3)
    _ = W11 m ρ c (Proc.devRef .tc main_arg2) := (W11_of_ne m ρ c main_arg2 (by decide)).symm
    _ = _ := W11_main_arg2 m ρ c
theorem W7_arg6 : W7 m ρ c (Proc.devRef .tc main_arg6) = 𝐚[main_arg6] :=
  calc W7 m ρ c (Proc.devRef .tc main_arg6)
    _ = W8 m ρ c (Proc.devRef .tc main_arg6) := Eq.symm (by host_keeps hostOps2_1)
    _ = W9 m ρ c (Proc.devRef .tc main_arg6) := (W9_of_ne m ρ c main_arg6 (by decide)).symm
    _ = W10 m ρ c (Proc.devRef .tc main_arg6) := Eq.symm (by host_keeps hostOps3)
    _ = W11 m ρ c (Proc.devRef .tc main_arg6) := (W11_of_ne m ρ c main_arg6 (by decide)).symm
    _ = _ := W11_main_arg6 m ρ c

/-! ## Buffers written before the first region, read at later boundaries -/

/-- The sources at region 1's exit. -/
theorem W6_v1 : W6 m ρ c (Proc.devRef .tc main_v1) = Cert.Spec.src 𝐚[main_arg1] :=
  calc W6 m ρ c (Proc.devRef .tc main_v1)
    _ = W5 m ρ c (Proc.devRef .tc main_v1) := W6_of_ne m ρ c main_v1 (by decide)
    _ = W4 m ρ c (Proc.devRef .tc main_v1) := by host_keeps hostOps1
    _ = W3 m ρ c (Proc.devRef .tc main_v1) := W4_of_ne m ρ c main_v1 (by decide)
    _ = W2 m ρ c (Proc.devRef .tc main_v1) := by host_keeps hostOps0_2
    _ = W1 m ρ c (Proc.devRef .tc main_v1) := by host_keeps hostOps0_1
    _ = _ := src_value m ρ c

/-- The targets at region 2's exit. -/
theorem W9_v3 : W9 m ρ c (Proc.devRef .tc main_v3) = Cert.Spec.dst 𝐚[main_arg1] :=
  calc W9 m ρ c (Proc.devRef .tc main_v3)
    _ = W8 m ρ c (Proc.devRef .tc main_v3) := W9_of_ne m ρ c main_v3 (by decide)
    _ = W7 m ρ c (Proc.devRef .tc main_v3) := by host_keeps hostOps2_1
    _ = W6 m ρ c (Proc.devRef .tc main_v3) := by host_keeps hostOps2
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = _ := dst_value m ρ c

/-- The degree column at region 3's entry: region 1 reads it through an input window, nothing else touches it. -/
theorem W10_v10 : W10 m ρ c (Proc.devRef .tc main_v10) = Cert.Spec.deg (F := Ideal) (Cert.Spec.dst 𝐚[main_arg1]) :=
  calc W10 m ρ c (Proc.devRef .tc main_v10)
    _ = W9 m ρ c (Proc.devRef .tc main_v10) := by host_keeps hostOps3
    _ = W8 m ρ c (Proc.devRef .tc main_v10) := W9_of_ne m ρ c main_v10 (by decide)
    _ = W7 m ρ c (Proc.devRef .tc main_v10) := by host_keeps hostOps2_1
    _ = W6 m ρ c (Proc.devRef .tc main_v10) := by host_keeps hostOps2
    _ = W5 m ρ c (Proc.devRef .tc main_v10) :=
      (W6_arr m ρ c 4).trans (((dat1 (V5 m ρ) c).arrAt_in 4 rfl _).trans (A_eq1 (V5 m ρ) c 4))
    _ = W4 m ρ c (Proc.devRef .tc main_v10) := by host_keeps hostOps1
    _ = W3 m ρ c (Proc.devRef .tc main_v10) := W4_of_ne m ρ c main_v10 (by decide)
    _ = W2 m ρ c (Proc.devRef .tc main_v10) := by host_keeps hostOps0_2
    _ = W1 m ρ c (Proc.devRef .tc main_v10) := by host_keeps hostOps0_1
    _ = _ := deg_value m ρ c

/-! ## The first layer's features from region 1's exit on -/

section
variable (hsrc : ∀ e : Cert.ReferenceIdeal.S1600000.Idx, 0 ≤ (Cert.Spec.src (m ((c.tc : Thread nD τ).loc main_arg1)) e).toInt ∧ (Cert.Spec.src (m ((c.tc : Thread nD τ).loc main_arg1)) e).toInt < 50000)
include hsrc

set_option quotPrecheck false in
local notation "𝐡" => Cert.Spec.hidden (F := Ideal) 𝐚[main_arg0] 𝐚[main_arg1] 𝐚[main_arg2] 𝐚[main_arg3] 𝐚[main_arg4] 𝐚[main_arg5]

/-- Nothing between region 1's exit and region 3's entry writes the features. -/
theorem W10_v18 : W10 m ρ c (Proc.devRef .tc main_v18) = 𝐡 :=
  calc W10 m ρ c (Proc.devRef .tc main_v18)
    _ = W9 m ρ c (Proc.devRef .tc main_v18) := by host_keeps hostOps3
    _ = W8 m ρ c (Proc.devRef .tc main_v18) := W9_of_ne m ρ c main_v18 (by decide)
    _ = W7 m ρ c (Proc.devRef .tc main_v18) := by host_keeps hostOps2_1
    _ = W6 m ρ c (Proc.devRef .tc main_v18) := by host_keeps hostOps2
    _ = _ := hidden_value m ρ c hsrc

/-- With every source in range the take is the gather of the first layer's features at the wrapped sources. -/
theorem V8_v19 : V8 m ρ c main_v19
    = Host.gather Cert.ReferenceIdeal.gather_S50000x32_S1600000x1_S1600000x32_1_0_n_n_0_1_132 𝐡
        (Cert.Spec.col (Cert.Spec.wrap (Cert.Spec.src 𝐚[main_arg1]))) :=
  calc V8 m ρ c main_v19
    _ = W7 m ρ c (Proc.devRef .tc main_v19) := by host_keeps hostOps2_1
    _ = Cert.KSpec.take32 (F := Ideal) (W6 m ρ c (Proc.devRef .tc main_v18)) (W6 m ρ c (Proc.devRef .tc main_v1)) :=
      take32_run (W6 m ρ c)
    _ = Cert.KSpec.take32 (F := Ideal) 𝐡 (Cert.Spec.src 𝐚[main_arg1]) := by rw [hidden_value m ρ c hsrc, W6_v1 m ρ c]
    _ = _ := Cert.PreFacts.take32_eq _ _ hsrc

omit hsrc in
/-- The second layer's weights at region 2's entry. -/
theorem V8_v20 : V8 m ρ c main_v20 = 𝐚[main_arg6] := (w2_run (W7 m ρ c)).trans (W7_arg6 m ρ c)

/-- Region 2 leaves the second layer's messages. -/
theorem W9_v21 : W9 m ρ c (Proc.devRef .tc main_v21)
    = Cert.Spec.msg2 (F := Ideal)
        (Host.gather Cert.ReferenceIdeal.gather_S50000x32_S1600000x1_S1600000x32_1_0_n_n_0_1_132 𝐡
          (Cert.Spec.col (Cert.Spec.wrap (Cert.Spec.src 𝐚[main_arg1]))))
        (Cert.Spec.pseudo 𝐚[main_arg2]) 𝐚[main_arg6] := by
  refine (W9_arr m ρ c 3).trans ((Cert.KernelIdeal.Region2.value (V8 m ρ) c).trans ?_)
  rw [V8_v19 m ρ c hsrc, V8_v20 m ρ c, show V8 m ρ c main_arg2 = 𝐚[main_arg2] from W8_arg2 m ρ c]

/-- Their scatter-add into the target nodes. -/
theorem V10_v25 : V10 m ρ c main_v25
    = Cert.Spec.agg64 (F := Ideal) (Cert.Spec.dst 𝐚[main_arg1])
        (Cert.Spec.msg2 (F := Ideal)
          (Host.gather Cert.ReferenceIdeal.gather_S50000x32_S1600000x1_S1600000x32_1_0_n_n_0_1_132 𝐡
            (Cert.Spec.col (Cert.Spec.wrap (Cert.Spec.src 𝐚[main_arg1]))))
          (Cert.Spec.pseudo 𝐚[main_arg2]) 𝐚[main_arg6]) := by
  refine (agg_run (W9 m ρ c)).trans ?_
  rw [W9_v3 m ρ c, W9_v21 m ρ c hsrc]

omit hsrc in
/-- The three biases as rows at region 3's entry. -/
theorem V10_v26 : V10 m ρ c main_v26
    = broadcastInDim Cert.ReferenceIdeal.S1x64 ![1] Cert.ReferenceIdeal.Facts₀.bcast_S64_S1x64_1 𝐚[main_arg8] := by
  refine (b2_run (W9 m ρ c)).trans ?_
  rw [W9_arg8 m ρ c]
omit hsrc in
theorem V10_v27 : V10 m ρ c main_v27
    = broadcastInDim Cert.ReferenceIdeal.S1x128 ![1] Cert.ReferenceIdeal.Facts₀.bcast_S128_S1x128_1 𝐚[main_arg10] := by
  refine (lb1_run (W9 m ρ c)).trans ?_
  rw [W9_arg10 m ρ c]
omit hsrc in
theorem V10_v28 : V10 m ρ c main_v28
    = broadcastInDim Cert.ReferenceIdeal.S1x10 ![1] Cert.ReferenceIdeal.Facts₀.bcast_S10_S1x10_1 𝐚[main_arg12] := by
  refine (lb2_run (W9 m ρ c)).trans ?_
  rw [W9_arg12 m ρ c]

end

end
/-- At the last boundary the result array holds the network's result of the argument arrays. -/
theorem value (c : Dev nD) (hsrc : ∀ e : Cert.ReferenceIdeal.S1600000.Idx, 0 ≤ (Cert.Spec.src (m ((c.tc : Thread nD τ).loc main_arg1)) e).toInt ∧ (Cert.Spec.src (m ((c.tc : Thread nD τ).loc main_arg1)) e).toInt < 50000) :
    W11 (F := Ideal) m ρ c (Proc.devRef .tc main_v29) = Cert.Spec.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W11_arr m ρ c 9).trans ((Cert.KernelIdeal.Region3.value (V10 m ρ) c).trans ?_)
  rw [show V10 m ρ c main_v18 = _ from W10_v18 m ρ c hsrc, show V10 m ρ c main_arg7 = _ from W10_arg7 m ρ c,
    V10_v26 m ρ c, V10_v25 m ρ c hsrc, show V10 m ρ c main_v10 = _ from W10_v10 m ρ c,
    show V10 m ρ c main_arg9 = _ from W10_arg9 m ρ c, V10_v27 m ρ c,
    show V10 m ρ c main_arg11 = _ from W10_arg11 m ρ c, V10_v28 m ρ c]
  unfold Cert.Spec.out
  generalize Cert.Spec.hidden (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = H
  rfl

end Cert.KernelIdeal.KValue

end
-- ==== Proof.RefRunOps0.lean ====
/-
  Window 0 of the host reference's @main as lists of its host operations, in order: each statement of the window is one
  operation; a call of an outlined function is that function's operations over the call's own buffers. The lists are cut
  after the values that close a stage of the network. With each list: every operation touches TensorCore buffers only, and
  every operation determines its results.
-/
import proofs.«402775_j5308579578323_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The one buffer an operation writes is in the list: the builder's write set is that buffer's singleton. -/
local macro "wr" : tactic =>
  `(tactic| (simp only [nullary_writes, unary_writes, binary_writes, ternary_writes, reshape_writes, Finset.singleton_subset_iff, List.mem_toFinset]
             exact List.mem_map_of_mem (by decide)))

/-- Piece 0: 74 operations, from the one writing main_v0 to the one writing main_cst_14. -/
abbrev ops_p0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.reshape main_arg2 main_v4 rfl shapeCasts_S1600000x1_S1600000,
    StableHlo.nullary main_cst (constant S_ .f32 0x00000000#32),
    StableHlo.nullary main_cst_0 (constant S_ .f32 0x3F800000#32),
    StableHlo.TRef.unary (.of main_cst : StableHlo.TRef sig ⟨S_, .f32⟩) main_call0.v0 id,
    StableHlo.TRef.unary main_call0.v0 main_call0.v1 (broadcastInDim S1600000 ![] bcast_S_S1600000),
    StableHlo.TRef.binary main_call0.v1 (.of main_v4 : StableHlo.TRef sig ⟨S1600000, .f32⟩) main_call0.v2 maximumf,
    StableHlo.TRef.unary (.of main_cst_0 : StableHlo.TRef sig ⟨S_, .f32⟩) main_call0.v3 id,
    StableHlo.TRef.unary main_call0.v3 main_call0.v4 (broadcastInDim S1600000 ![] bcast_S_S1600000),
    StableHlo.TRef.binary main_call0.v4 main_call0.v2 main_call0.v5 minimumf,
    StableHlo.nullary main_cst_1 (constant S_ .f32 0x40800000#32),
    StableHlo.unary main_cst_1 main_v6 (broadcastInDim S1600000 ![] bcast_S_S1600000 : (⟨S_, .f32⟩ : BufTy).Contents (Elt F) → (⟨S1600000, .f32⟩ : BufTy).Contents (Elt F)),
    StableHlo.binary main_v5 main_v6 main_v7 (mulf : (⟨S1600000, .f32⟩ : BufTy).Contents (Elt F) → (⟨S1600000, .f32⟩ : BufTy).Contents (Elt F) → (⟨S1600000, .f32⟩ : BufTy).Contents (Elt F)),
    StableHlo.unary main_v7 main_v8 (Host.floor : (⟨S1600000, .f32⟩ : BufTy).Contents (Elt F) → (⟨S1600000, .f32⟩ : BufTy).Contents (Elt F)),
    StableHlo.nullary main_c (constantI S_ 32 0#32),
    StableHlo.nullary main_c_2 (constantI S_ 32 3#32),
    StableHlo.TRef.unary (.of main_c : StableHlo.TRef sig ⟨S_, .i32⟩) main_call1.v0 (sitofp .f32),
    StableHlo.TRef.unary main_call1.v0 main_call1.v1 (broadcastInDim S1600000 ![] bcast_S_S1600000),
    StableHlo.TRef.binary main_call1.v1 (.of main_v8 : StableHlo.TRef sig ⟨S1600000, .f32⟩) main_call1.v2 maximumf,
    StableHlo.TRef.unary (.of main_c_2 : StableHlo.TRef sig ⟨S_, .i32⟩) main_call1.v3 (sitofp .f32),
    StableHlo.TRef.unary main_call1.v3 main_call1.v4 (broadcastInDim S1600000 ![] bcast_S_S1600000),
    StableHlo.TRef.binary main_call1.v4 main_call1.v2 main_call1.v5 minimumf,
    StableHlo.unary main_v9 main_v10 (fptosi 32 : (⟨S1600000, .f32⟩ : BufTy).Contents (Elt F) → (⟨S1600000, .i32⟩ : BufTy).Contents (Elt F)),
    StableHlo.unary main_v10 main_v11 (sitofp .f32 : (⟨S1600000, .i32⟩ : BufTy).Contents (Elt F) → (⟨S1600000, .f32⟩ : BufTy).Contents (Elt F)),
    StableHlo.binary main_v7 main_v11 main_v12 (subf : (⟨S1600000, .f32⟩ : BufTy).Contents (Elt F) → (⟨S1600000, .f32⟩ : BufTy).Contents (Elt F) → (⟨S1600000, .f32⟩ : BufTy).Contents (Elt F)),
    StableHlo.nullary main_c_3 (constantI S_ 32 0#32),
    StableHlo.unary main_c_3 main_v13 (broadcastInDim S1600000 ![] bcast_S_S1600000 : (⟨S_, .i32⟩ : BufTy).Contents (Elt F) → (⟨S1600000, .i32⟩ : BufTy).Contents (Elt F)),
    StableHlo.binary main_v1 main_v13 main_v14 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 50000#32),
    StableHlo.unary main_c_4 main_v15 (broadcastInDim S1600000 ![] bcast_S_S1600000 : (⟨S_, .i32⟩ : BufTy).Contents (Elt F) → (⟨S1600000, .i32⟩ : BufTy).Contents (Elt F)),
    StableHlo.binary main_v1 main_v15 main_v16 (addi : (⟨S1600000, .i32⟩ : BufTy).Contents (Elt F) → (⟨S1600000, .i32⟩ : BufTy).Contents (Elt F) → (⟨S1600000, .i32⟩ : BufTy).Contents (Elt F)),
    StableHlo.ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v17 main_v18 (broadcastInDim S1600000x1 ![0] bcast_S1600000_S1600000x1_0 : (⟨S1600000, .i32⟩ : BufTy).Contents (Elt F) → (⟨S1600000x1, .i32⟩ : BufTy).Contents (Elt F)),
    StableHlo.binary main_arg0 main_v18 main_v19 ((fun x i => Host.gather gather_S50000x1_S1600000x1_S1600000x1_1_0_n_n_0_1_11 x i) : (⟨S50000x1, .f32⟩ : BufTy).Contents (Elt F) → (⟨S1600000x1, .i32⟩ : BufTy).Contents (Elt F) → (⟨S1600000x1, .f32⟩ : BufTy).Contents (Elt F)),
    StableHlo.nullary main_cst_5 (constant S_ .f32 0x00000000#32),
    StableHlo.unary main_cst_5 main_v20 (broadcastInDim S1600000x32 ![] bcast_S_S1600000x32 : (⟨S_, .f32⟩ : BufTy).Contents (Elt F) → (⟨S1600000x32, .f32⟩ : BufTy).Contents (Elt F)),
    StableHlo.nullary main_c_6 (constantI S_ 32 0#32),
    StableHlo.unary main_c_6 main_v21 (broadcastInDim S1600000 ![] bcast_S_S1600000 : (⟨S_, .i32⟩ : BufTy).Contents (Elt F) → (⟨S1600000, .i32⟩ : BufTy).Contents (Elt F)),
    StableHlo.binary main_v10 main_v21 main_v22 (cmpi .eq : (⟨S1600000, .i32⟩ : BufTy).Contents (Elt F) → (⟨S1600000, .i32⟩ : BufTy).Contents (Elt F) → (⟨S1600000, .i1⟩ : BufTy).Contents (Elt F)),
    StableHlo.nullary main_cst_7 (constant S_ .f32 0x3F800000#32),
    StableHlo.unary main_cst_7 main_v23 (broadcastInDim S1600000 ![] bcast_S_S1600000 : (⟨S_, .f32⟩ : BufTy).Contents (Elt F) → (⟨S1600000, .f32⟩ : BufTy).Contents (Elt F)),
    StableHlo.binary main_v23 main_v12 main_v24 (subf : (⟨S1600000, .f32⟩ : BufTy).Contents (Elt F) → (⟨S1600000, .f32⟩ : BufTy).Contents (Elt F) → (⟨S1600000, .f32⟩ : BufTy).Contents (Elt F)),
    StableHlo.nullary main_cst_8 (constant S_ .f32 0x00000000#32),
    StableHlo.TRef.unary (.of main_cst_8 : StableHlo.TRef sig ⟨S_, .f32⟩) main_call2.v0 id,
    StableHlo.TRef.unary main_call2.v0 main_call2.v1 (broadcastInDim S1600000 ![] bcast_S_S1600000),
    StableHlo.TRef.ternary (.of main_v22 : StableHlo.TRef sig ⟨S1600000, .i1⟩) (.of main_v24 : StableHlo.TRef sig ⟨S1600000, .f32⟩) main_call2.v1 main_call2.v2 select,
    StableHlo.nullary main_c_9 (constantI S_ 32 1#32),
    StableHlo.unary main_c_9 main_v26 (broadcastInDim S1600000 ![] bcast_S_S1600000 : (⟨S_, .i32⟩ : BufTy).Contents (Elt F) → (⟨S1600000, .i32⟩ : BufTy).Contents (Elt F)),
    StableHlo.binary main_v10 main_v26 main_v27 (addi : (⟨S1600000, .i32⟩ : BufTy).Contents (Elt F) → (⟨S1600000, .i32⟩ : BufTy).Contents (Elt F) → (⟨S1600000, .i32⟩ : BufTy).Contents (Elt F)),
    StableHlo.nullary main_c_10 (constantI S_ 32 0#32),
    StableHlo.unary main_c_10 main_v28 (broadcastInDim S1600000 ![] bcast_S_S1600000 : (⟨S_, .i32⟩ : BufTy).Contents (Elt F) → (⟨S1600000, .i32⟩ : BufTy).Contents (Elt F)),
    StableHlo.binary main_v27 main_v28 main_v29 (cmpi .eq : (⟨S1600000, .i32⟩ : BufTy).Contents (Elt F) → (⟨S1600000, .i32⟩ : BufTy).Contents (Elt F) → (⟨S1600000, .i1⟩ : BufTy).Contents (Elt F)),
    StableHlo.nullary main_cst_11 (constant S_ .f32 0x00000000#32),
    StableHlo.TRef.unary (.of main_cst_11 : StableHlo.TRef sig ⟨S_, .f32⟩) main_call3.v0 id,
    StableHlo.TRef.unary main_call3.v0 main_call3.v1 (broadcastInDim S1600000 ![] bcast_S_S1600000),
    StableHlo.TRef.ternary (.of main_v29 : StableHlo.TRef sig ⟨S1600000, .i1⟩) (.of main_v12 : StableHlo.TRef sig ⟨S1600000, .f32⟩) main_call3.v1 main_call3.v2 select,
    StableHlo.binary main_v25 main_v30 main_v31 (addf : (⟨S1600000, .f32⟩ : BufTy).Contents (Elt F) → (⟨S1600000, .f32⟩ : BufTy).Contents (Elt F) → (⟨S1600000, .f32⟩ : BufTy).Contents (Elt F)),
    StableHlo.unary main_v31 main_v32 (broadcastInDim S1600000x1 ![0] bcast_S1600000_S1600000x1_0 : (⟨S1600000, .f32⟩ : BufTy).Contents (Elt F) → (⟨S1600000x1, .f32⟩ : BufTy).Contents (Elt F)),
    StableHlo.unary main_arg3 main_v33 ((extractStridedSlice S1x1x32 ![0, 0, 0] · slices_S5x1x32_S1x1x32_0_0_0) : (⟨S5x1x32, .f32⟩ : BufTy).Contents (Elt F) → (⟨S1x1x32, .f32⟩ : BufTy).Contents (Elt F)),
    StableHlo.reshape main_v33 main_v34 rfl shapeCasts_S1x1x32_S1x32,
    StableHlo.binary main_v19 main_v34 main_v35 ((fun l r => Host.dotGeneral dot_S1600000x1_S1x32_S1600000x32_1_0_0_1_n_n none l r) : (⟨S1600000x1, .f32⟩ : BufTy).Contents (Elt F) → (⟨S1x32, .f32⟩ : BufTy).Contents (Elt F) → (⟨S1600000x32, .f32⟩ : BufTy).Contents (Elt F)),
    StableHlo.unary main_v32 main_v36 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v36 main_v35 main_v37 (mulf : (⟨S1600000x32, .f32⟩ : BufTy).Contents (Elt F) → (⟨S1600000x32, .f32⟩ : BufTy).Contents (Elt F) → (⟨S1600000x32, .f32⟩ : BufTy).Contents (Elt F)),
    StableHlo.binary main_v20 main_v37 main_v38 (addf : (⟨S1600000x32, .f32⟩ : BufTy).Contents (Elt F) → (⟨S1600000x32, .f32⟩ : BufTy).Contents (Elt F) → (⟨S1600000x32, .f32⟩ : BufTy).Contents (Elt F)),
    StableHlo.nullary main_c_12 (constantI S_ 32 1#32),
    StableHlo.unary main_c_12 main_v39 (broadcastInDim S1600000 ![] bcast_S_S1600000 : (⟨S_, .i32⟩ : BufTy).Contents (Elt F) → (⟨S1600000, .i32⟩ : BufTy).Contents (Elt F)),
    StableHlo.binary main_v10 main_v39 main_v40 (cmpi .eq : (⟨S1600000, .i32⟩ : BufTy).Contents (Elt F) → (⟨S1600000, .i32⟩ : BufTy).Contents (Elt F) → (⟨S1600000, .i1⟩ : BufTy).Contents (Elt F)),
    StableHlo.nullary main_cst_13 (constant S_ .f32 0x3F800000#32),
    StableHlo.unary main_cst_13 main_v41 (broadcastInDim S1600000 ![] bcast_S_S1600000 : (⟨S_, .f32⟩ : BufTy).Contents (Elt F) → (⟨S1600000, .f32⟩ : BufTy).Contents (Elt F)),
    StableHlo.binary main_v41 main_v12 main_v42 (subf : (⟨S1600000, .f32⟩ : BufTy).Contents (Elt F) → (⟨S1600000, .f32⟩ : BufTy).Contents (Elt F) → (⟨S1600000, .f32⟩ : BufTy).Contents (Elt F)),
    StableHlo.nullary main_cst_14 (constant S_ .f32 0x00000000#32) ]

theorem ops_p0_sub : (ops_p0 : List (HloOp τ sig (Elt F))).Forall fun op => op.bufs ⊆ tcRefs τ sig :=
  ⟨unary_bufs_sub .., reshape_bufs_sub .., unary_bufs_sub .., reshape_bufs_sub .., reshape_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., binary_bufs_sub .., unary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., binary_bufs_sub ..,
    unary_bufs_sub .., unary_bufs_sub .., reshape_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., nullary_bufs_sub ..⟩

/-- The buffers piece 0 writes, in order. -/
abbrev ops_p0_W : List (Ref sig .tc) :=
  [main_v0, main_v1, main_v2, main_v3, main_v4, main_cst, main_cst_0, main_call0.v0.ref,
   main_call0.v1.ref, main_call0.v2.ref, main_call0.v3.ref, main_call0.v4.ref, main_call0.v5.ref, main_cst_1, main_v6, main_v7,
   main_v8, main_c, main_c_2, main_call1.v0.ref, main_call1.v1.ref, main_call1.v2.ref, main_call1.v3.ref, main_call1.v4.ref,
   main_call1.v5.ref, main_v10, main_v11, main_v12, main_c_3, main_v13, main_v14, main_c_4,
   main_v15, main_v16, main_v17, main_v18, main_v19, main_cst_5, main_v20, main_c_6,
   main_v21, main_v22, main_cst_7, main_v23, main_v24, main_cst_8, main_call2.v0.ref, main_call2.v1.ref,
   main_call2.v2.ref, main_c_9, main_v26, main_v27, main_c_10, main_v28, main_v29, main_cst_11,
   main_call3.v0.ref, main_call3.v1.ref, main_call3.v2.ref, main_v31, main_v32, main_v33, main_v34, main_v35,
   main_v36, main_v37, main_v38, main_c_12, main_v39, main_v40, main_cst_13, main_v41,
   main_v42, main_cst_14]

theorem ops_p0_writes : (ops_p0 : List (HloOp τ sig (Elt F))).Forall fun op => op.writes ⊆ (ops_p0_W.map (Proc.devRef (τ := τ) .tc)).toFinset := by
  simp only [List.Forall]
  exact ⟨by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr⟩

/-- A buffer piece 0 does not write keeps its contents through it. -/
theorem ops_p0_keep (V : Valuation τ sig (Elt F)) (r : Ref sig .tc) (h : r ∉ ops_p0_W) :
    after ops_p0 V (Proc.devRef .tc r) = V (Proc.devRef .tc r) :=
  after_of_writes_sub ops_p0 V ops_p0_writes h

theorem ops_p0_fresh : (ops_p0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl⟩

/-- Window 0: its pieces in order. -/
abbrev ops_part0 : List (HloOp τ sig (Elt F)) := ops_p0

end Cert.ReferenceIdeal.RefRun

end
-- ==== Proof.RefRunOps1.lean ====
/-
  Window 1 of the host reference's @main as lists of its host operations, in order: each statement of the window is one
  operation; a call of an outlined function is that function's operations over the call's own buffers. The lists are cut
  after the values that close a stage of the network. With each list: every operation touches TensorCore buffers only, and
  every operation determines its results.
-/
import proofs.«402775_j5308579578323_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The one buffer an operation writes is in the list: the builder's write set is that buffer's singleton. -/
local macro "wr" : tactic =>
  `(tactic| (simp only [nullary_writes, unary_writes, binary_writes, ternary_writes, reshape_writes, Finset.singleton_subset_iff, List.mem_toFinset]
             exact List.mem_map_of_mem (by decide)))

/-- Piece 1: 72 operations, from the one writing main_call4.v0 to the one writing main_v87. -/
abbrev ops_p1 : List (HloOp τ sig (Elt F)) :=
  [ StableHlo.TRef.unary (.of main_cst_14 : StableHlo.TRef sig ⟨S_, .f32⟩) main_call4.v0 id,
    StableHlo.TRef.unary main_call4.v0 main_call4.v1 (broadcastInDim S1600000 ![] bcast_S_S1600000),
    StableHlo.TRef.ternary (.of main_v40 : StableHlo.TRef sig ⟨S1600000, .i1⟩) (.of main_v42 : StableHlo.TRef sig ⟨S1600000, .f32⟩) main_call4.v1 main_call4.v2 select,
    StableHlo.nullary main_c_15 (constantI S_ 32 1#32),
    StableHlo.unary main_c_15 main_v44 (broadcastInDim S1600000 ![] bcast_S_S1600000 : (⟨S_, .i32⟩ : BufTy).Contents (Elt F) → (⟨S1600000, .i32⟩ : BufTy).Contents (Elt F)),
    StableHlo.binary main_v10 main_v44 main_v45 (addi : (⟨S1600000, .i32⟩ : BufTy).Contents (Elt F) → (⟨S1600000, .i32⟩ : BufTy).Contents (Elt F) → (⟨S1600000, .i32⟩ : BufTy).Contents (Elt F)),
    StableHlo.nullary main_c_16 (constantI S_ 32 1#32),
    StableHlo.unary main_c_16 main_v46 (broadcastInDim S1600000 ![] bcast_S_S1600000 : (⟨S_, .i32⟩ : BufTy).Contents (Elt F) → (⟨S1600000, .i32⟩ : BufTy).Contents (Elt F)),
    StableHlo.binary main_v45 main_v46 main_v47 (cmpi .eq : (⟨S1600000, .i32⟩ : BufTy).Contents (Elt F) → (⟨S1600000, .i32⟩ : BufTy).Contents (Elt F) → (⟨S1600000, .i1⟩ : BufTy).Contents (Elt F)),
    StableHlo.nullary main_cst_17 (constant S_ .f32 0x00000000#32),
    StableHlo.TRef.unary (.of main_cst_17 : StableHlo.TRef sig ⟨S_, .f32⟩) main_call5.v0 id,
    StableHlo.TRef.unary main_call5.v0 main_call5.v1 (broadcastInDim S1600000 ![] bcast_S_S1600000),
    StableHlo.TRef.ternary (.of main_v47 : StableHlo.TRef sig ⟨S1600000, .i1⟩) (.of main_v12 : StableHlo.TRef sig ⟨S1600000, .f32⟩) main_call5.v1 main_call5.v2 select,
    StableHlo.binary main_v43 main_v48 main_v49 (addf : (⟨S1600000, .f32⟩ : BufTy).Contents (Elt F) → (⟨S1600000, .f32⟩ : BufTy).Contents (Elt F) → (⟨S1600000, .f32⟩ : BufTy).Contents (Elt F)),
    StableHlo.unary main_v49 main_v50 (broadcastInDim S1600000x1 ![0] bcast_S1600000_S1600000x1_0 : (⟨S1600000, .f32⟩ : BufTy).Contents (Elt F) → (⟨S1600000x1, .f32⟩ : BufTy).Contents (Elt F)),
    StableHlo.unary main_arg3 main_v51 ((extractStridedSlice S1x1x32 ![1, 0, 0] · slices_S5x1x32_S1x1x32_1_0_0) : (⟨S5x1x32, .f32⟩ : BufTy).Contents (Elt F) → (⟨S1x1x32, .f32⟩ : BufTy).Contents (Elt F)),
    StableHlo.reshape main_v51 main_v52 rfl shapeCasts_S1x1x32_S1x32,
    StableHlo.binary main_v19 main_v52 main_v53 ((fun l r => Host.dotGeneral dot_S1600000x1_S1x32_S1600000x32_1_0_0_1_n_n none l r) : (⟨S1600000x1, .f32⟩ : BufTy).Contents (Elt F) → (⟨S1x32, .f32⟩ : BufTy).Contents (Elt F) → (⟨S1600000x32, .f32⟩ : BufTy).Contents (Elt F)),
    StableHlo.unary main_v50 main_v54 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v54 main_v53 main_v55 (mulf : (⟨S1600000x32, .f32⟩ : BufTy).Contents (Elt F) → (⟨S1600000x32, .f32⟩ : BufTy).Contents (Elt F) → (⟨S1600000x32, .f32⟩ : BufTy).Contents (Elt F)),
    StableHlo.binary main_v38 main_v55 main_v56 (addf : (⟨S1600000x32, .f32⟩ : BufTy).Contents (Elt F) → (⟨S1600000x32, .f32⟩ : BufTy).Contents (Elt F) → (⟨S1600000x32, .f32⟩ : BufTy).Contents (Elt F)),
    StableHlo.nullary main_c_18 (constantI S_ 32 2#32),
    StableHlo.unary main_c_18 main_v57 (broadcastInDim S1600000 ![] bcast_S_S1600000 : (⟨S_, .i32⟩ : BufTy).Contents (Elt F) → (⟨S1600000, .i32⟩ : BufTy).Contents (Elt F)),
    StableHlo.binary main_v10 main_v57 main_v58 (cmpi .eq : (⟨S1600000, .i32⟩ : BufTy).Contents (Elt F) → (⟨S1600000, .i32⟩ : BufTy).Contents (Elt F) → (⟨S1600000, .i1⟩ : BufTy).Contents (Elt F)),
    StableHlo.nullary main_cst_19 (constant S_ .f32 0x3F800000#32),
    StableHlo.unary main_cst_19 main_v59 (broadcastInDim S1600000 ![] bcast_S_S1600000 : (⟨S_, .f32⟩ : BufTy).Contents (Elt F) → (⟨S1600000, .f32⟩ : BufTy).Contents (Elt F)),
    StableHlo.binary main_v59 main_v12 main_v60 (subf : (⟨S1600000, .f32⟩ : BufTy).Contents (Elt F) → (⟨S1600000, .f32⟩ : BufTy).Contents (Elt F) → (⟨S1600000, .f32⟩ : BufTy).Contents (Elt F)),
    StableHlo.nullary main_cst_20 (constant S_ .f32 0x00000000#32),
    StableHlo.TRef.unary (.of main_cst_20 : StableHlo.TRef sig ⟨S_, .f32⟩) main_call6.v0 id,
    StableHlo.TRef.unary main_call6.v0 main_call6.v1 (broadcastInDim S1600000 ![] bcast_S_S1600000),
    StableHlo.TRef.ternary (.of main_v58 : StableHlo.TRef sig ⟨S1600000, .i1⟩) (.of main_v60 : StableHlo.TRef sig ⟨S1600000, .f32⟩) main_call6.v1 main_call6.v2 select,
    StableHlo.nullary main_c_21 (constantI S_ 32 1#32),
    StableHlo.unary main_c_21 main_v62 (broadcastInDim S1600000 ![] bcast_S_S1600000 : (⟨S_, .i32⟩ : BufTy).Contents (Elt F) → (⟨S1600000, .i32⟩ : BufTy).Contents (Elt F)),
    StableHlo.binary main_v10 main_v62 main_v63 (addi : (⟨S1600000, .i32⟩ : BufTy).Contents (Elt F) → (⟨S1600000, .i32⟩ : BufTy).Contents (Elt F) → (⟨S1600000, .i32⟩ : BufTy).Contents (Elt F)),
    StableHlo.nullary main_c_22 (constantI S_ 32 2#32),
    StableHlo.unary main_c_22 main_v64 (broadcastInDim S1600000 ![] bcast_S_S1600000 : (⟨S_, .i32⟩ : BufTy).Contents (Elt F) → (⟨S1600000, .i32⟩ : BufTy).Contents (Elt F)),
    StableHlo.binary main_v63 main_v64 main_v65 (cmpi .eq : (⟨S1600000, .i32⟩ : BufTy).Contents (Elt F) → (⟨S1600000, .i32⟩ : BufTy).Contents (Elt F) → (⟨S1600000, .i1⟩ : BufTy).Contents (Elt F)),
    StableHlo.nullary main_cst_23 (constant S_ .f32 0x00000000#32),
    StableHlo.TRef.unary (.of main_cst_23 : StableHlo.TRef sig ⟨S_, .f32⟩) main_call7.v0 id,
    StableHlo.TRef.unary main_call7.v0 main_call7.v1 (broadcastInDim S1600000 ![] bcast_S_S1600000),
    StableHlo.TRef.ternary (.of main_v65 : StableHlo.TRef sig ⟨S1600000, .i1⟩) (.of main_v12 : StableHlo.TRef sig ⟨S1600000, .f32⟩) main_call7.v1 main_call7.v2 select,
    StableHlo.binary main_v61 main_v66 main_v67 (addf : (⟨S1600000, .f32⟩ : BufTy).Contents (Elt F) → (⟨S1600000, .f32⟩ : BufTy).Contents (Elt F) → (⟨S1600000, .f32⟩ : BufTy).Contents (Elt F)),
    StableHlo.unary main_v67 main_v68 (broadcastInDim S1600000x1 ![0] bcast_S1600000_S1600000x1_0 : (⟨S1600000, .f32⟩ : BufTy).Contents (Elt F) → (⟨S1600000x1, .f32⟩ : BufTy).Contents (Elt F)),
    StableHlo.unary main_arg3 main_v69 ((extractStridedSlice S1x1x32 ![2, 0, 0] · slices_S5x1x32_S1x1x32_2_0_0) : (⟨S5x1x32, .f32⟩ : BufTy).Contents (Elt F) → (⟨S1x1x32, .f32⟩ : BufTy).Contents (Elt F)),
    StableHlo.reshape main_v69 main_v70 rfl shapeCasts_S1x1x32_S1x32,
    StableHlo.binary main_v19 main_v70 main_v71 ((fun l r => Host.dotGeneral dot_S1600000x1_S1x32_S1600000x32_1_0_0_1_n_n none l r) : (⟨S1600000x1, .f32⟩ : BufTy).Contents (Elt F) → (⟨S1x32, .f32⟩ : BufTy).Contents (Elt F) → (⟨S1600000x32, .f32⟩ : BufTy).Contents (Elt F)),
    StableHlo.unary main_v68 main_v72 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v72 main_v71 main_v73 (mulf : (⟨S1600000x32, .f32⟩ : BufTy).Contents (Elt F) → (⟨S1600000x32, .f32⟩ : BufTy).Contents (Elt F) → (⟨S1600000x32, .f32⟩ : BufTy).Contents (Elt F)),
    StableHlo.binary main_v56 main_v73 main_v74 (addf : (⟨S1600000x32, .f32⟩ : BufTy).Contents (Elt F) → (⟨S1600000x32, .f32⟩ : BufTy).Contents (Elt F) → (⟨S1600000x32, .f32⟩ : BufTy).Contents (Elt F)),
    StableHlo.nullary main_c_24 (constantI S_ 32 3#32),
    StableHlo.unary main_c_24 main_v75 (broadcastInDim S1600000 ![] bcast_S_S1600000 : (⟨S_, .i32⟩ : BufTy).Contents (Elt F) → (⟨S1600000, .i32⟩ : BufTy).Contents (Elt F)),
    StableHlo.binary main_v10 main_v75 main_v76 (cmpi .eq : (⟨S1600000, .i32⟩ : BufTy).Contents (Elt F) → (⟨S1600000, .i32⟩ : BufTy).Contents (Elt F) → (⟨S1600000, .i1⟩ : BufTy).Contents (Elt F)),
    StableHlo.nullary main_cst_25 (constant S_ .f32 0x3F800000#32),
    StableHlo.unary main_cst_25 main_v77 (broadcastInDim S1600000 ![] bcast_S_S1600000 : (⟨S_, .f32⟩ : BufTy).Contents (Elt F) → (⟨S1600000, .f32⟩ : BufTy).Contents (Elt F)),
    StableHlo.binary main_v77 main_v12 main_v78 (subf : (⟨S1600000, .f32⟩ : BufTy).Contents (Elt F) → (⟨S1600000, .f32⟩ : BufTy).Contents (Elt F) → (⟨S1600000, .f32⟩ : BufTy).Contents (Elt F)),
    StableHlo.nullary main_cst_26 (constant S_ .f32 0x00000000#32),
    StableHlo.TRef.unary (.of main_cst_26 : StableHlo.TRef sig ⟨S_, .f32⟩) main_call8.v0 id,
    StableHlo.TRef.unary main_call8.v0 main_call8.v1 (broadcastInDim S1600000 ![] bcast_S_S1600000),
    StableHlo.TRef.ternary (.of main_v76 : StableHlo.TRef sig ⟨S1600000, .i1⟩) (.of main_v78 : StableHlo.TRef sig ⟨S1600000, .f32⟩) main_call8.v1 main_call8.v2 select,
    StableHlo.nullary main_c_27 (constantI S_ 32 1#32),
    StableHlo.unary main_c_27 main_v80 (broadcastInDim S1600000 ![] bcast_S_S1600000 : (⟨S_, .i32⟩ : BufTy).Contents (Elt F) → (⟨S1600000, .i32⟩ : BufTy).Contents (Elt F)),
    StableHlo.binary main_v10 main_v80 main_v81 (addi : (⟨S1600000, .i32⟩ : BufTy).Contents (Elt F) → (⟨S1600000, .i32⟩ : BufTy).Contents (Elt F) → (⟨S1600000, .i32⟩ : BufTy).Contents (Elt F)),
    StableHlo.nullary main_c_28 (constantI S_ 32 3#32),
    StableHlo.unary main_c_28 main_v82 (broadcastInDim S1600000 ![] bcast_S_S1600000 : (⟨S_, .i32⟩ : BufTy).Contents (Elt F) → (⟨S1600000, .i32⟩ : BufTy).Contents (Elt F)),
    StableHlo.binary main_v81 main_v82 main_v83 (cmpi .eq : (⟨S1600000, .i32⟩ : BufTy).Contents (Elt F) → (⟨S1600000, .i32⟩ : BufTy).Contents (Elt F) → (⟨S1600000, .i1⟩ : BufTy).Contents (Elt F)),
    StableHlo.nullary main_cst_29 (constant S_ .f32 0x00000000#32),
    StableHlo.TRef.unary (.of main_cst_29 : StableHlo.TRef sig ⟨S_, .f32⟩) main_call9.v0 id,
    StableHlo.TRef.unary main_call9.v0 main_call9.v1 (broadcastInDim S1600000 ![] bcast_S_S1600000),
    StableHlo.TRef.ternary (.of main_v83 : StableHlo.TRef sig ⟨S1600000, .i1⟩) (.of main_v12 : StableHlo.TRef sig ⟨S1600000, .f32⟩) main_call9.v1 main_call9.v2 select,
    StableHlo.binary main_v79 main_v84 main_v85 (addf : (⟨S1600000, .f32⟩ : BufTy).Contents (Elt F) → (⟨S1600000, .f32⟩ : BufTy).Contents (Elt F) → (⟨S1600000, .f32⟩ : BufTy).Contents (Elt F)),
    StableHlo.unary main_v85 main_v86 (broadcastInDim S1600000x1 ![0] bcast_S1600000_S1600000x1_0 : (⟨S1600000, .f32⟩ : BufTy).Contents (Elt F) → (⟨S1600000x1, .f32⟩ : BufTy).Contents (Elt F)),
    StableHlo.unary main_arg3 main_v87 ((extractStridedSlice S1x1x32 ![3, 0, 0] · slices_S5x1x32_S1x1x32_3_0_0) : (⟨S5x1x32, .f32⟩ : BufTy).Contents (Elt F) → (⟨S1x1x32, .f32⟩ : BufTy).Contents (Elt F)) ]

theorem ops_p1_sub : (ops_p1 : List (HloOp τ sig (Elt F))).Forall fun op => op.bufs ⊆ tcRefs τ sig :=
  ⟨unary_bufs_sub .., unary_bufs_sub .., ternary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., binary_bufs_sub .., unary_bufs_sub .., unary_bufs_sub .., reshape_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., binary_bufs_sub ..,
    unary_bufs_sub .., unary_bufs_sub .., reshape_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., binary_bufs_sub .., unary_bufs_sub .., unary_bufs_sub ..⟩

/-- The buffers piece 1 writes, in order. -/
abbrev ops_p1_W : List (Ref sig .tc) :=
  [main_call4.v0.ref, main_call4.v1.ref, main_call4.v2.ref, main_c_15, main_v44, main_v45, main_c_16, main_v46,
   main_v47, main_cst_17, main_call5.v0.ref, main_call5.v1.ref, main_call5.v2.ref, main_v49, main_v50, main_v51,
   main_v52, main_v53, main_v54, main_v55, main_v56, main_c_18, main_v57, main_v58,
   main_cst_19, main_v59, main_v60, main_cst_20, main_call6.v0.ref, main_call6.v1.ref, main_call6.v2.ref, main_c_21,
   main_v62, main_v63, main_c_22, main_v64, main_v65, main_cst_23, main_call7.v0.ref, main_call7.v1.ref,
   main_call7.v2.ref, main_v67, main_v68, main_v69, main_v70, main_v71, main_v72, main_v73,
   main_v74, main_c_24, main_v75, main_v76, main_cst_25, main_v77, main_v78, main_cst_26,
   main_call8.v0.ref, main_call8.v1.ref, main_call8.v2.ref, main_c_27, main_v80, main_v81, main_c_28, main_v82,
   main_v83, main_cst_29, main_call9.v0.ref, main_call9.v1.ref, main_call9.v2.ref, main_v85, main_v86, main_v87]

theorem ops_p1_writes : (ops_p1 : List (HloOp τ sig (Elt F))).Forall fun op => op.writes ⊆ (ops_p1_W.map (Proc.devRef (τ := τ) .tc)).toFinset := by
  simp only [List.Forall]
  exact ⟨by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr⟩

/-- A buffer piece 1 does not write keeps its contents through it. -/
theorem ops_p1_keep (V : Valuation τ sig (Elt F)) (r : Ref sig .tc) (h : r ∉ ops_p1_W) :
    after ops_p1 V (Proc.devRef .tc r) = V (Proc.devRef .tc r) :=
  after_of_writes_sub ops_p1 V ops_p1_writes h

theorem ops_p1_fresh : (ops_p1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl⟩

/-- Window 1: its pieces in order. -/
abbrev ops_part1 : List (HloOp τ sig (Elt F)) := ops_p1

end Cert.ReferenceIdeal.RefRun

end
-- ==== Proof.RefRunOps2.lean ====
/-
  Window 2 of the host reference's @main as lists of its host operations, in order: each statement of the window is one
  operation; a call of an outlined function is that function's operations over the call's own buffers. The lists are cut
  after the values that close a stage of the network. With each list: every operation touches TensorCore buffers only, and
  every operation determines its results.
-/
import proofs.«402775_j5308579578323_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The one buffer an operation writes is in the list: the builder's write set is that buffer's singleton. -/
local macro "wr" : tactic =>
  `(tactic| (simp only [nullary_writes, unary_writes, binary_writes, ternary_writes, reshape_writes, Finset.singleton_subset_iff, List.mem_toFinset]
             exact List.mem_map_of_mem (by decide)))

/-- Piece 2: 33 operations, from the one writing main_v88 to the one writing main_v110. -/
abbrev ops_p2 : List (HloOp τ sig (Elt F)) :=
  [ StableHlo.reshape main_v87 main_v88 rfl shapeCasts_S1x1x32_S1x32,
    StableHlo.binary main_v19 main_v88 main_v89 ((fun l r => Host.dotGeneral dot_S1600000x1_S1x32_S1600000x32_1_0_0_1_n_n none l r) : (⟨S1600000x1, .f32⟩ : BufTy).Contents (Elt F) → (⟨S1x32, .f32⟩ : BufTy).Contents (Elt F) → (⟨S1600000x32, .f32⟩ : BufTy).Contents (Elt F)),
    StableHlo.unary main_v86 main_v90 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v90 main_v89 main_v91 (mulf : (⟨S1600000x32, .f32⟩ : BufTy).Contents (Elt F) → (⟨S1600000x32, .f32⟩ : BufTy).Contents (Elt F) → (⟨S1600000x32, .f32⟩ : BufTy).Contents (Elt F)),
    StableHlo.binary main_v74 main_v91 main_v92 (addf : (⟨S1600000x32, .f32⟩ : BufTy).Contents (Elt F) → (⟨S1600000x32, .f32⟩ : BufTy).Contents (Elt F) → (⟨S1600000x32, .f32⟩ : BufTy).Contents (Elt F)),
    StableHlo.nullary main_c_30 (constantI S_ 32 4#32),
    StableHlo.unary main_c_30 main_v93 (broadcastInDim S1600000 ![] bcast_S_S1600000 : (⟨S_, .i32⟩ : BufTy).Contents (Elt F) → (⟨S1600000, .i32⟩ : BufTy).Contents (Elt F)),
    StableHlo.binary main_v10 main_v93 main_v94 (cmpi .eq : (⟨S1600000, .i32⟩ : BufTy).Contents (Elt F) → (⟨S1600000, .i32⟩ : BufTy).Contents (Elt F) → (⟨S1600000, .i1⟩ : BufTy).Contents (Elt F)),
    StableHlo.nullary main_cst_31 (constant S_ .f32 0x3F800000#32),
    StableHlo.unary main_cst_31 main_v95 (broadcastInDim S1600000 ![] bcast_S_S1600000 : (⟨S_, .f32⟩ : BufTy).Contents (Elt F) → (⟨S1600000, .f32⟩ : BufTy).Contents (Elt F)),
    StableHlo.binary main_v95 main_v12 main_v96 (subf : (⟨S1600000, .f32⟩ : BufTy).Contents (Elt F) → (⟨S1600000, .f32⟩ : BufTy).Contents (Elt F) → (⟨S1600000, .f32⟩ : BufTy).Contents (Elt F)),
    StableHlo.nullary main_cst_32 (constant S_ .f32 0x00000000#32),
    StableHlo.TRef.unary (.of main_cst_32 : StableHlo.TRef sig ⟨S_, .f32⟩) main_call10.v0 id,
    StableHlo.TRef.unary main_call10.v0 main_call10.v1 (broadcastInDim S1600000 ![] bcast_S_S1600000),
    StableHlo.TRef.ternary (.of main_v94 : StableHlo.TRef sig ⟨S1600000, .i1⟩) (.of main_v96 : StableHlo.TRef sig ⟨S1600000, .f32⟩) main_call10.v1 main_call10.v2 select,
    StableHlo.nullary main_c_33 (constantI S_ 32 1#32),
    StableHlo.unary main_c_33 main_v98 (broadcastInDim S1600000 ![] bcast_S_S1600000 : (⟨S_, .i32⟩ : BufTy).Contents (Elt F) → (⟨S1600000, .i32⟩ : BufTy).Contents (Elt F)),
    StableHlo.binary main_v10 main_v98 main_v99 (addi : (⟨S1600000, .i32⟩ : BufTy).Contents (Elt F) → (⟨S1600000, .i32⟩ : BufTy).Contents (Elt F) → (⟨S1600000, .i32⟩ : BufTy).Contents (Elt F)),
    StableHlo.nullary main_c_34 (constantI S_ 32 4#32),
    StableHlo.unary main_c_34 main_v100 (broadcastInDim S1600000 ![] bcast_S_S1600000 : (⟨S_, .i32⟩ : BufTy).Contents (Elt F) → (⟨S1600000, .i32⟩ : BufTy).Contents (Elt F)),
    StableHlo.binary main_v99 main_v100 main_v101 (cmpi .eq : (⟨S1600000, .i32⟩ : BufTy).Contents (Elt F) → (⟨S1600000, .i32⟩ : BufTy).Contents (Elt F) → (⟨S1600000, .i1⟩ : BufTy).Contents (Elt F)),
    StableHlo.nullary main_cst_35 (constant S_ .f32 0x00000000#32),
    StableHlo.TRef.unary (.of main_cst_35 : StableHlo.TRef sig ⟨S_, .f32⟩) main_call11.v0 id,
    StableHlo.TRef.unary main_call11.v0 main_call11.v1 (broadcastInDim S1600000 ![] bcast_S_S1600000),
    StableHlo.TRef.ternary (.of main_v101 : StableHlo.TRef sig ⟨S1600000, .i1⟩) (.of main_v12 : StableHlo.TRef sig ⟨S1600000, .f32⟩) main_call11.v1 main_call11.v2 select,
    StableHlo.binary main_v97 main_v102 main_v103 (addf : (⟨S1600000, .f32⟩ : BufTy).Contents (Elt F) → (⟨S1600000, .f32⟩ : BufTy).Contents (Elt F) → (⟨S1600000, .f32⟩ : BufTy).Contents (Elt F)),
    StableHlo.unary main_v103 main_v104 (broadcastInDim S1600000x1 ![0] bcast_S1600000_S1600000x1_0 : (⟨S1600000, .f32⟩ : BufTy).Contents (Elt F) → (⟨S1600000x1, .f32⟩ : BufTy).Contents (Elt F)),
    StableHlo.unary main_arg3 main_v105 ((extractStridedSlice S1x1x32 ![4, 0, 0] · slices_S5x1x32_S1x1x32_4_0_0) : (⟨S5x1x32, .f32⟩ : BufTy).Contents (Elt F) → (⟨S1x1x32, .f32⟩ : BufTy).Contents (Elt F)),
    StableHlo.reshape main_v105 main_v106 rfl shapeCasts_S1x1x32_S1x32,
    StableHlo.binary main_v19 main_v106 main_v107 ((fun l r => Host.dotGeneral dot_S1600000x1_S1x32_S1600000x32_1_0_0_1_n_n none l r) : (⟨S1600000x1, .f32⟩ : BufTy).Contents (Elt F) → (⟨S1x32, .f32⟩ : BufTy).Contents (Elt F) → (⟨S1600000x32, .f32⟩ : BufTy).Contents (Elt F)),
    StableHlo.unary main_v104 main_v108 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v108 main_v107 main_v109 (mulf : (⟨S1600000x32, .f32⟩ : BufTy).Contents (Elt F) → (⟨S1600000x32, .f32⟩ : BufTy).Contents (Elt F) → (⟨S1600000x32, .f32⟩ : BufTy).Contents (Elt F)),
    StableHlo.binary main_v92 main_v109 main_v110 (addf : (⟨S1600000x32, .f32⟩ : BufTy).Contents (Elt F) → (⟨S1600000x32, .f32⟩ : BufTy).Contents (Elt F) → (⟨S1600000x32, .f32⟩ : BufTy).Contents (Elt F)) ]

theorem ops_p2_sub : (ops_p2 : List (HloOp τ sig (Elt F))).Forall fun op => op.bufs ⊆ tcRefs τ sig :=
  ⟨reshape_bufs_sub .., binary_bufs_sub .., unary_bufs_sub .., binary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., binary_bufs_sub .., unary_bufs_sub .., unary_bufs_sub .., reshape_bufs_sub .., binary_bufs_sub ..,
    unary_bufs_sub .., binary_bufs_sub .., binary_bufs_sub ..⟩

/-- The buffers piece 2 writes, in order. -/
abbrev ops_p2_W : List (Ref sig .tc) :=
  [main_v88, main_v89, main_v90, main_v91, main_v92, main_c_30, main_v93, main_v94,
   main_cst_31, main_v95, main_v96, main_cst_32, main_call10.v0.ref, main_call10.v1.ref, main_call10.v2.ref, main_c_33,
   main_v98, main_v99, main_c_34, main_v100, main_v101, main_cst_35, main_call11.v0.ref, main_call11.v1.ref,
   main_call11.v2.ref, main_v103, main_v104, main_v105, main_v106, main_v107, main_v108, main_v109,
   main_v110]

theorem ops_p2_writes : (ops_p2 : List (HloOp τ sig (Elt F))).Forall fun op => op.writes ⊆ (ops_p2_W.map (Proc.devRef (τ := τ) .tc)).toFinset := by
  simp only [List.Forall]
  exact ⟨by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr⟩

/-- A buffer piece 2 does not write keeps its contents through it. -/
theorem ops_p2_keep (V : Valuation τ sig (Elt F)) (r : Ref sig .tc) (h : r ∉ ops_p2_W) :
    after ops_p2 V (Proc.devRef .tc r) = V (Proc.devRef .tc r) :=
  after_of_writes_sub ops_p2 V ops_p2_writes h

theorem ops_p2_fresh : (ops_p2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl⟩

/-- Piece 3: 36 operations, from the one writing main_cst_36 to the one writing main_call12.call1.v0. -/
abbrev ops_p3 : List (HloOp τ sig (Elt F)) :=
  [ StableHlo.nullary main_cst_36 (constant S_ .f32 0x00000000#32),
    StableHlo.unary main_cst_36 main_v111 (broadcastInDim S50000x32 ![] bcast_S_S50000x32 : (⟨S_, .f32⟩ : BufTy).Contents (Elt F) → (⟨S50000x32, .f32⟩ : BufTy).Contents (Elt F)),
    StableHlo.unary main_v3 main_v112 (broadcastInDim S1600000x1 ![0] bcast_S1600000_S1600000x1_0 : (⟨S1600000, .i32⟩ : BufTy).Contents (Elt F) → (⟨S1600000x1, .i32⟩ : BufTy).Contents (Elt F)),
    StableHlo.ternary main_v111 main_v112 main_v110 main_v113 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    StableHlo.nullary main_cst_37 (constant S_ .f32 0x3F800000#32),
    StableHlo.unary main_cst_37 main_v114 (broadcastInDim S1600000 ![] bcast_S_S1600000 : (⟨S_, .f32⟩ : BufTy).Contents (Elt F) → (⟨S1600000, .f32⟩ : BufTy).Contents (Elt F)),
    StableHlo.nullary main_cst_38 (constant S_ .f32 0x00000000#32),
    StableHlo.unary main_cst_38 main_v115 (broadcastInDim S50000 ![] bcast_S_S50000 : (⟨S_, .f32⟩ : BufTy).Contents (Elt F) → (⟨S50000, .f32⟩ : BufTy).Contents (Elt F)),
    StableHlo.unary main_v3 main_v116 (broadcastInDim S1600000x1 ![0] bcast_S1600000_S1600000x1_0 : (⟨S1600000, .i32⟩ : BufTy).Contents (Elt F) → (⟨S1600000x1, .i32⟩ : BufTy).Contents (Elt F)),
    StableHlo.ternary main_v115 main_v116 main_v114 main_v117 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_39 (constant S_ .f32 0x3F800000#32),
    StableHlo.unary main_cst_39 main_v118 (broadcastInDim S50000 ![] bcast_S_S50000 : (⟨S_, .f32⟩ : BufTy).Contents (Elt F) → (⟨S50000, .f32⟩ : BufTy).Contents (Elt F)),
    StableHlo.binary main_v117 main_v118 main_v119 (maximumf : (⟨S50000, .f32⟩ : BufTy).Contents (Elt F) → (⟨S50000, .f32⟩ : BufTy).Contents (Elt F) → (⟨S50000, .f32⟩ : BufTy).Contents (Elt F)),
    StableHlo.unary main_v119 main_v120 (broadcastInDim S50000x1 ![0] bcast_S50000_S50000x1_0 : (⟨S50000, .f32⟩ : BufTy).Contents (Elt F) → (⟨S50000x1, .f32⟩ : BufTy).Contents (Elt F)),
    StableHlo.unary main_v120 main_v121 (broadcastInDim S50000x32 ![0, 1] bcast_S50000x1_S50000x32_0_1 : (⟨S50000x1, .f32⟩ : BufTy).Contents (Elt F) → (⟨S50000x32, .f32⟩ : BufTy).Contents (Elt F)),
    StableHlo.binary main_v113 main_v121 main_v122 (Host.divf : (⟨S50000x32, .f32⟩ : BufTy).Contents (Elt F) → (⟨S50000x32, .f32⟩ : BufTy).Contents (Elt F) → (⟨S50000x32, .f32⟩ : BufTy).Contents (Elt F)),
    StableHlo.binary main_arg0 main_arg4 main_v123 ((fun l r => Host.dotGeneral dot_S50000x1_S1x32_S50000x32_1_0_0_1_n_n none l r) : (⟨S50000x1, .f32⟩ : BufTy).Contents (Elt F) → (⟨S1x32, .f32⟩ : BufTy).Contents (Elt F) → (⟨S50000x32, .f32⟩ : BufTy).Contents (Elt F)),
    StableHlo.binary main_v122 main_v123 main_v124 (addf : (⟨S50000x32, .f32⟩ : BufTy).Contents (Elt F) → (⟨S50000x32, .f32⟩ : BufTy).Contents (Elt F) → (⟨S50000x32, .f32⟩ : BufTy).Contents (Elt F)),
    StableHlo.unary main_arg5 main_v125 (broadcastInDim S1x32 ![1] bcast_S32_S1x32_1 : (⟨S32, .f32⟩ : BufTy).Contents (Elt F) → (⟨S1x32, .f32⟩ : BufTy).Contents (Elt F)),
    StableHlo.unary main_v125 main_v126 (broadcastInDim S50000x32 ![0, 1] bcast_S1x32_S50000x32_0_1 : (⟨S1x32, .f32⟩ : BufTy).Contents (Elt F) → (⟨S50000x32, .f32⟩ : BufTy).Contents (Elt F)),
    StableHlo.binary main_v124 main_v126 main_v127 (addf : (⟨S50000x32, .f32⟩ : BufTy).Contents (Elt F) → (⟨S50000x32, .f32⟩ : BufTy).Contents (Elt F) → (⟨S50000x32, .f32⟩ : BufTy).Contents (Elt F)),
    StableHlo.TRef.nullary main_call12.cst (constant S_ .f32 0x00000000#32),
    StableHlo.TRef.unary main_call12.cst main_call12.v0 (broadcastInDim S50000x32 ![] bcast_S_S50000x32),
    StableHlo.TRef.binary (.of main_v127 : StableHlo.TRef sig ⟨S50000x32, .f32⟩) main_call12.v0 main_call12.v1 (cmpf .ogt),
    StableHlo.TRef.nullary main_call12.cst_0 (constant S_ .f32 0x00000000#32),
    StableHlo.TRef.unary main_call12.cst_0 main_call12.v2 (broadcastInDim S50000x32 ![] bcast_S_S50000x32),
    StableHlo.TRef.binary (.of main_v127 : StableHlo.TRef sig ⟨S50000x32, .f32⟩) main_call12.v2 main_call12.v3 (cmpf .ogt),
    StableHlo.TRef.nullary main_call12.cst_1 (constant S_ .f32 0x00000000#32),
    StableHlo.TRef.unary main_call12.cst_1 main_call12.call0.v0 id,
    StableHlo.TRef.unary main_call12.call0.v0 main_call12.call0.v1 (broadcastInDim S50000x32 ![] bcast_S_S50000x32),
    StableHlo.TRef.ternary main_call12.v3 main_call12.call0.v1 (.of main_v127 : StableHlo.TRef sig ⟨S50000x32, .f32⟩) main_call12.call0.v2 select,
    StableHlo.TRef.unary main_call12.call0.v2 main_call12.v5 Host.expm1,
    StableHlo.TRef.nullary main_call12.cst_2 (constant S_ .f32 0x3F800000#32),
    StableHlo.TRef.unary main_call12.cst_2 main_call12.v6 (broadcastInDim S50000x32 ![] bcast_S_S50000x32),
    StableHlo.TRef.binary main_call12.v6 main_call12.v5 main_call12.v7 mulf,
    StableHlo.TRef.ternary main_call12.v1 (.of main_v127 : StableHlo.TRef sig ⟨S50000x32, .f32⟩) main_call12.v7 main_call12.call1.v0 select ]

theorem ops_p3_sub : (ops_p3 : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

/-- The buffers piece 3 writes, in order. -/
abbrev ops_p3_W : List (Ref sig .tc) :=
  [main_cst_36, main_v111, main_v112, main_v113, main_cst_37, main_v114, main_cst_38, main_v115,
   main_v116, main_v117, main_cst_39, main_v118, main_v119, main_v120, main_v121, main_v122,
   main_v123, main_v124, main_v125, main_v126, main_v127, main_call12.cst.ref, main_call12.v0.ref, main_call12.v1.ref,
   main_call12.cst_0.ref, main_call12.v2.ref, main_call12.v3.ref, main_call12.cst_1.ref, main_call12.call0.v0.ref, main_call12.call0.v1.ref, main_call12.call0.v2.ref, main_call12.v5.ref,
   main_call12.cst_2.ref, main_call12.v6.ref, main_call12.v7.ref, main_call12.call1.v0.ref]

theorem ops_p3_writes : (ops_p3 : List (HloOp τ sig (Elt F))).Forall fun op => op.writes ⊆ (ops_p3_W.map (Proc.devRef (τ := τ) .tc)).toFinset := by
  simp only [List.Forall]
  exact ⟨by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr⟩

/-- A buffer piece 3 does not write keeps its contents through it. -/
theorem ops_p3_keep (V : Valuation τ sig (Elt F)) (r : Ref sig .tc) (h : r ∉ ops_p3_W) :
    after ops_p3 V (Proc.devRef .tc r) = V (Proc.devRef .tc r) :=
  after_of_writes_sub ops_p3 V ops_p3_writes h

theorem ops_p3_fresh : (ops_p3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- Piece 4: 14 operations, from the one writing main_v129 to the one writing main_c_43. -/
abbrev ops_p4 : List (HloOp τ sig (Elt F)) :=
  [ StableHlo.reshape main_arg2 main_v129 rfl shapeCasts_S1600000x1_S1600000,
    StableHlo.nullary main_cst_40 (constant S_ .f32 0x00000000#32),
    StableHlo.nullary main_cst_41 (constant S_ .f32 0x3F800000#32),
    StableHlo.TRef.unary (.of main_cst_40 : StableHlo.TRef sig ⟨S_, .f32⟩) main_call13.v0 id,
    StableHlo.TRef.unary main_call13.v0 main_call13.v1 (broadcastInDim S1600000 ![] bcast_S_S1600000),
    StableHlo.TRef.binary main_call13.v1 (.of main_v129 : StableHlo.TRef sig ⟨S1600000, .f32⟩) main_call13.v2 maximumf,
    StableHlo.TRef.unary (.of main_cst_41 : StableHlo.TRef sig ⟨S_, .f32⟩) main_call13.v3 id,
    StableHlo.TRef.unary main_call13.v3 main_call13.v4 (broadcastInDim S1600000 ![] bcast_S_S1600000),
    StableHlo.TRef.binary main_call13.v4 main_call13.v2 main_call13.v5 minimumf,
    StableHlo.nullary main_cst_42 (constant S_ .f32 0x40800000#32),
    StableHlo.unary main_cst_42 main_v131 (broadcastInDim S1600000 ![] bcast_S_S1600000 : (⟨S_, .f32⟩ : BufTy).Contents (Elt F) → (⟨S1600000, .f32⟩ : BufTy).Contents (Elt F)),
    StableHlo.binary main_v130 main_v131 main_v132 (mulf : (⟨S1600000, .f32⟩ : BufTy).Contents (Elt F) → (⟨S1600000, .f32⟩ : BufTy).Contents (Elt F) → (⟨S1600000, .f32⟩ : BufTy).Contents (Elt F)),
    StableHlo.unary main_v132 main_v133 (Host.floor : (⟨S1600000, .f32⟩ : BufTy).Contents (Elt F) → (⟨S1600000, .f32⟩ : BufTy).Contents (Elt F)),
    StableHlo.nullary main_c_43 (constantI S_ 32 0#32) ]

theorem ops_p4_sub : (ops_p4 : List (HloOp τ sig (Elt F))).Forall fun op => op.bufs ⊆ tcRefs τ sig :=
  ⟨reshape_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., nullary_bufs_sub ..⟩

/-- The buffers piece 4 writes, in order. -/
abbrev ops_p4_W : List (Ref sig .tc) :=
  [main_v129, main_cst_40, main_cst_41, main_call13.v0.ref, main_call13.v1.ref, main_call13.v2.ref, main_call13.v3.ref, main_call13.v4.ref,
   main_call13.v5.ref, main_cst_42, main_v131, main_v132, main_v133, main_c_43]

theorem ops_p4_writes : (ops_p4 : List (HloOp τ sig (Elt F))).Forall fun op => op.writes ⊆ (ops_p4_W.map (Proc.devRef (τ := τ) .tc)).toFinset := by
  simp only [List.Forall]
  exact ⟨by wr, by wr, by wr, by wr, by wr, by wr, by wr, by wr, by wr, by wr, by wr, by wr,
    by wr, by wr⟩

/-- A buffer piece 4 does not write keeps its contents through it. -/
theorem ops_p4_keep (V : Valuation τ sig (Elt F)) (r : Ref sig .tc) (h : r ∉ ops_p4_W) :
    after ops_p4 V (Proc.devRef .tc r) = V (Proc.devRef .tc r) :=
  after_of_writes_sub ops_p4 V ops_p4_writes h

theorem ops_p4_fresh : (ops_p4 : List (HloOp τ sig (Elt F))).Forall fun op => op.fresh = ∅ :=
  ⟨rfl, rfl, rfl, rfl, rfl, rfl, rfl, rfl, rfl, rfl, rfl, rfl, rfl, rfl⟩

/-- Window 2: its pieces in order. -/
abbrev ops_part2 : List (HloOp τ sig (Elt F)) := ops_p2 ++ ops_p3 ++ ops_p4

end Cert.ReferenceIdeal.RefRun

end
-- ==== Proof.RefRunOps3.lean ====
/-
  Window 3 of the host reference's @main as lists of its host operations, in order: each statement of the window is one
  operation; a call of an outlined function is that function's operations over the call's own buffers. The lists are cut
  after the values that close a stage of the network. With each list: every operation touches TensorCore buffers only, and
  every operation determines its results.
-/
import proofs.«402775_j5308579578323_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The one buffer an operation writes is in the list: the builder's write set is that buffer's singleton. -/
local macro "wr" : tactic =>
  `(tactic| (simp only [nullary_writes, unary_writes, binary_writes, ternary_writes, reshape_writes, Finset.singleton_subset_iff, List.mem_toFinset]
             exact List.mem_map_of_mem (by decide)))

/-- Piece 5: 73 operations, from the one writing main_c_44 to the one writing main_v177. -/
abbrev ops_p5 : List (HloOp τ sig (Elt F)) :=
  [ StableHlo.nullary main_c_44 (constantI S_ 32 3#32),
    StableHlo.TRef.unary (.of main_c_43 : StableHlo.TRef sig ⟨S_, .i32⟩) main_call14.v0 (sitofp .f32),
    StableHlo.TRef.unary main_call14.v0 main_call14.v1 (broadcastInDim S1600000 ![] bcast_S_S1600000),
    StableHlo.TRef.binary main_call14.v1 (.of main_v133 : StableHlo.TRef sig ⟨S1600000, .f32⟩) main_call14.v2 maximumf,
    StableHlo.TRef.unary (.of main_c_44 : StableHlo.TRef sig ⟨S_, .i32⟩) main_call14.v3 (sitofp .f32),
    StableHlo.TRef.unary main_call14.v3 main_call14.v4 (broadcastInDim S1600000 ![] bcast_S_S1600000),
    StableHlo.TRef.binary main_call14.v4 main_call14.v2 main_call14.v5 minimumf,
    StableHlo.unary main_v134 main_v135 (fptosi 32 : (⟨S1600000, .f32⟩ : BufTy).Contents (Elt F) → (⟨S1600000, .i32⟩ : BufTy).Contents (Elt F)),
    StableHlo.unary main_v135 main_v136 (sitofp .f32 : (⟨S1600000, .i32⟩ : BufTy).Contents (Elt F) → (⟨S1600000, .f32⟩ : BufTy).Contents (Elt F)),
    StableHlo.binary main_v132 main_v136 main_v137 (subf : (⟨S1600000, .f32⟩ : BufTy).Contents (Elt F) → (⟨S1600000, .f32⟩ : BufTy).Contents (Elt F) → (⟨S1600000, .f32⟩ : BufTy).Contents (Elt F)),
    StableHlo.nullary main_c_45 (constantI S_ 32 0#32),
    StableHlo.unary main_c_45 main_v138 (broadcastInDim S1600000 ![] bcast_S_S1600000 : (⟨S_, .i32⟩ : BufTy).Contents (Elt F) → (⟨S1600000, .i32⟩ : BufTy).Contents (Elt F)),
    StableHlo.binary main_v1 main_v138 main_v139 (cmpi .slt : (⟨S1600000, .i32⟩ : BufTy).Contents (Elt F) → (⟨S1600000, .i32⟩ : BufTy).Contents (Elt F) → (⟨S1600000, .i1⟩ : BufTy).Contents (Elt F)),
    StableHlo.nullary main_c_46 (constantI S_ 32 50000#32),
    StableHlo.unary main_c_46 main_v140 (broadcastInDim S1600000 ![] bcast_S_S1600000 : (⟨S_, .i32⟩ : BufTy).Contents (Elt F) → (⟨S1600000, .i32⟩ : BufTy).Contents (Elt F)),
    StableHlo.binary main_v1 main_v140 main_v141 (addi : (⟨S1600000, .i32⟩ : BufTy).Contents (Elt F) → (⟨S1600000, .i32⟩ : BufTy).Contents (Elt F) → (⟨S1600000, .i32⟩ : BufTy).Contents (Elt F)),
    StableHlo.ternary main_v139 main_v141 main_v1 main_v142 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v142 main_v143 (broadcastInDim S1600000x1 ![0] bcast_S1600000_S1600000x1_0 : (⟨S1600000, .i32⟩ : BufTy).Contents (Elt F) → (⟨S1600000x1, .i32⟩ : BufTy).Contents (Elt F)),
    StableHlo.binary main_v128 main_v143 main_v144 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    StableHlo.nullary main_cst_47 (constant S_ .f32 0x00000000#32),
    StableHlo.unary main_cst_47 main_v145 (broadcastInDim S1600000x64 ![] bcast_S_S1600000x64 : (⟨S_, .f32⟩ : BufTy).Contents (Elt F) → (⟨S1600000x64, .f32⟩ : BufTy).Contents (Elt F)),
    StableHlo.nullary main_c_48 (constantI S_ 32 0#32),
    StableHlo.unary main_c_48 main_v146 (broadcastInDim S1600000 ![] bcast_S_S1600000 : (⟨S_, .i32⟩ : BufTy).Contents (Elt F) → (⟨S1600000, .i32⟩ : BufTy).Contents (Elt F)),
    StableHlo.binary main_v135 main_v146 main_v147 (cmpi .eq : (⟨S1600000, .i32⟩ : BufTy).Contents (Elt F) → (⟨S1600000, .i32⟩ : BufTy).Contents (Elt F) → (⟨S1600000, .i1⟩ : BufTy).Contents (Elt F)),
    StableHlo.nullary main_cst_49 (constant S_ .f32 0x3F800000#32),
    StableHlo.unary main_cst_49 main_v148 (broadcastInDim S1600000 ![] bcast_S_S1600000 : (⟨S_, .f32⟩ : BufTy).Contents (Elt F) → (⟨S1600000, .f32⟩ : BufTy).Contents (Elt F)),
    StableHlo.binary main_v148 main_v137 main_v149 (subf : (⟨S1600000, .f32⟩ : BufTy).Contents (Elt F) → (⟨S1600000, .f32⟩ : BufTy).Contents (Elt F) → (⟨S1600000, .f32⟩ : BufTy).Contents (Elt F)),
    StableHlo.nullary main_cst_50 (constant S_ .f32 0x00000000#32),
    StableHlo.TRef.unary (.of main_cst_50 : StableHlo.TRef sig ⟨S_, .f32⟩) main_call15.v0 id,
    StableHlo.TRef.unary main_call15.v0 main_call15.v1 (broadcastInDim S1600000 ![] bcast_S_S1600000),
    StableHlo.TRef.ternary (.of main_v147 : StableHlo.TRef sig ⟨S1600000, .i1⟩) (.of main_v149 : StableHlo.TRef sig ⟨S1600000, .f32⟩) main_call15.v1 main_call15.v2 select,
    StableHlo.nullary main_c_51 (constantI S_ 32 1#32),
    StableHlo.unary main_c_51 main_v151 (broadcastInDim S1600000 ![] bcast_S_S1600000 : (⟨S_, .i32⟩ : BufTy).Contents (Elt F) → (⟨S1600000, .i32⟩ : BufTy).Contents (Elt F)),
    StableHlo.binary main_v135 main_v151 main_v152 (addi : (⟨S1600000, .i32⟩ : BufTy).Contents (Elt F) → (⟨S1600000, .i32⟩ : BufTy).Contents (Elt F) → (⟨S1600000, .i32⟩ : BufTy).Contents (Elt F)),
    StableHlo.nullary main_c_52 (constantI S_ 32 0#32),
    StableHlo.unary main_c_52 main_v153 (broadcastInDim S1600000 ![] bcast_S_S1600000 : (⟨S_, .i32⟩ : BufTy).Contents (Elt F) → (⟨S1600000, .i32⟩ : BufTy).Contents (Elt F)),
    StableHlo.binary main_v152 main_v153 main_v154 (cmpi .eq : (⟨S1600000, .i32⟩ : BufTy).Contents (Elt F) → (⟨S1600000, .i32⟩ : BufTy).Contents (Elt F) → (⟨S1600000, .i1⟩ : BufTy).Contents (Elt F)),
    StableHlo.nullary main_cst_53 (constant S_ .f32 0x00000000#32),
    StableHlo.TRef.unary (.of main_cst_53 : StableHlo.TRef sig ⟨S_, .f32⟩) main_call16.v0 id,
    StableHlo.TRef.unary main_call16.v0 main_call16.v1 (broadcastInDim S1600000 ![] bcast_S_S1600000),
    StableHlo.TRef.ternary (.of main_v154 : StableHlo.TRef sig ⟨S1600000, .i1⟩) (.of main_v137 : StableHlo.TRef sig ⟨S1600000, .f32⟩) main_call16.v1 main_call16.v2 select,
    StableHlo.binary main_v150 main_v155 main_v156 (addf : (⟨S1600000, .f32⟩ : BufTy).Contents (Elt F) → (⟨S1600000, .f32⟩ : BufTy).Contents (Elt F) → (⟨S1600000, .f32⟩ : BufTy).Contents (Elt F)),
    StableHlo.unary main_v156 main_v157 (broadcastInDim S1600000x1 ![0] bcast_S1600000_S1600000x1_0 : (⟨S1600000, .f32⟩ : BufTy).Contents (Elt F) → (⟨S1600000x1, .f32⟩ : BufTy).Contents (Elt F)),
    StableHlo.unary main_arg6 main_v158 ((extractStridedSlice S1x32x64 ![0, 0, 0] · slices_S5x32x64_S1x32x64_0_0_0) : (⟨S5x32x64, .f32⟩ : BufTy).Contents (Elt F) → (⟨S1x32x64, .f32⟩ : BufTy).Contents (Elt F)),
    StableHlo.reshape main_v158 main_v159 rfl shapeCasts_S1x32x64_S32x64,
    StableHlo.binary main_v144 main_v159 main_v160 ((fun l r => Host.dotGeneral dot_S1600000x32_S32x64_S1600000x64_1_0_0_1_n_n none l r) : (⟨S1600000x32, .f32⟩ : BufTy).Contents (Elt F) → (⟨S32x64, .f32⟩ : BufTy).Contents (Elt F) → (⟨S1600000x64, .f32⟩ : BufTy).Contents (Elt F)),
    StableHlo.unary main_v157 main_v161 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v161 main_v160 main_v162 (mulf : (⟨S1600000x64, .f32⟩ : BufTy).Contents (Elt F) → (⟨S1600000x64, .f32⟩ : BufTy).Contents (Elt F) → (⟨S1600000x64, .f32⟩ : BufTy).Contents (Elt F)),
    StableHlo.binary main_v145 main_v162 main_v163 (addf : (⟨S1600000x64, .f32⟩ : BufTy).Contents (Elt F) → (⟨S1600000x64, .f32⟩ : BufTy).Contents (Elt F) → (⟨S1600000x64, .f32⟩ : BufTy).Contents (Elt F)),
    StableHlo.nullary main_c_54 (constantI S_ 32 1#32),
    StableHlo.unary main_c_54 main_v164 (broadcastInDim S1600000 ![] bcast_S_S1600000 : (⟨S_, .i32⟩ : BufTy).Contents (Elt F) → (⟨S1600000, .i32⟩ : BufTy).Contents (Elt F)),
    StableHlo.binary main_v135 main_v164 main_v165 (cmpi .eq : (⟨S1600000, .i32⟩ : BufTy).Contents (Elt F) → (⟨S1600000, .i32⟩ : BufTy).Contents (Elt F) → (⟨S1600000, .i1⟩ : BufTy).Contents (Elt F)),
    StableHlo.nullary main_cst_55 (constant S_ .f32 0x3F800000#32),
    StableHlo.unary main_cst_55 main_v166 (broadcastInDim S1600000 ![] bcast_S_S1600000 : (⟨S_, .f32⟩ : BufTy).Contents (Elt F) → (⟨S1600000, .f32⟩ : BufTy).Contents (Elt F)),
    StableHlo.binary main_v166 main_v137 main_v167 (subf : (⟨S1600000, .f32⟩ : BufTy).Contents (Elt F) → (⟨S1600000, .f32⟩ : BufTy).Contents (Elt F) → (⟨S1600000, .f32⟩ : BufTy).Contents (Elt F)),
    StableHlo.nullary main_cst_56 (constant S_ .f32 0x00000000#32),
    StableHlo.TRef.unary (.of main_cst_56 : StableHlo.TRef sig ⟨S_, .f32⟩) main_call17.v0 id,
    StableHlo.TRef.unary main_call17.v0 main_call17.v1 (broadcastInDim S1600000 ![] bcast_S_S1600000),
    StableHlo.TRef.ternary (.of main_v165 : StableHlo.TRef sig ⟨S1600000, .i1⟩) (.of main_v167 : StableHlo.TRef sig ⟨S1600000, .f32⟩) main_call17.v1 main_call17.v2 select,
    StableHlo.nullary main_c_57 (constantI S_ 32 1#32),
    StableHlo.unary main_c_57 main_v169 (broadcastInDim S1600000 ![] bcast_S_S1600000 : (⟨S_, .i32⟩ : BufTy).Contents (Elt F) → (⟨S1600000, .i32⟩ : BufTy).Contents (Elt F)),
    StableHlo.binary main_v135 main_v169 main_v170 (addi : (⟨S1600000, .i32⟩ : BufTy).Contents (Elt F) → (⟨S1600000, .i32⟩ : BufTy).Contents (Elt F) → (⟨S1600000, .i32⟩ : BufTy).Contents (Elt F)),
    StableHlo.nullary main_c_58 (constantI S_ 32 1#32),
    StableHlo.unary main_c_58 main_v171 (broadcastInDim S1600000 ![] bcast_S_S1600000 : (⟨S_, .i32⟩ : BufTy).Contents (Elt F) → (⟨S1600000, .i32⟩ : BufTy).Contents (Elt F)),
    StableHlo.binary main_v170 main_v171 main_v172 (cmpi .eq : (⟨S1600000, .i32⟩ : BufTy).Contents (Elt F) → (⟨S1600000, .i32⟩ : BufTy).Contents (Elt F) → (⟨S1600000, .i1⟩ : BufTy).Contents (Elt F)),
    StableHlo.nullary main_cst_59 (constant S_ .f32 0x00000000#32),
    StableHlo.TRef.unary (.of main_cst_59 : StableHlo.TRef sig ⟨S_, .f32⟩) main_call18.v0 id,
    StableHlo.TRef.unary main_call18.v0 main_call18.v1 (broadcastInDim S1600000 ![] bcast_S_S1600000),
    StableHlo.TRef.ternary (.of main_v172 : StableHlo.TRef sig ⟨S1600000, .i1⟩) (.of main_v137 : StableHlo.TRef sig ⟨S1600000, .f32⟩) main_call18.v1 main_call18.v2 select,
    StableHlo.binary main_v168 main_v173 main_v174 (addf : (⟨S1600000, .f32⟩ : BufTy).Contents (Elt F) → (⟨S1600000, .f32⟩ : BufTy).Contents (Elt F) → (⟨S1600000, .f32⟩ : BufTy).Contents (Elt F)),
    StableHlo.unary main_v174 main_v175 (broadcastInDim S1600000x1 ![0] bcast_S1600000_S1600000x1_0 : (⟨S1600000, .f32⟩ : BufTy).Contents (Elt F) → (⟨S1600000x1, .f32⟩ : BufTy).Contents (Elt F)),
    StableHlo.unary main_arg6 main_v176 ((extractStridedSlice S1x32x64 ![1, 0, 0] · slices_S5x32x64_S1x32x64_1_0_0) : (⟨S5x32x64, .f32⟩ : BufTy).Contents (Elt F) → (⟨S1x32x64, .f32⟩ : BufTy).Contents (Elt F)),
    StableHlo.reshape main_v176 main_v177 rfl shapeCasts_S1x32x64_S32x64 ]

theorem ops_p5_sub : (ops_p5 : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., binary_bufs_sub ..,
    unary_bufs_sub .., unary_bufs_sub .., reshape_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., binary_bufs_sub .., unary_bufs_sub .., unary_bufs_sub ..,
    reshape_bufs_sub ..⟩

/-- The buffers piece 5 writes, in order. -/
abbrev ops_p5_W : List (Ref sig .tc) :=
  [main_c_44, main_call14.v0.ref, main_call14.v1.ref, main_call14.v2.ref, main_call14.v3.ref, main_call14.v4.ref, main_call14.v5.ref, main_v135,
   main_v136, main_v137, main_c_45, main_v138, main_v139, main_c_46, main_v140, main_v141,
   main_v142, main_v143, main_v144, main_cst_47, main_v145, main_c_48, main_v146, main_v147,
   main_cst_49, main_v148, main_v149, main_cst_50, main_call15.v0.ref, main_call15.v1.ref, main_call15.v2.ref, main_c_51,
   main_v151, main_v152, main_c_52, main_v153, main_v154, main_cst_53, main_call16.v0.ref, main_call16.v1.ref,
   main_call16.v2.ref, main_v156, main_v157, main_v158, main_v159, main_v160, main_v161, main_v162,
   main_v163, main_c_54, main_v164, main_v165, main_cst_55, main_v166, main_v167, main_cst_56,
   main_call17.v0.ref, main_call17.v1.ref, main_call17.v2.ref, main_c_57, main_v169, main_v170, main_c_58, main_v171,
   main_v172, main_cst_59, main_call18.v0.ref, main_call18.v1.ref, main_call18.v2.ref, main_v174, main_v175, main_v176,
   main_v177]

theorem ops_p5_writes : (ops_p5 : List (HloOp τ sig (Elt F))).Forall fun op => op.writes ⊆ (ops_p5_W.map (Proc.devRef (τ := τ) .tc)).toFinset := by
  simp only [List.Forall]
  exact ⟨by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr⟩

/-- A buffer piece 5 does not write keeps its contents through it. -/
theorem ops_p5_keep (V : Valuation τ sig (Elt F)) (r : Ref sig .tc) (h : r ∉ ops_p5_W) :
    after ops_p5 V (Proc.devRef .tc r) = V (Proc.devRef .tc r) :=
  after_of_writes_sub ops_p5 V ops_p5_writes h

theorem ops_p5_fresh : (ops_p5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl⟩

/-- Window 3: its pieces in order. -/
abbrev ops_part3 : List (HloOp τ sig (Elt F)) := ops_p5

end Cert.ReferenceIdeal.RefRun

end
-- ==== Proof.RefRunOps4.lean ====
/-
  Window 4 of the host reference's @main as lists of its host operations, in order: each statement of the window is one
  operation; a call of an outlined function is that function's operations over the call's own buffers. The lists are cut
  after the values that close a stage of the network. With each list: every operation touches TensorCore buffers only, and
  every operation determines its results.
-/
import proofs.«402775_j5308579578323_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The one buffer an operation writes is in the list: the builder's write set is that buffer's singleton. -/
local macro "wr" : tactic =>
  `(tactic| (simp only [nullary_writes, unary_writes, binary_writes, ternary_writes, reshape_writes, Finset.singleton_subset_iff, List.mem_toFinset]
             exact List.mem_map_of_mem (by decide)))

/-- Piece 6: 70 operations, from the one writing main_v178 to the one writing main_call23.v2. -/
abbrev ops_p6 : List (HloOp τ sig (Elt F)) :=
  [ StableHlo.binary main_v144 main_v177 main_v178 ((fun l r => Host.dotGeneral dot_S1600000x32_S32x64_S1600000x64_1_0_0_1_n_n none l r) : (⟨S1600000x32, .f32⟩ : BufTy).Contents (Elt F) → (⟨S32x64, .f32⟩ : BufTy).Contents (Elt F) → (⟨S1600000x64, .f32⟩ : BufTy).Contents (Elt F)),
    StableHlo.unary main_v175 main_v179 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v179 main_v178 main_v180 (mulf : (⟨S1600000x64, .f32⟩ : BufTy).Contents (Elt F) → (⟨S1600000x64, .f32⟩ : BufTy).Contents (Elt F) → (⟨S1600000x64, .f32⟩ : BufTy).Contents (Elt F)),
    StableHlo.binary main_v163 main_v180 main_v181 (addf : (⟨S1600000x64, .f32⟩ : BufTy).Contents (Elt F) → (⟨S1600000x64, .f32⟩ : BufTy).Contents (Elt F) → (⟨S1600000x64, .f32⟩ : BufTy).Contents (Elt F)),
    StableHlo.nullary main_c_60 (constantI S_ 32 2#32),
    StableHlo.unary main_c_60 main_v182 (broadcastInDim S1600000 ![] bcast_S_S1600000 : (⟨S_, .i32⟩ : BufTy).Contents (Elt F) → (⟨S1600000, .i32⟩ : BufTy).Contents (Elt F)),
    StableHlo.binary main_v135 main_v182 main_v183 (cmpi .eq : (⟨S1600000, .i32⟩ : BufTy).Contents (Elt F) → (⟨S1600000, .i32⟩ : BufTy).Contents (Elt F) → (⟨S1600000, .i1⟩ : BufTy).Contents (Elt F)),
    StableHlo.nullary main_cst_61 (constant S_ .f32 0x3F800000#32),
    StableHlo.unary main_cst_61 main_v184 (broadcastInDim S1600000 ![] bcast_S_S1600000 : (⟨S_, .f32⟩ : BufTy).Contents (Elt F) → (⟨S1600000, .f32⟩ : BufTy).Contents (Elt F)),
    StableHlo.binary main_v184 main_v137 main_v185 (subf : (⟨S1600000, .f32⟩ : BufTy).Contents (Elt F) → (⟨S1600000, .f32⟩ : BufTy).Contents (Elt F) → (⟨S1600000, .f32⟩ : BufTy).Contents (Elt F)),
    StableHlo.nullary main_cst_62 (constant S_ .f32 0x00000000#32),
    StableHlo.TRef.unary (.of main_cst_62 : StableHlo.TRef sig ⟨S_, .f32⟩) main_call19.v0 id,
    StableHlo.TRef.unary main_call19.v0 main_call19.v1 (broadcastInDim S1600000 ![] bcast_S_S1600000),
    StableHlo.TRef.ternary (.of main_v183 : StableHlo.TRef sig ⟨S1600000, .i1⟩) (.of main_v185 : StableHlo.TRef sig ⟨S1600000, .f32⟩) main_call19.v1 main_call19.v2 select,
    StableHlo.nullary main_c_63 (constantI S_ 32 1#32),
    StableHlo.unary main_c_63 main_v187 (broadcastInDim S1600000 ![] bcast_S_S1600000 : (⟨S_, .i32⟩ : BufTy).Contents (Elt F) → (⟨S1600000, .i32⟩ : BufTy).Contents (Elt F)),
    StableHlo.binary main_v135 main_v187 main_v188 (addi : (⟨S1600000, .i32⟩ : BufTy).Contents (Elt F) → (⟨S1600000, .i32⟩ : BufTy).Contents (Elt F) → (⟨S1600000, .i32⟩ : BufTy).Contents (Elt F)),
    StableHlo.nullary main_c_64 (constantI S_ 32 2#32),
    StableHlo.unary main_c_64 main_v189 (broadcastInDim S1600000 ![] bcast_S_S1600000 : (⟨S_, .i32⟩ : BufTy).Contents (Elt F) → (⟨S1600000, .i32⟩ : BufTy).Contents (Elt F)),
    StableHlo.binary main_v188 main_v189 main_v190 (cmpi .eq : (⟨S1600000, .i32⟩ : BufTy).Contents (Elt F) → (⟨S1600000, .i32⟩ : BufTy).Contents (Elt F) → (⟨S1600000, .i1⟩ : BufTy).Contents (Elt F)),
    StableHlo.nullary main_cst_65 (constant S_ .f32 0x00000000#32),
    StableHlo.TRef.unary (.of main_cst_65 : StableHlo.TRef sig ⟨S_, .f32⟩) main_call20.v0 id,
    StableHlo.TRef.unary main_call20.v0 main_call20.v1 (broadcastInDim S1600000 ![] bcast_S_S1600000),
    StableHlo.TRef.ternary (.of main_v190 : StableHlo.TRef sig ⟨S1600000, .i1⟩) (.of main_v137 : StableHlo.TRef sig ⟨S1600000, .f32⟩) main_call20.v1 main_call20.v2 select,
    StableHlo.binary main_v186 main_v191 main_v192 (addf : (⟨S1600000, .f32⟩ : BufTy).Contents (Elt F) → (⟨S1600000, .f32⟩ : BufTy).Contents (Elt F) → (⟨S1600000, .f32⟩ : BufTy).Contents (Elt F)),
    StableHlo.unary main_v192 main_v193 (broadcastInDim S1600000x1 ![0] bcast_S1600000_S1600000x1_0 : (⟨S1600000, .f32⟩ : BufTy).Contents (Elt F) → (⟨S1600000x1, .f32⟩ : BufTy).Contents (Elt F)),
    StableHlo.unary main_arg6 main_v194 ((extractStridedSlice S1x32x64 ![2, 0, 0] · slices_S5x32x64_S1x32x64_2_0_0) : (⟨S5x32x64, .f32⟩ : BufTy).Contents (Elt F) → (⟨S1x32x64, .f32⟩ : BufTy).Contents (Elt F)),
    StableHlo.reshape main_v194 main_v195 rfl shapeCasts_S1x32x64_S32x64,
    StableHlo.binary main_v144 main_v195 main_v196 ((fun l r => Host.dotGeneral dot_S1600000x32_S32x64_S1600000x64_1_0_0_1_n_n none l r) : (⟨S1600000x32, .f32⟩ : BufTy).Contents (Elt F) → (⟨S32x64, .f32⟩ : BufTy).Contents (Elt F) → (⟨S1600000x64, .f32⟩ : BufTy).Contents (Elt F)),
    StableHlo.unary main_v193 main_v197 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v197 main_v196 main_v198 (mulf : (⟨S1600000x64, .f32⟩ : BufTy).Contents (Elt F) → (⟨S1600000x64, .f32⟩ : BufTy).Contents (Elt F) → (⟨S1600000x64, .f32⟩ : BufTy).Contents (Elt F)),
    StableHlo.binary main_v181 main_v198 main_v199 (addf : (⟨S1600000x64, .f32⟩ : BufTy).Contents (Elt F) → (⟨S1600000x64, .f32⟩ : BufTy).Contents (Elt F) → (⟨S1600000x64, .f32⟩ : BufTy).Contents (Elt F)),
    StableHlo.nullary main_c_66 (constantI S_ 32 3#32),
    StableHlo.unary main_c_66 main_v200 (broadcastInDim S1600000 ![] bcast_S_S1600000 : (⟨S_, .i32⟩ : BufTy).Contents (Elt F) → (⟨S1600000, .i32⟩ : BufTy).Contents (Elt F)),
    StableHlo.binary main_v135 main_v200 main_v201 (cmpi .eq : (⟨S1600000, .i32⟩ : BufTy).Contents (Elt F) → (⟨S1600000, .i32⟩ : BufTy).Contents (Elt F) → (⟨S1600000, .i1⟩ : BufTy).Contents (Elt F)),
    StableHlo.nullary main_cst_67 (constant S_ .f32 0x3F800000#32),
    StableHlo.unary main_cst_67 main_v202 (broadcastInDim S1600000 ![] bcast_S_S1600000 : (⟨S_, .f32⟩ : BufTy).Contents (Elt F) → (⟨S1600000, .f32⟩ : BufTy).Contents (Elt F)),
    StableHlo.binary main_v202 main_v137 main_v203 (subf : (⟨S1600000, .f32⟩ : BufTy).Contents (Elt F) → (⟨S1600000, .f32⟩ : BufTy).Contents (Elt F) → (⟨S1600000, .f32⟩ : BufTy).Contents (Elt F)),
    StableHlo.nullary main_cst_68 (constant S_ .f32 0x00000000#32),
    StableHlo.TRef.unary (.of main_cst_68 : StableHlo.TRef sig ⟨S_, .f32⟩) main_call21.v0 id,
    StableHlo.TRef.unary main_call21.v0 main_call21.v1 (broadcastInDim S1600000 ![] bcast_S_S1600000),
    StableHlo.TRef.ternary (.of main_v201 : StableHlo.TRef sig ⟨S1600000, .i1⟩) (.of main_v203 : StableHlo.TRef sig ⟨S1600000, .f32⟩) main_call21.v1 main_call21.v2 select,
    StableHlo.nullary main_c_69 (constantI S_ 32 1#32),
    StableHlo.unary main_c_69 main_v205 (broadcastInDim S1600000 ![] bcast_S_S1600000 : (⟨S_, .i32⟩ : BufTy).Contents (Elt F) → (⟨S1600000, .i32⟩ : BufTy).Contents (Elt F)),
    StableHlo.binary main_v135 main_v205 main_v206 (addi : (⟨S1600000, .i32⟩ : BufTy).Contents (Elt F) → (⟨S1600000, .i32⟩ : BufTy).Contents (Elt F) → (⟨S1600000, .i32⟩ : BufTy).Contents (Elt F)),
    StableHlo.nullary main_c_70 (constantI S_ 32 3#32),
    StableHlo.unary main_c_70 main_v207 (broadcastInDim S1600000 ![] bcast_S_S1600000 : (⟨S_, .i32⟩ : BufTy).Contents (Elt F) → (⟨S1600000, .i32⟩ : BufTy).Contents (Elt F)),
    StableHlo.binary main_v206 main_v207 main_v208 (cmpi .eq : (⟨S1600000, .i32⟩ : BufTy).Contents (Elt F) → (⟨S1600000, .i32⟩ : BufTy).Contents (Elt F) → (⟨S1600000, .i1⟩ : BufTy).Contents (Elt F)),
    StableHlo.nullary main_cst_71 (constant S_ .f32 0x00000000#32),
    StableHlo.TRef.unary (.of main_cst_71 : StableHlo.TRef sig ⟨S_, .f32⟩) main_call22.v0 id,
    StableHlo.TRef.unary main_call22.v0 main_call22.v1 (broadcastInDim S1600000 ![] bcast_S_S1600000),
    StableHlo.TRef.ternary (.of main_v208 : StableHlo.TRef sig ⟨S1600000, .i1⟩) (.of main_v137 : StableHlo.TRef sig ⟨S1600000, .f32⟩) main_call22.v1 main_call22.v2 select,
    StableHlo.binary main_v204 main_v209 main_v210 (addf : (⟨S1600000, .f32⟩ : BufTy).Contents (Elt F) → (⟨S1600000, .f32⟩ : BufTy).Contents (Elt F) → (⟨S1600000, .f32⟩ : BufTy).Contents (Elt F)),
    StableHlo.unary main_v210 main_v211 (broadcastInDim S1600000x1 ![0] bcast_S1600000_S1600000x1_0 : (⟨S1600000, .f32⟩ : BufTy).Contents (Elt F) → (⟨S1600000x1, .f32⟩ : BufTy).Contents (Elt F)),
    StableHlo.unary main_arg6 main_v212 ((extractStridedSlice S1x32x64 ![3, 0, 0] · slices_S5x32x64_S1x32x64_3_0_0) : (⟨S5x32x64, .f32⟩ : BufTy).Contents (Elt F) → (⟨S1x32x64, .f32⟩ : BufTy).Contents (Elt F)),
    StableHlo.reshape main_v212 main_v213 rfl shapeCasts_S1x32x64_S32x64,
    StableHlo.binary main_v144 main_v213 main_v214 ((fun l r => Host.dotGeneral dot_S1600000x32_S32x64_S1600000x64_1_0_0_1_n_n none l r) : (⟨S1600000x32, .f32⟩ : BufTy).Contents (Elt F) → (⟨S32x64, .f32⟩ : BufTy).Contents (Elt F) → (⟨S1600000x64, .f32⟩ : BufTy).Contents (Elt F)),
    StableHlo.unary main_v211 main_v215 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v215 main_v214 main_v216 (mulf : (⟨S1600000x64, .f32⟩ : BufTy).Contents (Elt F) → (⟨S1600000x64, .f32⟩ : BufTy).Contents (Elt F) → (⟨S1600000x64, .f32⟩ : BufTy).Contents (Elt F)),
    StableHlo.binary main_v199 main_v216 main_v217 (addf : (⟨S1600000x64, .f32⟩ : BufTy).Contents (Elt F) → (⟨S1600000x64, .f32⟩ : BufTy).Contents (Elt F) → (⟨S1600000x64, .f32⟩ : BufTy).Contents (Elt F)),
    StableHlo.nullary main_c_72 (constantI S_ 32 4#32),
    StableHlo.unary main_c_72 main_v218 (broadcastInDim S1600000 ![] bcast_S_S1600000 : (⟨S_, .i32⟩ : BufTy).Contents (Elt F) → (⟨S1600000, .i32⟩ : BufTy).Contents (Elt F)),
    StableHlo.binary main_v135 main_v218 main_v219 (cmpi .eq : (⟨S1600000, .i32⟩ : BufTy).Contents (Elt F) → (⟨S1600000, .i32⟩ : BufTy).Contents (Elt F) → (⟨S1600000, .i1⟩ : BufTy).Contents (Elt F)),
    StableHlo.nullary main_cst_73 (constant S_ .f32 0x3F800000#32),
    StableHlo.unary main_cst_73 main_v220 (broadcastInDim S1600000 ![] bcast_S_S1600000 : (⟨S_, .f32⟩ : BufTy).Contents (Elt F) → (⟨S1600000, .f32⟩ : BufTy).Contents (Elt F)),
    StableHlo.binary main_v220 main_v137 main_v221 (subf : (⟨S1600000, .f32⟩ : BufTy).Contents (Elt F) → (⟨S1600000, .f32⟩ : BufTy).Contents (Elt F) → (⟨S1600000, .f32⟩ : BufTy).Contents (Elt F)),
    StableHlo.nullary main_cst_74 (constant S_ .f32 0x00000000#32),
    StableHlo.TRef.unary (.of main_cst_74 : StableHlo.TRef sig ⟨S_, .f32⟩) main_call23.v0 id,
    StableHlo.TRef.unary main_call23.v0 main_call23.v1 (broadcastInDim S1600000 ![] bcast_S_S1600000),
    StableHlo.TRef.ternary (.of main_v219 : StableHlo.TRef sig ⟨S1600000, .i1⟩) (.of main_v221 : StableHlo.TRef sig ⟨S1600000, .f32⟩) main_call23.v1 main_call23.v2 select ]

theorem ops_p6_sub : (ops_p6 : List (HloOp τ sig (Elt F))).Forall fun op => op.bufs ⊆ tcRefs τ sig :=
  ⟨binary_bufs_sub .., unary_bufs_sub .., binary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    binary_bufs_sub .., unary_bufs_sub .., unary_bufs_sub .., reshape_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., binary_bufs_sub .., unary_bufs_sub ..,
    unary_bufs_sub .., reshape_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub ..⟩

/-- The buffers piece 6 writes, in order. -/
abbrev ops_p6_W : List (Ref sig .tc) :=
  [main_v178, main_v179, main_v180, main_v181, main_c_60, main_v182, main_v183, main_cst_61,
   main_v184, main_v185, main_cst_62, main_call19.v0.ref, main_call19.v1.ref, main_call19.v2.ref, main_c_63, main_v187,
   main_v188, main_c_64, main_v189, main_v190, main_cst_65, main_call20.v0.ref, main_call20.v1.ref, main_call20.v2.ref,
   main_v192, main_v193, main_v194, main_v195, main_v196, main_v197, main_v198, main_v199,
   main_c_66, main_v200, main_v201, main_cst_67, main_v202, main_v203, main_cst_68, main_call21.v0.ref,
   main_call21.v1.ref, main_call21.v2.ref, main_c_69, main_v205, main_v206, main_c_70, main_v207, main_v208,
   main_cst_71, main_call22.v0.ref, main_call22.v1.ref, main_call22.v2.ref, main_v210, main_v211, main_v212, main_v213,
   main_v214, main_v215, main_v216, main_v217, main_c_72, main_v218, main_v219, main_cst_73,
   main_v220, main_v221, main_cst_74, main_call23.v0.ref, main_call23.v1.ref, main_call23.v2.ref]

theorem ops_p6_writes : (ops_p6 : List (HloOp τ sig (Elt F))).Forall fun op => op.writes ⊆ (ops_p6_W.map (Proc.devRef (τ := τ) .tc)).toFinset := by
  simp only [List.Forall]
  exact ⟨by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr⟩

/-- A buffer piece 6 does not write keeps its contents through it. -/
theorem ops_p6_keep (V : Valuation τ sig (Elt F)) (r : Ref sig .tc) (h : r ∉ ops_p6_W) :
    after ops_p6 V (Proc.devRef .tc r) = V (Proc.devRef .tc r) :=
  after_of_writes_sub ops_p6 V ops_p6_writes h

theorem ops_p6_fresh : (ops_p6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl⟩

/-- Window 4: its pieces in order. -/
abbrev ops_part4 : List (HloOp τ sig (Elt F)) := ops_p6

end Cert.ReferenceIdeal.RefRun

end
-- ==== Proof.RefRunOps5.lean ====
/-
  Window 5 of the host reference's @main as lists of its host operations, in order: each statement of the window is one
  operation; a call of an outlined function is that function's operations over the call's own buffers. The lists are cut
  after the values that close a stage of the network. With each list: every operation touches TensorCore buffers only, and
  every operation determines its results.
-/
import proofs.«402775_j5308579578323_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The one buffer an operation writes is in the list: the builder's write set is that buffer's singleton. -/
local macro "wr" : tactic =>
  `(tactic| (simp only [nullary_writes, unary_writes, binary_writes, ternary_writes, reshape_writes, Finset.singleton_subset_iff, List.mem_toFinset]
             exact List.mem_map_of_mem (by decide)))

/-- Piece 7: 18 operations, from the one writing main_c_75 to the one writing main_v235. -/
abbrev ops_p7 : List (HloOp τ sig (Elt F)) :=
  [ StableHlo.nullary main_c_75 (constantI S_ 32 1#32),
    StableHlo.unary main_c_75 main_v223 (broadcastInDim S1600000 ![] bcast_S_S1600000 : (⟨S_, .i32⟩ : BufTy).Contents (Elt F) → (⟨S1600000, .i32⟩ : BufTy).Contents (Elt F)),
    StableHlo.binary main_v135 main_v223 main_v224 (addi : (⟨S1600000, .i32⟩ : BufTy).Contents (Elt F) → (⟨S1600000, .i32⟩ : BufTy).Contents (Elt F) → (⟨S1600000, .i32⟩ : BufTy).Contents (Elt F)),
    StableHlo.nullary main_c_76 (constantI S_ 32 4#32),
    StableHlo.unary main_c_76 main_v225 (broadcastInDim S1600000 ![] bcast_S_S1600000 : (⟨S_, .i32⟩ : BufTy).Contents (Elt F) → (⟨S1600000, .i32⟩ : BufTy).Contents (Elt F)),
    StableHlo.binary main_v224 main_v225 main_v226 (cmpi .eq : (⟨S1600000, .i32⟩ : BufTy).Contents (Elt F) → (⟨S1600000, .i32⟩ : BufTy).Contents (Elt F) → (⟨S1600000, .i1⟩ : BufTy).Contents (Elt F)),
    StableHlo.nullary main_cst_77 (constant S_ .f32 0x00000000#32),
    StableHlo.TRef.unary (.of main_cst_77 : StableHlo.TRef sig ⟨S_, .f32⟩) main_call24.v0 id,
    StableHlo.TRef.unary main_call24.v0 main_call24.v1 (broadcastInDim S1600000 ![] bcast_S_S1600000),
    StableHlo.TRef.ternary (.of main_v226 : StableHlo.TRef sig ⟨S1600000, .i1⟩) (.of main_v137 : StableHlo.TRef sig ⟨S1600000, .f32⟩) main_call24.v1 main_call24.v2 select,
    StableHlo.binary main_v222 main_v227 main_v228 (addf : (⟨S1600000, .f32⟩ : BufTy).Contents (Elt F) → (⟨S1600000, .f32⟩ : BufTy).Contents (Elt F) → (⟨S1600000, .f32⟩ : BufTy).Contents (Elt F)),
    StableHlo.unary main_v228 main_v229 (broadcastInDim S1600000x1 ![0] bcast_S1600000_S1600000x1_0 : (⟨S1600000, .f32⟩ : BufTy).Contents (Elt F) → (⟨S1600000x1, .f32⟩ : BufTy).Contents (Elt F)),
    StableHlo.unary main_arg6 main_v230 ((extractStridedSlice S1x32x64 ![4, 0, 0] · slices_S5x32x64_S1x32x64_4_0_0) : (⟨S5x32x64, .f32⟩ : BufTy).Contents (Elt F) → (⟨S1x32x64, .f32⟩ : BufTy).Contents (Elt F)),
    StableHlo.reshape main_v230 main_v231 rfl shapeCasts_S1x32x64_S32x64,
    StableHlo.binary main_v144 main_v231 main_v232 ((fun l r => Host.dotGeneral dot_S1600000x32_S32x64_S1600000x64_1_0_0_1_n_n none l r) : (⟨S1600000x32, .f32⟩ : BufTy).Contents (Elt F) → (⟨S32x64, .f32⟩ : BufTy).Contents (Elt F) → (⟨S1600000x64, .f32⟩ : BufTy).Contents (Elt F)),
    StableHlo.unary main_v229 main_v233 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v233 main_v232 main_v234 (mulf : (⟨S1600000x64, .f32⟩ : BufTy).Contents (Elt F) → (⟨S1600000x64, .f32⟩ : BufTy).Contents (Elt F) → (⟨S1600000x64, .f32⟩ : BufTy).Contents (Elt F)),
    StableHlo.binary main_v217 main_v234 main_v235 (addf : (⟨S1600000x64, .f32⟩ : BufTy).Contents (Elt F) → (⟨S1600000x64, .f32⟩ : BufTy).Contents (Elt F) → (⟨S1600000x64, .f32⟩ : BufTy).Contents (Elt F)) ]

theorem ops_p7_sub : (ops_p7 : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., binary_bufs_sub .., unary_bufs_sub ..,
    unary_bufs_sub .., reshape_bufs_sub .., binary_bufs_sub .., unary_bufs_sub .., binary_bufs_sub .., binary_bufs_sub ..⟩

/-- The buffers piece 7 writes, in order. -/
abbrev ops_p7_W : List (Ref sig .tc) :=
  [main_c_75, main_v223, main_v224, main_c_76, main_v225, main_v226, main_cst_77, main_call24.v0.ref,
   main_call24.v1.ref, main_call24.v2.ref, main_v228, main_v229, main_v230, main_v231, main_v232, main_v233,
   main_v234, main_v235]

theorem ops_p7_writes : (ops_p7 : List (HloOp τ sig (Elt F))).Forall fun op => op.writes ⊆ (ops_p7_W.map (Proc.devRef (τ := τ) .tc)).toFinset := by
  simp only [List.Forall]
  exact ⟨by wr, by wr, by wr, by wr, by wr, by wr, by wr, by wr, by wr, by wr, by wr, by wr,
    by wr, by wr, by wr, by wr, by wr, by wr⟩

/-- A buffer piece 7 does not write keeps its contents through it. -/
theorem ops_p7_keep (V : Valuation τ sig (Elt F)) (r : Ref sig .tc) (h : r ∉ ops_p7_W) :
    after ops_p7 V (Proc.devRef .tc r) = V (Proc.devRef .tc r) :=
  after_of_writes_sub ops_p7 V ops_p7_writes h

theorem ops_p7_fresh : (ops_p7 : List (HloOp τ sig (Elt F))).Forall fun op => op.fresh = ∅ :=
  ⟨rfl, rfl, rfl, rfl, rfl, rfl, rfl, rfl, rfl, rfl, rfl, rfl, rfl, rfl, rfl, rfl, rfl, rfl⟩

/-- Piece 8: 74 operations, from the one writing main_cst_78 to the one writing main_call27.v11. -/
abbrev ops_p8 : List (HloOp τ sig (Elt F)) :=
  [ StableHlo.nullary main_cst_78 (constant S_ .f32 0x00000000#32),
    StableHlo.unary main_cst_78 main_v236 (broadcastInDim S50000x64 ![] bcast_S_S50000x64 : (⟨S_, .f32⟩ : BufTy).Contents (Elt F) → (⟨S50000x64, .f32⟩ : BufTy).Contents (Elt F)),
    StableHlo.unary main_v3 main_v237 (broadcastInDim S1600000x1 ![0] bcast_S1600000_S1600000x1_0 : (⟨S1600000, .i32⟩ : BufTy).Contents (Elt F) → (⟨S1600000x1, .i32⟩ : BufTy).Contents (Elt F)),
    StableHlo.ternary main_v236 main_v237 main_v235 main_v238 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    StableHlo.nullary main_cst_79 (constant S_ .f32 0x3F800000#32),
    StableHlo.unary main_cst_79 main_v239 (broadcastInDim S1600000 ![] bcast_S_S1600000 : (⟨S_, .f32⟩ : BufTy).Contents (Elt F) → (⟨S1600000, .f32⟩ : BufTy).Contents (Elt F)),
    StableHlo.nullary main_cst_80 (constant S_ .f32 0x00000000#32),
    StableHlo.unary main_cst_80 main_v240 (broadcastInDim S50000 ![] bcast_S_S50000 : (⟨S_, .f32⟩ : BufTy).Contents (Elt F) → (⟨S50000, .f32⟩ : BufTy).Contents (Elt F)),
    StableHlo.unary main_v3 main_v241 (broadcastInDim S1600000x1 ![0] bcast_S1600000_S1600000x1_0 : (⟨S1600000, .i32⟩ : BufTy).Contents (Elt F) → (⟨S1600000x1, .i32⟩ : BufTy).Contents (Elt F)),
    StableHlo.ternary main_v240 main_v241 main_v239 main_v242 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_81 (constant S_ .f32 0x3F800000#32),
    StableHlo.unary main_cst_81 main_v243 (broadcastInDim S50000 ![] bcast_S_S50000 : (⟨S_, .f32⟩ : BufTy).Contents (Elt F) → (⟨S50000, .f32⟩ : BufTy).Contents (Elt F)),
    StableHlo.binary main_v242 main_v243 main_v244 (maximumf : (⟨S50000, .f32⟩ : BufTy).Contents (Elt F) → (⟨S50000, .f32⟩ : BufTy).Contents (Elt F) → (⟨S50000, .f32⟩ : BufTy).Contents (Elt F)),
    StableHlo.unary main_v244 main_v245 (broadcastInDim S50000x1 ![0] bcast_S50000_S50000x1_0 : (⟨S50000, .f32⟩ : BufTy).Contents (Elt F) → (⟨S50000x1, .f32⟩ : BufTy).Contents (Elt F)),
    StableHlo.unary main_v245 main_v246 (broadcastInDim S50000x64 ![0, 1] bcast_S50000x1_S50000x64_0_1 : (⟨S50000x1, .f32⟩ : BufTy).Contents (Elt F) → (⟨S50000x64, .f32⟩ : BufTy).Contents (Elt F)),
    StableHlo.binary main_v238 main_v246 main_v247 (Host.divf : (⟨S50000x64, .f32⟩ : BufTy).Contents (Elt F) → (⟨S50000x64, .f32⟩ : BufTy).Contents (Elt F) → (⟨S50000x64, .f32⟩ : BufTy).Contents (Elt F)),
    StableHlo.binary main_v128 main_arg7 main_v248 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    StableHlo.binary main_v247 main_v248 main_v249 (addf : (⟨S50000x64, .f32⟩ : BufTy).Contents (Elt F) → (⟨S50000x64, .f32⟩ : BufTy).Contents (Elt F) → (⟨S50000x64, .f32⟩ : BufTy).Contents (Elt F)),
    StableHlo.unary main_arg8 main_v250 (broadcastInDim S1x64 ![1] bcast_S64_S1x64_1 : (⟨S64, .f32⟩ : BufTy).Contents (Elt F) → (⟨S1x64, .f32⟩ : BufTy).Contents (Elt F)),
    StableHlo.unary main_v250 main_v251 (broadcastInDim S50000x64 ![0, 1] bcast_S1x64_S50000x64_0_1 : (⟨S1x64, .f32⟩ : BufTy).Contents (Elt F) → (⟨S50000x64, .f32⟩ : BufTy).Contents (Elt F)),
    StableHlo.binary main_v249 main_v251 main_v252 (addf : (⟨S50000x64, .f32⟩ : BufTy).Contents (Elt F) → (⟨S50000x64, .f32⟩ : BufTy).Contents (Elt F) → (⟨S50000x64, .f32⟩ : BufTy).Contents (Elt F)),
    StableHlo.TRef.nullary main_call25.cst (constant S_ .f32 0x00000000#32),
    StableHlo.TRef.unary main_call25.cst main_call25.v0 (broadcastInDim S50000x64 ![] bcast_S_S50000x64),
    StableHlo.TRef.binary (.of main_v252 : StableHlo.TRef sig ⟨S50000x64, .f32⟩) main_call25.v0 main_call25.v1 (cmpf .ogt),
    StableHlo.TRef.nullary main_call25.cst_0 (constant S_ .f32 0x00000000#32),
    StableHlo.TRef.unary main_call25.cst_0 main_call25.v2 (broadcastInDim S50000x64 ![] bcast_S_S50000x64),
    StableHlo.TRef.binary (.of main_v252 : StableHlo.TRef sig ⟨S50000x64, .f32⟩) main_call25.v2 main_call25.v3 (cmpf .ogt),
    StableHlo.TRef.nullary main_call25.cst_1 (constant S_ .f32 0x00000000#32),
    StableHlo.TRef.unary main_call25.cst_1 main_call25.call0.v0 id,
    StableHlo.TRef.unary main_call25.call0.v0 main_call25.call0.v1 (broadcastInDim S50000x64 ![] bcast_S_S50000x64),
    StableHlo.TRef.ternary main_call25.v3 main_call25.call0.v1 (.of main_v252 : StableHlo.TRef sig ⟨S50000x64, .f32⟩) main_call25.call0.v2 select,
    StableHlo.TRef.unary main_call25.call0.v2 main_call25.v5 Host.expm1,
    StableHlo.TRef.nullary main_call25.cst_2 (constant S_ .f32 0x3F800000#32),
    StableHlo.TRef.unary main_call25.cst_2 main_call25.v6 (broadcastInDim S50000x64 ![] bcast_S_S50000x64),
    StableHlo.TRef.binary main_call25.v6 main_call25.v5 main_call25.v7 mulf,
    StableHlo.TRef.ternary main_call25.v1 (.of main_v252 : StableHlo.TRef sig ⟨S50000x64, .f32⟩) main_call25.v7 main_call25.call1.v0 select,
    StableHlo.binary main_v253 main_arg9 main_v254 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg10 main_v255 (broadcastInDim S1x128 ![1] bcast_S128_S1x128_1 : (⟨S128, .f32⟩ : BufTy).Contents (Elt F) → (⟨S1x128, .f32⟩ : BufTy).Contents (Elt F)),
    StableHlo.unary main_v255 main_v256 (broadcastInDim S50000x128 ![0, 1] bcast_S1x128_S50000x128_0_1 : (⟨S1x128, .f32⟩ : BufTy).Contents (Elt F) → (⟨S50000x128, .f32⟩ : BufTy).Contents (Elt F)),
    StableHlo.binary main_v254 main_v256 main_v257 (addf : (⟨S50000x128, .f32⟩ : BufTy).Contents (Elt F) → (⟨S50000x128, .f32⟩ : BufTy).Contents (Elt F) → (⟨S50000x128, .f32⟩ : BufTy).Contents (Elt F)),
    StableHlo.TRef.nullary main_call26.cst (constant S_ .f32 0x00000000#32),
    StableHlo.TRef.unary main_call26.cst main_call26.v0 (broadcastInDim S50000x128 ![] bcast_S_S50000x128),
    StableHlo.TRef.binary (.of main_v257 : StableHlo.TRef sig ⟨S50000x128, .f32⟩) main_call26.v0 main_call26.v1 (cmpf .ogt),
    StableHlo.TRef.nullary main_call26.cst_0 (constant S_ .f32 0x00000000#32),
    StableHlo.TRef.unary main_call26.cst_0 main_call26.v2 (broadcastInDim S50000x128 ![] bcast_S_S50000x128),
    StableHlo.TRef.binary (.of main_v257 : StableHlo.TRef sig ⟨S50000x128, .f32⟩) main_call26.v2 main_call26.v3 (cmpf .ogt),
    StableHlo.TRef.nullary main_call26.cst_1 (constant S_ .f32 0x00000000#32),
    StableHlo.TRef.unary main_call26.cst_1 main_call26.call0.v0 id,
    StableHlo.TRef.unary main_call26.call0.v0 main_call26.call0.v1 (broadcastInDim S50000x128 ![] bcast_S_S50000x128),
    StableHlo.TRef.ternary main_call26.v3 main_call26.call0.v1 (.of main_v257 : StableHlo.TRef sig ⟨S50000x128, .f32⟩) main_call26.call0.v2 select,
    StableHlo.TRef.unary main_call26.call0.v2 main_call26.v5 Host.expm1,
    StableHlo.TRef.nullary main_call26.cst_2 (constant S_ .f32 0x3F800000#32),
    StableHlo.TRef.unary main_call26.cst_2 main_call26.v6 (broadcastInDim S50000x128 ![] bcast_S_S50000x128),
    StableHlo.TRef.binary main_call26.v6 main_call26.v5 main_call26.v7 mulf,
    StableHlo.TRef.ternary main_call26.v1 (.of main_v257 : StableHlo.TRef sig ⟨S50000x128, .f32⟩) main_call26.v7 main_call26.call1.v0 select,
    StableHlo.binary main_v258 main_arg11 main_v259 ((fun l r => Host.dotGeneral dot_S50000x128_S128x10_S50000x10_1_0_0_1_n_n none l r) : (⟨S50000x128, .f32⟩ : BufTy).Contents (Elt F) → (⟨S128x10, .f32⟩ : BufTy).Contents (Elt F) → (⟨S50000x10, .f32⟩ : BufTy).Contents (Elt F)),
    StableHlo.unary main_arg12 main_v260 (broadcastInDim S1x10 ![1] bcast_S10_S1x10_1 : (⟨S10, .f32⟩ : BufTy).Contents (Elt F) → (⟨S1x10, .f32⟩ : BufTy).Contents (Elt F)),
    StableHlo.unary main_v260 main_v261 (broadcastInDim S50000x10 ![0, 1] bcast_S1x10_S50000x10_0_1 : (⟨S1x10, .f32⟩ : BufTy).Contents (Elt F) → (⟨S50000x10, .f32⟩ : BufTy).Contents (Elt F)),
    StableHlo.binary main_v259 main_v261 main_v262 (addf : (⟨S50000x10, .f32⟩ : BufTy).Contents (Elt F) → (⟨S50000x10, .f32⟩ : BufTy).Contents (Elt F) → (⟨S50000x10, .f32⟩ : BufTy).Contents (Elt F)),
    StableHlo.TRef.nullary main_call27.cst (constant S_ .f32 0xFF800000#32),
    StableHlo.TRef.binary (.of main_v262 : StableHlo.TRef sig ⟨S50000x10, .f32⟩) main_call27.cst main_call27.v0 (fun x v => Host.reduce FloatOps.maximumf x v reducesTo_S50000x10_S50000_d1 h_S_),
    StableHlo.TRef.nullary main_call27.cst_0 (constant S_ .f32 0xFF800000#32),
    StableHlo.TRef.unary main_call27.cst_0 main_call27.v1 (broadcastInDim S50000 ![] bcast_S_S50000),
    StableHlo.TRef.binary main_call27.v1 main_call27.v0 main_call27.v2 maximumf,
    StableHlo.TRef.unary main_call27.v2 main_call27.v3 (broadcastInDim S50000x1 ![0] bcast_S50000_S50000x1_0),
    StableHlo.TRef.unary main_call27.v3 main_call27.v4 (broadcastInDim S50000x10 ![0, 1] bcast_S50000x1_S50000x10_0_1),
    StableHlo.TRef.binary (.of main_v262 : StableHlo.TRef sig ⟨S50000x10, .f32⟩) main_call27.v4 main_call27.v5 subf,
    StableHlo.TRef.unary main_call27.v5 main_call27.v6 Host.exp,
    StableHlo.TRef.nullary main_call27.cst_1 (constant S_ .f32 0x00000000#32),
    StableHlo.TRef.binary main_call27.v6 main_call27.cst_1 main_call27.v7 (fun x v => Host.reduceAdd x v reducesTo_S50000x10_S50000_d1 h_S_),
    StableHlo.TRef.unary main_call27.v7 main_call27.v8 (broadcastInDim S50000x1 ![0] bcast_S50000_S50000x1_0),
    StableHlo.TRef.unary main_call27.v8 main_call27.v9 Host.log,
    StableHlo.TRef.unary main_call27.v9 main_call27.v10 (broadcastInDim S50000x10 ![0, 1] bcast_S50000x1_S50000x10_0_1),
    StableHlo.TRef.binary main_call27.v5 main_call27.v10 main_call27.v11 subf ]

theorem ops_p8_sub : (ops_p8 : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    unary_bufs_sub .., binary_bufs_sub ..⟩

/-- The buffers piece 8 writes, in order. -/
abbrev ops_p8_W : List (Ref sig .tc) :=
  [main_cst_78, main_v236, main_v237, main_v238, main_cst_79, main_v239, main_cst_80, main_v240,
   main_v241, main_v242, main_cst_81, main_v243, main_v244, main_v245, main_v246, main_v247,
   main_v248, main_v249, main_v250, main_v251, main_v252, main_call25.cst.ref, main_call25.v0.ref, main_call25.v1.ref,
   main_call25.cst_0.ref, main_call25.v2.ref, main_call25.v3.ref, main_call25.cst_1.ref, main_call25.call0.v0.ref, main_call25.call0.v1.ref, main_call25.call0.v2.ref, main_call25.v5.ref,
   main_call25.cst_2.ref, main_call25.v6.ref, main_call25.v7.ref, main_call25.call1.v0.ref, main_v254, main_v255, main_v256, main_v257,
   main_call26.cst.ref, main_call26.v0.ref, main_call26.v1.ref, main_call26.cst_0.ref, main_call26.v2.ref, main_call26.v3.ref, main_call26.cst_1.ref, main_call26.call0.v0.ref,
   main_call26.call0.v1.ref, main_call26.call0.v2.ref, main_call26.v5.ref, main_call26.cst_2.ref, main_call26.v6.ref, main_call26.v7.ref, main_call26.call1.v0.ref, main_v259,
   main_v260, main_v261, main_v262, main_call27.cst.ref, main_call27.v0.ref, main_call27.cst_0.ref, main_call27.v1.ref, main_call27.v2.ref,
   main_call27.v3.ref, main_call27.v4.ref, main_call27.v5.ref, main_call27.v6.ref, main_call27.cst_1.ref, main_call27.v7.ref, main_call27.v8.ref, main_call27.v9.ref,
   main_call27.v10.ref, main_call27.v11.ref]

theorem ops_p8_writes : (ops_p8 : List (HloOp τ sig (Elt F))).Forall fun op => op.writes ⊆ (ops_p8_W.map (Proc.devRef (τ := τ) .tc)).toFinset := by
  simp only [List.Forall]
  exact ⟨by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr⟩

/-- A buffer piece 8 does not write keeps its contents through it. -/
theorem ops_p8_keep (V : Valuation τ sig (Elt F)) (r : Ref sig .tc) (h : r ∉ ops_p8_W) :
    after ops_p8 V (Proc.devRef .tc r) = V (Proc.devRef .tc r) :=
  after_of_writes_sub ops_p8 V ops_p8_writes h

theorem ops_p8_fresh : (ops_p8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl⟩

/-- Window 5: its pieces in order. -/
abbrev ops_part5 : List (HloOp τ sig (Elt F)) := ops_p7 ++ ops_p8

end Cert.ReferenceIdeal.RefRun

end
-- ==== Proof.RefRunMain.lean ====
/-
  The host reference's @main is a straight line of host operations. Each of its six windows equals the run of that
  window's list of operations, a call of an outlined function being the function's operations over the call's own
  buffers; so @main is the run of the six lists one after the other, and every weakly fair execution of it ends with
  each buffer at the fold of the operations' results over the contents at launch.
-/
import proofs.«402775_j5308579578323_4_alg».proof.Proof.RefRunOps0
import proofs.«402775_j5308579578323_4_alg».proof.Proof.RefRunOps1
import proofs.«402775_j5308579578323_4_alg».proof.Proof.RefRunOps2
import proofs.«402775_j5308579578323_4_alg».proof.Proof.RefRunOps3
import proofs.«402775_j5308579578323_4_alg».proof.Proof.RefRunOps4
import proofs.«402775_j5308579578323_4_alg».proof.Proof.RefRunOps5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- Window 0 of @main is the run of its operations: the outlined functions' bodies unfolded at their calls and the
    sequencing reassociated, both sides are one chain of the same steps. -/
theorem main_part0_eq (c : Dev nD) : main_part0 (F := F) c = seq ops_part0 := by
  simp only [main_part0, fn_clip.body, fn_clip_0.body, fn_where.body, seq_append, seq, bind_assoc, pure_bind]
  rfl

set_option maxRecDepth 4096 in
/-- Window 1 of @main is the run of its operations: the outlined functions' bodies unfolded at their calls and the
    sequencing reassociated, both sides are one chain of the same steps. -/
theorem main_part1_eq (c : Dev nD) : main_part1 (F := F) c = seq ops_part1 := by
  simp only [main_part1, fn_where.body, seq_append, seq, bind_assoc, pure_bind]
  rfl

set_option maxRecDepth 4096 in
/-- Window 2 of @main is the run of its operations: the outlined functions' bodies unfolded at their calls and the
    sequencing reassociated, both sides are one chain of the same steps. -/
theorem main_part2_eq (c : Dev nD) : main_part2 (F := F) c = seq ops_part2 := by
  simp only [main_part2, fn_where.body, fn_elu.body, fn_clip.body, fn_where_1.body, fn_where_2.body, seq_append, seq, bind_assoc, pure_bind]
  rfl

set_option maxRecDepth 4096 in
/-- Window 3 of @main is the run of its operations: the outlined functions' bodies unfolded at their calls and the
    sequencing reassociated, both sides are one chain of the same steps. -/
theorem main_part3_eq (c : Dev nD) : main_part3 (F := F) c = seq ops_part3 := by
  simp only [main_part3, fn_clip_0.body, fn_where.body, seq_append, seq, bind_assoc, pure_bind]
  rfl

set_option maxRecDepth 4096 in
/-- Window 4 of @main is the run of its operations: the outlined functions' bodies unfolded at their calls and the
    sequencing reassociated, both sides are one chain of the same steps. -/
theorem main_part4_eq (c : Dev nD) : main_part4 (F := F) c = seq ops_part4 := by
  simp only [main_part4, fn_where.body, seq_append, seq, bind_assoc, pure_bind]

set_option maxRecDepth 4096 in
/-- Window 5 of @main is the run of its operations: the outlined functions' bodies unfolded at their calls and the
    sequencing reassociated, both sides are one chain of the same steps. -/
theorem main_part5_eq (c : Dev nD) : main_part5 (F := F) c = seq ops_part5 := by
  simp only [main_part5, fn_where.body, fn_elu_3.body, fn_elu_6.body, fn_log_softmax.body, fn_where_4.body, fn_where_5.body, fn_where_7.body, fn_where_8.body, seq_append, seq, bind_assoc, pure_bind]

/-- All of @main's operations, window after window. -/
abbrev ops : List (HloOp τ sig (Elt F)) := ops_part0 ++ ops_part1 ++ ops_part2 ++ ops_part3 ++ ops_part4 ++ ops_part5

/-- @main runs its windows in order, and a run of two lists one after the other is the run of their concatenation. -/
theorem main_eq (c : Dev nD) : main (F := F) c = seq ops := by
  simp only [main, main_part0_eq, main_part1_eq, main_part2_eq, main_part3_eq, main_part4_eq, main_part5_eq, seq_append, bind_assoc]

/-- A property of every element of two lists holds of every element of their concatenation. -/
theorem forall_append.{u} {α : Type u} {p : α → Prop} {l₁ l₂ : List α} (h₁ : l₁.Forall p) (h₂ : l₂.Forall p) : (l₁ ++ l₂).Forall p := by
  rw [List.forall_iff_forall_mem] at *
  intro x hx
  rcases List.mem_append.1 hx with h | h
  exacts [h₁ x h, h₂ x h]

theorem ops_sub : (ops : List (HloOp τ sig (Elt F))).Forall fun op => op.bufs ⊆ tcRefs τ sig :=
  forall_append (forall_append (forall_append (forall_append (forall_append ops_p0_sub ops_p1_sub)
    (forall_append (forall_append ops_p2_sub ops_p3_sub) ops_p4_sub)) ops_p5_sub) ops_p6_sub) (forall_append ops_p7_sub ops_p8_sub)

theorem ops_fresh : (ops : List (HloOp τ sig (Elt F))).Forall fun op => op.fresh = ∅ :=
  forall_append (forall_append (forall_append (forall_append (forall_append ops_p0_fresh ops_p1_fresh)
    (forall_append (forall_append ops_p2_fresh ops_p3_fresh) ops_p4_fresh)) ops_p5_fresh) ops_p6_fresh) (forall_append ops_p7_fresh ops_p8_fresh)

theorem scopedRefs_eq : (Finset.univ.filter fun b : Ref sig .tc => b.isScoped) = ∅ := by decide
theorem scopedSems_eq : (Finset.univ.filter fun sm : SemLoc sig => sm.isScoped .tc) = ∅ := by decide

/-- From any memory with zero counters, every weakly fair execution of @main terminates, and every final state has each
    TensorCore buffer at the fold of the operations' results over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

end Cert.ReferenceIdeal.RefRun

end
-- ==== Proof.RefRunReadA.lean ====
/-
  The first layer's edge stage of the host reference read back. From any contents W, after the operations up to the first
  layer's messages: the source and target index vectors are rows 0 and 1 of W's edge list, and the message buffer holds
  'Cert.Spec.msg1' of the gathered node features, the pseudo-coordinates and the spline weights. Each is the fold of the
  operations' results at that buffer, every operation's result rewritten to its function of its operands' contents, once
  an outlined function's transports between a buffer's type and its value's (identities at these buffers) are dropped.
-/
import proofs.«402775_j5308579578323_4_alg».proof.Proof.Spec
import proofs.«402775_j5308579578323_4_alg».proof.Proof.RefRunOps0
import proofs.«402775_j5308579578323_4_alg».proof.Proof.RefRunOps1
import proofs.«402775_j5308579578323_4_alg».proof.Proof.RefRunOps2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem readA_src (W : Valuation τ sig (Elt F)) :
    after ops_p2 (after ops_p1 (after ops_p0 W)) (main_v1 : DevRef τ sig) = Cert.Spec.src (W (main_arg1 : DevRef τ sig)) := by
  rw [ops_p2_keep _ _ (by decide), ops_p1_keep _ _ (by decide)]
  after_results_simp
  rfl

theorem readA_dst (W : Valuation τ sig (Elt F)) :
    after ops_p2 (after ops_p1 (after ops_p0 W)) (main_v3 : DevRef τ sig) = Cert.Spec.dst (W (main_arg1 : DevRef τ sig)) := by
  rw [ops_p2_keep _ _ (by decide), ops_p1_keep _ _ (by decide)]
  after_results_simp
  rfl

set_option maxRecDepth 16384 in
set_option maxHeartbeats 4000000 in
theorem readA_msg (W : Valuation τ sig (Elt F)) :
    after ops_p2 (after ops_p1 (after ops_p0 W)) (main_v110 : DevRef τ sig)
      = Cert.Spec.msg1
          (Host.gather gather_S50000x1_S1600000x1_S1600000x1_1_0_n_n_0_1_11 (W (main_arg0 : DevRef τ sig))
            (Cert.Spec.col (Cert.Spec.wrap (Cert.Spec.src (W (main_arg1 : DevRef τ sig))))))
          (Cert.Spec.pseudo (W (main_arg2 : DevRef τ sig))) (W (main_arg3 : DevRef τ sig)) := by
  after_results_simp
  simp only [TRef.toBuf, TRef.ofBuf, cast_eq]
  rfl

end Cert.ReferenceIdeal.RefRun

end
-- ==== Proof.RefRunReadB.lean ====
/-
  The first layer's node stage of the host reference read back. From any contents W, after the operations between the
  first layer's messages and its result, the result buffer holds 'Cert.Spec.layer1' of W's node features, root weight,
  bias row, messages summed into their target nodes and degrees: the fold of the operations' results at that buffer, each
  operation's result rewritten to its function of its operands' contents, is that term once an outlined function's
  transports between a buffer's type and its value's (identities at these buffers) are dropped.
-/
import proofs.«402775_j5308579578323_4_alg».proof.Proof.Spec
import proofs.«402775_j5308579578323_4_alg».proof.Proof.RefRunOps2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
theorem readB (W : Valuation τ sig (Elt F)) :
    after ops_p3 W (main_v128 : DevRef τ sig)
      = Cert.Spec.layer1 (W (main_arg0 : DevRef τ sig)) (W (main_arg4 : DevRef τ sig))
          (broadcastInDim S1x32 ![1] bcast_S32_S1x32_1 (W (main_arg5 : DevRef τ sig)))
          (Cert.Spec.agg32 (W (main_v3 : DevRef τ sig)) (W (main_v110 : DevRef τ sig)))
          (Cert.Spec.deg (W (main_v3 : DevRef τ sig))) := by
  after_results_simp
  simp only [TRef.toBuf, TRef.ofBuf, cast_eq]
  rfl

end Cert.ReferenceIdeal.RefRun

end
-- ==== Proof.RefRunReadC.lean ====
/-
  The second layer's edge stage of the host reference read back. From any contents W, after the operations between the
  first layer's result and the second layer's messages, the message buffer holds 'Cert.Spec.msg2' of the first layer's
  result gathered at the (wrapped) source indices, the pseudo-coordinates and the spline weights: the fold of the
  operations' results at that buffer, every operation's result rewritten to its function of its operands' contents, once
  an outlined function's transports between a buffer's type and its value's (identities at these buffers) are dropped.
-/
import proofs.«402775_j5308579578323_4_alg».proof.Proof.Spec
import proofs.«402775_j5308579578323_4_alg».proof.Proof.RefRunOps2
import proofs.«402775_j5308579578323_4_alg».proof.Proof.RefRunOps3
import proofs.«402775_j5308579578323_4_alg».proof.Proof.RefRunOps4
import proofs.«402775_j5308579578323_4_alg».proof.Proof.RefRunOps5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem readC (W : Valuation τ sig (Elt F)) :
    after ops_p7 (after ops_p6 (after ops_p5 (after ops_p4 W))) (main_v235 : DevRef τ sig)
      = Cert.Spec.msg2
          (Host.gather gather_S50000x32_S1600000x1_S1600000x32_1_0_n_n_0_1_132 (W (main_v128 : DevRef τ sig))
            (Cert.Spec.col (Cert.Spec.wrap (W (main_v1 : DevRef τ sig)))))
          (Cert.Spec.pseudo (W (main_arg2 : DevRef τ sig))) (W (main_arg6 : DevRef τ sig)) := by
  after_results_simp
  simp only [TRef.toBuf, TRef.ofBuf, cast_eq]
  rfl

end Cert.ReferenceIdeal.RefRun

end
-- ==== Proof.RefRunReadD.lean ====
/-
  The last stage of the host reference read back. From any contents W, after the operations that follow the second layer's
  messages the result buffer holds 'Cert.Spec.tail' of W's first-layer result, second-layer messages (summed into their
  target nodes), target indices and the dense layers' weights: the fold of the operations' results at that buffer, each
  operation's result rewritten to its function of its operands' contents, is that term once an outlined function's
  transports between a buffer's type and its value's (identities at these buffers) are dropped.
-/
import proofs.«402775_j5308579578323_4_alg».proof.Proof.Spec
import proofs.«402775_j5308579578323_4_alg».proof.Proof.RefRunOps5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
theorem readD (W : Valuation τ sig (Elt F)) :
    after ops_p8 W (main_v263 : DevRef τ sig)
      = Cert.Spec.tail (W (main_v128 : DevRef τ sig)) (W (main_arg7 : DevRef τ sig))
          (broadcastInDim S1x64 ![1] bcast_S64_S1x64_1 (W (main_arg8 : DevRef τ sig)))
          (Cert.Spec.agg64 (W (main_v3 : DevRef τ sig)) (W (main_v235 : DevRef τ sig)))
          (Cert.Spec.deg (W (main_v3 : DevRef τ sig))) (W (main_arg9 : DevRef τ sig))
          (broadcastInDim S1x128 ![1] bcast_S128_S1x128_1 (W (main_arg10 : DevRef τ sig))) (W (main_arg11 : DevRef τ sig))
          (broadcastInDim S1x10 ![1] bcast_S10_S1x10_1 (W (main_arg12 : DevRef τ sig))) := by
  after_results_simp
  simp only [TRef.toBuf, TRef.ofBuf, cast_eq]
  rfl

end Cert.ReferenceIdeal.RefRun

end
-- ==== Proof.RefRun.lean ====
/-
  The host reference's run, read back: every weakly fair execution of its @main terminates with the result array at
  'Cert.Spec.out' of the argument arrays (the reference's operations composed, in order), the arguments unchanged.

  @main is a straight line of host operations, so every execution ends with each buffer at the fold of the operations'
  results over the contents at launch. The fold is read stage by stage: after the first layer's edge stage the message
  buffer holds 'Cert.Spec.msg1' and the index vectors the edge list's rows; after its node stage the result buffer holds
  'Cert.Spec.layer1'; after the second layer's edge stage the message buffer holds 'Cert.Spec.msg2'; after the last stage
  the result holds 'Cert.Spec.tail'. A buffer a stretch of operations does not write keeps its contents through it, which
  carries each stage's inputs (and the thirteen arguments) across the stages between. Composed, that is 'Cert.Spec.out'.
-/
import proofs.«402775_j5308579578323_4_alg».proof.Proof.RefRunMain
import proofs.«402775_j5308579578323_4_alg».proof.Proof.RefRunReadA
import proofs.«402775_j5308579578323_4_alg».proof.Proof.RefRunReadB
import proofs.«402775_j5308579578323_4_alg».proof.Proof.RefRunReadC
import proofs.«402775_j5308579578323_4_alg».proof.Proof.RefRunReadD

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lists of operations one after the other: the second's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- All of @main's operations as the nine stretches in order. -/
theorem after_ops (V : Valuation τ sig (Elt F)) :
    after ops V = after ops_p8 (after ops_p7 (after ops_p6 (after ops_p5 (after ops_p4 (after ops_p3 (after ops_p2 (after ops_p1 (after ops_p0 V)))))))) := by
  simp only [ops, ops_part0, ops_part1, ops_part2, ops_part3, ops_part4, ops_part5, after_app]

/-- A buffer none of @main's operations writes keeps its contents. -/
theorem keep_all (V : Valuation τ sig (Elt F)) (r : Ref sig .tc) (h0 : r ∉ ops_p0_W) (h1 : r ∉ ops_p1_W) (h2 : r ∉ ops_p2_W)
    (h3 : r ∉ ops_p3_W) (h4 : r ∉ ops_p4_W) (h5 : r ∉ ops_p5_W) (h6 : r ∉ ops_p6_W) (h7 : r ∉ ops_p7_W) (h8 : r ∉ ops_p8_W) :
    after ops V (Proc.devRef .tc r) = V (Proc.devRef .tc r) := by
  rw [after_ops, ops_p8_keep _ _ h8, ops_p7_keep _ _ h7, ops_p6_keep _ _ h6, ops_p5_keep _ _ h5, ops_p4_keep _ _ h4,
    ops_p3_keep _ _ h3, ops_p2_keep _ _ h2, ops_p1_keep _ _ h1, ops_p0_keep _ _ h0]

/-- A buffer the first layer's edge stage does not write keeps its contents through it. -/
theorem keepA (W : Valuation τ sig (Elt F)) (r : Ref sig .tc) (h0 : r ∉ ops_p0_W) (h1 : r ∉ ops_p1_W) (h2 : r ∉ ops_p2_W) :
    after ops_p2 (after ops_p1 (after ops_p0 W)) (Proc.devRef .tc r) = W (Proc.devRef .tc r) := by
  rw [ops_p2_keep _ _ h2, ops_p1_keep _ _ h1, ops_p0_keep _ _ h0]

/-- A buffer the second layer's edge stage does not write keeps its contents through it. -/
theorem keepC (W : Valuation τ sig (Elt F)) (r : Ref sig .tc) (h4 : r ∉ ops_p4_W) (h5 : r ∉ ops_p5_W) (h6 : r ∉ ops_p6_W)
    (h7 : r ∉ ops_p7_W) :
    after ops_p7 (after ops_p6 (after ops_p5 (after ops_p4 W))) (Proc.devRef .tc r) = W (Proc.devRef .tc r) := by
  rw [ops_p7_keep _ _ h7, ops_p6_keep _ _ h6, ops_p5_keep _ _ h5, ops_p4_keep _ _ h4]

/-- The result buffer after all of @main's operations: the four stages' readings composed, each stage's inputs carried
    across the stretches that do not write them. -/
theorem out_eq (V : Valuation τ sig (Elt F)) :
    after ops V (main_v263 : DevRef τ sig)
      = Cert.Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [after_ops, readD]
  -- the last stage's inputs, back through the second layer's edge stage
  rw [readC, keepC _ main_v128 (by decide) (by decide) (by decide) (by decide),
    keepC _ main_arg7 (by decide) (by decide) (by decide) (by decide),
    keepC _ main_arg8 (by decide) (by decide) (by decide) (by decide),
    keepC _ main_v3 (by decide) (by decide) (by decide) (by decide),
    keepC _ main_arg9 (by decide) (by decide) (by decide) (by decide),
    keepC _ main_arg10 (by decide) (by decide) (by decide) (by decide),
    keepC _ main_arg11 (by decide) (by decide) (by decide) (by decide),
    keepC _ main_arg12 (by decide) (by decide) (by decide) (by decide)]
  -- back through the first layer's node stage
  rw [readB, ops_p3_keep _ main_arg7 (by decide),
    ops_p3_keep _ main_arg8 (by decide),
    ops_p3_keep _ main_v3 (by decide),
    ops_p3_keep _ main_arg9 (by decide),
    ops_p3_keep _ main_arg10 (by decide),
    ops_p3_keep _ main_arg11 (by decide),
    ops_p3_keep _ main_arg12 (by decide),
    ops_p3_keep _ main_v1 (by decide),
    ops_p3_keep _ main_arg2 (by decide),
    ops_p3_keep _ main_arg6 (by decide)]
  -- back through the first layer's edge stage
  rw [readA_msg, readA_src, readA_dst, keepA _ main_arg0 (by decide) (by decide) (by decide),
    keepA _ main_arg4 (by decide) (by decide) (by decide),
    keepA _ main_arg5 (by decide) (by decide) (by decide),
    keepA _ main_arg7 (by decide) (by decide) (by decide),
    keepA _ main_arg8 (by decide) (by decide) (by decide),
    keepA _ main_arg9 (by decide) (by decide) (by decide),
    keepA _ main_arg10 (by decide) (by decide) (by decide),
    keepA _ main_arg11 (by decide) (by decide) (by decide),
    keepA _ main_arg12 (by decide) (by decide) (by decide),
    keepA _ main_arg2 (by decide) (by decide) (by decide),
    keepA _ main_arg6 (by decide) (by decide) (by decide)]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v263) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v263).trans (out_eq (launchContents m c)),
      (h c main_arg0).trans (keep_all (launchContents m c) main_arg0 (by decide) (by decide) (by decide) (by decide) (by decide) (by decide) (by decide) (by decide) (by decide)),
      (h c main_arg1).trans (keep_all (launchContents m c) main_arg1 (by decide) (by decide) (by decide) (by decide) (by decide) (by decide) (by decide) (by decide) (by decide)),
      (h c main_arg2).trans (keep_all (launchContents m c) main_arg2 (by decide) (by decide) (by decide) (by decide) (by decide) (by decide) (by decide) (by decide) (by decide)),
      (h c main_arg3).trans (keep_all (launchContents m c) main_arg3 (by decide) (by decide) (by decide) (by decide) (by decide) (by decide) (by decide) (by decide) (by decide)),
      (h c main_arg4).trans (keep_all (launchContents m c) main_arg4 (by decide) (by decide) (by decide) (by decide) (by decide) (by decide) (by decide) (by decide) (by decide)),
      (h c main_arg5).trans (keep_all (launchContents m c) main_arg5 (by decide) (by decide) (by decide) (by decide) (by decide) (by decide) (by decide) (by decide) (by decide)),
      (h c main_arg6).trans (keep_all (launchContents m c) main_arg6 (by decide) (by decide) (by decide) (by decide) (by decide) (by decide) (by decide) (by decide) (by decide)),
      (h c main_arg7).trans (keep_all (launchContents m c) main_arg7 (by decide) (by decide) (by decide) (by decide) (by decide) (by decide) (by decide) (by decide) (by decide)),
      (h c main_arg8).trans (keep_all (launchContents m c) main_arg8 (by decide) (by decide) (by decide) (by decide) (by decide) (by decide) (by decide) (by decide) (by decide)),
      (h c main_arg9).trans (keep_all (launchContents m c) main_arg9 (by decide) (by decide) (by decide) (by decide) (by decide) (by decide) (by decide) (by decide) (by decide)),
      (h c main_arg10).trans (keep_all (launchContents m c) main_arg10 (by decide) (by decide) (by decide) (by decide) (by decide) (by decide) (by decide) (by decide) (by decide)),
      (h c main_arg11).trans (keep_all (launchContents m c) main_arg11 (by decide) (by decide) (by decide) (by decide) (by decide) (by decide) (by decide) (by decide) (by decide)),
      (h c main_arg12).trans (keep_all (launchContents m c) main_arg12 (by decide) (by decide) (by decide) (by decide) (by decide) (by decide) (by decide) (by decide) (by decide))⟩)
    (run_main m ρ)

end Cert.ReferenceIdeal.RefRun

end
-- ==== Proof.lean ====
/-
  The certificate of a two-layer spline-convolution network (N = 50000 nodes, E = 1600000 edges, five-tap linear
  B-splines, mean aggregation) with a dense tail and a log-softmax: a kernel program of four blocked regions among host
  gathers and scatter-adds, against the plain array reference.

  Precondition: every float input finite (never used: no law below needs finiteness) and every source index in
  [0, 50000). Outside that range the reference's own indexing is out of range (its gather clamps) while the kernel
  program's take answers a fill value, so the two disagree there; inside it both read the same rows.

  The mathematics. 'Spec.out' states the network once, as whole-array functions spelt with the reference's operations.
  * The reference's run ends at Spec.out of its arguments: its operations composed in order (RefRun).
  * The kernel program's run ends with the result at its last segment boundary's contents (RunNamed); those contents,
    walked back through the host stretches and the four regions (KernelValue1, KernelValue), are Spec.out of the
    arguments, because each region's output array is its stage function of the region's inputs (Region0 … Region3):
    layer 1's messages by associativity of the product (the contraction has one term); both node stages by commutativity
    and associativity of the sum and by exp(min(y, 0)) - 1 = expm1(y) where y ≤ 0; layer 2's messages by
    c · Σ_j x_j w_j = Σ_j (c x_j) w_j, which on the extended reals needs 0 ≤ c < +∞: the B-spline coefficients are
    weights in [0, 1] (CoefFacts); the log-softmax operation for operation. A change of float format is the identity.
  * Under the precondition the take is the bare gather (PreFacts).
  The three frames: the two kernel programs' are generated whole; the reference's is its run with the result dropped.
  The kernel program is its own idealization (no rewrite was applied), so 'preserves' asks nothing.
-/
import proofs.«402775_j5308579578323_4_alg».proof.Defs
import proofs.«402775_j5308579578323_4_alg».proof.Proof.Gen.Kernel
import proofs.«402775_j5308579578323_4_alg».proof.Proof.Gen.Kernel.Frame
import proofs.«402775_j5308579578323_4_alg».proof.Proof.Gen.KernelIdeal
import proofs.«402775_j5308579578323_4_alg».proof.Proof.Gen.KernelIdeal.Frame
import proofs.«402775_j5308579578323_4_alg».proof.Proof.Gen.ReferenceIdeal
import proofs.«402775_j5308579578323_4_alg».proof.Proof.Gen.Pre_finite_inputs
import proofs.«402775_j5308579578323_4_alg».proof.Proof.Spec
import proofs.«402775_j5308579578323_4_alg».proof.Proof.PreFacts
import proofs.«402775_j5308579578323_4_alg».proof.Proof.RunNamed
import proofs.«402775_j5308579578323_4_alg».proof.Proof.KernelValue
import proofs.«402775_j5308579578323_4_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end at the network's result of the (agreeing) argument arrays. -/
theorem algebraic : Cert.algebraic_KernelIdeal_ReferenceIdeal := by
  intro m ρ m' ρ' hpre hagree
  refine ⟨_, (θ_run Cert.KernelIdeal.defs _ _).mono
      (fun r h c => ⟨(h c).1.trans (Cert.KernelIdeal.KValue.value m ρ c (fun e => Cert.PreFacts.src_inrange m hpre c e)), (h c).2⟩)
      (Cert.KernelIdeal.GenP.run_named (F := Ideal) m ρ), ?_⟩
  refine (θ_run Cert.ReferenceIdeal.defs _ _).mono (fun r h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
